-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x64 : Shape := ⟨2, ![300000, 64]⟩
abbrev S1000000 : Shape := ⟨1, ![1000000]⟩
abbrev S_ : Shape := ⟨0, ![]⟩

class Facts : Prop where
  bcast_S_S300000x64 : S_.BroadcastsInDim S300000x64 (![] : Fin 0 → Fin S300000x64.rank)
  reducesTo_S300000x64_S_d0_1 : S300000x64.ReducesTo [0, 1] S_
  h_S_ : 0 < S_.numel

variable [Facts]

def fn {F : FTy → Type} [FloatOps F] (main_arg0 : FVec F S300000x64 .f32) (main_arg1 : IVec S1000000 32) (main_arg2 : IVec S1000000 32) : IVec S_ 1 :=
  let main_v0 : FVec F S300000x64 .f32 := Host.absf main_arg0
  let main_cst : FVec F S_ .f32 := constant S_ .f32 0x7F800000#32
  let main_v1 : FVec F S300000x64 .f32 := broadcastInDim S300000x64 ![] bcast_S_S300000x64 main_cst
  let main_v2 : IVec S300000x64 1 := cmpf .olt main_v0 main_v1
  let main_c : IVec S_ 1 := constantI S_ 1 1#1
  let main_v3 : IVec S_ 1 := (fun x v => Host.reduce IntOp.andi x v reducesTo_S300000x64_S_d0_1 h_S_) main_v2 main_c
  main_v3
-- ==== Kernel.lean ====
abbrev S300000x64 : Shape := ⟨2, ![300000, 64]⟩
abbrev S1000000 : Shape := ⟨1, ![1000000]⟩
abbrev S_ : Shape := ⟨0, ![]⟩
abbrev S300000 : Shape := ⟨1, ![300000]⟩
abbrev S2300000 : Shape := ⟨1, ![2300000]⟩
abbrev S2300000x1 : Shape := ⟨2, ![2300000, 1]⟩
abbrev S10144 : Shape := ⟨1, ![10144]⟩
abbrev S2310144 : Shape := ⟨1, ![2310144]⟩
abbrev S2310144x1 : Shape := ⟨2, ![2310144, 1]⟩
abbrev S2310144x64 : Shape := ⟨2, ![2310144, 64]⟩
abbrev S16384x64 : Shape := ⟨2, ![16384, 64]⟩
abbrev S16384x1 : Shape := ⟨2, ![16384, 1]⟩
abbrev S2000x64 : Shape := ⟨2, ![2000, 64]⟩

abbrev nBuf : Space → Nat
  | .hbm => 108
  | .vmem => 48
  | .smem => 0
  | _ => 0

abbrev bufTy : (tb : Table) → Fin (tcTables nBuf tb) → BufTy
  | .hbm, ⟨0, _⟩ => ⟨S300000x64, .f32⟩
  | .hbm, ⟨1, _⟩ => ⟨S1000000, .i32⟩
  | .hbm, ⟨2, _⟩ => ⟨S1000000, .i32⟩
  | .hbm, ⟨3, _⟩ => ⟨S_, .i32⟩
  | .hbm, ⟨4, _⟩ => ⟨S1000000, .i32⟩
  | .hbm, ⟨5, _⟩ => ⟨S1000000, .i32⟩
  | .hbm, ⟨6, _⟩ => ⟨S300000, .i32⟩
  | .hbm, ⟨7, _⟩ => ⟨S2300000, .i32⟩
  | .hbm, ⟨8, _⟩ => ⟨S2300000, .i32⟩
  | .hbm, ⟨9, _⟩ => ⟨S_, .f32⟩
  | .hbm, ⟨10, _⟩ => ⟨S2300000, .f32⟩
  | .hbm, ⟨11, _⟩ => ⟨S_, .f32⟩
  | .hbm, ⟨12, _⟩ => ⟨S300000, .f32⟩
  | .hbm, ⟨13, _⟩ => ⟨S2300000x1, .i32⟩
  | .hbm, ⟨14, _⟩ => ⟨S300000, .f32⟩
  | .hbm, ⟨15, _⟩ => ⟨S_, .f32⟩
  | .hbm, ⟨16, _⟩ => ⟨S300000, .f32⟩
  | .hbm, ⟨17, _⟩ => ⟨S300000, .f32⟩
  | .hbm, ⟨18, _⟩ => ⟨S_, .i32⟩
  | .hbm, ⟨19, _⟩ => ⟨S2300000, .i32⟩
  | .hbm, ⟨20, _⟩ => ⟨S2300000, .i1⟩
  | .hbm, ⟨21, _⟩ => ⟨S_, .i32⟩
  | .hbm, ⟨22, _⟩ => ⟨S2300000, .i32⟩
  | .hbm, ⟨23, _⟩ => ⟨S2300000, .i32⟩
  | .hbm, ⟨24, _⟩ => ⟨S2300000, .i32⟩
  | .hbm, ⟨25, _⟩ => ⟨S2300000x1, .i32⟩
  | .hbm, ⟨26, _⟩ => ⟨S2300000, .f32⟩
  | .hbm, ⟨27, _⟩ => ⟨S_, .i32⟩
  | .hbm, ⟨28, _⟩ => ⟨S2300000, .i32⟩
  | .hbm, ⟨29, _⟩ => ⟨S2300000, .i1⟩
  | .hbm, ⟨30, _⟩ => ⟨S_, .i32⟩
  | .hbm, ⟨31, _⟩ => ⟨S2300000, .i32⟩
  | .hbm, ⟨32, _⟩ => ⟨S2300000, .i32⟩
  | .hbm, ⟨33, _⟩ => ⟨S2300000, .i32⟩
  | .hbm, ⟨34, _⟩ => ⟨S2300000x1, .i32⟩
  | .hbm, ⟨35, _⟩ => ⟨S2300000, .f32⟩
  | .hbm, ⟨36, _⟩ => ⟨S2300000, .f32⟩
  | .hbm, ⟨37, _⟩ => ⟨S_, .i32⟩
  | .hbm, ⟨38, _⟩ => ⟨S10144, .i32⟩
  | .hbm, ⟨39, _⟩ => ⟨S_, .f32⟩
  | .hbm, ⟨40, _⟩ => ⟨S10144, .f32⟩
  | .hbm, ⟨41, _⟩ => ⟨S2310144, .i32⟩
  | .hbm, ⟨42, _⟩ => ⟨S2310144, .i32⟩
  | .hbm, ⟨43, _⟩ => ⟨S2310144, .f32⟩
  | .hbm, ⟨44, _⟩ => ⟨S2310144x1, .f32⟩
  | .hbm, ⟨45, _⟩ => ⟨S_, .i32⟩
  | .hbm, ⟨46, _⟩ => ⟨S2310144, .i32⟩
  | .hbm, ⟨47, _⟩ => ⟨S2310144, .i1⟩
  | .hbm, ⟨48, _⟩ => ⟨S_, .i32⟩
  | .hbm, ⟨49, _⟩ => ⟨S2310144, .i32⟩
  | .hbm, ⟨50, _⟩ => ⟨S2310144, .i32⟩
  | .hbm, ⟨51, _⟩ => ⟨S2310144, .i32⟩
  | .hbm, ⟨52, _⟩ => ⟨S2310144x1, .i32⟩
  | .hbm, ⟨53, _⟩ => ⟨S2310144x64, .f32⟩
  | .hbm, ⟨54, _⟩ => ⟨S2310144x64, .f32⟩
  | .hbm, ⟨55, _⟩ => ⟨S_, .f32⟩
  | .hbm, ⟨56, _⟩ => ⟨S300000x64, .f32⟩
  | .hbm, ⟨57, _⟩ => ⟨S2310144x1, .i32⟩
  | .hbm, ⟨58, _⟩ => ⟨S300000x64, .f32⟩
  | .hbm, ⟨59, _⟩ => ⟨S300000x64, .f32⟩
  | .hbm, ⟨60, _⟩ => ⟨S_, .i32⟩
  | .hbm, ⟨61, _⟩ => ⟨S2310144, .i32⟩
  | .hbm, ⟨62, _⟩ => ⟨S2310144, .i1⟩
  | .hbm, ⟨63, _⟩ => ⟨S_, .i32⟩
  | .hbm, ⟨64, _⟩ => ⟨S2310144, .i32⟩
  | .hbm, ⟨65, _⟩ => ⟨S2310144, .i32⟩
  | .hbm, ⟨66, _⟩ => ⟨S2310144, .i32⟩
  | .hbm, ⟨67, _⟩ => ⟨S2310144x1, .i32⟩
  | .hbm, ⟨68, _⟩ => ⟨S2310144x64, .f32⟩
  | .hbm, ⟨69, _⟩ => ⟨S2310144x64, .f32⟩
  | .hbm, ⟨70, _⟩ => ⟨S_, .f32⟩
  | .hbm, ⟨71, _⟩ => ⟨S300000x64, .f32⟩
  | .hbm, ⟨72, _⟩ => ⟨S2310144x1, .i32⟩
  | .hbm, ⟨73, _⟩ => ⟨S300000x64, .f32⟩
  | .hbm, ⟨74, _⟩ => ⟨S300000x64, .f32⟩
  | .hbm, ⟨75, _⟩ => ⟨S_, .i32⟩
  | .hbm, ⟨76, _⟩ => ⟨S2310144, .i32⟩
  | .hbm, ⟨77, _⟩ => ⟨S2310144, .i1⟩
  | .hbm, ⟨78, _⟩ => ⟨S_, .i32⟩
  | .hbm, ⟨79, _⟩ => ⟨S2310144, .i32⟩
  | .hbm, ⟨80, _⟩ => ⟨S2310144, .i32⟩
  | .hbm, ⟨81, _⟩ => ⟨S2310144, .i32⟩
  | .hbm, ⟨82, _⟩ => ⟨S2310144x1, .i32⟩
  | .hbm, ⟨83, _⟩ => ⟨S2310144x64, .f32⟩
  | .hbm, ⟨84, _⟩ => ⟨S2310144x64, .f32⟩
  | .hbm, ⟨85, _⟩ => ⟨S_, .f32⟩
  | .hbm, ⟨86, _⟩ => ⟨S300000x64, .f32⟩
  | .hbm, ⟨87, _⟩ => ⟨S2310144x1, .i32⟩
  | .hbm, ⟨88, _⟩ => ⟨S300000x64, .f32⟩
  | .hbm, ⟨89, _⟩ => ⟨S300000x64, .f32⟩
  | .hbm, ⟨90, _⟩ => ⟨S_, .i32⟩
  | .hbm, ⟨91, _⟩ => ⟨S2310144, .i32⟩
  | .hbm, ⟨92, _⟩ => ⟨S2310144, .i1⟩
  | .hbm, ⟨93, _⟩ => ⟨S_, .i32⟩
  | .hbm, ⟨94, _⟩ => ⟨S2310144, .i32⟩
  | .hbm, ⟨95, _⟩ => ⟨S2310144, .i32⟩
  | .hbm, ⟨96, _⟩ => ⟨S2310144, .i32⟩
  | .hbm, ⟨97, _⟩ => ⟨S2310144x1, .i32⟩
  | .hbm, ⟨98, _⟩ => ⟨S2310144x64, .f32⟩
  | .hbm, ⟨99, _⟩ => ⟨S2310144x64, .f32⟩
  | .hbm, ⟨100, _⟩ => ⟨S_, .f32⟩
  | .hbm, ⟨101, _⟩ => ⟨S300000x64, .f32⟩
  | .hbm, ⟨102, _⟩ => ⟨S2310144x1, .i32⟩
  | .hbm, ⟨103, _⟩ => ⟨S300000x64, .f32⟩
  | .hbm, ⟨104, _⟩ => ⟨S300000x64, .f32⟩
  | .hbm, ⟨105, _⟩ => ⟨S_, .f32⟩
  | .hbm, ⟨106, _⟩ => ⟨S300000x64, .f32⟩
  | .hbm, ⟨107, _⟩ => ⟨S300000x64, .f32⟩
  | .local _ .vmem, ⟨0, _⟩ => ⟨S16384x64, .f32⟩
  | .local _ .vmem, ⟨1, _⟩ => ⟨S16384x64, .f32⟩
  | .local _ .vmem, ⟨2, _⟩ => ⟨S16384x1, .f32⟩
  | .local _ .vmem, ⟨3, _⟩ => ⟨S16384x1, .f32⟩
  | .local _ .vmem, ⟨4, _⟩ => ⟨S16384x64, .f32⟩
  | .local _ .vmem, ⟨5, _⟩ => ⟨S16384x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S16384x64, .f32⟩
  | .local _ .vmem, ⟨13, _⟩ => ⟨S16384x64, .f32⟩
  | .local _ .vmem, ⟨14, _⟩ => ⟨S16384x1, .f32⟩
  | .local _ .vmem, ⟨15, _⟩ => ⟨S16384x1, .f32⟩
  | .local _ .vmem, ⟨16, _⟩ => ⟨S16384x64, .f32⟩
  | .local _ .vmem, ⟨17, _⟩ => ⟨S16384x64, .f32⟩
  | .local _ .vmem, ⟨18, _⟩ => ⟨S2000x64, .f32⟩
  | .local _ .vmem, ⟨19, _⟩ => ⟨S2000x64, .f32⟩
  | .local _ .vmem, ⟨20, _⟩ => ⟨S2000x64, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S16384x64, .f32⟩
  | .local _ .vmem, ⟨25, _⟩ => ⟨S16384x64, .f32⟩
  | .local _ .vmem, ⟨26, _⟩ => ⟨S16384x1, .f32⟩
  | .local _ .vmem, ⟨27, _⟩ => ⟨S16384x1, .f32⟩
  | .local _ .vmem, ⟨28, _⟩ => ⟨S16384x64, .f32⟩
  | .local _ .vmem, ⟨29, _⟩ => ⟨S16384x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S16384x64, .f32⟩
  | .local _ .vmem, ⟨37, _⟩ => ⟨S16384x64, .f32⟩
  | .local _ .vmem, ⟨38, _⟩ => ⟨S16384x1, .f32⟩
  | .local _ .vmem, ⟨39, _⟩ => ⟨S16384x1, .f32⟩
  | .local _ .vmem, ⟨40, _⟩ => ⟨S16384x64, .f32⟩
  | .local _ .vmem, ⟨41, _⟩ => ⟨S16384x64, .f32⟩
  | .local _ .vmem, ⟨42, _⟩ => ⟨S2000x64, .f32⟩
  | .local _ .vmem, ⟨43, _⟩ => ⟨S2000x64, .f32⟩
  | .local _ .vmem, ⟨44, _⟩ => ⟨S2000x64, .f32⟩
  | .local _ .vmem, ⟨45, _⟩ => ⟨S2000x64, .f32⟩
  | .local _ .vmem, ⟨46, _⟩ => ⟨S2000x64, .f32⟩
  | .local _ .vmem, ⟨47, _⟩ => ⟨S2000x64, .f32⟩
  | _, _ => ⟨S300000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_13 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_14 : Ref sig .tc := ⟨.hbm, 75, rfl⟩
abbrev main_v56 : Ref sig .tc := ⟨.hbm, 76, rfl⟩
abbrev main_v57 : Ref sig .tc := ⟨.hbm, 77, rfl⟩
abbrev main_c_15 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_17 : Ref sig .tc := ⟨.hbm, 90, rfl⟩
abbrev main_v68 : Ref sig .tc := ⟨.hbm, 91, rfl⟩
abbrev main_v69 : Ref sig .tc := ⟨.hbm, 92, rfl⟩
abbrev main_c_18 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_19 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_20 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg1_1 : Ref sig .tc := ⟨.vmem, 45, rfl⟩
abbrev cc7_stg2_0 : Ref sig .tc := ⟨.vmem, 46, rfl⟩
abbrev cc7_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem1_1 : DmaSem sig := 45
abbrev cc7_sem2_0 : DmaSem sig := 46
abbrev cc7_sem2_1 : DmaSem sig := 47

abbrev nD : Nat := 1
abbrev τ : Topo := Topo.v7x

variable {F : FTy → Type} [FloatOps F]

abbrev grid0 : Pipeline.Grid := ⟨1, ![141], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![150], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![141], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16384x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16384x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![150], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![141], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16384x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16384x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S16384x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![150], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![141], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16384x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S16384x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S16384x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![150], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x64 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  bcast_S_S1000000 : S_.BroadcastsInDim S1000000 (![] : Fin 0 → Fin S1000000.rank)
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  bcast_S_S10144 : S_.BroadcastsInDim S10144 (![] : Fin 0 → Fin S10144.rank)
  concatenates_S2300000_S10144_S2310144_d0 : Shape.Concatenates [S2300000, S10144] S2310144 0
  shapeCasts_S2310144_S2310144x1 : S2310144.ShapeCasts S2310144x1
  bcast_S_S2310144 : S_.BroadcastsInDim S2310144 (![] : Fin 0 → Fin S2310144.rank)
  bcast_S2310144_S2310144x1_0 : S2310144.BroadcastsInDim S2310144x1 (![0] : Fin 1 → Fin S2310144x1.rank)
  inb_S16384x64_S16384x64_0_0 : ∀ a, (![0, 0] : Fin 2 → Nat) a + S16384x64.size a ≤ S16384x64.size a
  h_S16384x64 : 0 < S16384x64.numel
  shapeCasts_S16384x64_S16384x64 : S16384x64.ShapeCasts S16384x64
  inb_S16384x1_S16384x1_0_0 : ∀ a, (![0, 0] : Fin 2 → Nat) a + S16384x1.size a ≤ S16384x1.size a
  h_S16384x1 : 0 < S16384x1.numel
  shapeCasts_S16384x1_S16384x1 : S16384x1.ShapeCasts S16384x1
  broadcasts_S16384x1_S16384x64 : S16384x1.Broadcasts S16384x64
  bcast_S_S300000x64 : S_.BroadcastsInDim S300000x64 (![] : Fin 0 → Fin S300000x64.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S300000x64_S2310144x1_S2310144x64_1_0_n_n_0_1_164_wf : GatherDims.WF S300000x64 S2310144x1 S2310144x64 [1] [0] [] [0] [] 1 ![1, 64]
  scatter_S300000x64_S2310144x1_S2310144x64_1_0_0_1_wf : ScatterDims.WF S300000x64 S2310144x1 S2310144x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S2310144x64.size a
  hwx0_0 : ∀ i : grid0.Coords, EltTy.bits .f32 = 32 ∨ (Rect.block (s := S2310144x64) S16384x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384x1.size a ≤ S2310144x1.size a
  hwx0_1 : ∀ i : grid0.Coords, EltTy.bits .f32 = 32 ∨ (Rect.block (s := S2310144x1) S16384x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x64.size a ≤ S2310144x64.size a
  hwx0_2 : ∀ i : grid0.Coords, EltTy.bits .f32 = 32 ∨ (Rect.block (s := S2310144x64) S16384x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S300000x64.size a
  hwx1_0 : ∀ i : grid1.Coords, EltTy.bits .f32 = 32 ∨ (Rect.block (s := S300000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S300000x64.size a
  hwx1_1 : ∀ i : grid1.Coords, EltTy.bits .f32 = 32 ∨ (Rect.block (s := S300000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S300000x64.size a
  hwx1_2 : ∀ i : grid1.Coords, EltTy.bits .f32 = 32 ∨ (Rect.block (s := S300000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x64.size a ≤ S2310144x64.size a
  hwx2_0 : ∀ i : grid2.Coords, EltTy.bits .f32 = 32 ∨ (Rect.block (s := S2310144x64) S16384x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16384x1.size a ≤ S2310144x1.size a
  hwx2_1 : ∀ i : grid2.Coords, EltTy.bits .f32 = 32 ∨ (Rect.block (s := S2310144x1) S16384x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16384x64.size a ≤ S2310144x64.size a
  hwx2_2 : ∀ i : grid2.Coords, EltTy.bits .f32 = 32 ∨ (Rect.block (s := S2310144x64) S16384x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S300000x64.size a
  hwx3_0 : ∀ i : grid3.Coords, EltTy.bits .f32 = 32 ∨ (Rect.block (s := S300000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S300000x64.size a
  hwx3_1 : ∀ i : grid3.Coords, EltTy.bits .f32 = 32 ∨ (Rect.block (s := S300000x64) S2000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S300000x64.size a
  hwx3_2 : ∀ i : grid3.Coords, EltTy.bits .f32 = 32 ∨ (Rect.block (s := S300000x64) S2000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S16384x64.size a ≤ S2310144x64.size a
  hwx4_0 : ∀ i : grid4.Coords, EltTy.bits .f32 = 32 ∨ (Rect.block (s := S2310144x64) S16384x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S16384x1.size a ≤ S2310144x1.size a
  hwx4_1 : ∀ i : grid4.Coords, EltTy.bits .f32 = 32 ∨ (Rect.block (s := S2310144x1) S16384x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S16384x64.size a ≤ S2310144x64.size a
  hwx4_2 : ∀ i : grid4.Coords, EltTy.bits .f32 = 32 ∨ (Rect.block (s := S2310144x64) S16384x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S300000x64.size a
  hwx5_0 : ∀ i : grid5.Coords, EltTy.bits .f32 = 32 ∨ (Rect.block (s := S300000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S300000x64.size a
  hwx5_1 : ∀ i : grid5.Coords, EltTy.bits .f32 = 32 ∨ (Rect.block (s := S300000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S300000x64.size a
  hwx5_2 : ∀ i : grid5.Coords, EltTy.bits .f32 = 32 ∨ (Rect.block (s := S300000x64) S2000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16384x64.size a ≤ S2310144x64.size a
  hwx6_0 : ∀ i : grid6.Coords, EltTy.bits .f32 = 32 ∨ (Rect.block (s := S2310144x64) S16384x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S16384x1.size a ≤ S2310144x1.size a
  hwx6_1 : ∀ i : grid6.Coords, EltTy.bits .f32 = 32 ∨ (Rect.block (s := S2310144x1) S16384x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S16384x64.size a ≤ S2310144x64.size a
  hwx6_2 : ∀ i : grid6.Coords, EltTy.bits .f32 = 32 ∨ (Rect.block (s := S2310144x64) S16384x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S300000x64.size a
  hwx7_0 : ∀ i : grid7.Coords, EltTy.bits .f32 = 32 ∨ (Rect.block (s := S300000x64) S2000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x64.size a ≤ S300000x64.size a
  hwx7_1 : ∀ i : grid7.Coords, EltTy.bits .f32 = 32 ∨ (Rect.block (s := S300000x64) S2000x64.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x64.size a ≤ S300000x64.size a
  hwx7_2 : ∀ i : grid7.Coords, EltTy.bits .f32 = 32 ∨ (Rect.block (s := S300000x64) S2000x64.size (cc7_transform_2 i) (hinb7_2 i)).WholeWords (EltTy.packing .f32)

variable [Facts₀]

def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S300000x64_S2310144x1_S2310144x64_1_0_n_n_0_1_164 : GatherDims S300000x64 S2310144x1 S2310144x64 where
  offsetDims := [1]
  collapsedSliceDims := [0]
  operandBatchingDims := []
  startIndicesBatchingDims := []
  startIndexMap := [0]
  indexVectorDim := 1
  sliceSizes := ![1, 64]
  wf := gather_S300000x64_S2310144x1_S2310144x64_1_0_n_n_0_1_164_wf
def scatter_S300000x64_S2310144x1_S2310144x64_1_0_0_1 : ScatterDims S300000x64 S2310144x1 S2310144x64 where
  updateWindowDims := [1]
  insertedWindowDims := [0]
  scatterDimsToOperandDims := [0]
  indexVectorDim := 1
  wf := scatter_S300000x64_S2310144x1_S2310144x64_1_0_0_1_wf

abbrev win0_0 : Pipeline.Window sig grid0 :=
  Pipeline.Window.ofSpec (Memref.whole main_v38) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S16384x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S16384x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v43) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S16384x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S16384x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v51) S16384x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v54) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v55) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S16384x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S16384x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v63) S16384x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v66) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v67) S2000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v74) S16384x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v31) S16384x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v75) S16384x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v78) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg0) S2000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v79) S2000x64.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S300000x64 : Shape := ⟨2, ![300000, 64]⟩
abbrev S1000000 : Shape := ⟨1, ![1000000]⟩
abbrev S_ : Shape := ⟨0, ![]⟩
abbrev S300000 : Shape := ⟨1, ![300000]⟩
abbrev S2300000 : Shape := ⟨1, ![2300000]⟩
abbrev S2300000x1 : Shape := ⟨2, ![2300000, 1]⟩
abbrev S2300000x64 : Shape := ⟨2, ![2300000, 64]⟩

abbrev nBuf : Space → Nat
  | .hbm => 132
  | .vmem => 0
  | .smem => 0
  | _ => 0

abbrev hbmTy0_0 (i : Nat) : BufTy := match i % 128 with
  | 0 => ⟨S300000x64, .f32⟩
  | 1 => ⟨S1000000, .i32⟩
  | 2 => ⟨S1000000, .i32⟩
  | 3 => ⟨S_, .i32⟩
  | 4 => ⟨S1000000, .i32⟩
  | 5 => ⟨S1000000, .i32⟩
  | 6 => ⟨S300000, .i32⟩
  | 7 => ⟨S2300000, .i32⟩
  | 8 => ⟨S2300000, .i32⟩
  | 9 => ⟨S_, .f32⟩
  | 10 => ⟨S2300000, .f32⟩
  | 11 => ⟨S_, .f32⟩
  | 12 => ⟨S300000, .f32⟩
  | 13 => ⟨S2300000x1, .i32⟩
  | 14 => ⟨S300000, .f32⟩
  | 15 => ⟨S_, .f32⟩
  | 16 => ⟨S300000, .f32⟩
  | 17 => ⟨S300000, .f32⟩
  | 18 => ⟨S_, .i32⟩
  | 19 => ⟨S2300000, .i32⟩
  | 20 => ⟨S2300000, .i1⟩
  | 21 => ⟨S_, .i32⟩
  | 22 => ⟨S2300000, .i32⟩
  | 23 => ⟨S2300000, .i32⟩
  | 24 => ⟨S2300000, .i32⟩
  | 25 => ⟨S2300000x1, .i32⟩
  | 26 => ⟨S2300000, .f32⟩
  | 27 => ⟨S_, .i32⟩
  | 28 => ⟨S2300000, .i32⟩
  | 29 => ⟨S2300000, .i1⟩
  | 30 => ⟨S_, .i32⟩
  | 31 => ⟨S2300000, .i32⟩
  | 32 => ⟨S2300000, .i32⟩
  | 33 => ⟨S2300000, .i32⟩
  | 34 => ⟨S2300000x1, .i32⟩
  | 35 => ⟨S2300000, .f32⟩
  | 36 => ⟨S2300000, .f32⟩
  | 37 => ⟨S_, .i32⟩
  | 38 => ⟨S2300000, .i32⟩
  | 39 => ⟨S2300000, .i1⟩
  | 40 => ⟨S_, .i32⟩
  | 41 => ⟨S2300000, .i32⟩
  | 42 => ⟨S2300000, .i32⟩
  | 43 => ⟨S2300000, .i32⟩
  | 44 => ⟨S2300000x1, .i32⟩
  | 45 => ⟨S2300000x64, .f32⟩
  | 46 => ⟨S2300000x1, .f32⟩
  | 47 => ⟨S2300000x64, .f32⟩
  | 48 => ⟨S2300000x64, .f32⟩
  | 49 => ⟨S_, .f32⟩
  | 50 => ⟨S300000x64, .f32⟩
  | 51 => ⟨S2300000x1, .i32⟩
  | 52 => ⟨S300000x64, .f32⟩
  | 53 => ⟨S_, .f32⟩
  | 54 => ⟨S300000x64, .f32⟩
  | 55 => ⟨S300000x64, .f32⟩
  | 56 => ⟨S_, .f32⟩
  | 57 => ⟨S300000x64, .f32⟩
  | 58 => ⟨S300000x64, .f32⟩
  | 59 => ⟨S300000x64, .f32⟩
  | 60 => ⟨S_, .i32⟩
  | 61 => ⟨S2300000, .i32⟩
  | 62 => ⟨S2300000, .i1⟩
  | 63 => ⟨S_, .i32⟩
  | 64 => ⟨S2300000, .i32⟩
  | 65 => ⟨S2300000, .i32⟩
  | 66 => ⟨S2300000, .i32⟩
  | 67 => ⟨S2300000x1, .i32⟩
  | 68 => ⟨S2300000x64, .f32⟩
  | 69 => ⟨S2300000x1, .f32⟩
  | 70 => ⟨S2300000x64, .f32⟩
  | 71 => ⟨S2300000x64, .f32⟩
  | 72 => ⟨S_, .f32⟩
  | 73 => ⟨S300000x64, .f32⟩
  | 74 => ⟨S2300000x1, .i32⟩
  | 75 => ⟨S300000x64, .f32⟩
  | 76 => ⟨S_, .f32⟩
  | 77 => ⟨S300000x64, .f32⟩
  | 78 => ⟨S300000x64, .f32⟩
  | 79 => ⟨S_, .f32⟩
  | 80 => ⟨S300000x64, .f32⟩
  | 81 => ⟨S300000x64, .f32⟩
  | 82 => ⟨S300000x64, .f32⟩
  | 83 => ⟨S_, .i32⟩
  | 84 => ⟨S2300000, .i32⟩
  | 85 => ⟨S2300000, .i1⟩
  | 86 => ⟨S_, .i32⟩
  | 87 => ⟨S2300000, .i32⟩
  | 88 => ⟨S2300000, .i32⟩
  | 89 => ⟨S2300000, .i32⟩
  | 90 => ⟨S2300000x1, .i32⟩
  | 91 => ⟨S2300000x64, .f32⟩
  | 92 => ⟨S2300000x1, .f32⟩
  | 93 => ⟨S2300000x64, .f32⟩
  | 94 => ⟨S2300000x64, .f32⟩
  | 95 => ⟨S_, .f32⟩
  | 96 => ⟨S300000x64, .f32⟩
  | 97 => ⟨S2300000x1, .i32⟩
  | 98 => ⟨S300000x64, .f32⟩
  | 99 => ⟨S_, .f32⟩
  | 100 => ⟨S300000x64, .f32⟩
  | 101 => ⟨S300000x64, .f32⟩
  | 102 => ⟨S_, .f32⟩
  | 103 => ⟨S300000x64, .f32⟩
  | 104 => ⟨S300000x64, .f32⟩
  | 105 => ⟨S300000x64, .f32⟩
  | 106 => ⟨S_, .i32⟩
  | 107 => ⟨S2300000, .i32⟩
  | 108 => ⟨S2300000, .i1⟩
  | 109 => ⟨S_, .i32⟩
  | 110 => ⟨S2300000, .i32⟩
  | 111 => ⟨S2300000, .i32⟩
  | 112 => ⟨S2300000, .i32⟩
  | 113 => ⟨S2300000x1, .i32⟩
  | 114 => ⟨S2300000x64, .f32⟩
  | 115 => ⟨S2300000x1, .f32⟩
  | 116 => ⟨S2300000x64, .f32⟩
  | 117 => ⟨S2300000x64, .f32⟩
  | 118 => ⟨S_, .f32⟩
  | 119 => ⟨S300000x64, .f32⟩
  | 120 => ⟨S2300000x1, .i32⟩
  | 121 => ⟨S300000x64, .f32⟩
  | 122 => ⟨S_, .f32⟩
  | 123 => ⟨S300000x64, .f32⟩
  | 124 => ⟨S300000x64, .f32⟩
  | 125 => ⟨S_, .f32⟩
  | 126 => ⟨S300000x64, .f32⟩
  | 127 => ⟨S300000x64, .f32⟩
  | _ => ⟨S300000x64, .f32⟩

abbrev hbmTy0_1 (i : Nat) : BufTy := match i % 128 with
  | 0 => ⟨S300000x64, .f32⟩
  | 1 => ⟨S_, .f32⟩
  | 2 => ⟨S300000x64, .f32⟩
  | 3 => ⟨S300000x64, .f32⟩
  | _ => ⟨S300000x64, .f32⟩

abbrev hbmTy (i : Nat) : BufTy := match i / 128 with
  | 0 => hbmTy0_0 i
  | 1 => hbmTy0_1 i
  | _ => ⟨S300000x64, .f32⟩

abbrev bufTy : (tb : Table) → Fin (tcTables nBuf tb) → BufTy
  | .hbm, ⟨i, _⟩ => hbmTy i
  | _, _ => ⟨S300000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_c_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_c_7 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_11 : Ref sig .tc := ⟨.hbm, 60, rfl⟩
abbrev main_v44 : Ref sig .tc := ⟨.hbm, 61, rfl⟩
abbrev main_v45 : Ref sig .tc := ⟨.hbm, 62, rfl⟩
abbrev main_c_12 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_13 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_14 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_16 : Ref sig .tc := ⟨.hbm, 83, rfl⟩
abbrev main_v62 : Ref sig .tc := ⟨.hbm, 84, rfl⟩
abbrev main_v63 : Ref sig .tc := ⟨.hbm, 85, rfl⟩
abbrev main_c_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_18 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_19 : Ref sig .tc := ⟨.hbm, 99, rfl⟩
abbrev main_v75 : Ref sig .tc := ⟨.hbm, 100, rfl⟩
abbrev main_v76 : Ref sig .tc := ⟨.hbm, 101, rfl⟩
abbrev main_cst_20 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_c_21 : Ref sig .tc := ⟨.hbm, 106, rfl⟩
abbrev main_v80 : Ref sig .tc := ⟨.hbm, 107, rfl⟩
abbrev main_v81 : Ref sig .tc := ⟨.hbm, 108, rfl⟩
abbrev main_c_22 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_23 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_cst_24 : Ref sig .tc := ⟨.hbm, 122, rfl⟩
abbrev main_v93 : Ref sig .tc := ⟨.hbm, 123, rfl⟩
abbrev main_v94 : Ref sig .tc := ⟨.hbm, 124, rfl⟩
abbrev main_cst_25 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_cst_26 : Ref sig .tc := ⟨.hbm, 129, rfl⟩
abbrev main_v98 : Ref sig .tc := ⟨.hbm, 130, rfl⟩
abbrev main_v99 : Ref sig .tc := ⟨.hbm, 131, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  concatenates_S1000000_S1000000_S300000_S2300000_d0 : Shape.Concatenates [S1000000, S1000000, S300000] S2300000 0
  bcast_S_S2300000 : S_.BroadcastsInDim S2300000 (![] : Fin 0 → Fin S2300000.rank)
  bcast_S_S300000 : S_.BroadcastsInDim S300000 (![] : Fin 0 → Fin S300000.rank)
  bcast_S2300000_S2300000x1_0 : S2300000.BroadcastsInDim S2300000x1 (![0] : Fin 1 → Fin S2300000x1.rank)
  bcast_S2300000x1_S2300000x64_0_1 : S2300000x1.BroadcastsInDim S2300000x64 (![0, 1] : Fin 2 → Fin S2300000x64.rank)
  bcast_S_S300000x64 : S_.BroadcastsInDim S300000x64 (![] : Fin 0 → Fin S300000x64.rank)
  scatter_S300000_S2300000x1_S2300000_n_0_0_1_wf : ScatterDims.WF S300000 S2300000x1 S2300000 [] [0] [0] 1
  gather_S300000_S2300000x1_S2300000_n_0_n_n_0_1_1_wf : GatherDims.WF S300000 S2300000x1 S2300000 [] [0] [] [0] [] 1 ![1]
  gather_S300000x64_S2300000x1_S2300000x64_1_0_n_n_0_1_164_wf : GatherDims.WF S300000x64 S2300000x1 S2300000x64 [1] [0] [] [0] [] 1 ![1, 64]
  scatter_S300000x64_S2300000x1_S2300000x64_1_0_0_1_wf : ScatterDims.WF S300000x64 S2300000x1 S2300000x64 [1] [0] [0] 1

variable [Facts₀]

def scatter_S300000_S2300000x1_S2300000_n_0_0_1 : ScatterDims S300000 S2300000x1 S2300000 where
  updateWindowDims := []
  insertedWindowDims := [0]
  scatterDimsToOperandDims := [0]
  indexVectorDim := 1
  wf := scatter_S300000_S2300000x1_S2300000_n_0_0_1_wf
def gather_S300000_S2300000x1_S2300000_n_0_n_n_0_1_1 : GatherDims S300000 S2300000x1 S2300000 where
  offsetDims := []
  collapsedSliceDims := [0]
  operandBatchingDims := []
  startIndicesBatchingDims := []
  startIndexMap := [0]
  indexVectorDim := 1
  sliceSizes := ![1]
  wf := gather_S300000_S2300000x1_S2300000_n_0_n_n_0_1_1_wf
def gather_S300000x64_S2300000x1_S2300000x64_1_0_n_n_0_1_164 : GatherDims S300000x64 S2300000x1 S2300000x64 where
  offsetDims := [1]
  collapsedSliceDims := [0]
  operandBatchingDims := []
  startIndicesBatchingDims := []
  startIndexMap := [0]
  indexVectorDim := 1
  sliceSizes := ![1, 64]
  wf := gather_S300000x64_S2300000x1_S2300000x64_1_0_n_n_0_1_164_wf
def scatter_S300000x64_S2300000x1_S2300000x64_1_0_0_1 : ScatterDims S300000x64 S2300000x1 S2300000x64 where
  updateWindowDims := [1]
  insertedWindowDims := [0]
  scatterDimsToOperandDims := [0]
  indexVectorDim := 1
  wf := scatter_S300000x64_S2300000x1_S2300000x64_1_0_0_1_wf

class Facts : Prop extends Facts₀ where

variable [Facts]
-- ==== Proof.Bits.Scale0.lean ====
/-
  Edge scaling, diffusion step 1 (launch 0 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The message window's staging buffer holds its block at every point, for any proof data whose array is `V`'s and
    whose body leaves the block in place: the window is fetched at every point and never cut. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the weight column's window. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole message block and the whole weight block, as rectangles. -/
abbrev r0_0 : Rect S16384x64 := Rect.unit (s := S16384x64) ![0, 0] S16384x64.size inb_S16384x64_S16384x64_0_0
abbrev r0_1 : Rect S16384x1 := Rect.unit (s := S16384x1) ![0, 0] S16384x1.size inb_S16384x1_S16384x1_0_0

/-- What the body leaves in the output block, from the two input blocks: its one store, of the whole block, of the
    messages times the weight column spread along the 64 features. -/
def scaled0 (x0 : Vec F S16384x64 .f32) (x1 : Vec F S16384x1 .f32) : Vec F S16384x64 .f32 :=
  View.canon [⟨r0_0, k0_pay1 (View.ld x0 r0_0) (View.ld x1 r0_1)⟩]

/-- That one store covers the block. -/
theorem scaled0_cover (p0 : Vec F S16384x64 .f32) (y : S16384x64.Idx) :
    ∃ pc ∈ ([⟨r0_0, p0⟩] : List (View.Piece (Elt F) S16384x64 .f32)), y ∈ pc.1.set :=
  View.cover_of_tiled [⟨r0_0, p0⟩] S16384x64.size (by rfl) y

set_option maxHeartbeats 1000000 in
/-- The body on whole staging buffers, the inputs' at contents `x0`, `x1` and the output's at anything, runs to the
    continuation holding the inputs' as they were and the output's at `scaled0 x0 x1`. -/
theorem scale_body0 (c : Dev nD) (E : Set ℕ) (i : grid0.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled0 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled0_cover _)

/-- The pipeline's proof data on core `c`: the arrays as the launch finds them; after the body at point `t` each
    input's buffer at its block and the output's at `scaled0` of the two input blocks; nothing owed; full shares. -/
def scaleDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => scaled0 (blk0 V c 0 t) (blk0 V c 1 t)
  Φ _ := Pipeline.ΦA spec0 c
  q _ := fullShare
  owed _ := 0

theorem scaleDat0_A (c : Dev nD) (w : Fin cfg0.W) : (scaleDat0 V c).A w = V c (Pipeline.arrRef spec0 w) := by
  dsimp only [scaleDat0]
theorem scaleDat0_after_0 (c : Dev nD) (t : Fin cfg0.N) : (scaleDat0 V c).after 0 t = blk0 V c 0 t := by dsimp only [scaleDat0]
theorem scaleDat0_after_1 (c : Dev nD) (t : Fin cfg0.N) : (scaleDat0 V c).after 1 t = blk0 V c 1 t := by dsimp only [scaleDat0]
theorem scaleDat0_after_2 (c : Dev nD) (t : Fin cfg0.N) :
    (scaleDat0 V c).after 2 t = scaled0 (blk0 V c 0 t) (blk0 V c 1 t) := by dsimp only [scaleDat0]

theorem scaleDat0_before_0 (c : Dev nD) (t : Fin cfg0.N) (d) : (scaleDat0 V c).before 0 t d = blk0 V c 0 t :=
  held0_0_of V (scaleDat0 V c) (scaleDat0_A V c 0) (scaleDat0_after_0 V c) t d
theorem scaleDat0_before_1 (c : Dev nD) (t : Fin cfg0.N) (d) : (scaleDat0 V c).before 1 t d = blk0 V c 1 t :=
  held0_1_of V (scaleDat0 V c) (scaleDat0_A V c 1) (scaleDat0_after_1 V c) t d

/-- What the body is called with at point `t`, the windows one by one, -/
def scalePre0 (c : Dev nD) (t : Fin cfg0.N) : sProp 𝕄 :=
  iprop((scaleDat0 V c).Φ t.castSucc ∗ (scaleDat0 V c).owesAt () t.castSucc
    ∗ (∃ d, owns (c : Thread nD τ) (st0_0 t) fullShare ((scaleDat0 V c).before 0 t d))
    ∗ (∃ d, owns (c : Thread nD τ) (st0_1 t) fullShare ((scaleDat0 V c).before 1 t d))
    ∗ (∃ d, owns (c : Thread nD τ) (st0_2 t) fullShare ((scaleDat0 V c).before 2 t d)))

/-- and what it returns. -/
def scalePost0 (c : Dev nD) (t : Fin cfg0.N) : sProp 𝕄 :=
  iprop((scaleDat0 V c).Φ t.succ ∗ (scaleDat0 V c).owesAt () t.succ
    ∗ owns (c : Thread nD τ) (st0_0 t) fullShare ((scaleDat0 V c).after 0 t)
    ∗ owns (c : Thread nD τ) (st0_1 t) fullShare ((scaleDat0 V c).after 1 t)
    ∗ owns (c : Thread nD τ) (st0_2 t) fullShare ((scaleDat0 V c).after 2 t))

/-- The body at any point: the inputs' buffers hold their blocks, so `scale_body0` applies; the invariant and the
    core's dues pass through unread. -/
theorem scale_point0 (c : Dev nD) (t : Fin cfg0.N) :
    scalePre0 V c t ⊢ wp frame (wpE (defs₀ (F := F)) Variants.none c none) Set.univ (bodyAt0 t) (fun _ => scalePost0 V c t) := by
  unfold scalePre0 scalePost0 bodyAt0
  simp only [scaleDat0_before_0, scaleDat0_before_1]
  rw [show (scaleDat0 V c).Φ t.succ = (scaleDat0 V c).Φ t.castSucc from rfl,
    show (scaleDat0 V c).owesAt () t.succ = (scaleDat0 V c).owesAt () t.castSucc from rfl,
    scaleDat0_after_0, scaleDat0_after_1, scaleDat0_after_2]
  iintro ⟨HΦ, Ho, ⟨%d0, H0⟩, ⟨%d1, H1⟩, ⟨%d2, H2⟩⟩
  iapply (scale_body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation0 (c : Dev nD) : BodyObligation (scaleDat0 (F := F) V c) (defs₀ (F := F)) Variants.none () Set.univ := fun t => by
  rw [bigSep_W0, bigSep_W0]
  exact scale_point0 V c t

end Cert.Kernel.Diffusion

end
-- ==== Proof.Bits.Combine1.lean ====
/-
  The node update, diffusion step 1 (launch 1 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's window's staging buffer holds its block at every point, for any proof data whose array is `V`'s
    and whose body leaves the block in place: the window is fetched at every point and never cut. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the input features' window. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- A whole block of 2000 rows, as a rectangle. -/
abbrev r1_0 : Rect S2000x64 := Rect.unit (s := S2000x64) ![0, 0] S2000x64.size inb_S2000x64_S2000x64_0_0

/-- What the body leaves in the output block, from the two input blocks: its one store, of the whole block. -/
def combined1 (x0 : Vec F S2000x64 .f32) (x1 : Vec F S2000x64 .f32) : Vec F S2000x64 .f32 :=
  View.canon [⟨r1_0, k1_pay1 (View.ld x0 r1_0) (View.ld x1 r1_0)⟩]

/-- That one store covers the block. -/
theorem combined1_cover (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 1000000 in
/-- The body on whole staging buffers, the inputs' at contents `x0`, `x1` and the output's at anything, runs to the
    continuation holding the inputs' as they were and the output's at `combined1 x0 x1`. -/
theorem combine_body1 (c : Dev nD) (E : Set ℕ) (i : grid1.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined1 x0 x1)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined1_cover _)

/-- The pipeline's proof data on core `c`: the arrays as the launch finds them; after the body at point `t` each
    input's buffer at its block and the output's at `combined1` of the two input blocks; nothing owed; full shares. -/
def combineDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => combined1 (blk1 V c 0 t) (blk1 V c 1 t)
  Φ _ := Pipeline.ΦA spec1 c
  q _ := fullShare
  owed _ := 0

theorem combineDat1_A (c : Dev nD) (w : Fin cfg1.W) : (combineDat1 V c).A w = V c (Pipeline.arrRef spec1 w) := by
  dsimp only [combineDat1]
theorem combineDat1_after_0 (c : Dev nD) (t : Fin cfg1.N) : (combineDat1 V c).after 0 t = blk1 V c 0 t := by dsimp only [combineDat1]
theorem combineDat1_after_1 (c : Dev nD) (t : Fin cfg1.N) : (combineDat1 V c).after 1 t = blk1 V c 1 t := by dsimp only [combineDat1]
theorem combineDat1_after_2 (c : Dev nD) (t : Fin cfg1.N) :
    (combineDat1 V c).after 2 t = combined1 (blk1 V c 0 t) (blk1 V c 1 t) := by dsimp only [combineDat1]

theorem combineDat1_before_0 (c : Dev nD) (t : Fin cfg1.N) (d) : (combineDat1 V c).before 0 t d = blk1 V c 0 t :=
  held1_0_of V (combineDat1 V c) (combineDat1_A V c 0) (combineDat1_after_0 V c) t d
theorem combineDat1_before_1 (c : Dev nD) (t : Fin cfg1.N) (d) : (combineDat1 V c).before 1 t d = blk1 V c 1 t :=
  held1_1_of V (combineDat1 V c) (combineDat1_A V c 1) (combineDat1_after_1 V c) t d

/-- What the body is called with at point `t`, the windows one by one, -/
def combinePre1 (c : Dev nD) (t : Fin cfg1.N) : sProp 𝕄 :=
  iprop((combineDat1 V c).Φ t.castSucc ∗ (combineDat1 V c).owesAt () t.castSucc
    ∗ (∃ d, owns (c : Thread nD τ) (st1_0 t) fullShare ((combineDat1 V c).before 0 t d))
    ∗ (∃ d, owns (c : Thread nD τ) (st1_1 t) fullShare ((combineDat1 V c).before 1 t d))
    ∗ (∃ d, owns (c : Thread nD τ) (st1_2 t) fullShare ((combineDat1 V c).before 2 t d)))

/-- and what it returns. -/
def combinePost1 (c : Dev nD) (t : Fin cfg1.N) : sProp 𝕄 :=
  iprop((combineDat1 V c).Φ t.succ ∗ (combineDat1 V c).owesAt () t.succ
    ∗ owns (c : Thread nD τ) (st1_0 t) fullShare ((combineDat1 V c).after 0 t)
    ∗ owns (c : Thread nD τ) (st1_1 t) fullShare ((combineDat1 V c).after 1 t)
    ∗ owns (c : Thread nD τ) (st1_2 t) fullShare ((combineDat1 V c).after 2 t))

/-- The body at any point: the inputs' buffers hold their blocks, so `combine_body1` applies; the invariant and the
    core's dues pass through unread. -/
theorem combine_point1 (c : Dev nD) (t : Fin cfg1.N) :
    combinePre1 V c t ⊢ wp frame (wpE (defs₀ (F := F)) Variants.none c none) Set.univ (bodyAt1 t) (fun _ => combinePost1 V c t) := by
  unfold combinePre1 combinePost1 bodyAt1
  simp only [combineDat1_before_0, combineDat1_before_1]
  rw [show (combineDat1 V c).Φ t.succ = (combineDat1 V c).Φ t.castSucc from rfl,
    show (combineDat1 V c).owesAt () t.succ = (combineDat1 V c).owesAt () t.castSucc from rfl,
    combineDat1_after_0, combineDat1_after_1, combineDat1_after_2]
  iintro ⟨HΦ, Ho, ⟨%d0, H0⟩, ⟨%d1, H1⟩, ⟨%d2, H2⟩⟩
  iapply (combine_body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation1 (c : Dev nD) : BodyObligation (combineDat1 (F := F) V c) (defs₀ (F := F)) Variants.none () Set.univ := fun t => by
  rw [bigSep_W1, bigSep_W1]
  exact combine_point1 V c t

end Cert.Kernel.Diffusion

end
-- ==== Proof.Bits.Scale2.lean ====
/-
  Edge scaling, diffusion step 2 (launch 2 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The message window's staging buffer holds its block at every point, for any proof data whose array is `V`'s and
    whose body leaves the block in place: the window is fetched at every point and never cut. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The same for the weight column's window. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole message block and the whole weight block, as rectangles. -/
abbrev r2_0 : Rect S16384x64 := Rect.unit (s := S16384x64) ![0, 0] S16384x64.size inb_S16384x64_S16384x64_0_0
abbrev r2_1 : Rect S16384x1 := Rect.unit (s := S16384x1) ![0, 0] S16384x1.size inb_S16384x1_S16384x1_0_0

/-- What the body leaves in the output block, from the two input blocks: its one store, of the whole block, of the
    messages times the weight column spread along the 64 features. -/
def scaled2 (x0 : Vec F S16384x64 .f32) (x1 : Vec F S16384x1 .f32) : Vec F S16384x64 .f32 :=
  View.canon [⟨r2_0, k2_pay1 (View.ld x0 r2_0) (View.ld x1 r2_1)⟩]

/-- That one store covers the block. -/
theorem scaled2_cover (p0 : Vec F S16384x64 .f32) (y : S16384x64.Idx) :
    ∃ pc ∈ ([⟨r2_0, p0⟩] : List (View.Piece (Elt F) S16384x64 .f32)), y ∈ pc.1.set :=
  View.cover_of_tiled [⟨r2_0, p0⟩] S16384x64.size (by rfl) y

set_option maxHeartbeats 1000000 in
/-- The body on whole staging buffers, the inputs' at contents `x0`, `x1` and the output's at anything, runs to the
    continuation holding the inputs' as they were and the output's at `scaled2 x0 x1`. -/
theorem scale_body2 (c : Dev nD) (E : Set ℕ) (i : grid2.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled2_cover _)

/-- The pipeline's proof data on core `c`: the arrays as the launch finds them; after the body at point `t` each
    input's buffer at its block and the output's at `scaled2` of the two input blocks; nothing owed; full shares. -/
def scaleDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => scaled2 (blk2 V c 0 t) (blk2 V c 1 t)
  Φ _ := Pipeline.ΦA spec2 c
  q _ := fullShare
  owed _ := 0

theorem scaleDat2_A (c : Dev nD) (w : Fin cfg2.W) : (scaleDat2 V c).A w = V c (Pipeline.arrRef spec2 w) := by
  dsimp only [scaleDat2]
theorem scaleDat2_after_0 (c : Dev nD) (t : Fin cfg2.N) : (scaleDat2 V c).after 0 t = blk2 V c 0 t := by dsimp only [scaleDat2]
theorem scaleDat2_after_1 (c : Dev nD) (t : Fin cfg2.N) : (scaleDat2 V c).after 1 t = blk2 V c 1 t := by dsimp only [scaleDat2]
theorem scaleDat2_after_2 (c : Dev nD) (t : Fin cfg2.N) :
    (scaleDat2 V c).after 2 t = scaled2 (blk2 V c 0 t) (blk2 V c 1 t) := by dsimp only [scaleDat2]

theorem scaleDat2_before_0 (c : Dev nD) (t : Fin cfg2.N) (d) : (scaleDat2 V c).before 0 t d = blk2 V c 0 t :=
  held2_0_of V (scaleDat2 V c) (scaleDat2_A V c 0) (scaleDat2_after_0 V c) t d
theorem scaleDat2_before_1 (c : Dev nD) (t : Fin cfg2.N) (d) : (scaleDat2 V c).before 1 t d = blk2 V c 1 t :=
  held2_1_of V (scaleDat2 V c) (scaleDat2_A V c 1) (scaleDat2_after_1 V c) t d

/-- What the body is called with at point `t`, the windows one by one, -/
def scalePre2 (c : Dev nD) (t : Fin cfg2.N) : sProp 𝕄 :=
  iprop((scaleDat2 V c).Φ t.castSucc ∗ (scaleDat2 V c).owesAt () t.castSucc
    ∗ (∃ d, owns (c : Thread nD τ) (st2_0 t) fullShare ((scaleDat2 V c).before 0 t d))
    ∗ (∃ d, owns (c : Thread nD τ) (st2_1 t) fullShare ((scaleDat2 V c).before 1 t d))
    ∗ (∃ d, owns (c : Thread nD τ) (st2_2 t) fullShare ((scaleDat2 V c).before 2 t d)))

/-- and what it returns. -/
def scalePost2 (c : Dev nD) (t : Fin cfg2.N) : sProp 𝕄 :=
  iprop((scaleDat2 V c).Φ t.succ ∗ (scaleDat2 V c).owesAt () t.succ
    ∗ owns (c : Thread nD τ) (st2_0 t) fullShare ((scaleDat2 V c).after 0 t)
    ∗ owns (c : Thread nD τ) (st2_1 t) fullShare ((scaleDat2 V c).after 1 t)
    ∗ owns (c : Thread nD τ) (st2_2 t) fullShare ((scaleDat2 V c).after 2 t))

/-- The body at any point: the inputs' buffers hold their blocks, so `scale_body2` applies; the invariant and the
    core's dues pass through unread. -/
theorem scale_point2 (c : Dev nD) (t : Fin cfg2.N) :
    scalePre2 V c t ⊢ wp frame (wpE (defs₀ (F := F)) Variants.none c none) Set.univ (bodyAt2 t) (fun _ => scalePost2 V c t) := by
  unfold scalePre2 scalePost2 bodyAt2
  simp only [scaleDat2_before_0, scaleDat2_before_1]
  rw [show (scaleDat2 V c).Φ t.succ = (scaleDat2 V c).Φ t.castSucc from rfl,
    show (scaleDat2 V c).owesAt () t.succ = (scaleDat2 V c).owesAt () t.castSucc from rfl,
    scaleDat2_after_0, scaleDat2_after_1, scaleDat2_after_2]
  iintro ⟨HΦ, Ho, ⟨%d0, H0⟩, ⟨%d1, H1⟩, ⟨%d2, H2⟩⟩
  iapply (scale_body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation2 (c : Dev nD) : BodyObligation (scaleDat2 (F := F) V c) (defs₀ (F := F)) Variants.none () Set.univ := fun t => by
  rw [bigSep_W2, bigSep_W2]
  exact scale_point2 V c t

end Cert.Kernel.Diffusion

end
-- ==== Proof.Bits.Combine3.lean ====
/-
  The node update, diffusion step 2 (launch 3 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregate's window's staging buffer holds its block at every point, for any proof data whose array is `V`'s
    and whose body leaves the block in place: the window is fetched at every point and never cut. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The same for the input features' window. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- A whole block of 2000 rows, as a rectangle. -/
abbrev r3_0 : Rect S2000x64 := Rect.unit (s := S2000x64) ![0, 0] S2000x64.size inb_S2000x64_S2000x64_0_0

/-- What the body leaves in the output block, from the two input blocks: its one store, of the whole block. -/
def combined3 (x0 : Vec F S2000x64 .f32) (x1 : Vec F S2000x64 .f32) : Vec F S2000x64 .f32 :=
  View.canon [⟨r3_0, k3_pay1 (View.ld x0 r3_0) (View.ld x1 r3_0)⟩]

/-- That one store covers the block. -/
theorem combined3_cover (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body on whole staging buffers, the inputs' at contents `x0`, `x1` and the output's at anything, runs to the
    continuation holding the inputs' as they were and the output's at `combined3 x0 x1`. -/
theorem combine_body3 (c : Dev nD) (E : Set ℕ) (i : grid3.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined3 x0 x1)) -∗ K ⟨⟩))
      ⊢ wp frame (wpE (defs₀ (F := F)) Variants.none c none) E (cc3__combine_kernel i arg1 harg1 arg2 harg2 arg3 harg3) K := by
  simp only [cc3__combine_kernel_eq_skeleton]; unfold cc3__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined3_cover _)

/-- The pipeline's proof data on core `c`: the arrays as the launch finds them; after the body at point `t` each
    input's buffer at its block and the output's at `combined3` of the two input blocks; nothing owed; full shares. -/
def combineDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => combined3 (blk3 V c 0 t) (blk3 V c 1 t)
  Φ _ := Pipeline.ΦA spec3 c
  q _ := fullShare
  owed _ := 0

theorem combineDat3_A (c : Dev nD) (w : Fin cfg3.W) : (combineDat3 V c).A w = V c (Pipeline.arrRef spec3 w) := by
  dsimp only [combineDat3]
theorem combineDat3_after_0 (c : Dev nD) (t : Fin cfg3.N) : (combineDat3 V c).after 0 t = blk3 V c 0 t := by dsimp only [combineDat3]
theorem combineDat3_after_1 (c : Dev nD) (t : Fin cfg3.N) : (combineDat3 V c).after 1 t = blk3 V c 1 t := by dsimp only [combineDat3]
theorem combineDat3_after_2 (c : Dev nD) (t : Fin cfg3.N) :
    (combineDat3 V c).after 2 t = combined3 (blk3 V c 0 t) (blk3 V c 1 t) := by dsimp only [combineDat3]

theorem combineDat3_before_0 (c : Dev nD) (t : Fin cfg3.N) (d) : (combineDat3 V c).before 0 t d = blk3 V c 0 t :=
  held3_0_of V (combineDat3 V c) (combineDat3_A V c 0) (combineDat3_after_0 V c) t d
theorem combineDat3_before_1 (c : Dev nD) (t : Fin cfg3.N) (d) : (combineDat3 V c).before 1 t d = blk3 V c 1 t :=
  held3_1_of V (combineDat3 V c) (combineDat3_A V c 1) (combineDat3_after_1 V c) t d

/-- What the body is called with at point `t`, the windows one by one, -/
def combinePre3 (c : Dev nD) (t : Fin cfg3.N) : sProp 𝕄 :=
  iprop((combineDat3 V c).Φ t.castSucc ∗ (combineDat3 V c).owesAt () t.castSucc
    ∗ (∃ d, owns (c : Thread nD τ) (st3_0 t) fullShare ((combineDat3 V c).before 0 t d))
    ∗ (∃ d, owns (c : Thread nD τ) (st3_1 t) fullShare ((combineDat3 V c).before 1 t d))
    ∗ (∃ d, owns (c : Thread nD τ) (st3_2 t) fullShare ((combineDat3 V c).before 2 t d)))

/-- and what it returns. -/
def combinePost3 (c : Dev nD) (t : Fin cfg3.N) : sProp 𝕄 :=
  iprop((combineDat3 V c).Φ t.succ ∗ (combineDat3 V c).owesAt () t.succ
    ∗ owns (c : Thread nD τ) (st3_0 t) fullShare ((combineDat3 V c).after 0 t)
    ∗ owns (c : Thread nD τ) (st3_1 t) fullShare ((combineDat3 V c).after 1 t)
    ∗ owns (c : Thread nD τ) (st3_2 t) fullShare ((combineDat3 V c).after 2 t))

/-- The body at any point: the inputs' buffers hold their blocks, so `combine_body3` applies; the invariant and the
    core's dues pass through unread. -/
theorem combine_point3 (c : Dev nD) (t : Fin cfg3.N) :
    combinePre3 V c t ⊢ wp frame (wpE (defs₀ (F := F)) Variants.none c none) Set.univ (bodyAt3 t) (fun _ => combinePost3 V c t) := by
  unfold combinePre3 combinePost3 bodyAt3
  simp only [combineDat3_before_0, combineDat3_before_1]
  rw [show (combineDat3 V c).Φ t.succ = (combineDat3 V c).Φ t.castSucc from rfl,
    show (combineDat3 V c).owesAt () t.succ = (combineDat3 V c).owesAt () t.castSucc from rfl,
    combineDat3_after_0, combineDat3_after_1, combineDat3_after_2]
  iintro ⟨HΦ, Ho, ⟨%d0, H0⟩, ⟨%d1, H1⟩, ⟨%d2, H2⟩⟩
  iapply (combine_body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation3 (c : Dev nD) : BodyObligation (combineDat3 (F := F) V c) (defs₀ (F := F)) Variants.none () Set.univ := fun t => by
  rw [bigSep_W3, bigSep_W3]
  exact combine_point3 V c t

end Cert.Kernel.Diffusion

end
-- ==== Proof.Bits.Scale4.lean ====
/-
  Edge scaling, diffusion step 3 (launch 4 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The message window's staging buffer holds its block at every point, for any proof data whose array is `V`'s and
    whose body leaves the block in place: the window is fetched at every point and never cut. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The same for the weight column's window. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The whole message block and the whole weight block, as rectangles. -/
abbrev r4_0 : Rect S16384x64 := Rect.unit (s := S16384x64) ![0, 0] S16384x64.size inb_S16384x64_S16384x64_0_0
abbrev r4_1 : Rect S16384x1 := Rect.unit (s := S16384x1) ![0, 0] S16384x1.size inb_S16384x1_S16384x1_0_0

/-- What the body leaves in the output block, from the two input blocks: its one store, of the whole block, of the
    messages times the weight column spread along the 64 features. -/
def scaled4 (x0 : Vec F S16384x64 .f32) (x1 : Vec F S16384x1 .f32) : Vec F S16384x64 .f32 :=
  View.canon [⟨r4_0, k4_pay1 (View.ld x0 r4_0) (View.ld x1 r4_1)⟩]

/-- That one store covers the block. -/
theorem scaled4_cover (p0 : Vec F S16384x64 .f32) (y : S16384x64.Idx) :
    ∃ pc ∈ ([⟨r4_0, p0⟩] : List (View.Piece (Elt F) S16384x64 .f32)), y ∈ pc.1.set :=
  View.cover_of_tiled [⟨r4_0, p0⟩] S16384x64.size (by rfl) y

set_option maxHeartbeats 1000000 in
/-- The body on whole staging buffers, the inputs' at contents `x0`, `x1` and the output's at anything, runs to the
    continuation holding the inputs' as they were and the output's at `scaled4 x0 x1`. -/
theorem scale_body4 (c : Dev nD) (E : Set ℕ) (i : grid4.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled4 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled4_cover _)

/-- The pipeline's proof data on core `c`: the arrays as the launch finds them; after the body at point `t` each
    input's buffer at its block and the output's at `scaled4` of the two input blocks; nothing owed; full shares. -/
def scaleDat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => scaled4 (blk4 V c 0 t) (blk4 V c 1 t)
  Φ _ := Pipeline.ΦA spec4 c
  q _ := fullShare
  owed _ := 0

theorem scaleDat4_A (c : Dev nD) (w : Fin cfg4.W) : (scaleDat4 V c).A w = V c (Pipeline.arrRef spec4 w) := by
  dsimp only [scaleDat4]
theorem scaleDat4_after_0 (c : Dev nD) (t : Fin cfg4.N) : (scaleDat4 V c).after 0 t = blk4 V c 0 t := by dsimp only [scaleDat4]
theorem scaleDat4_after_1 (c : Dev nD) (t : Fin cfg4.N) : (scaleDat4 V c).after 1 t = blk4 V c 1 t := by dsimp only [scaleDat4]
theorem scaleDat4_after_2 (c : Dev nD) (t : Fin cfg4.N) :
    (scaleDat4 V c).after 2 t = scaled4 (blk4 V c 0 t) (blk4 V c 1 t) := by dsimp only [scaleDat4]

theorem scaleDat4_before_0 (c : Dev nD) (t : Fin cfg4.N) (d) : (scaleDat4 V c).before 0 t d = blk4 V c 0 t :=
  held4_0_of V (scaleDat4 V c) (scaleDat4_A V c 0) (scaleDat4_after_0 V c) t d
theorem scaleDat4_before_1 (c : Dev nD) (t : Fin cfg4.N) (d) : (scaleDat4 V c).before 1 t d = blk4 V c 1 t :=
  held4_1_of V (scaleDat4 V c) (scaleDat4_A V c 1) (scaleDat4_after_1 V c) t d

/-- What the body is called with at point `t`, the windows one by one, -/
def scalePre4 (c : Dev nD) (t : Fin cfg4.N) : sProp 𝕄 :=
  iprop((scaleDat4 V c).Φ t.castSucc ∗ (scaleDat4 V c).owesAt () t.castSucc
    ∗ (∃ d, owns (c : Thread nD τ) (st4_0 t) fullShare ((scaleDat4 V c).before 0 t d))
    ∗ (∃ d, owns (c : Thread nD τ) (st4_1 t) fullShare ((scaleDat4 V c).before 1 t d))
    ∗ (∃ d, owns (c : Thread nD τ) (st4_2 t) fullShare ((scaleDat4 V c).before 2 t d)))

/-- and what it returns. -/
def scalePost4 (c : Dev nD) (t : Fin cfg4.N) : sProp 𝕄 :=
  iprop((scaleDat4 V c).Φ t.succ ∗ (scaleDat4 V c).owesAt () t.succ
    ∗ owns (c : Thread nD τ) (st4_0 t) fullShare ((scaleDat4 V c).after 0 t)
    ∗ owns (c : Thread nD τ) (st4_1 t) fullShare ((scaleDat4 V c).after 1 t)
    ∗ owns (c : Thread nD τ) (st4_2 t) fullShare ((scaleDat4 V c).after 2 t))

/-- The body at any point: the inputs' buffers hold their blocks, so `scale_body4` applies; the invariant and the
    core's dues pass through unread. -/
theorem scale_point4 (c : Dev nD) (t : Fin cfg4.N) :
    scalePre4 V c t ⊢ wp frame (wpE (defs₀ (F := F)) Variants.none c none) Set.univ (bodyAt4 t) (fun _ => scalePost4 V c t) := by
  unfold scalePre4 scalePost4 bodyAt4
  simp only [scaleDat4_before_0, scaleDat4_before_1]
  rw [show (scaleDat4 V c).Φ t.succ = (scaleDat4 V c).Φ t.castSucc from rfl,
    show (scaleDat4 V c).owesAt () t.succ = (scaleDat4 V c).owesAt () t.castSucc from rfl,
    scaleDat4_after_0, scaleDat4_after_1, scaleDat4_after_2]
  iintro ⟨HΦ, Ho, ⟨%d0, H0⟩, ⟨%d1, H1⟩, ⟨%d2, H2⟩⟩
  iapply (scale_body4 c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation4 (c : Dev nD) : BodyObligation (scaleDat4 (F := F) V c) (defs₀ (F := F)) Variants.none () Set.univ := fun t => by
  rw [bigSep_W4, bigSep_W4]
  exact scale_point4 V c t

end Cert.Kernel.Diffusion

end
-- ==== Proof.Bits.Combine5.lean ====
/-
  The node update, diffusion step 3 (launch 5 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The aggregate's window's staging buffer holds its block at every point, for any proof data whose array is `V`'s
    and whose body leaves the block in place: the window is fetched at every point and never cut. -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- The same for the input features' window. -/
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- A whole block of 2000 rows, as a rectangle. -/
abbrev r5_0 : Rect S2000x64 := Rect.unit (s := S2000x64) ![0, 0] S2000x64.size inb_S2000x64_S2000x64_0_0

/-- What the body leaves in the output block, from the two input blocks: its one store, of the whole block. -/
def combined5 (x0 : Vec F S2000x64 .f32) (x1 : Vec F S2000x64 .f32) : Vec F S2000x64 .f32 :=
  View.canon [⟨r5_0, k5_pay1 (View.ld x0 r5_0) (View.ld x1 r5_0)⟩]

/-- That one store covers the block. -/
theorem combined5_cover (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 1000000 in
/-- The body on whole staging buffers, the inputs' at contents `x0`, `x1` and the output's at anything, runs to the
    continuation holding the inputs' as they were and the output's at `combined5 x0 x1`. -/
theorem combine_body5 (c : Dev nD) (E : Set ℕ) (i : grid5.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined5 x0 x1)) -∗ K ⟨⟩))
      ⊢ wp frame (wpE (defs₀ (F := F)) Variants.none c none) E (cc5__combine_kernel i arg1 harg1 arg2 harg2 arg3 harg3) K := by
  simp only [cc5__combine_kernel_eq_skeleton]; unfold cc5__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined5_cover _)

/-- The pipeline's proof data on core `c`: the arrays as the launch finds them; after the body at point `t` each
    input's buffer at its block and the output's at `combined5` of the two input blocks; nothing owed; full shares. -/
def combineDat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => combined5 (blk5 V c 0 t) (blk5 V c 1 t)
  Φ _ := Pipeline.ΦA spec5 c
  q _ := fullShare
  owed _ := 0

theorem combineDat5_A (c : Dev nD) (w : Fin cfg5.W) : (combineDat5 V c).A w = V c (Pipeline.arrRef spec5 w) := by
  dsimp only [combineDat5]
theorem combineDat5_after_0 (c : Dev nD) (t : Fin cfg5.N) : (combineDat5 V c).after 0 t = blk5 V c 0 t := by dsimp only [combineDat5]
theorem combineDat5_after_1 (c : Dev nD) (t : Fin cfg5.N) : (combineDat5 V c).after 1 t = blk5 V c 1 t := by dsimp only [combineDat5]
theorem combineDat5_after_2 (c : Dev nD) (t : Fin cfg5.N) :
    (combineDat5 V c).after 2 t = combined5 (blk5 V c 0 t) (blk5 V c 1 t) := by dsimp only [combineDat5]

theorem combineDat5_before_0 (c : Dev nD) (t : Fin cfg5.N) (d) : (combineDat5 V c).before 0 t d = blk5 V c 0 t :=
  held5_0_of V (combineDat5 V c) (combineDat5_A V c 0) (combineDat5_after_0 V c) t d
theorem combineDat5_before_1 (c : Dev nD) (t : Fin cfg5.N) (d) : (combineDat5 V c).before 1 t d = blk5 V c 1 t :=
  held5_1_of V (combineDat5 V c) (combineDat5_A V c 1) (combineDat5_after_1 V c) t d

/-- What the body is called with at point `t`, the windows one by one, -/
def combinePre5 (c : Dev nD) (t : Fin cfg5.N) : sProp 𝕄 :=
  iprop((combineDat5 V c).Φ t.castSucc ∗ (combineDat5 V c).owesAt () t.castSucc
    ∗ (∃ d, owns (c : Thread nD τ) (st5_0 t) fullShare ((combineDat5 V c).before 0 t d))
    ∗ (∃ d, owns (c : Thread nD τ) (st5_1 t) fullShare ((combineDat5 V c).before 1 t d))
    ∗ (∃ d, owns (c : Thread nD τ) (st5_2 t) fullShare ((combineDat5 V c).before 2 t d)))

/-- and what it returns. -/
def combinePost5 (c : Dev nD) (t : Fin cfg5.N) : sProp 𝕄 :=
  iprop((combineDat5 V c).Φ t.succ ∗ (combineDat5 V c).owesAt () t.succ
    ∗ owns (c : Thread nD τ) (st5_0 t) fullShare ((combineDat5 V c).after 0 t)
    ∗ owns (c : Thread nD τ) (st5_1 t) fullShare ((combineDat5 V c).after 1 t)
    ∗ owns (c : Thread nD τ) (st5_2 t) fullShare ((combineDat5 V c).after 2 t))

/-- The body at any point: the inputs' buffers hold their blocks, so `combine_body5` applies; the invariant and the
    core's dues pass through unread. -/
theorem combine_point5 (c : Dev nD) (t : Fin cfg5.N) :
    combinePre5 V c t ⊢ wp frame (wpE (defs₀ (F := F)) Variants.none c none) Set.univ (bodyAt5 t) (fun _ => combinePost5 V c t) := by
  unfold combinePre5 combinePost5 bodyAt5
  simp only [combineDat5_before_0, combineDat5_before_1]
  rw [show (combineDat5 V c).Φ t.succ = (combineDat5 V c).Φ t.castSucc from rfl,
    show (combineDat5 V c).owesAt () t.succ = (combineDat5 V c).owesAt () t.castSucc from rfl,
    combineDat5_after_0, combineDat5_after_1, combineDat5_after_2]
  iintro ⟨HΦ, Ho, ⟨%d0, H0⟩, ⟨%d1, H1⟩, ⟨%d2, H2⟩⟩
  iapply (combine_body5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation5 (c : Dev nD) : BodyObligation (combineDat5 (F := F) V c) (defs₀ (F := F)) Variants.none () Set.univ := fun t => by
  rw [bigSep_W5, bigSep_W5]
  exact combine_point5 V c t

end Cert.Kernel.Diffusion

end
-- ==== Proof.Bits.Scale6.lean ====
/-
  Edge scaling, diffusion step 4 (launch 6 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The message window's staging buffer holds its block at every point, for any proof data whose array is `V`'s and
    whose body leaves the block in place: the window is fetched at every point and never cut. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The same for the weight column's window. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- The whole message block and the whole weight block, as rectangles. -/
abbrev r6_0 : Rect S16384x64 := Rect.unit (s := S16384x64) ![0, 0] S16384x64.size inb_S16384x64_S16384x64_0_0
abbrev r6_1 : Rect S16384x1 := Rect.unit (s := S16384x1) ![0, 0] S16384x1.size inb_S16384x1_S16384x1_0_0

/-- What the body leaves in the output block, from the two input blocks: its one store, of the whole block, of the
    messages times the weight column spread along the 64 features. -/
def scaled6 (x0 : Vec F S16384x64 .f32) (x1 : Vec F S16384x1 .f32) : Vec F S16384x64 .f32 :=
  View.canon [⟨r6_0, k6_pay1 (View.ld x0 r6_0) (View.ld x1 r6_1)⟩]

/-- That one store covers the block. -/
theorem scaled6_cover (p0 : Vec F S16384x64 .f32) (y : S16384x64.Idx) :
    ∃ pc ∈ ([⟨r6_0, p0⟩] : List (View.Piece (Elt F) S16384x64 .f32)), y ∈ pc.1.set :=
  View.cover_of_tiled [⟨r6_0, p0⟩] S16384x64.size (by rfl) y

set_option maxHeartbeats 1000000 in
/-- The body on whole staging buffers, the inputs' at contents `x0`, `x1` and the output's at anything, runs to the
    continuation holding the inputs' as they were and the output's at `scaled6 x0 x1`. -/
theorem scale_body6 (c : Dev nD) (E : Set ℕ) (i : grid6.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled6 x0 x1)) -∗ K ⟨⟩))
      ⊢ wp frame (wpE (defs₀ (F := F)) Variants.none c none) E (cc6__scale_kernel i arg1 harg1 arg2 harg2 arg3 harg3) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled6_cover _)

/-- The pipeline's proof data on core `c`: the arrays as the launch finds them; after the body at point `t` each
    input's buffer at its block and the output's at `scaled6` of the two input blocks; nothing owed; full shares. -/
def scaleDat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => scaled6 (blk6 V c 0 t) (blk6 V c 1 t)
  Φ _ := Pipeline.ΦA spec6 c
  q _ := fullShare
  owed _ := 0

theorem scaleDat6_A (c : Dev nD) (w : Fin cfg6.W) : (scaleDat6 V c).A w = V c (Pipeline.arrRef spec6 w) := by
  dsimp only [scaleDat6]
theorem scaleDat6_after_0 (c : Dev nD) (t : Fin cfg6.N) : (scaleDat6 V c).after 0 t = blk6 V c 0 t := by dsimp only [scaleDat6]
theorem scaleDat6_after_1 (c : Dev nD) (t : Fin cfg6.N) : (scaleDat6 V c).after 1 t = blk6 V c 1 t := by dsimp only [scaleDat6]
theorem scaleDat6_after_2 (c : Dev nD) (t : Fin cfg6.N) :
    (scaleDat6 V c).after 2 t = scaled6 (blk6 V c 0 t) (blk6 V c 1 t) := by dsimp only [scaleDat6]

theorem scaleDat6_before_0 (c : Dev nD) (t : Fin cfg6.N) (d) : (scaleDat6 V c).before 0 t d = blk6 V c 0 t :=
  held6_0_of V (scaleDat6 V c) (scaleDat6_A V c 0) (scaleDat6_after_0 V c) t d
theorem scaleDat6_before_1 (c : Dev nD) (t : Fin cfg6.N) (d) : (scaleDat6 V c).before 1 t d = blk6 V c 1 t :=
  held6_1_of V (scaleDat6 V c) (scaleDat6_A V c 1) (scaleDat6_after_1 V c) t d

/-- What the body is called with at point `t`, the windows one by one, -/
def scalePre6 (c : Dev nD) (t : Fin cfg6.N) : sProp 𝕄 :=
  iprop((scaleDat6 V c).Φ t.castSucc ∗ (scaleDat6 V c).owesAt () t.castSucc
    ∗ (∃ d, owns (c : Thread nD τ) (st6_0 t) fullShare ((scaleDat6 V c).before 0 t d))
    ∗ (∃ d, owns (c : Thread nD τ) (st6_1 t) fullShare ((scaleDat6 V c).before 1 t d))
    ∗ (∃ d, owns (c : Thread nD τ) (st6_2 t) fullShare ((scaleDat6 V c).before 2 t d)))

/-- and what it returns. -/
def scalePost6 (c : Dev nD) (t : Fin cfg6.N) : sProp 𝕄 :=
  iprop((scaleDat6 V c).Φ t.succ ∗ (scaleDat6 V c).owesAt () t.succ
    ∗ owns (c : Thread nD τ) (st6_0 t) fullShare ((scaleDat6 V c).after 0 t)
    ∗ owns (c : Thread nD τ) (st6_1 t) fullShare ((scaleDat6 V c).after 1 t)
    ∗ owns (c : Thread nD τ) (st6_2 t) fullShare ((scaleDat6 V c).after 2 t))

/-- The body at any point: the inputs' buffers hold their blocks, so `scale_body6` applies; the invariant and the
    core's dues pass through unread. -/
theorem scale_point6 (c : Dev nD) (t : Fin cfg6.N) :
    scalePre6 V c t ⊢ wp frame (wpE (defs₀ (F := F)) Variants.none c none) Set.univ (bodyAt6 t) (fun _ => scalePost6 V c t) := by
  unfold scalePre6 scalePost6 bodyAt6
  simp only [scaleDat6_before_0, scaleDat6_before_1]
  rw [show (scaleDat6 V c).Φ t.succ = (scaleDat6 V c).Φ t.castSucc from rfl,
    show (scaleDat6 V c).owesAt () t.succ = (scaleDat6 V c).owesAt () t.castSucc from rfl,
    scaleDat6_after_0, scaleDat6_after_1, scaleDat6_after_2]
  iintro ⟨HΦ, Ho, ⟨%d0, H0⟩, ⟨%d1, H1⟩, ⟨%d2, H2⟩⟩
  iapply (scale_body6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation6 (c : Dev nD) : BodyObligation (scaleDat6 (F := F) V c) (defs₀ (F := F)) Variants.none () Set.univ := fun t => by
  rw [bigSep_W6, bigSep_W6]
  exact scale_point6 V c t

end Cert.Kernel.Diffusion

end
-- ==== Proof.Bits.Combine7.lean ====
/-
  The node update, diffusion step 4 (launch 7 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.Kernel.Launch
import proofs.«173453_j38800734552802_1_alg».proof.Proof.Gen.Kernel.Skeleton
import proofs.«173453_j38800734552802_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The aggregate's window's staging buffer holds its block at every point, for any proof data whose array is `V`'s
    and whose body leaves the block in place: the window is fetched at every point and never cut. -/
theorem held7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)

/-- The same for the input features' window. -/
theorem held7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-- A whole block of 2000 rows, as a rectangle. -/
abbrev r7_0 : Rect S2000x64 := Rect.unit (s := S2000x64) ![0, 0] S2000x64.size inb_S2000x64_S2000x64_0_0

/-- What the body leaves in the output block, from the two input blocks: its one store, of the whole block. -/
def combined7 (x0 : Vec F S2000x64 .f32) (x1 : Vec F S2000x64 .f32) : Vec F S2000x64 .f32 :=
  View.canon [⟨r7_0, k7_pay1 (View.ld x0 r7_0) (View.ld x1 r7_0)⟩]

/-- That one store covers the block. -/
theorem combined7_cover (p0 : Vec F S2000x64 .f32) (y : S2000x64.Idx) :
    ∃ pc ∈ ([⟨r7_0, p0⟩] : List (View.Piece (Elt F) S2000x64 .f32)), y ∈ pc.1.set :=
  View.cover_of_tiled [⟨r7_0, p0⟩] S2000x64.size (by rfl) y

set_option maxHeartbeats 1000000 in
/-- The body on whole staging buffers, the inputs' at contents `x0`, `x1` and the output's at anything, runs to the
    continuation holding the inputs' as they were and the output's at `combined7 x0 x1`. -/
theorem combine_body7 (c : Dev nD) (E : Set ℕ) (i : grid7.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined7 x0 x1)) -∗ K ⟨⟩))
      ⊢ wp frame (wpE (defs₀ (F := F)) Variants.none c none) E (cc7__combine_kernel i arg1 harg1 arg2 harg2 arg3 harg3) K := by
  simp only [cc7__combine_kernel_eq_skeleton]; unfold cc7__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined7_cover _)

/-- The pipeline's proof data on core `c`: the arrays as the launch finds them; after the body at point `t` each
    input's buffer at its block and the output's at `combined7` of the two input blocks; nothing owed; full shares. -/
def combineDat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => combined7 (blk7 V c 0 t) (blk7 V c 1 t)
  Φ _ := Pipeline.ΦA spec7 c
  q _ := fullShare
  owed _ := 0

theorem combineDat7_A (c : Dev nD) (w : Fin cfg7.W) : (combineDat7 V c).A w = V c (Pipeline.arrRef spec7 w) := by
  dsimp only [combineDat7]
theorem combineDat7_after_0 (c : Dev nD) (t : Fin cfg7.N) : (combineDat7 V c).after 0 t = blk7 V c 0 t := by dsimp only [combineDat7]
theorem combineDat7_after_1 (c : Dev nD) (t : Fin cfg7.N) : (combineDat7 V c).after 1 t = blk7 V c 1 t := by dsimp only [combineDat7]
theorem combineDat7_after_2 (c : Dev nD) (t : Fin cfg7.N) :
    (combineDat7 V c).after 2 t = combined7 (blk7 V c 0 t) (blk7 V c 1 t) := by dsimp only [combineDat7]

theorem combineDat7_before_0 (c : Dev nD) (t : Fin cfg7.N) (d) : (combineDat7 V c).before 0 t d = blk7 V c 0 t :=
  held7_0_of V (combineDat7 V c) (combineDat7_A V c 0) (combineDat7_after_0 V c) t d
theorem combineDat7_before_1 (c : Dev nD) (t : Fin cfg7.N) (d) : (combineDat7 V c).before 1 t d = blk7 V c 1 t :=
  held7_1_of V (combineDat7 V c) (combineDat7_A V c 1) (combineDat7_after_1 V c) t d

/-- What the body is called with at point `t`, the windows one by one, -/
def combinePre7 (c : Dev nD) (t : Fin cfg7.N) : sProp 𝕄 :=
  iprop((combineDat7 V c).Φ t.castSucc ∗ (combineDat7 V c).owesAt () t.castSucc
    ∗ (∃ d, owns (c : Thread nD τ) (st7_0 t) fullShare ((combineDat7 V c).before 0 t d))
    ∗ (∃ d, owns (c : Thread nD τ) (st7_1 t) fullShare ((combineDat7 V c).before 1 t d))
    ∗ (∃ d, owns (c : Thread nD τ) (st7_2 t) fullShare ((combineDat7 V c).before 2 t d)))

/-- and what it returns. -/
def combinePost7 (c : Dev nD) (t : Fin cfg7.N) : sProp 𝕄 :=
  iprop((combineDat7 V c).Φ t.succ ∗ (combineDat7 V c).owesAt () t.succ
    ∗ owns (c : Thread nD τ) (st7_0 t) fullShare ((combineDat7 V c).after 0 t)
    ∗ owns (c : Thread nD τ) (st7_1 t) fullShare ((combineDat7 V c).after 1 t)
    ∗ owns (c : Thread nD τ) (st7_2 t) fullShare ((combineDat7 V c).after 2 t))

/-- The body at any point: the inputs' buffers hold their blocks, so `combine_body7` applies; the invariant and the
    core's dues pass through unread. -/
theorem combine_point7 (c : Dev nD) (t : Fin cfg7.N) :
    combinePre7 V c t ⊢ wp frame (wpE (defs₀ (F := F)) Variants.none c none) Set.univ (bodyAt7 t) (fun _ => combinePost7 V c t) := by
  unfold combinePre7 combinePost7 bodyAt7
  simp only [combineDat7_before_0, combineDat7_before_1]
  rw [show (combineDat7 V c).Φ t.succ = (combineDat7 V c).Φ t.castSucc from rfl,
    show (combineDat7 V c).owesAt () t.succ = (combineDat7 V c).owesAt () t.castSucc from rfl,
    combineDat7_after_0, combineDat7_after_1, combineDat7_after_2]
  iintro ⟨HΦ, Ho, ⟨%d0, H0⟩, ⟨%d1, H1⟩, ⟨%d2, H2⟩⟩
  iapply (combine_body7 c Set.univ _ _ _ _ _ _ _ (blk7 V c 0 t) (blk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation7 (c : Dev nD) : BodyObligation (combineDat7 (F := F) V c) (defs₀ (F := F)) Variants.none () Set.univ := fun t => by
  rw [bigSep_W7, bigSep_W7]
  exact combine_point7 V c t

end Cert.Kernel.Diffusion

end
-- ==== Proof.Bits.Fold.lean ====
/-
  The contents of the core's unscoped buffers at every boundary of the program: at launch, after each stretch of host
  operations (a launch's entry), and after each of the eight launches (its arrays at what its write-backs leave, every
  other buffer as it was). For any float instance. With them: every launch's proof data at its entry contents, and what
  rides beside the buffers through the run (the generator register, and the core owing nothing).
-/
import proofs.«173453_j38800734552802_1_alg».proof.Proof.Bits.Scale0
import proofs.«173453_j38800734552802_1_alg».proof.Proof.Bits.Combine1
import proofs.«173453_j38800734552802_1_alg».proof.Proof.Bits.Scale2
import proofs.«173453_j38800734552802_1_alg».proof.Proof.Bits.Combine3
import proofs.«173453_j38800734552802_1_alg».proof.Proof.Bits.Scale4
import proofs.«173453_j38800734552802_1_alg».proof.Proof.Bits.Combine5
import proofs.«173453_j38800734552802_1_alg».proof.Proof.Bits.Scale6
import proofs.«173453_j38800734552802_1_alg».proof.Proof.Bits.Combine7
import proofs.«173453_j38800734552802_1_alg».proof.Proof.Gen.Kernel.Regions

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev start : Dev nD → Valuation τ sig (Elt F) := fun c b => (s₀ m ρ).mem ((c : Dev nD), b)

/-! ## Launch 0 -/

/-- Entered after the host operations `hostOps0`. -/
abbrev in0 : Dev nD → Valuation τ sig (Elt F) := fun c => StableHlo.after hostOps0 (start m ρ c)
/-- The same read at the TensorCore's references. -/
abbrev ent0 : (c : Dev nD) → (b : Ref sig .tc) → Buf (Elt F) ((c : Thread nD τ).loc b) := fun c b => in0 m ρ c b
/-- Left with its arrays at what the pipeline leaves, every other buffer as entered. -/
def out0 (c : Dev nD) : Valuation τ sig (Elt F) :=
  Pipeline.withArrays spec0 c (in0 m ρ c) fun w => (scaleDat0 (ent0 m ρ) c).arrAt w cfg0.N
theorem out0_arr (c : Dev nD) (w : Fin cfg0.W) :
    out0 m ρ c (Proc.devRef .tc (Pipeline.arrRef spec0 w)) = (scaleDat0 (ent0 m ρ) c).arrAt w cfg0.N := by
  unfold out0; exact Pipeline.withArrays_arr spec0 launch0.win.arr_inj c _ _ w
theorem out0_of_ne (c : Dev nD) (b : Ref sig .tc) (hb : ∀ w, Pipeline.arrRef spec0 w ≠ b) :
    out0 m ρ c (Proc.devRef .tc b) = in0 m ρ c (Proc.devRef .tc b) := by
  unfold out0; exact Pipeline.withArrays_of_ne spec0 c _ _ b hb
/-- An input window's array is left as entered. -/
theorem out0_in_0 (c : Dev nD) :
    out0 m ρ c (Proc.devRef .tc (Pipeline.arrRef spec0 0)) = in0 m ρ c (Proc.devRef .tc (Pipeline.arrRef spec0 0)) :=
  (out0_arr m ρ c 0).trans (((scaleDat0 (ent0 m ρ) c).arrAt_in 0 rfl _).trans (scaleDat0_A (ent0 m ρ) c 0))
theorem out0_in_1 (c : Dev nD) :
    out0 m ρ c (Proc.devRef .tc (Pipeline.arrRef spec0 1)) = in0 m ρ c (Proc.devRef .tc (Pipeline.arrRef spec0 1)) :=
  (out0_arr m ρ c 1).trans (((scaleDat0 (ent0 m ρ) c).arrAt_in 1 rfl _).trans (scaleDat0_A (ent0 m ρ) c 1))
abbrev ext0 : (c : Dev nD) → (b : Ref sig .tc) → Buf (Elt F) ((c : Thread nD τ).loc b) := fun c b => out0 m ρ c b
theorem left0 (c : Dev nD) (w : Fin cfg0.W) : (scaleDat0 (ent0 m ρ) c).arrAt w cfg0.N = ext0 m ρ c (Pipeline.arrRef spec0 w) :=
  (out0_arr m ρ c w).symm
theorem kept0 (c : Dev nD) : ∀ b, b ∉ Finset.univ.image (Pipeline.arrRef spec0) → ext0 m ρ c b = ent0 m ρ c b :=
  fun b hb => out0_of_ne m ρ c b fun w e => hb (Finset.mem_image.mpr ⟨w, Finset.mem_univ _, e⟩)

/-! ## Launch 1 -/

/-- Entered after the host operations `hostOps1`. -/
abbrev in1 : Dev nD → Valuation τ sig (Elt F) := fun c => StableHlo.after hostOps1 (out0 m ρ c)
/-- The same read at the TensorCore's references. -/
abbrev ent1 : (c : Dev nD) → (b : Ref sig .tc) → Buf (Elt F) ((c : Thread nD τ).loc b) := fun c b => in1 m ρ c b
/-- Left with its arrays at what the pipeline leaves, every other buffer as entered. -/
def out1 (c : Dev nD) : Valuation τ sig (Elt F) :=
  Pipeline.withArrays spec1 c (in1 m ρ c) fun w => (combineDat1 (ent1 m ρ) c).arrAt w cfg1.N
theorem out1_arr (c : Dev nD) (w : Fin cfg1.W) :
    out1 m ρ c (Proc.devRef .tc (Pipeline.arrRef spec1 w)) = (combineDat1 (ent1 m ρ) c).arrAt w cfg1.N := by
  unfold out1; exact Pipeline.withArrays_arr spec1 launch1.win.arr_inj c _ _ w
theorem out1_of_ne (c : Dev nD) (b : Ref sig .tc) (hb : ∀ w, Pipeline.arrRef spec1 w ≠ b) :
    out1 m ρ c (Proc.devRef .tc b) = in1 m ρ c (Proc.devRef .tc b) := by
  unfold out1; exact Pipeline.withArrays_of_ne spec1 c _ _ b hb
/-- An input window's array is left as entered. -/
theorem out1_in_0 (c : Dev nD) :
    out1 m ρ c (Proc.devRef .tc (Pipeline.arrRef spec1 0)) = in1 m ρ c (Proc.devRef .tc (Pipeline.arrRef spec1 0)) :=
  (out1_arr m ρ c 0).trans (((combineDat1 (ent1 m ρ) c).arrAt_in 0 rfl _).trans (combineDat1_A (ent1 m ρ) c 0))
theorem out1_in_1 (c : Dev nD) :
    out1 m ρ c (Proc.devRef .tc (Pipeline.arrRef spec1 1)) = in1 m ρ c (Proc.devRef .tc (Pipeline.arrRef spec1 1)) :=
  (out1_arr m ρ c 1).trans (((combineDat1 (ent1 m ρ) c).arrAt_in 1 rfl _).trans (combineDat1_A (ent1 m ρ) c 1))
abbrev ext1 : (c : Dev nD) → (b : Ref sig .tc) → Buf (Elt F) ((c : Thread nD τ).loc b) := fun c b => out1 m ρ c b
theorem left1 (c : Dev nD) (w : Fin cfg1.W) : (combineDat1 (ent1 m ρ) c).arrAt w cfg1.N = ext1 m ρ c (Pipeline.arrRef spec1 w) :=
  (out1_arr m ρ c w).symm
theorem kept1 (c : Dev nD) : ∀ b, b ∉ Finset.univ.image (Pipeline.arrRef spec1) → ext1 m ρ c b = ent1 m ρ c b :=
  fun b hb => out1_of_ne m ρ c b fun w e => hb (Finset.mem_image.mpr ⟨w, Finset.mem_univ _, e⟩)

/-! ## Launch 2 -/

/-- Entered after the host operations `hostOps2`. -/
abbrev in2 : Dev nD → Valuation τ sig (Elt F) := fun c => StableHlo.after hostOps2 (out1 m ρ c)
/-- The same read at the TensorCore's references. -/
abbrev ent2 : (c : Dev nD) → (b : Ref sig .tc) → Buf (Elt F) ((c : Thread nD τ).loc b) := fun c b => in2 m ρ c b
/-- Left with its arrays at what the pipeline leaves, every other buffer as entered. -/
def out2 (c : Dev nD) : Valuation τ sig (Elt F) :=
  Pipeline.withArrays spec2 c (in2 m ρ c) fun w => (scaleDat2 (ent2 m ρ) c).arrAt w cfg2.N
theorem out2_arr (c : Dev nD) (w : Fin cfg2.W) :
    out2 m ρ c (Proc.devRef .tc (Pipeline.arrRef spec2 w)) = (scaleDat2 (ent2 m ρ) c).arrAt w cfg2.N := by
  unfold out2; exact Pipeline.withArrays_arr spec2 launch2.win.arr_inj c _ _ w
theorem out2_of_ne (c : Dev nD) (b : Ref sig .tc) (hb : ∀ w, Pipeline.arrRef spec2 w ≠ b) :
    out2 m ρ c (Proc.devRef .tc b) = in2 m ρ c (Proc.devRef .tc b) := by
  unfold out2; exact Pipeline.withArrays_of_ne spec2 c _ _ b hb
/-- An input window's array is left as entered. -/
theorem out2_in_0 (c : Dev nD) :
    out2 m ρ c (Proc.devRef .tc (Pipeline.arrRef spec2 0)) = in2 m ρ c (Proc.devRef .tc (Pipeline.arrRef spec2 0)) :=
  (out2_arr m ρ c 0).trans (((scaleDat2 (ent2 m ρ) c).arrAt_in 0 rfl _).trans (scaleDat2_A (ent2 m ρ) c 0))
theorem out2_in_1 (c : Dev nD) :
    out2 m ρ c (Proc.devRef .tc (Pipeline.arrRef spec2 1)) = in2 m ρ c (Proc.devRef .tc (Pipeline.arrRef spec2 1)) :=
  (out2_arr m ρ c 1).trans (((scaleDat2 (ent2 m ρ) c).arrAt_in 1 rfl _).trans (scaleDat2_A (ent2 m ρ) c 1))
abbrev ext2 : (c : Dev nD) → (b : Ref sig .tc) → Buf (Elt F) ((c : Thread nD τ).loc b) := fun c b => out2 m ρ c b
theorem left2 (c : Dev nD) (w : Fin cfg2.W) : (scaleDat2 (ent2 m ρ) c).arrAt w cfg2.N = ext2 m ρ c (Pipeline.arrRef spec2 w) :=
  (out2_arr m ρ c w).symm
theorem kept2 (c : Dev nD) : ∀ b, b ∉ Finset.univ.image (Pipeline.arrRef spec2) → ext2 m ρ c b = ent2 m ρ c b :=
  fun b hb => out2_of_ne m ρ c b fun w e => hb (Finset.mem_image.mpr ⟨w, Finset.mem_univ _, e⟩)

/-! ## Launch 3 -/

/-- Entered after the host operations `hostOps3`. -/
abbrev in3 : Dev nD → Valuation τ sig (Elt F) := fun c => StableHlo.after hostOps3 (out2 m ρ c)
/-- The same read at the TensorCore's references. -/
abbrev ent3 : (c : Dev nD) → (b : Ref sig .tc) → Buf (Elt F) ((c : Thread nD τ).loc b) := fun c b => in3 m ρ c b
/-- Left with its arrays at what the pipeline leaves, every other buffer as entered. -/
def out3 (c : Dev nD) : Valuation τ sig (Elt F) :=
  Pipeline.withArrays spec3 c (in3 m ρ c) fun w => (combineDat3 (ent3 m ρ) c).arrAt w cfg3.N
theorem out3_arr (c : Dev nD) (w : Fin cfg3.W) :
    out3 m ρ c (Proc.devRef .tc (Pipeline.arrRef spec3 w)) = (combineDat3 (ent3 m ρ) c).arrAt w cfg3.N := by
  unfold out3; exact Pipeline.withArrays_arr spec3 launch3.win.arr_inj c _ _ w
theorem out3_of_ne (c : Dev nD) (b : Ref sig .tc) (hb : ∀ w, Pipeline.arrRef spec3 w ≠ b) :
    out3 m ρ c (Proc.devRef .tc b) = in3 m ρ c (Proc.devRef .tc b) := by
  unfold out3; exact Pipeline.withArrays_of_ne spec3 c _ _ b hb
/-- An input window's array is left as entered. -/
theorem out3_in_0 (c : Dev nD) :
    out3 m ρ c (Proc.devRef .tc (Pipeline.arrRef spec3 0)) = in3 m ρ c (Proc.devRef .tc (Pipeline.arrRef spec3 0)) :=
  (out3_arr m ρ c 0).trans (((combineDat3 (ent3 m ρ) c).arrAt_in 0 rfl _).trans (combineDat3_A (ent3 m ρ) c 0))
theorem out3_in_1 (c : Dev nD) :
    out3 m ρ c (Proc.devRef .tc (Pipeline.arrRef spec3 1)) = in3 m ρ c (Proc.devRef .tc (Pipeline.arrRef spec3 1)) :=
  (out3_arr m ρ c 1).trans (((combineDat3 (ent3 m ρ) c).arrAt_in 1 rfl _).trans (combineDat3_A (ent3 m ρ) c 1))
abbrev ext3 : (c : Dev nD) → (b : Ref sig .tc) → Buf (Elt F) ((c : Thread nD τ).loc b) := fun c b => out3 m ρ c b
theorem left3 (c : Dev nD) (w : Fin cfg3.W) : (combineDat3 (ent3 m ρ) c).arrAt w cfg3.N = ext3 m ρ c (Pipeline.arrRef spec3 w) :=
  (out3_arr m ρ c w).symm
theorem kept3 (c : Dev nD) : ∀ b, b ∉ Finset.univ.image (Pipeline.arrRef spec3) → ext3 m ρ c b = ent3 m ρ c b :=
  fun b hb => out3_of_ne m ρ c b fun w e => hb (Finset.mem_image.mpr ⟨w, Finset.mem_univ _, e⟩)

/-! ## Launch 4 -/

/-- Entered after the host operations `hostOps4`. -/
abbrev in4 : Dev nD → Valuation τ sig (Elt F) := fun c => StableHlo.after hostOps4 (out3 m ρ c)
/-- The same read at the TensorCore's references. -/
abbrev ent4 : (c : Dev nD) → (b : Ref sig .tc) → Buf (Elt F) ((c : Thread nD τ).loc b) := fun c b => in4 m ρ c b
/-- Left with its arrays at what the pipeline leaves, every other buffer as entered. -/
def out4 (c : Dev nD) : Valuation τ sig (Elt F) :=
  Pipeline.withArrays spec4 c (in4 m ρ c) fun w => (scaleDat4 (ent4 m ρ) c).arrAt w cfg4.N
theorem out4_arr (c : Dev nD) (w : Fin cfg4.W) :
    out4 m ρ c (Proc.devRef .tc (Pipeline.arrRef spec4 w)) = (scaleDat4 (ent4 m ρ) c).arrAt w cfg4.N := by
  unfold out4; exact Pipeline.withArrays_arr spec4 launch4.win.arr_inj c _ _ w
theorem out4_of_ne (c : Dev nD) (b : Ref sig .tc) (hb : ∀ w, Pipeline.arrRef spec4 w ≠ b) :
    out4 m ρ c (Proc.devRef .tc b) = in4 m ρ c (Proc.devRef .tc b) := by
  unfold out4; exact Pipeline.withArrays_of_ne spec4 c _ _ b hb
/-- An input window's array is left as entered. -/
theorem out4_in_0 (c : Dev nD) :
    out4 m ρ c (Proc.devRef .tc (Pipeline.arrRef spec4 0)) = in4 m ρ c (Proc.devRef .tc (Pipeline.arrRef spec4 0)) :=
  (out4_arr m ρ c 0).trans (((scaleDat4 (ent4 m ρ) c).arrAt_in 0 rfl _).trans (scaleDat4_A (ent4 m ρ) c 0))
theorem out4_in_1 (c : Dev nD) :
    out4 m ρ c (Proc.devRef .tc (Pipeline.arrRef spec4 1)) = in4 m ρ c (Proc.devRef .tc (Pipeline.arrRef spec4 1)) :=
  (out4_arr m ρ c 1).trans (((scaleDat4 (ent4 m ρ) c).arrAt_in 1 rfl _).trans (scaleDat4_A (ent4 m ρ) c 1))
abbrev ext4 : (c : Dev nD) → (b : Ref sig .tc) → Buf (Elt F) ((c : Thread nD τ).loc b) := fun c b => out4 m ρ c b
theorem left4 (c : Dev nD) (w : Fin cfg4.W) : (scaleDat4 (ent4 m ρ) c).arrAt w cfg4.N = ext4 m ρ c (Pipeline.arrRef spec4 w) :=
  (out4_arr m ρ c w).symm
theorem kept4 (c : Dev nD) : ∀ b, b ∉ Finset.univ.image (Pipeline.arrRef spec4) → ext4 m ρ c b = ent4 m ρ c b :=
  fun b hb => out4_of_ne m ρ c b fun w e => hb (Finset.mem_image.mpr ⟨w, Finset.mem_univ _, e⟩)

/-! ## Launch 5 -/

/-- Entered after the host operations `hostOps5`. -/
abbrev in5 : Dev nD → Valuation τ sig (Elt F) := fun c => StableHlo.after hostOps5 (out4 m ρ c)
/-- The same read at the TensorCore's references. -/
abbrev ent5 : (c : Dev nD) → (b : Ref sig .tc) → Buf (Elt F) ((c : Thread nD τ).loc b) := fun c b => in5 m ρ c b
/-- Left with its arrays at what the pipeline leaves, every other buffer as entered. -/
def out5 (c : Dev nD) : Valuation τ sig (Elt F) :=
  Pipeline.withArrays spec5 c (in5 m ρ c) fun w => (combineDat5 (ent5 m ρ) c).arrAt w cfg5.N
theorem out5_arr (c : Dev nD) (w : Fin cfg5.W) :
    out5 m ρ c (Proc.devRef .tc (Pipeline.arrRef spec5 w)) = (combineDat5 (ent5 m ρ) c).arrAt w cfg5.N := by
  unfold out5; exact Pipeline.withArrays_arr spec5 launch5.win.arr_inj c _ _ w
theorem out5_of_ne (c : Dev nD) (b : Ref sig .tc) (hb : ∀ w, Pipeline.arrRef spec5 w ≠ b) :
    out5 m ρ c (Proc.devRef .tc b) = in5 m ρ c (Proc.devRef .tc b) := by
  unfold out5; exact Pipeline.withArrays_of_ne spec5 c _ _ b hb
/-- An input window's array is left as entered. -/
theorem out5_in_0 (c : Dev nD) :
    out5 m ρ c (Proc.devRef .tc (Pipeline.arrRef spec5 0)) = in5 m ρ c (Proc.devRef .tc (Pipeline.arrRef spec5 0)) :=
  (out5_arr m ρ c 0).trans (((combineDat5 (ent5 m ρ) c).arrAt_in 0 rfl _).trans (combineDat5_A (ent5 m ρ) c 0))
theorem out5_in_1 (c : Dev nD) :
    out5 m ρ c (Proc.devRef .tc (Pipeline.arrRef spec5 1)) = in5 m ρ c (Proc.devRef .tc (Pipeline.arrRef spec5 1)) :=
  (out5_arr m ρ c 1).trans (((combineDat5 (ent5 m ρ) c).arrAt_in 1 rfl _).trans (combineDat5_A (ent5 m ρ) c 1))
abbrev ext5 : (c : Dev nD) → (b : Ref sig .tc) → Buf (Elt F) ((c : Thread nD τ).loc b) := fun c b => out5 m ρ c b
theorem left5 (c : Dev nD) (w : Fin cfg5.W) : (combineDat5 (ent5 m ρ) c).arrAt w cfg5.N = ext5 m ρ c (Pipeline.arrRef spec5 w) :=
  (out5_arr m ρ c w).symm
theorem kept5 (c : Dev nD) : ∀ b, b ∉ Finset.univ.image (Pipeline.arrRef spec5) → ext5 m ρ c b = ent5 m ρ c b :=
  fun b hb => out5_of_ne m ρ c b fun w e => hb (Finset.mem_image.mpr ⟨w, Finset.mem_univ _, e⟩)

/-! ## Launch 6 -/

/-- Entered after the host operations `hostOps6`. -/
abbrev in6 : Dev nD → Valuation τ sig (Elt F) := fun c => StableHlo.after hostOps6 (out5 m ρ c)
/-- The same read at the TensorCore's references. -/
abbrev ent6 : (c : Dev nD) → (b : Ref sig .tc) → Buf (Elt F) ((c : Thread nD τ).loc b) := fun c b => in6 m ρ c b
/-- Left with its arrays at what the pipeline leaves, every other buffer as entered. -/
def out6 (c : Dev nD) : Valuation τ sig (Elt F) :=
  Pipeline.withArrays spec6 c (in6 m ρ c) fun w => (scaleDat6 (ent6 m ρ) c).arrAt w cfg6.N
theorem out6_arr (c : Dev nD) (w : Fin cfg6.W) :
    out6 m ρ c (Proc.devRef .tc (Pipeline.arrRef spec6 w)) = (scaleDat6 (ent6 m ρ) c).arrAt w cfg6.N := by
  unfold out6; exact Pipeline.withArrays_arr spec6 launch6.win.arr_inj c _ _ w
theorem out6_of_ne (c : Dev nD) (b : Ref sig .tc) (hb : ∀ w, Pipeline.arrRef spec6 w ≠ b) :
    out6 m ρ c (Proc.devRef .tc b) = in6 m ρ c (Proc.devRef .tc b) := by
  unfold out6; exact Pipeline.withArrays_of_ne spec6 c _ _ b hb
/-- An input window's array is left as entered. -/
theorem out6_in_0 (c : Dev nD) :
    out6 m ρ c (Proc.devRef .tc (Pipeline.arrRef spec6 0)) = in6 m ρ c (Proc.devRef .tc (Pipeline.arrRef spec6 0)) :=
  (out6_arr m ρ c 0).trans (((scaleDat6 (ent6 m ρ) c).arrAt_in 0 rfl _).trans (scaleDat6_A (ent6 m ρ) c 0))
theorem out6_in_1 (c : Dev nD) :
    out6 m ρ c (Proc.devRef .tc (Pipeline.arrRef spec6 1)) = in6 m ρ c (Proc.devRef .tc (Pipeline.arrRef spec6 1)) :=
  (out6_arr m ρ c 1).trans (((scaleDat6 (ent6 m ρ) c).arrAt_in 1 rfl _).trans (scaleDat6_A (ent6 m ρ) c 1))
abbrev ext6 : (c : Dev nD) → (b : Ref sig .tc) → Buf (Elt F) ((c : Thread nD τ).loc b) := fun c b => out6 m ρ c b
theorem left6 (c : Dev nD) (w : Fin cfg6.W) : (scaleDat6 (ent6 m ρ) c).arrAt w cfg6.N = ext6 m ρ c (Pipeline.arrRef spec6 w) :=
  (out6_arr m ρ c w).symm
theorem kept6 (c : Dev nD) : ∀ b, b ∉ Finset.univ.image (Pipeline.arrRef spec6) → ext6 m ρ c b = ent6 m ρ c b :=
  fun b hb => out6_of_ne m ρ c b fun w e => hb (Finset.mem_image.mpr ⟨w, Finset.mem_univ _, e⟩)

/-! ## Launch 7 -/

/-- Entered after the host operations `hostOps7`. -/
abbrev in7 : Dev nD → Valuation τ sig (Elt F) := fun c => StableHlo.after hostOps7 (out6 m ρ c)
/-- The same read at the TensorCore's references. -/
abbrev ent7 : (c : Dev nD) → (b : Ref sig .tc) → Buf (Elt F) ((c : Thread nD τ).loc b) := fun c b => in7 m ρ c b
/-- Left with its arrays at what the pipeline leaves, every other buffer as entered. -/
def out7 (c : Dev nD) : Valuation τ sig (Elt F) :=
  Pipeline.withArrays spec7 c (in7 m ρ c) fun w => (combineDat7 (ent7 m ρ) c).arrAt w cfg7.N
theorem out7_arr (c : Dev nD) (w : Fin cfg7.W) :
    out7 m ρ c (Proc.devRef .tc (Pipeline.arrRef spec7 w)) = (combineDat7 (ent7 m ρ) c).arrAt w cfg7.N := by
  unfold out7; exact Pipeline.withArrays_arr spec7 launch7.win.arr_inj c _ _ w
theorem out7_of_ne (c : Dev nD) (b : Ref sig .tc) (hb : ∀ w, Pipeline.arrRef spec7 w ≠ b) :
    out7 m ρ c (Proc.devRef .tc b) = in7 m ρ c (Proc.devRef .tc b) := by
  unfold out7; exact Pipeline.withArrays_of_ne spec7 c _ _ b hb
/-- An input window's array is left as entered. -/
theorem out7_in_0 (c : Dev nD) :
    out7 m ρ c (Proc.devRef .tc (Pipeline.arrRef spec7 0)) = in7 m ρ c (Proc.devRef .tc (Pipeline.arrRef spec7 0)) :=
  (out7_arr m ρ c 0).trans (((combineDat7 (ent7 m ρ) c).arrAt_in 0 rfl _).trans (combineDat7_A (ent7 m ρ) c 0))
theorem out7_in_1 (c : Dev nD) :
    out7 m ρ c (Proc.devRef .tc (Pipeline.arrRef spec7 1)) = in7 m ρ c (Proc.devRef .tc (Pipeline.arrRef spec7 1)) :=
  (out7_arr m ρ c 1).trans (((combineDat7 (ent7 m ρ) c).arrAt_in 1 rfl _).trans (combineDat7_A (ent7 m ρ) c 1))
abbrev ext7 : (c : Dev nD) → (b : Ref sig .tc) → Buf (Elt F) ((c : Thread nD τ).loc b) := fun c b => out7 m ρ c b
theorem left7 (c : Dev nD) (w : Fin cfg7.W) : (combineDat7 (ent7 m ρ) c).arrAt w cfg7.N = ext7 m ρ c (Pipeline.arrRef spec7 w) :=
  (out7_arr m ρ c w).symm
theorem kept7 (c : Dev nD) : ∀ b, b ∉ Finset.univ.image (Pipeline.arrRef spec7) → ext7 m ρ c b = ent7 m ρ c b :=
  fun b hb => out7_of_ne m ρ c b fun w e => hb (Finset.mem_image.mpr ⟨w, Finset.mem_univ _, e⟩)

/-- After the last host operations: what the program returns from. -/
abbrev last : Dev nD → Valuation τ sig (Elt F) := fun c => StableHlo.after hostOps8 (out7 m ρ c)

/-! ## The proof data family and what rides along -/

/-- No launch has a prefetched table. -/
abbrev noTables : (p : Fin 8) → (pcfgs (F := F) p).Adm := fun p => (cfgs p).toPCfg_adm
/-- Every launch's proof data, each at its entry contents: a literal match on the launch. -/
def pdats : (p : Fin 8) → (c : Dev nD) → Dat τ (Elt F) Unit ℕ (UR sig nD τ) ℕ (Pipeline.pin (pcfgs (F := F)) noTables p) c
  | ⟨0, _⟩ => fun c => scaleDat0 (ent0 m ρ) c
  | ⟨1, _⟩ => fun c => combineDat1 (ent1 m ρ) c
  | ⟨2, _⟩ => fun c => scaleDat2 (ent2 m ρ) c
  | ⟨3, _⟩ => fun c => combineDat3 (ent3 m ρ) c
  | ⟨4, _⟩ => fun c => scaleDat4 (ent4 m ρ) c
  | ⟨5, _⟩ => fun c => combineDat5 (ent5 m ρ) c
  | ⟨6, _⟩ => fun c => scaleDat6 (ent6 m ρ) c
  | ⟨7, _⟩ => fun c => combineDat7 (ent7 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Diffusion

end
-- ==== Proof.Bits.Seg0.lean ====
/-
  Edge scaling, diffusion step 1 (launch 0 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 0 over the thread state: entered from every unscoped buffer at `in0`, left at `out0`. Its arrays are
    split out of the unscoped buffers and put back at the exit contents; the generator register goes into the pipeline's
    invariant and comes out; nothing is owed; the kernel has no semaphore of its own. -/
def launchSeg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (scale_obligation0 (ent0 m ρ) c).loose
  hwaits := Pipeline.hwaits_of_owed_zero _ _ _ _ L lv 0 fun _ _ => rfl
  pre c := iprop(StableHlo.held (c : Thread nD τ) (Pipeline.ucRefs τ sig) (in0 m ρ c) ∗ R c)
  post c := iprop(StableHlo.held (c : Thread nD τ) (Pipeline.ucRefs τ sig) (out0 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg1.lean ====
/-
  The node update, diffusion step 1 (launch 1 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 1 over the thread state: entered from every unscoped buffer at `in1`, left at `out1`. Its arrays are
    split out of the unscoped buffers and put back at the exit contents; the generator register goes into the pipeline's
    invariant and comes out; nothing is owed; the kernel has no semaphore of its own. -/
def launchSeg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (combine_obligation1 (ent1 m ρ) c).loose
  hwaits := Pipeline.hwaits_of_owed_zero _ _ _ _ L lv 1 fun _ _ => rfl
  pre c := iprop(StableHlo.held (c : Thread nD τ) (Pipeline.ucRefs τ sig) (in1 m ρ c) ∗ R c)
  post c := iprop(StableHlo.held (c : Thread nD τ) (Pipeline.ucRefs τ sig) (out1 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg2.lean ====
/-
  Edge scaling, diffusion step 2 (launch 2 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 2 over the thread state: entered from every unscoped buffer at `in2`, left at `out2`. Its arrays are
    split out of the unscoped buffers and put back at the exit contents; the generator register goes into the pipeline's
    invariant and comes out; nothing is owed; the kernel has no semaphore of its own. -/
def launchSeg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (scale_obligation2 (ent2 m ρ) c).loose
  hwaits := Pipeline.hwaits_of_owed_zero _ _ _ _ L lv 2 fun _ _ => rfl
  pre c := iprop(StableHlo.held (c : Thread nD τ) (Pipeline.ucRefs τ sig) (in2 m ρ c) ∗ R c)
  post c := iprop(StableHlo.held (c : Thread nD τ) (Pipeline.ucRefs τ sig) (out2 m ρ c) ∗ R c)
  X c := iprop(∃ r, prngReg c r)
  Y c := iprop(∃ r, prngReg c r)
  Z c := Pipeline.unscopedRest (Ix := Unit) (Name := ℕ) (U := UR sig nD τ) (Lvl := ℕ) spec2 c (ent2 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (ent2 m ρ c) (ext2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg3.lean ====
/-
  The node update, diffusion step 2 (launch 3 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 3 over the thread state: entered from every unscoped buffer at `in3`, left at `out3`. Its arrays are
    split out of the unscoped buffers and put back at the exit contents; the generator register goes into the pipeline's
    invariant and comes out; nothing is owed; the kernel has no semaphore of its own. -/
def launchSeg3 : Pipeline.RegionSeg (pcfgs (F := F)) noTables (pdats m ρ) () defs₀ 𝒱₀ L lv 3 where
  win := launch3.win.to₀
  block_pos := launch3.block_pos
  stage_whole := launch3.stage_whole
  K := PEmpty
  osem k := k.elim
  ho := Pipeline.OwnSemFacts.none _
  hbody c := (combine_obligation3 (ent3 m ρ) c).loose
  hwaits := Pipeline.hwaits_of_owed_zero _ _ _ _ L lv 3 fun _ _ => rfl
  pre c := iprop(StableHlo.held (c : Thread nD τ) (Pipeline.ucRefs τ sig) (in3 m ρ c) ∗ R c)
  post c := iprop(StableHlo.held (c : Thread nD τ) (Pipeline.ucRefs τ sig) (out3 m ρ c) ∗ R c)
  X c := iprop(∃ r, prngReg c r)
  Y c := iprop(∃ r, prngReg c r)
  Z c := Pipeline.unscopedRest (Ix := Unit) (Name := ℕ) (U := UR sig nD τ) (Lvl := ℕ) spec3 c (ent3 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (ent3 m ρ c) (ext3 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg4.lean ====
/-
  Edge scaling, diffusion step 3 (launch 4 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 4 over the thread state: entered from every unscoped buffer at `in4`, left at `out4`. Its arrays are
    split out of the unscoped buffers and put back at the exit contents; the generator register goes into the pipeline's
    invariant and comes out; nothing is owed; the kernel has no semaphore of its own. -/
def launchSeg4 : Pipeline.RegionSeg (pcfgs (F := F)) noTables (pdats m ρ) () defs₀ 𝒱₀ L lv 4 where
  win := launch4.win.to₀
  block_pos := launch4.block_pos
  stage_whole := launch4.stage_whole
  K := PEmpty
  osem k := k.elim
  ho := Pipeline.OwnSemFacts.none _
  hbody c := (scale_obligation4 (ent4 m ρ) c).loose
  hwaits := Pipeline.hwaits_of_owed_zero _ _ _ _ L lv 4 fun _ _ => rfl
  pre c := iprop(StableHlo.held (c : Thread nD τ) (Pipeline.ucRefs τ sig) (in4 m ρ c) ∗ R c)
  post c := iprop(StableHlo.held (c : Thread nD τ) (Pipeline.ucRefs τ sig) (out4 m ρ c) ∗ R c)
  X c := iprop(∃ r, prngReg c r)
  Y c := iprop(∃ r, prngReg c r)
  Z c := Pipeline.unscopedRest (Ix := Unit) (Name := ℕ) (U := UR sig nD τ) (Lvl := ℕ) spec4 c (ent4 m ρ c)
  hentry c := by
    rw [Pipeline.ownSems0_none]
    have hsplit := Pipeline.arrays_of_unscopedBufs (p := 4) (pcfgs (F := F)) noTables (pdats m ρ) launch4.win launch4.arr_whole c
      ((pdats m ρ 4 c).share_full fun _ => rfl) (ent4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (pdats m ρ) ((pdats m ρ 4 c).share_full fun _ => rfl)
      (ent4 m ρ c) (ext4 m ρ c) ((pdats m ρ 4 c).arrAt · cfg4.N) (left4 m ρ c) (kept4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg5.lean ====
/-
  The node update, diffusion step 3 (launch 5 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 5 over the thread state: entered from every unscoped buffer at `in5`, left at `out5`. Its arrays are
    split out of the unscoped buffers and put back at the exit contents; the generator register goes into the pipeline's
    invariant and comes out; nothing is owed; the kernel has no semaphore of its own. -/
def launchSeg5 : Pipeline.RegionSeg (pcfgs (F := F)) noTables (pdats m ρ) () defs₀ 𝒱₀ L lv 5 where
  win := launch5.win.to₀
  block_pos := launch5.block_pos
  stage_whole := launch5.stage_whole
  K := PEmpty
  osem k := k.elim
  ho := Pipeline.OwnSemFacts.none _
  hbody c := (combine_obligation5 (ent5 m ρ) c).loose
  hwaits := Pipeline.hwaits_of_owed_zero _ _ _ _ L lv 5 fun _ _ => rfl
  pre c := iprop(StableHlo.held (c : Thread nD τ) (Pipeline.ucRefs τ sig) (in5 m ρ c) ∗ R c)
  post c := iprop(StableHlo.held (c : Thread nD τ) (Pipeline.ucRefs τ sig) (out5 m ρ c) ∗ R c)
  X c := iprop(∃ r, prngReg c r)
  Y c := iprop(∃ r, prngReg c r)
  Z c := Pipeline.unscopedRest (Ix := Unit) (Name := ℕ) (U := UR sig nD τ) (Lvl := ℕ) spec5 c (ent5 m ρ c)
  hentry c := by
    rw [Pipeline.ownSems0_none]
    have hsplit := Pipeline.arrays_of_unscopedBufs (p := 5) (pcfgs (F := F)) noTables (pdats m ρ) launch5.win launch5.arr_whole c
      ((pdats m ρ 5 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (pdats m ρ) ((pdats m ρ 5 c).share_full fun _ => rfl)
      (ent5 m ρ c) (ext5 m ρ c) ((pdats m ρ 5 c).arrAt · cfg5.N) (left5 m ρ c) (kept5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg6.lean ====
/-
  Edge scaling, diffusion step 4 (launch 6 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 6 over the thread state: entered from every unscoped buffer at `in6`, left at `out6`. Its arrays are
    split out of the unscoped buffers and put back at the exit contents; the generator register goes into the pipeline's
    invariant and comes out; nothing is owed; the kernel has no semaphore of its own. -/
def launchSeg6 : Pipeline.RegionSeg (pcfgs (F := F)) noTables (pdats m ρ) () defs₀ 𝒱₀ L lv 6 where
  win := launch6.win.to₀
  block_pos := launch6.block_pos
  stage_whole := launch6.stage_whole
  K := PEmpty
  osem k := k.elim
  ho := Pipeline.OwnSemFacts.none _
  hbody c := (scale_obligation6 (ent6 m ρ) c).loose
  hwaits := Pipeline.hwaits_of_owed_zero _ _ _ _ L lv 6 fun _ _ => rfl
  pre c := iprop(StableHlo.held (c : Thread nD τ) (Pipeline.ucRefs τ sig) (in6 m ρ c) ∗ R c)
  post c := iprop(StableHlo.held (c : Thread nD τ) (Pipeline.ucRefs τ sig) (out6 m ρ c) ∗ R c)
  X c := iprop(∃ r, prngReg c r)
  Y c := iprop(∃ r, prngReg c r)
  Z c := Pipeline.unscopedRest (Ix := Unit) (Name := ℕ) (U := UR sig nD τ) (Lvl := ℕ) spec6 c (ent6 m ρ c)
  hentry c := by
    rw [Pipeline.ownSems0_none]
    have hsplit := Pipeline.arrays_of_unscopedBufs (p := 6) (pcfgs (F := F)) noTables (pdats m ρ) launch6.win launch6.arr_whole c
      ((pdats m ρ 6 c).share_full fun _ => rfl) (ent6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := UR sig nD τ) (Lvl := ℕ)
      launch6.win launch6.arr_whole c (pdats m ρ) ((pdats m ρ 6 c).share_full fun _ => rfl)
      (ent6 m ρ c) (ext6 m ρ c) ((pdats m ρ 6 c).arrAt · cfg6.N) (left6 m ρ c) (kept6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Seg7.lean ====
/-
  The node update, diffusion step 4 (launch 7 of the program), as one segment of the program's run: from the thread state
  "every unscoped buffer at the launch's entry contents, the generator register at some state, nothing owed" to the
  same at its exit contents, for any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 7 over the thread state: entered from every unscoped buffer at `in7`, left at `out7`. Its arrays are
    split out of the unscoped buffers and put back at the exit contents; the generator register goes into the pipeline's
    invariant and comes out; nothing is owed; the kernel has no semaphore of its own. -/
def launchSeg7 : Pipeline.RegionSeg (pcfgs (F := F)) noTables (pdats m ρ) () defs₀ 𝒱₀ L lv 7 where
  win := launch7.win.to₀
  block_pos := launch7.block_pos
  stage_whole := launch7.stage_whole
  K := PEmpty
  osem k := k.elim
  ho := Pipeline.OwnSemFacts.none _
  hbody c := (combine_obligation7 (ent7 m ρ) c).loose
  hwaits := Pipeline.hwaits_of_owed_zero _ _ _ _ L lv 7 fun _ _ => rfl
  pre c := iprop(StableHlo.held (c : Thread nD τ) (Pipeline.ucRefs τ sig) (in7 m ρ c) ∗ R c)
  post c := iprop(StableHlo.held (c : Thread nD τ) (Pipeline.ucRefs τ sig) (out7 m ρ c) ∗ R c)
  X c := iprop(∃ r, prngReg c r)
  Y c := iprop(∃ r, prngReg c r)
  Z c := Pipeline.unscopedRest (Ix := Unit) (Name := ℕ) (U := UR sig nD τ) (Lvl := ℕ) spec7 c (ent7 m ρ c)
  hentry c := by
    rw [Pipeline.ownSems0_none]
    have hsplit := Pipeline.arrays_of_unscopedBufs (p := 7) (pcfgs (F := F)) noTables (pdats m ρ) launch7.win launch7.arr_whole c
      ((pdats m ρ 7 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) noTables (Ix := Unit) (Name := ℕ) (U := UR sig nD τ) (Lvl := ℕ)
      launch7.win launch7.arr_whole c (pdats m ρ) ((pdats m ρ 7 c).share_full fun _ => rfl)
      (ent7 m ρ c) (ext7 m ρ c) ((pdats m ρ 7 c).arrAt · cfg7.N) (left7 m ρ c) (kept7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Diffusion

end
-- ==== Proof.Bits.Run.lean ====
/-
  The whole run, for any float instance: from any memory with zero counters, every weakly fair execution of the program
  on the TensorCore ends, nothing faulting, with every unscoped buffer at the contents the fold of the program gives it
  (`last`). The program is nine stretches of host operations with the eight launches between them; each stretch is a
  segment over the buffers' contents, each launch its segment, and the segments chain: what one leaves is what the next
  is entered from.
-/
import proofs.«173453_j38800734552802_1_alg».proof.Proof.Bits.Seg0
import proofs.«173453_j38800734552802_1_alg».proof.Proof.Bits.Seg1
import proofs.«173453_j38800734552802_1_alg».proof.Proof.Bits.Seg2
import proofs.«173453_j38800734552802_1_alg».proof.Proof.Bits.Seg3
import proofs.«173453_j38800734552802_1_alg».proof.Proof.Bits.Seg4
import proofs.«173453_j38800734552802_1_alg».proof.Proof.Bits.Seg5
import proofs.«173453_j38800734552802_1_alg».proof.Proof.Bits.Seg6
import proofs.«173453_j38800734552802_1_alg».proof.Proof.Bits.Seg7

set_option maxRecDepth 16384

noncomputable section

namespace Cert.Kernel.Diffusion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seventeen segments in order. -/
abbrev runSegs : List (Pipeline.Seg (pcfgs (F := F)) noTables (pdats m ρ) () defs₀ 𝒱₀ L lv) :=
  [ .host (hseg hostOps0 hostOps0_sub hostOps0_fresh (start m ρ)),
    .region (launchSeg0 m ρ),
    .host (hseg hostOps1 hostOps1_sub hostOps1_fresh (out0 m ρ)),
    .region (launchSeg1 m ρ),
    .host (hseg hostOps2 hostOps2_sub hostOps2_fresh (out1 m ρ)),
    .region (launchSeg2 m ρ),
    .host (hseg hostOps3 hostOps3_sub hostOps3_fresh (out2 m ρ)),
    .region (launchSeg3 m ρ),
    .host (hseg hostOps4 hostOps4_sub hostOps4_fresh (out3 m ρ)),
    .region (launchSeg4 m ρ),
    .host (hseg hostOps5 hostOps5_sub hostOps5_fresh (out4 m ρ)),
    .region (launchSeg5 m ρ),
    .host (hseg hostOps6 hostOps6_sub hostOps6_fresh (out5 m ρ)),
    .region (launchSeg6 m ρ),
    .host (hseg hostOps7 hostOps7_sub hostOps7_fresh (out6 m ρ)),
    .region (launchSeg7 m ρ),
    .host (hseg hostOps8 hostOps8_sub hostOps8_fresh (out7 m ρ)) ]

/-- The last thread state without the dues: every unscoped buffer at the last contents, the generator register at some state. -/
abbrev lastState (c : Dev nD) : sProp 𝕄 :=
  iprop(StableHlo.held (c : Thread nD τ) (Pipeline.ucRefs τ sig) (last m ρ c) ∗ ∃ r, prngReg c r)

-- the launch theorem's implicit arguments are found by unifying its conclusion with this one, which takes unfolding
-- plain definitions in a metavariable's type
set_option backward.isDefEq.respectTransparency.types false in
/-- Every weakly fair execution ends with every unscoped buffer at `last`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = last m ρ c b) :=
  Pipeline.θ_run_regions_kit (pcfgs (F := F)) noTables (pdats m ρ) () cellOf_inj emb₁ defs₀ 𝒱₀ L lv m ρ main (runSegs m ρ)
    (fun c Q => by
      rewrite [main_chain c, Pipeline.Seg.run_eq_chain,
        show (runSegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (start m ρ c) ∗ R c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (last m ρ c) ∗ R c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (start m ρ c)
        from Pipeline.unscopedBufs_held c (start m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = last m ρ c b)
    (hfin := fun c s' => by
      iintro ⟨⟨Hh, -⟩, HSI⟩
      unfold StableHlo.held
      imodintro
      iapply (pointsTo_read_all (Pipeline.ucRefs τ sig) (fun b => (((c : Thread nD τ)).1, b)) (last m ρ c) s')
      isplitl [Hh] <;> iassumption)
    (hQ := fun s h => h)

end Cert.Kernel.Diffusion

end
-- ==== Proof.Bits.Carry.lean ====
/-
  Buffers that pass through the run unchanged: the three argument arrays (from the start to the end), and the padded
  source and target index arrays and the weight column (from the first launch's entry on). A launch changes only its
  output window's array; a stretch of host operations only the buffers of its own results. For any float instance.
-/
import proofs.«173453_j38800734552802_1_alg».proof.Proof.Bits.Fold

set_option maxRecDepth 16384

noncomputable section

namespace Cert.Kernel.Diffusion

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## Through launch 0 -/
theorem pass0_main_arg0 (c : Dev nD) : out0 m ρ c (Proc.devRef .tc main_arg0) = start m ρ c (Proc.devRef .tc main_arg0) :=
  (out0_of_ne m ρ c main_arg0 (by decide)).trans (StableHlo.after_of_writes_sub hostOps0 _ hostOps0_writes (by decide))
theorem pass0_main_arg1 (c : Dev nD) : out0 m ρ c (Proc.devRef .tc main_arg1) = start m ρ c (Proc.devRef .tc main_arg1) :=
  (out0_of_ne m ρ c main_arg1 (by decide)).trans (StableHlo.after_of_writes_sub hostOps0 _ hostOps0_writes (by decide))
theorem pass0_main_arg2 (c : Dev nD) : out0 m ρ c (Proc.devRef .tc main_arg2) = start m ρ c (Proc.devRef .tc main_arg2) :=
  (out0_of_ne m ρ c main_arg2 (by decide)).trans (StableHlo.after_of_writes_sub hostOps0 _ hostOps0_writes (by decide))
theorem pass0_main_v28 (c : Dev nD) : out0 m ρ c (Proc.devRef .tc main_v28) = in0 m ρ c (Proc.devRef .tc main_v28) :=
  (out0_of_ne m ρ c main_v28 (by decide))
theorem pass0_main_v29 (c : Dev nD) : out0 m ρ c (Proc.devRef .tc main_v29) = in0 m ρ c (Proc.devRef .tc main_v29) :=
  (out0_of_ne m ρ c main_v29 (by decide))
theorem pass0_main_v31 (c : Dev nD) : out0 m ρ c (Proc.devRef .tc main_v31) = in0 m ρ c (Proc.devRef .tc main_v31) :=
  (show out0 m ρ c (Proc.devRef .tc (Pipeline.arrRef spec0 1)) = in0 m ρ c (Proc.devRef .tc (Pipeline.arrRef spec0 1)) from out0_in_1 m ρ c)

/-! ## Through launch 1 -/
theorem pass1_main_arg0 (c : Dev nD) : out1 m ρ c (Proc.devRef .tc main_arg0) = out0 m ρ c (Proc.devRef .tc main_arg0) :=
  (show out1 m ρ c (Proc.devRef .tc (Pipeline.arrRef spec1 1)) = in1 m ρ c (Proc.devRef .tc (Pipeline.arrRef spec1 1)) from out1_in_1 m ρ c).trans (StableHlo.after_of_writes_sub hostOps1 _ hostOps1_writes (by decide))
theorem pass1_main_arg1 (c : Dev nD) : out1 m ρ c (Proc.devRef .tc main_arg1) = out0 m ρ c (Proc.devRef .tc main_arg1) :=
  (out1_of_ne m ρ c main_arg1 (by decide)).trans (StableHlo.after_of_writes_sub hostOps1 _ hostOps1_writes (by decide))
theorem pass1_main_arg2 (c : Dev nD) : out1 m ρ c (Proc.devRef .tc main_arg2) = out0 m ρ c (Proc.devRef .tc main_arg2) :=
  (out1_of_ne m ρ c main_arg2 (by decide)).trans (StableHlo.after_of_writes_sub hostOps1 _ hostOps1_writes (by decide))
theorem pass1_main_v28 (c : Dev nD) : out1 m ρ c (Proc.devRef .tc main_v28) = out0 m ρ c (Proc.devRef .tc main_v28) :=
  (out1_of_ne m ρ c main_v28 (by decide)).trans (StableHlo.after_of_writes_sub hostOps1 _ hostOps1_writes (by decide))
theorem pass1_main_v29 (c : Dev nD) : out1 m ρ c (Proc.devRef .tc main_v29) = out0 m ρ c (Proc.devRef .tc main_v29) :=
  (out1_of_ne m ρ c main_v29 (by decide)).trans (StableHlo.after_of_writes_sub hostOps1 _ hostOps1_writes (by decide))
theorem pass1_main_v31 (c : Dev nD) : out1 m ρ c (Proc.devRef .tc main_v31) = out0 m ρ c (Proc.devRef .tc main_v31) :=
  (out1_of_ne m ρ c main_v31 (by decide)).trans (StableHlo.after_of_writes_sub hostOps1 _ hostOps1_writes (by decide))

/-! ## Through launch 2 -/
theorem pass2_main_arg0 (c : Dev nD) : out2 m ρ c (Proc.devRef .tc main_arg0) = out1 m ρ c (Proc.devRef .tc main_arg0) :=
  (out2_of_ne m ρ c main_arg0 (by decide)).trans (StableHlo.after_of_writes_sub hostOps2 _ hostOps2_writes (by decide))
theorem pass2_main_arg1 (c : Dev nD) : out2 m ρ c (Proc.devRef .tc main_arg1) = out1 m ρ c (Proc.devRef .tc main_arg1) :=
  (out2_of_ne m ρ c main_arg1 (by decide)).trans (StableHlo.after_of_writes_sub hostOps2 _ hostOps2_writes (by decide))
theorem pass2_main_arg2 (c : Dev nD) : out2 m ρ c (Proc.devRef .tc main_arg2) = out1 m ρ c (Proc.devRef .tc main_arg2) :=
  (out2_of_ne m ρ c main_arg2 (by decide)).trans (StableHlo.after_of_writes_sub hostOps2 _ hostOps2_writes (by decide))
theorem pass2_main_v28 (c : Dev nD) : out2 m ρ c (Proc.devRef .tc main_v28) = out1 m ρ c (Proc.devRef .tc main_v28) :=
  (out2_of_ne m ρ c main_v28 (by decide)).trans (StableHlo.after_of_writes_sub hostOps2 _ hostOps2_writes (by decide))
theorem pass2_main_v29 (c : Dev nD) : out2 m ρ c (Proc.devRef .tc main_v29) = out1 m ρ c (Proc.devRef .tc main_v29) :=
  (out2_of_ne m ρ c main_v29 (by decide)).trans (StableHlo.after_of_writes_sub hostOps2 _ hostOps2_writes (by decide))
theorem pass2_main_v31 (c : Dev nD) : out2 m ρ c (Proc.devRef .tc main_v31) = out1 m ρ c (Proc.devRef .tc main_v31) :=
  (show out2 m ρ c (Proc.devRef .tc (Pipeline.arrRef spec2 1)) = in2 m ρ c (Proc.devRef .tc (Pipeline.arrRef spec2 1)) from out2_in_1 m ρ c).trans (StableHlo.after_of_writes_sub hostOps2 _ hostOps2_writes (by decide))

/-! ## Through launch 3 -/
theorem pass3_main_arg0 (c : Dev nD) : out3 m ρ c (Proc.devRef .tc main_arg0) = out2 m ρ c (Proc.devRef .tc main_arg0) :=
  (show out3 m ρ c (Proc.devRef .tc (Pipeline.arrRef spec3 1)) = in3 m ρ c (Proc.devRef .tc (Pipeline.arrRef spec3 1)) from out3_in_1 m ρ c).trans (StableHlo.after_of_writes_sub hostOps3 _ hostOps3_writes (by decide))
theorem pass3_main_arg1 (c : Dev nD) : out3 m ρ c (Proc.devRef .tc main_arg1) = out2 m ρ c (Proc.devRef .tc main_arg1) :=
  (out3_of_ne m ρ c main_arg1 (by decide)).trans (StableHlo.after_of_writes_sub hostOps3 _ hostOps3_writes (by decide))
theorem pass3_main_arg2 (c : Dev nD) : out3 m ρ c (Proc.devRef .tc main_arg2) = out2 m ρ c (Proc.devRef .tc main_arg2) :=
  (out3_of_ne m ρ c main_arg2 (by decide)).trans (StableHlo.after_of_writes_sub hostOps3 _ hostOps3_writes (by decide))
theorem pass3_main_v28 (c : Dev nD) : out3 m ρ c (Proc.devRef .tc main_v28) = out2 m ρ c (Proc.devRef .tc main_v28) :=
  (out3_of_ne m ρ c main_v28 (by decide)).trans (StableHlo.after_of_writes_sub hostOps3 _ hostOps3_writes (by decide))
theorem pass3_main_v29 (c : Dev nD) : out3 m ρ c (Proc.devRef .tc main_v29) = out2 m ρ c (Proc.devRef .tc main_v29) :=
  (out3_of_ne m ρ c main_v29 (by decide)).trans (StableHlo.after_of_writes_sub hostOps3 _ hostOps3_writes (by decide))
theorem pass3_main_v31 (c : Dev nD) : out3 m ρ c (Proc.devRef .tc main_v31) = out2 m ρ c (Proc.devRef .tc main_v31) :=
  (out3_of_ne m ρ c main_v31 (by decide)).trans (StableHlo.after_of_writes_sub hostOps3 _ hostOps3_writes (by decide))

/-! ## Through launch 4 -/
theorem pass4_main_arg0 (c : Dev nD) : out4 m ρ c (Proc.devRef .tc main_arg0) = out3 m ρ c (Proc.devRef .tc main_arg0) :=
  (out4_of_ne m ρ c main_arg0 (by decide)).trans (StableHlo.after_of_writes_sub hostOps4 _ hostOps4_writes (by decide))
theorem pass4_main_arg1 (c : Dev nD) : out4 m ρ c (Proc.devRef .tc main_arg1) = out3 m ρ c (Proc.devRef .tc main_arg1) :=
  (out4_of_ne m ρ c main_arg1 (by decide)).trans (StableHlo.after_of_writes_sub hostOps4 _ hostOps4_writes (by decide))
theorem pass4_main_arg2 (c : Dev nD) : out4 m ρ c (Proc.devRef .tc main_arg2) = out3 m ρ c (Proc.devRef .tc main_arg2) :=
  (out4_of_ne m ρ c main_arg2 (by decide)).trans (StableHlo.after_of_writes_sub hostOps4 _ hostOps4_writes (by decide))
theorem pass4_main_v28 (c : Dev nD) : out4 m ρ c (Proc.devRef .tc main_v28) = out3 m ρ c (Proc.devRef .tc main_v28) :=
  (out4_of_ne m ρ c main_v28 (by decide)).trans (StableHlo.after_of_writes_sub hostOps4 _ hostOps4_writes (by decide))
theorem pass4_main_v29 (c : Dev nD) : out4 m ρ c (Proc.devRef .tc main_v29) = out3 m ρ c (Proc.devRef .tc main_v29) :=
  (out4_of_ne m ρ c main_v29 (by decide)).trans (StableHlo.after_of_writes_sub hostOps4 _ hostOps4_writes (by decide))
theorem pass4_main_v31 (c : Dev nD) : out4 m ρ c (Proc.devRef .tc main_v31) = out3 m ρ c (Proc.devRef .tc main_v31) :=
  (show out4 m ρ c (Proc.devRef .tc (Pipeline.arrRef spec4 1)) = in4 m ρ c (Proc.devRef .tc (Pipeline.arrRef spec4 1)) from out4_in_1 m ρ c).trans (StableHlo.after_of_writes_sub hostOps4 _ hostOps4_writes (by decide))

/-! ## Through launch 5 -/
theorem pass5_main_arg0 (c : Dev nD) : out5 m ρ c (Proc.devRef .tc main_arg0) = out4 m ρ c (Proc.devRef .tc main_arg0) :=
  (show out5 m ρ c (Proc.devRef .tc (Pipeline.arrRef spec5 1)) = in5 m ρ c (Proc.devRef .tc (Pipeline.arrRef spec5 1)) from out5_in_1 m ρ c).trans (StableHlo.after_of_writes_sub hostOps5 _ hostOps5_writes (by decide))
theorem pass5_main_arg1 (c : Dev nD) : out5 m ρ c (Proc.devRef .tc main_arg1) = out4 m ρ c (Proc.devRef .tc main_arg1) :=
  (out5_of_ne m ρ c main_arg1 (by decide)).trans (StableHlo.after_of_writes_sub hostOps5 _ hostOps5_writes (by decide))
theorem pass5_main_arg2 (c : Dev nD) : out5 m ρ c (Proc.devRef .tc main_arg2) = out4 m ρ c (Proc.devRef .tc main_arg2) :=
  (out5_of_ne m ρ c main_arg2 (by decide)).trans (StableHlo.after_of_writes_sub hostOps5 _ hostOps5_writes (by decide))
theorem pass5_main_v28 (c : Dev nD) : out5 m ρ c (Proc.devRef .tc main_v28) = out4 m ρ c (Proc.devRef .tc main_v28) :=
  (out5_of_ne m ρ c main_v28 (by decide)).trans (StableHlo.after_of_writes_sub hostOps5 _ hostOps5_writes (by decide))
theorem pass5_main_v29 (c : Dev nD) : out5 m ρ c (Proc.devRef .tc main_v29) = out4 m ρ c (Proc.devRef .tc main_v29) :=
  (out5_of_ne m ρ c main_v29 (by decide)).trans (StableHlo.after_of_writes_sub hostOps5 _ hostOps5_writes (by decide))
theorem pass5_main_v31 (c : Dev nD) : out5 m ρ c (Proc.devRef .tc main_v31) = out4 m ρ c (Proc.devRef .tc main_v31) :=
  (out5_of_ne m ρ c main_v31 (by decide)).trans (StableHlo.after_of_writes_sub hostOps5 _ hostOps5_writes (by decide))

/-! ## Through launch 6 -/
theorem pass6_main_arg0 (c : Dev nD) : out6 m ρ c (Proc.devRef .tc main_arg0) = out5 m ρ c (Proc.devRef .tc main_arg0) :=
  (out6_of_ne m ρ c main_arg0 (by decide)).trans (StableHlo.after_of_writes_sub hostOps6 _ hostOps6_writes (by decide))
theorem pass6_main_arg1 (c : Dev nD) : out6 m ρ c (Proc.devRef .tc main_arg1) = out5 m ρ c (Proc.devRef .tc main_arg1) :=
  (out6_of_ne m ρ c main_arg1 (by decide)).trans (StableHlo.after_of_writes_sub hostOps6 _ hostOps6_writes (by decide))
theorem pass6_main_arg2 (c : Dev nD) : out6 m ρ c (Proc.devRef .tc main_arg2) = out5 m ρ c (Proc.devRef .tc main_arg2) :=
  (out6_of_ne m ρ c main_arg2 (by decide)).trans (StableHlo.after_of_writes_sub hostOps6 _ hostOps6_writes (by decide))
theorem pass6_main_v28 (c : Dev nD) : out6 m ρ c (Proc.devRef .tc main_v28) = out5 m ρ c (Proc.devRef .tc main_v28) :=
  (out6_of_ne m ρ c main_v28 (by decide)).trans (StableHlo.after_of_writes_sub hostOps6 _ hostOps6_writes (by decide))
theorem pass6_main_v29 (c : Dev nD) : out6 m ρ c (Proc.devRef .tc main_v29) = out5 m ρ c (Proc.devRef .tc main_v29) :=
  (out6_of_ne m ρ c main_v29 (by decide)).trans (StableHlo.after_of_writes_sub hostOps6 _ hostOps6_writes (by decide))
theorem pass6_main_v31 (c : Dev nD) : out6 m ρ c (Proc.devRef .tc main_v31) = out5 m ρ c (Proc.devRef .tc main_v31) :=
  (show out6 m ρ c (Proc.devRef .tc (Pipeline.arrRef spec6 1)) = in6 m ρ c (Proc.devRef .tc (Pipeline.arrRef spec6 1)) from out6_in_1 m ρ c).trans (StableHlo.after_of_writes_sub hostOps6 _ hostOps6_writes (by decide))

/-! ## Through launch 7 -/
theorem pass7_main_arg0 (c : Dev nD) : out7 m ρ c (Proc.devRef .tc main_arg0) = out6 m ρ c (Proc.devRef .tc main_arg0) :=
  (show out7 m ρ c (Proc.devRef .tc (Pipeline.arrRef spec7 1)) = in7 m ρ c (Proc.devRef .tc (Pipeline.arrRef spec7 1)) from out7_in_1 m ρ c).trans (StableHlo.after_of_writes_sub hostOps7 _ hostOps7_writes (by decide))
theorem pass7_main_arg1 (c : Dev nD) : out7 m ρ c (Proc.devRef .tc main_arg1) = out6 m ρ c (Proc.devRef .tc main_arg1) :=
  (out7_of_ne m ρ c main_arg1 (by decide)).trans (StableHlo.after_of_writes_sub hostOps7 _ hostOps7_writes (by decide))
theorem pass7_main_arg2 (c : Dev nD) : out7 m ρ c (Proc.devRef .tc main_arg2) = out6 m ρ c (Proc.devRef .tc main_arg2) :=
  (out7_of_ne m ρ c main_arg2 (by decide)).trans (StableHlo.after_of_writes_sub hostOps7 _ hostOps7_writes (by decide))
theorem pass7_main_v28 (c : Dev nD) : out7 m ρ c (Proc.devRef .tc main_v28) = out6 m ρ c (Proc.devRef .tc main_v28) :=
  (out7_of_ne m ρ c main_v28 (by decide)).trans (StableHlo.after_of_writes_sub hostOps7 _ hostOps7_writes (by decide))
theorem pass7_main_v29 (c : Dev nD) : out7 m ρ c (Proc.devRef .tc main_v29) = out6 m ρ c (Proc.devRef .tc main_v29) :=
  (out7_of_ne m ρ c main_v29 (by decide)).trans (StableHlo.after_of_writes_sub hostOps7 _ hostOps7_writes (by decide))
theorem pass7_main_v31 (c : Dev nD) : out7 m ρ c (Proc.devRef .tc main_v31) = out6 m ρ c (Proc.devRef .tc main_v31) :=
  (out7_of_ne m ρ c main_v31 (by decide)).trans (StableHlo.after_of_writes_sub hostOps7 _ hostOps7_writes (by decide))

/-! ## From one end to the other -/
theorem from_start0_main_arg0 (c : Dev nD) : out0 m ρ c (Proc.devRef .tc main_arg0) = m ((c : Thread nD τ).loc main_arg0) :=
  (pass0_main_arg0 m ρ c)
theorem from_start1_main_arg0 (c : Dev nD) : out1 m ρ c (Proc.devRef .tc main_arg0) = m ((c : Thread nD τ).loc main_arg0) :=
  (pass1_main_arg0 m ρ c).trans <| (pass0_main_arg0 m ρ c)
theorem from_start2_main_arg0 (c : Dev nD) : out2 m ρ c (Proc.devRef .tc main_arg0) = m ((c : Thread nD τ).loc main_arg0) :=
  (pass2_main_arg0 m ρ c).trans <| (pass1_main_arg0 m ρ c).trans <| (pass0_main_arg0 m ρ c)
theorem from_start3_main_arg0 (c : Dev nD) : out3 m ρ c (Proc.devRef .tc main_arg0) = m ((c : Thread nD τ).loc main_arg0) :=
  (pass3_main_arg0 m ρ c).trans <| (pass2_main_arg0 m ρ c).trans <| (pass1_main_arg0 m ρ c).trans <| (pass0_main_arg0 m ρ c)
theorem from_start4_main_arg0 (c : Dev nD) : out4 m ρ c (Proc.devRef .tc main_arg0) = m ((c : Thread nD τ).loc main_arg0) :=
  (pass4_main_arg0 m ρ c).trans <| (pass3_main_arg0 m ρ c).trans <| (pass2_main_arg0 m ρ c).trans <| (pass1_main_arg0 m ρ c).trans <| (pass0_main_arg0 m ρ c)
theorem from_start5_main_arg0 (c : Dev nD) : out5 m ρ c (Proc.devRef .tc main_arg0) = m ((c : Thread nD τ).loc main_arg0) :=
  (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem from_start6_main_arg0 (c : Dev nD) : out6 m ρ c (Proc.devRef .tc main_arg0) = m ((c : Thread nD τ).loc main_arg0) :=
  (pass6_main_arg0 m ρ c).trans <| (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem from_start7_main_arg0 (c : Dev nD) : out7 m ρ c (Proc.devRef .tc main_arg0) = m ((c : Thread nD τ).loc main_arg0) :=
  (pass7_main_arg0 m ρ c).trans <| (pass6_main_arg0 m ρ c).trans <| (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem last_main_arg0 (c : Dev nD) : last m ρ c (Proc.devRef .tc main_arg0) = m ((c : Thread nD τ).loc main_arg0) :=
  (StableHlo.after_of_writes_sub hostOps8 _ hostOps8_writes (by decide)).trans (from_start7_main_arg0 m ρ c)
theorem from_start0_main_arg1 (c : Dev nD) : out0 m ρ c (Proc.devRef .tc main_arg1) = m ((c : Thread nD τ).loc main_arg1) :=
  (pass0_main_arg1 m ρ c)
theorem from_start1_main_arg1 (c : Dev nD) : out1 m ρ c (Proc.devRef .tc main_arg1) = m ((c : Thread nD τ).loc main_arg1) :=
  (pass1_main_arg1 m ρ c).trans <| (pass0_main_arg1 m ρ c)
theorem from_start2_main_arg1 (c : Dev nD) : out2 m ρ c (Proc.devRef .tc main_arg1) = m ((c : Thread nD τ).loc main_arg1) :=
  (pass2_main_arg1 m ρ c).trans <| (pass1_main_arg1 m ρ c).trans <| (pass0_main_arg1 m ρ c)
theorem from_start3_main_arg1 (c : Dev nD) : out3 m ρ c (Proc.devRef .tc main_arg1) = m ((c : Thread nD τ).loc main_arg1) :=
  (pass3_main_arg1 m ρ c).trans <| (pass2_main_arg1 m ρ c).trans <| (pass1_main_arg1 m ρ c).trans <| (pass0_main_arg1 m ρ c)
theorem from_start4_main_arg1 (c : Dev nD) : out4 m ρ c (Proc.devRef .tc main_arg1) = m ((c : Thread nD τ).loc main_arg1) :=
  (pass4_main_arg1 m ρ c).trans <| (pass3_main_arg1 m ρ c).trans <| (pass2_main_arg1 m ρ c).trans <| (pass1_main_arg1 m ρ c).trans <| (pass0_main_arg1 m ρ c)
theorem from_start5_main_arg1 (c : Dev nD) : out5 m ρ c (Proc.devRef .tc main_arg1) = m ((c : Thread nD τ).loc main_arg1) :=
  (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem from_start6_main_arg1 (c : Dev nD) : out6 m ρ c (Proc.devRef .tc main_arg1) = m ((c : Thread nD τ).loc main_arg1) :=
  (pass6_main_arg1 m ρ c).trans <| (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem from_start7_main_arg1 (c : Dev nD) : out7 m ρ c (Proc.devRef .tc main_arg1) = m ((c : Thread nD τ).loc main_arg1) :=
  (pass7_main_arg1 m ρ c).trans <| (pass6_main_arg1 m ρ c).trans <| (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem last_main_arg1 (c : Dev nD) : last m ρ c (Proc.devRef .tc main_arg1) = m ((c : Thread nD τ).loc main_arg1) :=
  (StableHlo.after_of_writes_sub hostOps8 _ hostOps8_writes (by decide)).trans (from_start7_main_arg1 m ρ c)
theorem from_start0_main_arg2 (c : Dev nD) : out0 m ρ c (Proc.devRef .tc main_arg2) = m ((c : Thread nD τ).loc main_arg2) :=
  (pass0_main_arg2 m ρ c)
theorem from_start1_main_arg2 (c : Dev nD) : out1 m ρ c (Proc.devRef .tc main_arg2) = m ((c : Thread nD τ).loc main_arg2) :=
  (pass1_main_arg2 m ρ c).trans <| (pass0_main_arg2 m ρ c)
theorem from_start2_main_arg2 (c : Dev nD) : out2 m ρ c (Proc.devRef .tc main_arg2) = m ((c : Thread nD τ).loc main_arg2) :=
  (pass2_main_arg2 m ρ c).trans <| (pass1_main_arg2 m ρ c).trans <| (pass0_main_arg2 m ρ c)
theorem from_start3_main_arg2 (c : Dev nD) : out3 m ρ c (Proc.devRef .tc main_arg2) = m ((c : Thread nD τ).loc main_arg2) :=
  (pass3_main_arg2 m ρ c).trans <| (pass2_main_arg2 m ρ c).trans <| (pass1_main_arg2 m ρ c).trans <| (pass0_main_arg2 m ρ c)
theorem from_start4_main_arg2 (c : Dev nD) : out4 m ρ c (Proc.devRef .tc main_arg2) = m ((c : Thread nD τ).loc main_arg2) :=
  (pass4_main_arg2 m ρ c).trans <| (pass3_main_arg2 m ρ c).trans <| (pass2_main_arg2 m ρ c).trans <| (pass1_main_arg2 m ρ c).trans <| (pass0_main_arg2 m ρ c)
theorem from_start5_main_arg2 (c : Dev nD) : out5 m ρ c (Proc.devRef .tc main_arg2) = m ((c : Thread nD τ).loc main_arg2) :=
  (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem from_start6_main_arg2 (c : Dev nD) : out6 m ρ c (Proc.devRef .tc main_arg2) = m ((c : Thread nD τ).loc main_arg2) :=
  (pass6_main_arg2 m ρ c).trans <| (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem from_start7_main_arg2 (c : Dev nD) : out7 m ρ c (Proc.devRef .tc main_arg2) = m ((c : Thread nD τ).loc main_arg2) :=
  (pass7_main_arg2 m ρ c).trans <| (pass6_main_arg2 m ρ c).trans <| (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem last_main_arg2 (c : Dev nD) : last m ρ c (Proc.devRef .tc main_arg2) = m ((c : Thread nD τ).loc main_arg2) :=
  (StableHlo.after_of_writes_sub hostOps8 _ hostOps8_writes (by decide)).trans (from_start7_main_arg2 m ρ c)
theorem from_entry0_main_v28 (c : Dev nD) : out0 m ρ c (Proc.devRef .tc main_v28) = in0 m ρ c (Proc.devRef .tc main_v28) :=
  (pass0_main_v28 m ρ c)
theorem from_entry1_main_v28 (c : Dev nD) : out1 m ρ c (Proc.devRef .tc main_v28) = in0 m ρ c (Proc.devRef .tc main_v28) :=
  (pass1_main_v28 m ρ c).trans <| (pass0_main_v28 m ρ c)
theorem from_entry2_main_v28 (c : Dev nD) : out2 m ρ c (Proc.devRef .tc main_v28) = in0 m ρ c (Proc.devRef .tc main_v28) :=
  (pass2_main_v28 m ρ c).trans <| (pass1_main_v28 m ρ c).trans <| (pass0_main_v28 m ρ c)
theorem from_entry3_main_v28 (c : Dev nD) : out3 m ρ c (Proc.devRef .tc main_v28) = in0 m ρ c (Proc.devRef .tc main_v28) :=
  (pass3_main_v28 m ρ c).trans <| (pass2_main_v28 m ρ c).trans <| (pass1_main_v28 m ρ c).trans <| (pass0_main_v28 m ρ c)
theorem from_entry4_main_v28 (c : Dev nD) : out4 m ρ c (Proc.devRef .tc main_v28) = in0 m ρ c (Proc.devRef .tc main_v28) :=
  (pass4_main_v28 m ρ c).trans <| (pass3_main_v28 m ρ c).trans <| (pass2_main_v28 m ρ c).trans <| (pass1_main_v28 m ρ c).trans <| (pass0_main_v28 m ρ c)
theorem from_entry5_main_v28 (c : Dev nD) : out5 m ρ c (Proc.devRef .tc main_v28) = in0 m ρ c (Proc.devRef .tc main_v28) :=
  (pass5_main_v28 m ρ c).trans <| (pass4_main_v28 m ρ c).trans <| (pass3_main_v28 m ρ c).trans <| (pass2_main_v28 m ρ c).trans <| (pass1_main_v28 m ρ c).trans <| (pass0_main_v28 m ρ c)
theorem from_entry6_main_v28 (c : Dev nD) : out6 m ρ c (Proc.devRef .tc main_v28) = in0 m ρ c (Proc.devRef .tc main_v28) :=
  (pass6_main_v28 m ρ c).trans <| (pass5_main_v28 m ρ c).trans <| (pass4_main_v28 m ρ c).trans <| (pass3_main_v28 m ρ c).trans <| (pass2_main_v28 m ρ c).trans <| (pass1_main_v28 m ρ c).trans <| (pass0_main_v28 m ρ c)
theorem from_entry7_main_v28 (c : Dev nD) : out7 m ρ c (Proc.devRef .tc main_v28) = in0 m ρ c (Proc.devRef .tc main_v28) :=
  (pass7_main_v28 m ρ c).trans <| (pass6_main_v28 m ρ c).trans <| (pass5_main_v28 m ρ c).trans <| (pass4_main_v28 m ρ c).trans <| (pass3_main_v28 m ρ c).trans <| (pass2_main_v28 m ρ c).trans <| (pass1_main_v28 m ρ c).trans <| (pass0_main_v28 m ρ c)
theorem from_entry0_main_v29 (c : Dev nD) : out0 m ρ c (Proc.devRef .tc main_v29) = in0 m ρ c (Proc.devRef .tc main_v29) :=
  (pass0_main_v29 m ρ c)
theorem from_entry1_main_v29 (c : Dev nD) : out1 m ρ c (Proc.devRef .tc main_v29) = in0 m ρ c (Proc.devRef .tc main_v29) :=
  (pass1_main_v29 m ρ c).trans <| (pass0_main_v29 m ρ c)
theorem from_entry2_main_v29 (c : Dev nD) : out2 m ρ c (Proc.devRef .tc main_v29) = in0 m ρ c (Proc.devRef .tc main_v29) :=
  (pass2_main_v29 m ρ c).trans <| (pass1_main_v29 m ρ c).trans <| (pass0_main_v29 m ρ c)
theorem from_entry3_main_v29 (c : Dev nD) : out3 m ρ c (Proc.devRef .tc main_v29) = in0 m ρ c (Proc.devRef .tc main_v29) :=
  (pass3_main_v29 m ρ c).trans <| (pass2_main_v29 m ρ c).trans <| (pass1_main_v29 m ρ c).trans <| (pass0_main_v29 m ρ c)
theorem from_entry4_main_v29 (c : Dev nD) : out4 m ρ c (Proc.devRef .tc main_v29) = in0 m ρ c (Proc.devRef .tc main_v29) :=
  (pass4_main_v29 m ρ c).trans <| (pass3_main_v29 m ρ c).trans <| (pass2_main_v29 m ρ c).trans <| (pass1_main_v29 m ρ c).trans <| (pass0_main_v29 m ρ c)
theorem from_entry5_main_v29 (c : Dev nD) : out5 m ρ c (Proc.devRef .tc main_v29) = in0 m ρ c (Proc.devRef .tc main_v29) :=
  (pass5_main_v29 m ρ c).trans <| (pass4_main_v29 m ρ c).trans <| (pass3_main_v29 m ρ c).trans <| (pass2_main_v29 m ρ c).trans <| (pass1_main_v29 m ρ c).trans <| (pass0_main_v29 m ρ c)
theorem from_entry6_main_v29 (c : Dev nD) : out6 m ρ c (Proc.devRef .tc main_v29) = in0 m ρ c (Proc.devRef .tc main_v29) :=
  (pass6_main_v29 m ρ c).trans <| (pass5_main_v29 m ρ c).trans <| (pass4_main_v29 m ρ c).trans <| (pass3_main_v29 m ρ c).trans <| (pass2_main_v29 m ρ c).trans <| (pass1_main_v29 m ρ c).trans <| (pass0_main_v29 m ρ c)
theorem from_entry7_main_v29 (c : Dev nD) : out7 m ρ c (Proc.devRef .tc main_v29) = in0 m ρ c (Proc.devRef .tc main_v29) :=
  (pass7_main_v29 m ρ c).trans <| (pass6_main_v29 m ρ c).trans <| (pass5_main_v29 m ρ c).trans <| (pass4_main_v29 m ρ c).trans <| (pass3_main_v29 m ρ c).trans <| (pass2_main_v29 m ρ c).trans <| (pass1_main_v29 m ρ c).trans <| (pass0_main_v29 m ρ c)
theorem from_entry0_main_v31 (c : Dev nD) : out0 m ρ c (Proc.devRef .tc main_v31) = in0 m ρ c (Proc.devRef .tc main_v31) :=
  (pass0_main_v31 m ρ c)
theorem from_entry1_main_v31 (c : Dev nD) : out1 m ρ c (Proc.devRef .tc main_v31) = in0 m ρ c (Proc.devRef .tc main_v31) :=
  (pass1_main_v31 m ρ c).trans <| (pass0_main_v31 m ρ c)
theorem from_entry2_main_v31 (c : Dev nD) : out2 m ρ c (Proc.devRef .tc main_v31) = in0 m ρ c (Proc.devRef .tc main_v31) :=
  (pass2_main_v31 m ρ c).trans <| (pass1_main_v31 m ρ c).trans <| (pass0_main_v31 m ρ c)
theorem from_entry3_main_v31 (c : Dev nD) : out3 m ρ c (Proc.devRef .tc main_v31) = in0 m ρ c (Proc.devRef .tc main_v31) :=
  (pass3_main_v31 m ρ c).trans <| (pass2_main_v31 m ρ c).trans <| (pass1_main_v31 m ρ c).trans <| (pass0_main_v31 m ρ c)
theorem from_entry4_main_v31 (c : Dev nD) : out4 m ρ c (Proc.devRef .tc main_v31) = in0 m ρ c (Proc.devRef .tc main_v31) :=
  (pass4_main_v31 m ρ c).trans <| (pass3_main_v31 m ρ c).trans <| (pass2_main_v31 m ρ c).trans <| (pass1_main_v31 m ρ c).trans <| (pass0_main_v31 m ρ c)
theorem from_entry5_main_v31 (c : Dev nD) : out5 m ρ c (Proc.devRef .tc main_v31) = in0 m ρ c (Proc.devRef .tc main_v31) :=
  (pass5_main_v31 m ρ c).trans <| (pass4_main_v31 m ρ c).trans <| (pass3_main_v31 m ρ c).trans <| (pass2_main_v31 m ρ c).trans <| (pass1_main_v31 m ρ c).trans <| (pass0_main_v31 m ρ c)
theorem from_entry6_main_v31 (c : Dev nD) : out6 m ρ c (Proc.devRef .tc main_v31) = in0 m ρ c (Proc.devRef .tc main_v31) :=
  (pass6_main_v31 m ρ c).trans <| (pass5_main_v31 m ρ c).trans <| (pass4_main_v31 m ρ c).trans <| (pass3_main_v31 m ρ c).trans <| (pass2_main_v31 m ρ c).trans <| (pass1_main_v31 m ρ c).trans <| (pass0_main_v31 m ρ c)
theorem from_entry7_main_v31 (c : Dev nD) : out7 m ρ c (Proc.devRef .tc main_v31) = in0 m ρ c (Proc.devRef .tc main_v31) :=
  (pass7_main_v31 m ρ c).trans <| (pass6_main_v31 m ρ c).trans <| (pass5_main_v31 m ρ c).trans <| (pass4_main_v31 m ρ c).trans <| (pass3_main_v31 m ρ c).trans <| (pass2_main_v31 m ρ c).trans <| (pass1_main_v31 m ρ c).trans <| (pass0_main_v31 m ρ c)

end Cert.Kernel.Diffusion

end
-- ==== Proof.Ideal.Scale0.lean ====
/-
  Edge scaling, diffusion step 1 (launch 0 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The message window's staging buffer holds its block at every point, for any proof data whose array is `V`'s and
    whose body leaves the block in place: the window is fetched at every point and never cut. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the weight column's window. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole message block and the whole weight block, as rectangles. -/
abbrev r0_0 : Rect S16384x64 := Rect.unit (s := S16384x64) ![0, 0] S16384x64.size inb_S16384x64_S16384x64_0_0
abbrev r0_1 : Rect S16384x1 := Rect.unit (s := S16384x1) ![0, 0] S16384x1.size inb_S16384x1_S16384x1_0_0

/-- What the body leaves in the output block, from the two input blocks: its one store, of the whole block, of the
    messages times the weight column spread along the 64 features. -/
def scaled0 (x0 : Vec F S16384x64 .f32) (x1 : Vec F S16384x1 .f32) : Vec F S16384x64 .f32 :=
  View.canon [⟨r0_0, k0_pay1 (View.ld x0 r0_0) (View.ld x1 r0_1)⟩]

/-- That one store covers the block. -/
theorem scaled0_cover (p0 : Vec F S16384x64 .f32) (y : S16384x64.Idx) :
    ∃ pc ∈ ([⟨r0_0, p0⟩] : List (View.Piece (Elt F) S16384x64 .f32)), y ∈ pc.1.set :=
  View.cover_of_tiled [⟨r0_0, p0⟩] S16384x64.size (by rfl) y

set_option maxHeartbeats 1000000 in
/-- The body on whole staging buffers, the inputs' at contents `x0`, `x1` and the output's at anything, runs to the
    continuation holding the inputs' as they were and the output's at `scaled0 x0 x1`. -/
theorem scale_body0 (c : Dev nD) (E : Set ℕ) (i : grid0.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled0 x0 x1)) -∗ K ⟨⟩))
      ⊢ wp frame (wpE (defs₀ (F := F)) Variants.none c none) E (cc0__scale_kernel i arg1 harg1 arg2 harg2 arg3 harg3) K := by
  simp only [cc0__scale_kernel_eq_skeleton]; unfold cc0__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled0_cover _)

/-- The pipeline's proof data on core `c`: the arrays as the launch finds them; after the body at point `t` each
    input's buffer at its block and the output's at `scaled0` of the two input blocks; nothing owed; full shares. -/
def scaleDat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => scaled0 (blk0 V c 0 t) (blk0 V c 1 t)
  Φ _ := Pipeline.ΦA spec0 c
  q _ := fullShare
  owed _ := 0

theorem scaleDat0_A (c : Dev nD) (w : Fin cfg0.W) : (scaleDat0 V c).A w = V c (Pipeline.arrRef spec0 w) := by
  dsimp only [scaleDat0]
theorem scaleDat0_after_0 (c : Dev nD) (t : Fin cfg0.N) : (scaleDat0 V c).after 0 t = blk0 V c 0 t := by dsimp only [scaleDat0]
theorem scaleDat0_after_1 (c : Dev nD) (t : Fin cfg0.N) : (scaleDat0 V c).after 1 t = blk0 V c 1 t := by dsimp only [scaleDat0]
theorem scaleDat0_after_2 (c : Dev nD) (t : Fin cfg0.N) :
    (scaleDat0 V c).after 2 t = scaled0 (blk0 V c 0 t) (blk0 V c 1 t) := by dsimp only [scaleDat0]

theorem scaleDat0_before_0 (c : Dev nD) (t : Fin cfg0.N) (d) : (scaleDat0 V c).before 0 t d = blk0 V c 0 t :=
  held0_0_of V (scaleDat0 V c) (scaleDat0_A V c 0) (scaleDat0_after_0 V c) t d
theorem scaleDat0_before_1 (c : Dev nD) (t : Fin cfg0.N) (d) : (scaleDat0 V c).before 1 t d = blk0 V c 1 t :=
  held0_1_of V (scaleDat0 V c) (scaleDat0_A V c 1) (scaleDat0_after_1 V c) t d

/-- What the body is called with at point `t`, the windows one by one, -/
def scalePre0 (c : Dev nD) (t : Fin cfg0.N) : sProp 𝕄 :=
  iprop((scaleDat0 V c).Φ t.castSucc ∗ (scaleDat0 V c).owesAt () t.castSucc
    ∗ (∃ d, owns (c : Thread nD τ) (st0_0 t) fullShare ((scaleDat0 V c).before 0 t d))
    ∗ (∃ d, owns (c : Thread nD τ) (st0_1 t) fullShare ((scaleDat0 V c).before 1 t d))
    ∗ (∃ d, owns (c : Thread nD τ) (st0_2 t) fullShare ((scaleDat0 V c).before 2 t d)))

/-- and what it returns. -/
def scalePost0 (c : Dev nD) (t : Fin cfg0.N) : sProp 𝕄 :=
  iprop((scaleDat0 V c).Φ t.succ ∗ (scaleDat0 V c).owesAt () t.succ
    ∗ owns (c : Thread nD τ) (st0_0 t) fullShare ((scaleDat0 V c).after 0 t)
    ∗ owns (c : Thread nD τ) (st0_1 t) fullShare ((scaleDat0 V c).after 1 t)
    ∗ owns (c : Thread nD τ) (st0_2 t) fullShare ((scaleDat0 V c).after 2 t))

/-- The body at any point: the inputs' buffers hold their blocks, so `scale_body0` applies; the invariant and the
    core's dues pass through unread. -/
theorem scale_point0 (c : Dev nD) (t : Fin cfg0.N) :
    scalePre0 V c t ⊢ wp frame (wpE (defs₀ (F := F)) Variants.none c none) Set.univ (bodyAt0 t) (fun _ => scalePost0 V c t) := by
  unfold scalePre0 scalePost0 bodyAt0
  simp only [scaleDat0_before_0, scaleDat0_before_1]
  rw [show (scaleDat0 V c).Φ t.succ = (scaleDat0 V c).Φ t.castSucc from rfl,
    show (scaleDat0 V c).owesAt () t.succ = (scaleDat0 V c).owesAt () t.castSucc from rfl,
    scaleDat0_after_0, scaleDat0_after_1, scaleDat0_after_2]
  iintro ⟨HΦ, Ho, ⟨%d0, H0⟩, ⟨%d1, H1⟩, ⟨%d2, H2⟩⟩
  iapply (scale_body0 c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation0 (c : Dev nD) : BodyObligation (scaleDat0 (F := F) V c) (defs₀ (F := F)) Variants.none () Set.univ := fun t => by
  rw [bigSep_W0, bigSep_W0]
  exact scale_point0 V c t

end Cert.KernelIdeal.Diffusion

end
-- ==== Proof.Ideal.Combine1.lean ====
/-
  The node update, diffusion step 1 (launch 1 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregate's window's staging buffer holds its block at every point, for any proof data whose array is `V`'s
    and whose body leaves the block in place: the window is fetched at every point and never cut. -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The same for the input features' window. -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- A whole block of 2000 rows, as a rectangle. -/
abbrev r1_0 : Rect S2000x64 := Rect.unit (s := S2000x64) ![0, 0] S2000x64.size inb_S2000x64_S2000x64_0_0

/-- What the body leaves in the output block, from the two input blocks: its one store, of the whole block. -/
def combined1 (x0 : Vec F S2000x64 .f32) (x1 : Vec F S2000x64 .f32) : Vec F S2000x64 .f32 :=
  View.canon [⟨r1_0, k1_pay1 (View.ld x0 r1_0) (View.ld x1 r1_0)⟩]

/-- That one store covers the block. -/
theorem combined1_cover (p0 : Vec F S2000x64 .f32) (y : S2000x64.Idx) :
    ∃ pc ∈ ([⟨r1_0, p0⟩] : List (View.Piece (Elt F) S2000x64 .f32)), y ∈ pc.1.set :=
  View.cover_of_tiled [⟨r1_0, p0⟩] S2000x64.size (by rfl) y

set_option maxHeartbeats 1000000 in
/-- The body on whole staging buffers, the inputs' at contents `x0`, `x1` and the output's at anything, runs to the
    continuation holding the inputs' as they were and the output's at `combined1 x0 x1`. -/
theorem combine_body1 (c : Dev nD) (E : Set ℕ) (i : grid1.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined1 x0 x1)) -∗ K ⟨⟩))
      ⊢ wp frame (wpE (defs₀ (F := F)) Variants.none c none) E (cc1__combine_kernel i arg1 harg1 arg2 harg2 arg3 harg3) K := by
  simp only [cc1__combine_kernel_eq_skeleton]; unfold cc1__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined1_cover _)

/-- The pipeline's proof data on core `c`: the arrays as the launch finds them; after the body at point `t` each
    input's buffer at its block and the output's at `combined1` of the two input blocks; nothing owed; full shares. -/
def combineDat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => combined1 (blk1 V c 0 t) (blk1 V c 1 t)
  Φ _ := Pipeline.ΦA spec1 c
  q _ := fullShare
  owed _ := 0

theorem combineDat1_A (c : Dev nD) (w : Fin cfg1.W) : (combineDat1 V c).A w = V c (Pipeline.arrRef spec1 w) := by
  dsimp only [combineDat1]
theorem combineDat1_after_0 (c : Dev nD) (t : Fin cfg1.N) : (combineDat1 V c).after 0 t = blk1 V c 0 t := by dsimp only [combineDat1]
theorem combineDat1_after_1 (c : Dev nD) (t : Fin cfg1.N) : (combineDat1 V c).after 1 t = blk1 V c 1 t := by dsimp only [combineDat1]
theorem combineDat1_after_2 (c : Dev nD) (t : Fin cfg1.N) :
    (combineDat1 V c).after 2 t = combined1 (blk1 V c 0 t) (blk1 V c 1 t) := by dsimp only [combineDat1]

theorem combineDat1_before_0 (c : Dev nD) (t : Fin cfg1.N) (d) : (combineDat1 V c).before 0 t d = blk1 V c 0 t :=
  held1_0_of V (combineDat1 V c) (combineDat1_A V c 0) (combineDat1_after_0 V c) t d
theorem combineDat1_before_1 (c : Dev nD) (t : Fin cfg1.N) (d) : (combineDat1 V c).before 1 t d = blk1 V c 1 t :=
  held1_1_of V (combineDat1 V c) (combineDat1_A V c 1) (combineDat1_after_1 V c) t d

/-- What the body is called with at point `t`, the windows one by one, -/
def combinePre1 (c : Dev nD) (t : Fin cfg1.N) : sProp 𝕄 :=
  iprop((combineDat1 V c).Φ t.castSucc ∗ (combineDat1 V c).owesAt () t.castSucc
    ∗ (∃ d, owns (c : Thread nD τ) (st1_0 t) fullShare ((combineDat1 V c).before 0 t d))
    ∗ (∃ d, owns (c : Thread nD τ) (st1_1 t) fullShare ((combineDat1 V c).before 1 t d))
    ∗ (∃ d, owns (c : Thread nD τ) (st1_2 t) fullShare ((combineDat1 V c).before 2 t d)))

/-- and what it returns. -/
def combinePost1 (c : Dev nD) (t : Fin cfg1.N) : sProp 𝕄 :=
  iprop((combineDat1 V c).Φ t.succ ∗ (combineDat1 V c).owesAt () t.succ
    ∗ owns (c : Thread nD τ) (st1_0 t) fullShare ((combineDat1 V c).after 0 t)
    ∗ owns (c : Thread nD τ) (st1_1 t) fullShare ((combineDat1 V c).after 1 t)
    ∗ owns (c : Thread nD τ) (st1_2 t) fullShare ((combineDat1 V c).after 2 t))

/-- The body at any point: the inputs' buffers hold their blocks, so `combine_body1` applies; the invariant and the
    core's dues pass through unread. -/
theorem combine_point1 (c : Dev nD) (t : Fin cfg1.N) :
    combinePre1 V c t ⊢ wp frame (wpE (defs₀ (F := F)) Variants.none c none) Set.univ (bodyAt1 t) (fun _ => combinePost1 V c t) := by
  unfold combinePre1 combinePost1 bodyAt1
  simp only [combineDat1_before_0, combineDat1_before_1]
  rw [show (combineDat1 V c).Φ t.succ = (combineDat1 V c).Φ t.castSucc from rfl,
    show (combineDat1 V c).owesAt () t.succ = (combineDat1 V c).owesAt () t.castSucc from rfl,
    combineDat1_after_0, combineDat1_after_1, combineDat1_after_2]
  iintro ⟨HΦ, Ho, ⟨%d0, H0⟩, ⟨%d1, H1⟩, ⟨%d2, H2⟩⟩
  iapply (combine_body1 c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation1 (c : Dev nD) : BodyObligation (combineDat1 (F := F) V c) (defs₀ (F := F)) Variants.none () Set.univ := fun t => by
  rw [bigSep_W1, bigSep_W1]
  exact combine_point1 V c t

end Cert.KernelIdeal.Diffusion

end
-- ==== Proof.Ideal.Scale2.lean ====
/-
  Edge scaling, diffusion step 2 (launch 2 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The message window's staging buffer holds its block at every point, for any proof data whose array is `V`'s and
    whose body leaves the block in place: the window is fetched at every point and never cut. -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- The same for the weight column's window. -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- The whole message block and the whole weight block, as rectangles. -/
abbrev r2_0 : Rect S16384x64 := Rect.unit (s := S16384x64) ![0, 0] S16384x64.size inb_S16384x64_S16384x64_0_0
abbrev r2_1 : Rect S16384x1 := Rect.unit (s := S16384x1) ![0, 0] S16384x1.size inb_S16384x1_S16384x1_0_0

/-- What the body leaves in the output block, from the two input blocks: its one store, of the whole block, of the
    messages times the weight column spread along the 64 features. -/
def scaled2 (x0 : Vec F S16384x64 .f32) (x1 : Vec F S16384x1 .f32) : Vec F S16384x64 .f32 :=
  View.canon [⟨r2_0, k2_pay1 (View.ld x0 r2_0) (View.ld x1 r2_1)⟩]

/-- That one store covers the block. -/
theorem scaled2_cover (p0 : Vec F S16384x64 .f32) (y : S16384x64.Idx) :
    ∃ pc ∈ ([⟨r2_0, p0⟩] : List (View.Piece (Elt F) S16384x64 .f32)), y ∈ pc.1.set :=
  View.cover_of_tiled [⟨r2_0, p0⟩] S16384x64.size (by rfl) y

set_option maxHeartbeats 1000000 in
/-- The body on whole staging buffers, the inputs' at contents `x0`, `x1` and the output's at anything, runs to the
    continuation holding the inputs' as they were and the output's at `scaled2 x0 x1`. -/
theorem scale_body2 (c : Dev nD) (E : Set ℕ) (i : grid2.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled2 x0 x1)) -∗ K ⟨⟩))
      ⊢ wp frame (wpE (defs₀ (F := F)) Variants.none c none) E (cc2__scale_kernel i arg1 harg1 arg2 harg2 arg3 harg3) K := by
  simp only [cc2__scale_kernel_eq_skeleton]; unfold cc2__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled2_cover _)

/-- The pipeline's proof data on core `c`: the arrays as the launch finds them; after the body at point `t` each
    input's buffer at its block and the output's at `scaled2` of the two input blocks; nothing owed; full shares. -/
def scaleDat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => scaled2 (blk2 V c 0 t) (blk2 V c 1 t)
  Φ _ := Pipeline.ΦA spec2 c
  q _ := fullShare
  owed _ := 0

theorem scaleDat2_A (c : Dev nD) (w : Fin cfg2.W) : (scaleDat2 V c).A w = V c (Pipeline.arrRef spec2 w) := by
  dsimp only [scaleDat2]
theorem scaleDat2_after_0 (c : Dev nD) (t : Fin cfg2.N) : (scaleDat2 V c).after 0 t = blk2 V c 0 t := by dsimp only [scaleDat2]
theorem scaleDat2_after_1 (c : Dev nD) (t : Fin cfg2.N) : (scaleDat2 V c).after 1 t = blk2 V c 1 t := by dsimp only [scaleDat2]
theorem scaleDat2_after_2 (c : Dev nD) (t : Fin cfg2.N) :
    (scaleDat2 V c).after 2 t = scaled2 (blk2 V c 0 t) (blk2 V c 1 t) := by dsimp only [scaleDat2]

theorem scaleDat2_before_0 (c : Dev nD) (t : Fin cfg2.N) (d) : (scaleDat2 V c).before 0 t d = blk2 V c 0 t :=
  held2_0_of V (scaleDat2 V c) (scaleDat2_A V c 0) (scaleDat2_after_0 V c) t d
theorem scaleDat2_before_1 (c : Dev nD) (t : Fin cfg2.N) (d) : (scaleDat2 V c).before 1 t d = blk2 V c 1 t :=
  held2_1_of V (scaleDat2 V c) (scaleDat2_A V c 1) (scaleDat2_after_1 V c) t d

/-- What the body is called with at point `t`, the windows one by one, -/
def scalePre2 (c : Dev nD) (t : Fin cfg2.N) : sProp 𝕄 :=
  iprop((scaleDat2 V c).Φ t.castSucc ∗ (scaleDat2 V c).owesAt () t.castSucc
    ∗ (∃ d, owns (c : Thread nD τ) (st2_0 t) fullShare ((scaleDat2 V c).before 0 t d))
    ∗ (∃ d, owns (c : Thread nD τ) (st2_1 t) fullShare ((scaleDat2 V c).before 1 t d))
    ∗ (∃ d, owns (c : Thread nD τ) (st2_2 t) fullShare ((scaleDat2 V c).before 2 t d)))

/-- and what it returns. -/
def scalePost2 (c : Dev nD) (t : Fin cfg2.N) : sProp 𝕄 :=
  iprop((scaleDat2 V c).Φ t.succ ∗ (scaleDat2 V c).owesAt () t.succ
    ∗ owns (c : Thread nD τ) (st2_0 t) fullShare ((scaleDat2 V c).after 0 t)
    ∗ owns (c : Thread nD τ) (st2_1 t) fullShare ((scaleDat2 V c).after 1 t)
    ∗ owns (c : Thread nD τ) (st2_2 t) fullShare ((scaleDat2 V c).after 2 t))

/-- The body at any point: the inputs' buffers hold their blocks, so `scale_body2` applies; the invariant and the
    core's dues pass through unread. -/
theorem scale_point2 (c : Dev nD) (t : Fin cfg2.N) :
    scalePre2 V c t ⊢ wp frame (wpE (defs₀ (F := F)) Variants.none c none) Set.univ (bodyAt2 t) (fun _ => scalePost2 V c t) := by
  unfold scalePre2 scalePost2 bodyAt2
  simp only [scaleDat2_before_0, scaleDat2_before_1]
  rw [show (scaleDat2 V c).Φ t.succ = (scaleDat2 V c).Φ t.castSucc from rfl,
    show (scaleDat2 V c).owesAt () t.succ = (scaleDat2 V c).owesAt () t.castSucc from rfl,
    scaleDat2_after_0, scaleDat2_after_1, scaleDat2_after_2]
  iintro ⟨HΦ, Ho, ⟨%d0, H0⟩, ⟨%d1, H1⟩, ⟨%d2, H2⟩⟩
  iapply (scale_body2 c Set.univ _ _ _ _ _ _ _ (blk2 V c 0 t) (blk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation2 (c : Dev nD) : BodyObligation (scaleDat2 (F := F) V c) (defs₀ (F := F)) Variants.none () Set.univ := fun t => by
  rw [bigSep_W2, bigSep_W2]
  exact scale_point2 V c t

end Cert.KernelIdeal.Diffusion

end
-- ==== Proof.Ideal.Combine3.lean ====
/-
  The node update, diffusion step 2 (launch 3 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The aggregate's window's staging buffer holds its block at every point, for any proof data whose array is `V`'s
    and whose body leaves the block in place: the window is fetched at every point and never cut. -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- The same for the input features' window. -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- A whole block of 2000 rows, as a rectangle. -/
abbrev r3_0 : Rect S2000x64 := Rect.unit (s := S2000x64) ![0, 0] S2000x64.size inb_S2000x64_S2000x64_0_0

/-- What the body leaves in the output block, from the two input blocks: its one store, of the whole block. -/
def combined3 (x0 : Vec F S2000x64 .f32) (x1 : Vec F S2000x64 .f32) : Vec F S2000x64 .f32 :=
  View.canon [⟨r3_0, k3_pay1 (View.ld x0 r3_0) (View.ld x1 r3_0)⟩]

/-- That one store covers the block. -/
theorem combined3_cover (p0 : Vec F S2000x64 .f32) (y : S2000x64.Idx) :
    ∃ pc ∈ ([⟨r3_0, p0⟩] : List (View.Piece (Elt F) S2000x64 .f32)), y ∈ pc.1.set :=
  View.cover_of_tiled [⟨r3_0, p0⟩] S2000x64.size (by rfl) y

set_option maxHeartbeats 1000000 in
/-- The body on whole staging buffers, the inputs' at contents `x0`, `x1` and the output's at anything, runs to the
    continuation holding the inputs' as they were and the output's at `combined3 x0 x1`. -/
theorem combine_body3 (c : Dev nD) (E : Set ℕ) (i : grid3.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined3 x0 x1)) -∗ K ⟨⟩))
      ⊢ wp frame (wpE (defs₀ (F := F)) Variants.none c none) E (cc3__combine_kernel i arg1 harg1 arg2 harg2 arg3 harg3) K := by
  simp only [cc3__combine_kernel_eq_skeleton]; unfold cc3__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined3_cover _)

/-- The pipeline's proof data on core `c`: the arrays as the launch finds them; after the body at point `t` each
    input's buffer at its block and the output's at `combined3` of the two input blocks; nothing owed; full shares. -/
def combineDat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => combined3 (blk3 V c 0 t) (blk3 V c 1 t)
  Φ _ := Pipeline.ΦA spec3 c
  q _ := fullShare
  owed _ := 0

theorem combineDat3_A (c : Dev nD) (w : Fin cfg3.W) : (combineDat3 V c).A w = V c (Pipeline.arrRef spec3 w) := by
  dsimp only [combineDat3]
theorem combineDat3_after_0 (c : Dev nD) (t : Fin cfg3.N) : (combineDat3 V c).after 0 t = blk3 V c 0 t := by dsimp only [combineDat3]
theorem combineDat3_after_1 (c : Dev nD) (t : Fin cfg3.N) : (combineDat3 V c).after 1 t = blk3 V c 1 t := by dsimp only [combineDat3]
theorem combineDat3_after_2 (c : Dev nD) (t : Fin cfg3.N) :
    (combineDat3 V c).after 2 t = combined3 (blk3 V c 0 t) (blk3 V c 1 t) := by dsimp only [combineDat3]

theorem combineDat3_before_0 (c : Dev nD) (t : Fin cfg3.N) (d) : (combineDat3 V c).before 0 t d = blk3 V c 0 t :=
  held3_0_of V (combineDat3 V c) (combineDat3_A V c 0) (combineDat3_after_0 V c) t d
theorem combineDat3_before_1 (c : Dev nD) (t : Fin cfg3.N) (d) : (combineDat3 V c).before 1 t d = blk3 V c 1 t :=
  held3_1_of V (combineDat3 V c) (combineDat3_A V c 1) (combineDat3_after_1 V c) t d

/-- What the body is called with at point `t`, the windows one by one, -/
def combinePre3 (c : Dev nD) (t : Fin cfg3.N) : sProp 𝕄 :=
  iprop((combineDat3 V c).Φ t.castSucc ∗ (combineDat3 V c).owesAt () t.castSucc
    ∗ (∃ d, owns (c : Thread nD τ) (st3_0 t) fullShare ((combineDat3 V c).before 0 t d))
    ∗ (∃ d, owns (c : Thread nD τ) (st3_1 t) fullShare ((combineDat3 V c).before 1 t d))
    ∗ (∃ d, owns (c : Thread nD τ) (st3_2 t) fullShare ((combineDat3 V c).before 2 t d)))

/-- and what it returns. -/
def combinePost3 (c : Dev nD) (t : Fin cfg3.N) : sProp 𝕄 :=
  iprop((combineDat3 V c).Φ t.succ ∗ (combineDat3 V c).owesAt () t.succ
    ∗ owns (c : Thread nD τ) (st3_0 t) fullShare ((combineDat3 V c).after 0 t)
    ∗ owns (c : Thread nD τ) (st3_1 t) fullShare ((combineDat3 V c).after 1 t)
    ∗ owns (c : Thread nD τ) (st3_2 t) fullShare ((combineDat3 V c).after 2 t))

/-- The body at any point: the inputs' buffers hold their blocks, so `combine_body3` applies; the invariant and the
    core's dues pass through unread. -/
theorem combine_point3 (c : Dev nD) (t : Fin cfg3.N) :
    combinePre3 V c t ⊢ wp frame (wpE (defs₀ (F := F)) Variants.none c none) Set.univ (bodyAt3 t) (fun _ => combinePost3 V c t) := by
  unfold combinePre3 combinePost3 bodyAt3
  simp only [combineDat3_before_0, combineDat3_before_1]
  rw [show (combineDat3 V c).Φ t.succ = (combineDat3 V c).Φ t.castSucc from rfl,
    show (combineDat3 V c).owesAt () t.succ = (combineDat3 V c).owesAt () t.castSucc from rfl,
    combineDat3_after_0, combineDat3_after_1, combineDat3_after_2]
  iintro ⟨HΦ, Ho, ⟨%d0, H0⟩, ⟨%d1, H1⟩, ⟨%d2, H2⟩⟩
  iapply (combine_body3 c Set.univ _ _ _ _ _ _ _ (blk3 V c 0 t) (blk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation3 (c : Dev nD) : BodyObligation (combineDat3 (F := F) V c) (defs₀ (F := F)) Variants.none () Set.univ := fun t => by
  rw [bigSep_W3, bigSep_W3]
  exact combine_point3 V c t

end Cert.KernelIdeal.Diffusion

end
-- ==== Proof.Ideal.Scale4.lean ====
/-
  Edge scaling, diffusion step 3 (launch 4 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The message window's staging buffer holds its block at every point, for any proof data whose array is `V`'s and
    whose body leaves the block in place: the window is fetched at every point and never cut. -/
theorem held4_0_of {c : Dev nD} (dat : Dat τ (Elt F) Unit ℕ (UR sig nD τ) ℕ cfg4 c) (hA : dat.A 0 = V c (Pipeline.arrRef spec4 0))
    (hafter : ∀ t, dat.after 0 t = blk4 V c 0 t) (t : Fin cfg4.N) (d) : dat.before 0 t d = blk4 V c 0 t :=
  (dat.before_in_eq_fetched 0 rfl (fun _ => rfl) (fun _ _ _ => rfl) (fun t => by rw [hafter]; unfold Dat.blockOf blk4; rw [hA]; try rfl) t d).trans
    (by unfold Dat.fetched Dat.blockOf blk4; rw [hA]; try rfl)

/-- The same for the weight column's window. -/
theorem held4_1_of {c : Dev nD} (dat : Dat τ (Elt F) Unit ℕ (UR sig nD τ) ℕ cfg4 c) (hA : dat.A 1 = V c (Pipeline.arrRef spec4 1))
    (hafter : ∀ t, dat.after 1 t = blk4 V c 1 t) (t : Fin cfg4.N) (d) : dat.before 1 t d = blk4 V c 1 t :=
  (dat.before_in_eq_fetched 1 rfl (fun _ => rfl) (fun _ _ _ => rfl) (fun t => by rw [hafter]; unfold Dat.blockOf blk4; rw [hA]; try rfl) t d).trans
    (by unfold Dat.fetched Dat.blockOf blk4; rw [hA]; try rfl)

/-- The whole message block and the whole weight block, as rectangles. -/
abbrev r4_0 : Rect S16384x64 := Rect.unit (s := S16384x64) ![0, 0] S16384x64.size inb_S16384x64_S16384x64_0_0
abbrev r4_1 : Rect S16384x1 := Rect.unit (s := S16384x1) ![0, 0] S16384x1.size inb_S16384x1_S16384x1_0_0

/-- What the body leaves in the output block, from the two input blocks: its one store, of the whole block, of the
    messages times the weight column spread along the 64 features. -/
def scaled4 (x0 : Vec F S16384x64 .f32) (x1 : Vec F S16384x1 .f32) : Vec F S16384x64 .f32 :=
  View.canon [⟨r4_0, k4_pay1 (View.ld x0 r4_0) (View.ld x1 r4_1)⟩]

/-- That one store covers the block. -/
theorem scaled4_cover (p0 : Vec F S16384x64 .f32) (y : S16384x64.Idx) :
    ∃ pc ∈ ([⟨r4_0, p0⟩] : List (View.Piece (Elt F) S16384x64 .f32)), y ∈ pc.1.set :=
  View.cover_of_tiled [⟨r4_0, p0⟩] S16384x64.size (by rfl) y

set_option maxHeartbeats 1000000 in
/-- The body on whole staging buffers, the inputs' at contents `x0`, `x1` and the output's at anything, runs to the
    continuation holding the inputs' as they were and the output's at `scaled4 x0 x1`. -/
theorem scale_body4 (c : Dev nD) (E : Set ℕ) (i : grid4.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled4 x0 x1)) -∗ K ⟨⟩))
      ⊢ wp frame (wpE (defs₀ (F := F)) Variants.none c none) E (cc4__scale_kernel i arg1 harg1 arg2 harg2 arg3 harg3) K := by
  simp only [cc4__scale_kernel_eq_skeleton]; unfold cc4__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled4_cover _)

/-- The pipeline's proof data on core `c`: the arrays as the launch finds them; after the body at point `t` each
    input's buffer at its block and the output's at `scaled4` of the two input blocks; nothing owed; full shares. -/
def scaleDat4 (c : Dev nD) : Dat τ (Elt F) Unit ℕ (UR sig nD τ) ℕ cfg4 c where
  A w := V c (Pipeline.arrRef spec4 w)
  after w t := match w with
    | ⟨0, _⟩ => blk4 V c 0 t
    | ⟨1, _⟩ => blk4 V c 1 t
    | ⟨2, _⟩ => scaled4 (blk4 V c 0 t) (blk4 V c 1 t)
  Φ _ := Pipeline.ΦA spec4 c
  q _ := fullShare
  owed _ := 0

theorem scaleDat4_A (c : Dev nD) (w : Fin cfg4.W) : (scaleDat4 V c).A w = V c (Pipeline.arrRef spec4 w) := by
  dsimp only [scaleDat4]
theorem scaleDat4_after_0 (c : Dev nD) (t : Fin cfg4.N) : (scaleDat4 V c).after 0 t = blk4 V c 0 t := by dsimp only [scaleDat4]
theorem scaleDat4_after_1 (c : Dev nD) (t : Fin cfg4.N) : (scaleDat4 V c).after 1 t = blk4 V c 1 t := by dsimp only [scaleDat4]
theorem scaleDat4_after_2 (c : Dev nD) (t : Fin cfg4.N) :
    (scaleDat4 V c).after 2 t = scaled4 (blk4 V c 0 t) (blk4 V c 1 t) := by dsimp only [scaleDat4]

theorem scaleDat4_before_0 (c : Dev nD) (t : Fin cfg4.N) (d) : (scaleDat4 V c).before 0 t d = blk4 V c 0 t :=
  held4_0_of V (scaleDat4 V c) (scaleDat4_A V c 0) (scaleDat4_after_0 V c) t d
theorem scaleDat4_before_1 (c : Dev nD) (t : Fin cfg4.N) (d) : (scaleDat4 V c).before 1 t d = blk4 V c 1 t :=
  held4_1_of V (scaleDat4 V c) (scaleDat4_A V c 1) (scaleDat4_after_1 V c) t d

/-- What the body is called with at point `t`, the windows one by one, -/
def scalePre4 (c : Dev nD) (t : Fin cfg4.N) : sProp 𝕄 :=
  iprop((scaleDat4 V c).Φ t.castSucc ∗ (scaleDat4 V c).owesAt () t.castSucc
    ∗ (∃ d, owns (c : Thread nD τ) (st4_0 t) fullShare ((scaleDat4 V c).before 0 t d))
    ∗ (∃ d, owns (c : Thread nD τ) (st4_1 t) fullShare ((scaleDat4 V c).before 1 t d))
    ∗ (∃ d, owns (c : Thread nD τ) (st4_2 t) fullShare ((scaleDat4 V c).before 2 t d)))

/-- and what it returns. -/
def scalePost4 (c : Dev nD) (t : Fin cfg4.N) : sProp 𝕄 :=
  iprop((scaleDat4 V c).Φ t.succ ∗ (scaleDat4 V c).owesAt () t.succ
    ∗ owns (c : Thread nD τ) (st4_0 t) fullShare ((scaleDat4 V c).after 0 t)
    ∗ owns (c : Thread nD τ) (st4_1 t) fullShare ((scaleDat4 V c).after 1 t)
    ∗ owns (c : Thread nD τ) (st4_2 t) fullShare ((scaleDat4 V c).after 2 t))

/-- The body at any point: the inputs' buffers hold their blocks, so `scale_body4` applies; the invariant and the
    core's dues pass through unread. -/
theorem scale_point4 (c : Dev nD) (t : Fin cfg4.N) :
    scalePre4 V c t ⊢ wp frame (wpE (defs₀ (F := F)) Variants.none c none) Set.univ (bodyAt4 t) (fun _ => scalePost4 V c t) := by
  unfold scalePre4 scalePost4 bodyAt4
  simp only [scaleDat4_before_0, scaleDat4_before_1]
  rw [show (scaleDat4 V c).Φ t.succ = (scaleDat4 V c).Φ t.castSucc from rfl,
    show (scaleDat4 V c).owesAt () t.succ = (scaleDat4 V c).owesAt () t.castSucc from rfl,
    scaleDat4_after_0, scaleDat4_after_1, scaleDat4_after_2]
  iintro ⟨HΦ, Ho, ⟨%d0, H0⟩, ⟨%d1, H1⟩, ⟨%d2, H2⟩⟩
  iapply (scale_body4 c Set.univ _ _ _ _ _ _ _ (blk4 V c 0 t) (blk4 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation4 (c : Dev nD) : BodyObligation (scaleDat4 (F := F) V c) (defs₀ (F := F)) Variants.none () Set.univ := fun t => by
  rw [bigSep_W4, bigSep_W4]
  exact scale_point4 V c t

end Cert.KernelIdeal.Diffusion

end
-- ==== Proof.Ideal.Combine5.lean ====
/-
  The node update, diffusion step 3 (launch 5 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The aggregate's window's staging buffer holds its block at every point, for any proof data whose array is `V`'s
    and whose body leaves the block in place: the window is fetched at every point and never cut. -/
theorem held5_0_of {c : Dev nD} (dat : Dat τ (Elt F) Unit ℕ (UR sig nD τ) ℕ cfg5 c) (hA : dat.A 0 = V c (Pipeline.arrRef spec5 0))
    (hafter : ∀ t, dat.after 0 t = blk5 V c 0 t) (t : Fin cfg5.N) (d) : dat.before 0 t d = blk5 V c 0 t :=
  (dat.before_in_eq_fetched 0 rfl (fun _ => rfl) (fun _ _ _ => rfl) (fun t => by rw [hafter]; unfold Dat.blockOf blk5; rw [hA]; try rfl) t d).trans
    (by unfold Dat.fetched Dat.blockOf blk5; rw [hA]; try rfl)

/-- The same for the input features' window. -/
theorem held5_1_of {c : Dev nD} (dat : Dat τ (Elt F) Unit ℕ (UR sig nD τ) ℕ cfg5 c) (hA : dat.A 1 = V c (Pipeline.arrRef spec5 1))
    (hafter : ∀ t, dat.after 1 t = blk5 V c 1 t) (t : Fin cfg5.N) (d) : dat.before 1 t d = blk5 V c 1 t :=
  (dat.before_in_eq_fetched 1 rfl (fun _ => rfl) (fun _ _ _ => rfl) (fun t => by rw [hafter]; unfold Dat.blockOf blk5; rw [hA]; try rfl) t d).trans
    (by unfold Dat.fetched Dat.blockOf blk5; rw [hA]; try rfl)

/-- A whole block of 2000 rows, as a rectangle. -/
abbrev r5_0 : Rect S2000x64 := Rect.unit (s := S2000x64) ![0, 0] S2000x64.size inb_S2000x64_S2000x64_0_0

/-- What the body leaves in the output block, from the two input blocks: its one store, of the whole block. -/
def combined5 (x0 : Vec F S2000x64 .f32) (x1 : Vec F S2000x64 .f32) : Vec F S2000x64 .f32 :=
  View.canon [⟨r5_0, k5_pay1 (View.ld x0 r5_0) (View.ld x1 r5_0)⟩]

/-- That one store covers the block. -/
theorem combined5_cover (p0 : Vec F S2000x64 .f32) (y : S2000x64.Idx) :
    ∃ pc ∈ ([⟨r5_0, p0⟩] : List (View.Piece (Elt F) S2000x64 .f32)), y ∈ pc.1.set :=
  View.cover_of_tiled [⟨r5_0, p0⟩] S2000x64.size (by rfl) y

set_option maxHeartbeats 1000000 in
/-- The body on whole staging buffers, the inputs' at contents `x0`, `x1` and the output's at anything, runs to the
    continuation holding the inputs' as they were and the output's at `combined5 x0 x1`. -/
theorem combine_body5 (c : Dev nD) (E : Set ℕ) (i : grid5.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined5 x0 x1)) -∗ K ⟨⟩))
      ⊢ wp frame (wpE (defs₀ (F := F)) Variants.none c none) E (cc5__combine_kernel i arg1 harg1 arg2 harg2 arg3 harg3) K := by
  simp only [cc5__combine_kernel_eq_skeleton]; unfold cc5__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined5_cover _)

/-- The pipeline's proof data on core `c`: the arrays as the launch finds them; after the body at point `t` each
    input's buffer at its block and the output's at `combined5` of the two input blocks; nothing owed; full shares. -/
def combineDat5 (c : Dev nD) : Dat τ (Elt F) Unit ℕ (UR sig nD τ) ℕ cfg5 c where
  A w := V c (Pipeline.arrRef spec5 w)
  after w t := match w with
    | ⟨0, _⟩ => blk5 V c 0 t
    | ⟨1, _⟩ => blk5 V c 1 t
    | ⟨2, _⟩ => combined5 (blk5 V c 0 t) (blk5 V c 1 t)
  Φ _ := Pipeline.ΦA spec5 c
  q _ := fullShare
  owed _ := 0

theorem combineDat5_A (c : Dev nD) (w : Fin cfg5.W) : (combineDat5 V c).A w = V c (Pipeline.arrRef spec5 w) := by
  dsimp only [combineDat5]
theorem combineDat5_after_0 (c : Dev nD) (t : Fin cfg5.N) : (combineDat5 V c).after 0 t = blk5 V c 0 t := by dsimp only [combineDat5]
theorem combineDat5_after_1 (c : Dev nD) (t : Fin cfg5.N) : (combineDat5 V c).after 1 t = blk5 V c 1 t := by dsimp only [combineDat5]
theorem combineDat5_after_2 (c : Dev nD) (t : Fin cfg5.N) :
    (combineDat5 V c).after 2 t = combined5 (blk5 V c 0 t) (blk5 V c 1 t) := by dsimp only [combineDat5]

theorem combineDat5_before_0 (c : Dev nD) (t : Fin cfg5.N) (d) : (combineDat5 V c).before 0 t d = blk5 V c 0 t :=
  held5_0_of V (combineDat5 V c) (combineDat5_A V c 0) (combineDat5_after_0 V c) t d
theorem combineDat5_before_1 (c : Dev nD) (t : Fin cfg5.N) (d) : (combineDat5 V c).before 1 t d = blk5 V c 1 t :=
  held5_1_of V (combineDat5 V c) (combineDat5_A V c 1) (combineDat5_after_1 V c) t d

/-- What the body is called with at point `t`, the windows one by one, -/
def combinePre5 (c : Dev nD) (t : Fin cfg5.N) : sProp 𝕄 :=
  iprop((combineDat5 V c).Φ t.castSucc ∗ (combineDat5 V c).owesAt () t.castSucc
    ∗ (∃ d, owns (c : Thread nD τ) (st5_0 t) fullShare ((combineDat5 V c).before 0 t d))
    ∗ (∃ d, owns (c : Thread nD τ) (st5_1 t) fullShare ((combineDat5 V c).before 1 t d))
    ∗ (∃ d, owns (c : Thread nD τ) (st5_2 t) fullShare ((combineDat5 V c).before 2 t d)))

/-- and what it returns. -/
def combinePost5 (c : Dev nD) (t : Fin cfg5.N) : sProp 𝕄 :=
  iprop((combineDat5 V c).Φ t.succ ∗ (combineDat5 V c).owesAt () t.succ
    ∗ owns (c : Thread nD τ) (st5_0 t) fullShare ((combineDat5 V c).after 0 t)
    ∗ owns (c : Thread nD τ) (st5_1 t) fullShare ((combineDat5 V c).after 1 t)
    ∗ owns (c : Thread nD τ) (st5_2 t) fullShare ((combineDat5 V c).after 2 t))

/-- The body at any point: the inputs' buffers hold their blocks, so `combine_body5` applies; the invariant and the
    core's dues pass through unread. -/
theorem combine_point5 (c : Dev nD) (t : Fin cfg5.N) :
    combinePre5 V c t ⊢ wp frame (wpE (defs₀ (F := F)) Variants.none c none) Set.univ (bodyAt5 t) (fun _ => combinePost5 V c t) := by
  unfold combinePre5 combinePost5 bodyAt5
  simp only [combineDat5_before_0, combineDat5_before_1]
  rw [show (combineDat5 V c).Φ t.succ = (combineDat5 V c).Φ t.castSucc from rfl,
    show (combineDat5 V c).owesAt () t.succ = (combineDat5 V c).owesAt () t.castSucc from rfl,
    combineDat5_after_0, combineDat5_after_1, combineDat5_after_2]
  iintro ⟨HΦ, Ho, ⟨%d0, H0⟩, ⟨%d1, H1⟩, ⟨%d2, H2⟩⟩
  iapply (combine_body5 c Set.univ _ _ _ _ _ _ _ (blk5 V c 0 t) (blk5 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation5 (c : Dev nD) : BodyObligation (combineDat5 (F := F) V c) (defs₀ (F := F)) Variants.none () Set.univ := fun t => by
  rw [bigSep_W5, bigSep_W5]
  exact combine_point5 V c t

end Cert.KernelIdeal.Diffusion

end
-- ==== Proof.Ideal.Scale6.lean ====
/-
  Edge scaling, diffusion step 4 (launch 6 of the program): over a grid of 141 points, point `t` reads
  rows `16384 t … 16384 t + 16383` of the gathered messages `[2310144, 64]` and of the weight column `[2310144, 1]`
  and writes the same rows of the scaled messages: each message row times its edge's weight. Stated at a parameter
  `V`, the buffers' contents when the launch is entered, and for any float instance: what each window's block is,
  what the body leaves in the output block, that the body runs (it loads whole blocks and stores one whole block), and
  the pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `16384 t …` of its array as the launch finds it. -/
def blk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The message window's staging buffer holds its block at every point, for any proof data whose array is `V`'s and
    whose body leaves the block in place: the window is fetched at every point and never cut. -/
theorem held6_0_of {c : Dev nD} (dat : Dat τ (Elt F) Unit ℕ (UR sig nD τ) ℕ cfg6 c) (hA : dat.A 0 = V c (Pipeline.arrRef spec6 0))
    (hafter : ∀ t, dat.after 0 t = blk6 V c 0 t) (t : Fin cfg6.N) (d) : dat.before 0 t d = blk6 V c 0 t :=
  (dat.before_in_eq_fetched 0 rfl (fun _ => rfl) (fun _ _ _ => rfl) (fun t => by rw [hafter]; unfold Dat.blockOf blk6; rw [hA]; try rfl) t d).trans
    (by unfold Dat.fetched Dat.blockOf blk6; rw [hA]; try rfl)

/-- The same for the weight column's window. -/
theorem held6_1_of {c : Dev nD} (dat : Dat τ (Elt F) Unit ℕ (UR sig nD τ) ℕ cfg6 c) (hA : dat.A 1 = V c (Pipeline.arrRef spec6 1))
    (hafter : ∀ t, dat.after 1 t = blk6 V c 1 t) (t : Fin cfg6.N) (d) : dat.before 1 t d = blk6 V c 1 t :=
  (dat.before_in_eq_fetched 1 rfl (fun _ => rfl) (fun _ _ _ => rfl) (fun t => by rw [hafter]; unfold Dat.blockOf blk6; rw [hA]; try rfl) t d).trans
    (by unfold Dat.fetched Dat.blockOf blk6; rw [hA]; try rfl)

/-- The whole message block and the whole weight block, as rectangles. -/
abbrev r6_0 : Rect S16384x64 := Rect.unit (s := S16384x64) ![0, 0] S16384x64.size inb_S16384x64_S16384x64_0_0
abbrev r6_1 : Rect S16384x1 := Rect.unit (s := S16384x1) ![0, 0] S16384x1.size inb_S16384x1_S16384x1_0_0

/-- What the body leaves in the output block, from the two input blocks: its one store, of the whole block, of the
    messages times the weight column spread along the 64 features. -/
def scaled6 (x0 : Vec F S16384x64 .f32) (x1 : Vec F S16384x1 .f32) : Vec F S16384x64 .f32 :=
  View.canon [⟨r6_0, k6_pay1 (View.ld x0 r6_0) (View.ld x1 r6_1)⟩]

/-- That one store covers the block. -/
theorem scaled6_cover (p0 : Vec F S16384x64 .f32) (y : S16384x64.Idx) :
    ∃ pc ∈ ([⟨r6_0, p0⟩] : List (View.Piece (Elt F) S16384x64 .f32)), y ∈ pc.1.set :=
  View.cover_of_tiled [⟨r6_0, p0⟩] S16384x64.size (by rfl) y

set_option maxHeartbeats 1000000 in
/-- The body on whole staging buffers, the inputs' at contents `x0`, `x1` and the output's at anything, runs to the
    continuation holding the inputs' as they were and the output's at `scaled6 x0 x1`. -/
theorem scale_body6 (c : Dev nD) (E : Set ℕ) (i : grid6.Coords) (arg1 : Memref sig .tc .vmem S16384x64 .f32) (harg1 : arg1.IsWhole)
    (arg2 : Memref sig .tc .vmem S16384x1 .f32) (harg2 : arg2.IsWhole) (arg3 : Memref sig .tc .vmem S16384x64 .f32) (harg3 : arg3.IsWhole)
    (x0 : Vec F S16384x64 .f32) (x1 : Vec F S16384x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (scaled6 x0 x1)) -∗ K ⟨⟩))
      ⊢ wp frame (wpE (defs₀ (F := F)) Variants.none c none) E (cc6__scale_kernel i arg1 harg1 arg2 harg2 arg3 harg3) K := by
  simp only [cc6__scale_kernel_eq_skeleton]; unfold cc6__scale_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (scaled6_cover _)

/-- The pipeline's proof data on core `c`: the arrays as the launch finds them; after the body at point `t` each
    input's buffer at its block and the output's at `scaled6` of the two input blocks; nothing owed; full shares. -/
def scaleDat6 (c : Dev nD) : Dat τ (Elt F) Unit ℕ (UR sig nD τ) ℕ cfg6 c where
  A w := V c (Pipeline.arrRef spec6 w)
  after w t := match w with
    | ⟨0, _⟩ => blk6 V c 0 t
    | ⟨1, _⟩ => blk6 V c 1 t
    | ⟨2, _⟩ => scaled6 (blk6 V c 0 t) (blk6 V c 1 t)
  Φ _ := Pipeline.ΦA spec6 c
  q _ := fullShare
  owed _ := 0

theorem scaleDat6_A (c : Dev nD) (w : Fin cfg6.W) : (scaleDat6 V c).A w = V c (Pipeline.arrRef spec6 w) := by
  dsimp only [scaleDat6]
theorem scaleDat6_after_0 (c : Dev nD) (t : Fin cfg6.N) : (scaleDat6 V c).after 0 t = blk6 V c 0 t := by dsimp only [scaleDat6]
theorem scaleDat6_after_1 (c : Dev nD) (t : Fin cfg6.N) : (scaleDat6 V c).after 1 t = blk6 V c 1 t := by dsimp only [scaleDat6]
theorem scaleDat6_after_2 (c : Dev nD) (t : Fin cfg6.N) :
    (scaleDat6 V c).after 2 t = scaled6 (blk6 V c 0 t) (blk6 V c 1 t) := by dsimp only [scaleDat6]

theorem scaleDat6_before_0 (c : Dev nD) (t : Fin cfg6.N) (d) : (scaleDat6 V c).before 0 t d = blk6 V c 0 t :=
  held6_0_of V (scaleDat6 V c) (scaleDat6_A V c 0) (scaleDat6_after_0 V c) t d
theorem scaleDat6_before_1 (c : Dev nD) (t : Fin cfg6.N) (d) : (scaleDat6 V c).before 1 t d = blk6 V c 1 t :=
  held6_1_of V (scaleDat6 V c) (scaleDat6_A V c 1) (scaleDat6_after_1 V c) t d

/-- What the body is called with at point `t`, the windows one by one, -/
def scalePre6 (c : Dev nD) (t : Fin cfg6.N) : sProp 𝕄 :=
  iprop((scaleDat6 V c).Φ t.castSucc ∗ (scaleDat6 V c).owesAt () t.castSucc
    ∗ (∃ d, owns (c : Thread nD τ) (st6_0 t) fullShare ((scaleDat6 V c).before 0 t d))
    ∗ (∃ d, owns (c : Thread nD τ) (st6_1 t) fullShare ((scaleDat6 V c).before 1 t d))
    ∗ (∃ d, owns (c : Thread nD τ) (st6_2 t) fullShare ((scaleDat6 V c).before 2 t d)))

/-- and what it returns. -/
def scalePost6 (c : Dev nD) (t : Fin cfg6.N) : sProp 𝕄 :=
  iprop((scaleDat6 V c).Φ t.succ ∗ (scaleDat6 V c).owesAt () t.succ
    ∗ owns (c : Thread nD τ) (st6_0 t) fullShare ((scaleDat6 V c).after 0 t)
    ∗ owns (c : Thread nD τ) (st6_1 t) fullShare ((scaleDat6 V c).after 1 t)
    ∗ owns (c : Thread nD τ) (st6_2 t) fullShare ((scaleDat6 V c).after 2 t))

/-- The body at any point: the inputs' buffers hold their blocks, so `scale_body6` applies; the invariant and the
    core's dues pass through unread. -/
theorem scale_point6 (c : Dev nD) (t : Fin cfg6.N) :
    scalePre6 V c t ⊢ wp frame (wpE (defs₀ (F := F)) Variants.none c none) Set.univ (bodyAt6 t) (fun _ => scalePost6 V c t) := by
  unfold scalePre6 scalePost6 bodyAt6
  simp only [scaleDat6_before_0, scaleDat6_before_1]
  rw [show (scaleDat6 V c).Φ t.succ = (scaleDat6 V c).Φ t.castSucc from rfl,
    show (scaleDat6 V c).owesAt () t.succ = (scaleDat6 V c).owesAt () t.castSucc from rfl,
    scaleDat6_after_0, scaleDat6_after_1, scaleDat6_after_2]
  iintro ⟨HΦ, Ho, ⟨%d0, H0⟩, ⟨%d1, H1⟩, ⟨%d2, H2⟩⟩
  iapply (scale_body6 c Set.univ _ _ _ _ _ _ _ (blk6 V c 0 t) (blk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem scale_obligation6 (c : Dev nD) : BodyObligation (scaleDat6 (F := F) V c) (defs₀ (F := F)) Variants.none () Set.univ := fun t => by
  rw [bigSep_W6, bigSep_W6]
  exact scale_point6 V c t

end Cert.KernelIdeal.Diffusion

end
-- ==== Proof.Ideal.Combine7.lean ====
/-
  The node update, diffusion step 4 (launch 7 of the program): over a grid of 150 points, point `t` reads
  rows `2000 t … 2000 t + 1999` of the aggregated messages `[300000, 64]` and of the input features `[300000, 64]`
  and writes the same rows of the new features: the aggregate times the constant `0x3F666666` plus the input times
  the constant `0x3DCCCCCD`. Stated at a parameter `V`, the buffers' contents when the launch is entered, and for
  any float instance: each window's block, what the body leaves in the output block, that the body runs, and the
  pipeline's proof data with the body's obligation at every point.
-/
import proofs.«173453_j38800734552802_1_alg».proof.Proof.Gen.KernelIdeal.Launch
import proofs.«173453_j38800734552802_1_alg».proof.Proof.Gen.KernelIdeal.Skeleton
import proofs.«173453_j38800734552802_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of the blocks' extents recurses once per coordinate of the long axis
set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the launch is entered
variable (V : (c : Dev nD) → (b : Ref sig .tc) → Buf (Elt F) ((c : Thread nD τ).loc b))

/-- Window `w`'s block at point `t`: rows `2000 t …` of its array as the launch finds it. -/
def blk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The aggregate's window's staging buffer holds its block at every point, for any proof data whose array is `V`'s
    and whose body leaves the block in place: the window is fetched at every point and never cut. -/
theorem held7_0_of {c : Dev nD} (dat : Dat τ (Elt F) Unit ℕ (UR sig nD τ) ℕ cfg7 c) (hA : dat.A 0 = V c (Pipeline.arrRef spec7 0))
    (hafter : ∀ t, dat.after 0 t = blk7 V c 0 t) (t : Fin cfg7.N) (d) : dat.before 0 t d = blk7 V c 0 t :=
  (dat.before_in_eq_fetched 0 rfl (fun _ => rfl) (fun _ _ _ => rfl) (fun t => by rw [hafter]; unfold Dat.blockOf blk7; rw [hA]; try rfl) t d).trans
    (by unfold Dat.fetched Dat.blockOf blk7; rw [hA]; try rfl)

/-- The same for the input features' window. -/
theorem held7_1_of {c : Dev nD} (dat : Dat τ (Elt F) Unit ℕ (UR sig nD τ) ℕ cfg7 c) (hA : dat.A 1 = V c (Pipeline.arrRef spec7 1))
    (hafter : ∀ t, dat.after 1 t = blk7 V c 1 t) (t : Fin cfg7.N) (d) : dat.before 1 t d = blk7 V c 1 t :=
  (dat.before_in_eq_fetched 1 rfl (fun _ => rfl) (fun _ _ _ => rfl) (fun t => by rw [hafter]; unfold Dat.blockOf blk7; rw [hA]; try rfl) t d).trans
    (by unfold Dat.fetched Dat.blockOf blk7; rw [hA]; try rfl)

/-- A whole block of 2000 rows, as a rectangle. -/
abbrev r7_0 : Rect S2000x64 := Rect.unit (s := S2000x64) ![0, 0] S2000x64.size inb_S2000x64_S2000x64_0_0

/-- What the body leaves in the output block, from the two input blocks: its one store, of the whole block. -/
def combined7 (x0 : Vec F S2000x64 .f32) (x1 : Vec F S2000x64 .f32) : Vec F S2000x64 .f32 :=
  View.canon [⟨r7_0, k7_pay1 (View.ld x0 r7_0) (View.ld x1 r7_0)⟩]

/-- That one store covers the block. -/
theorem combined7_cover (p0 : Vec F S2000x64 .f32) (y : S2000x64.Idx) :
    ∃ pc ∈ ([⟨r7_0, p0⟩] : List (View.Piece (Elt F) S2000x64 .f32)), y ∈ pc.1.set :=
  View.cover_of_tiled [⟨r7_0, p0⟩] S2000x64.size (by rfl) y

set_option maxHeartbeats 1000000 in
/-- The body on whole staging buffers, the inputs' at contents `x0`, `x1` and the output's at anything, runs to the
    continuation holding the inputs' as they were and the output's at `combined7 x0 x1`. -/
theorem combine_body7 (c : Dev nD) (E : Set ℕ) (i : grid7.Coords) (arg1 : Memref sig .tc .vmem S2000x64 .f32) (harg1 : arg1.IsWhole)
    (arg2 : Memref sig .tc .vmem S2000x64 .f32) (harg2 : arg2.IsWhole) (arg3 : Memref sig .tc .vmem S2000x64 .f32) (harg3 : arg3.IsWhole)
    (x0 : Vec F S2000x64 .f32) (x1 : Vec F S2000x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (combined7 x0 x1)) -∗ K ⟨⟩))
      ⊢ wp frame (wpE (defs₀ (F := F)) Variants.none c none) E (cc7__combine_kernel i arg1 harg1 arg2 harg2 arg3 harg3) K := by
  simp only [cc7__combine_kernel_eq_skeleton]; unfold cc7__combine_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (combined7_cover _)

/-- The pipeline's proof data on core `c`: the arrays as the launch finds them; after the body at point `t` each
    input's buffer at its block and the output's at `combined7` of the two input blocks; nothing owed; full shares. -/
def combineDat7 (c : Dev nD) : Dat τ (Elt F) Unit ℕ (UR sig nD τ) ℕ cfg7 c where
  A w := V c (Pipeline.arrRef spec7 w)
  after w t := match w with
    | ⟨0, _⟩ => blk7 V c 0 t
    | ⟨1, _⟩ => blk7 V c 1 t
    | ⟨2, _⟩ => combined7 (blk7 V c 0 t) (blk7 V c 1 t)
  Φ _ := Pipeline.ΦA spec7 c
  q _ := fullShare
  owed _ := 0

theorem combineDat7_A (c : Dev nD) (w : Fin cfg7.W) : (combineDat7 V c).A w = V c (Pipeline.arrRef spec7 w) := by
  dsimp only [combineDat7]
theorem combineDat7_after_0 (c : Dev nD) (t : Fin cfg7.N) : (combineDat7 V c).after 0 t = blk7 V c 0 t := by dsimp only [combineDat7]
theorem combineDat7_after_1 (c : Dev nD) (t : Fin cfg7.N) : (combineDat7 V c).after 1 t = blk7 V c 1 t := by dsimp only [combineDat7]
theorem combineDat7_after_2 (c : Dev nD) (t : Fin cfg7.N) :
    (combineDat7 V c).after 2 t = combined7 (blk7 V c 0 t) (blk7 V c 1 t) := by dsimp only [combineDat7]

theorem combineDat7_before_0 (c : Dev nD) (t : Fin cfg7.N) (d) : (combineDat7 V c).before 0 t d = blk7 V c 0 t :=
  held7_0_of V (combineDat7 V c) (combineDat7_A V c 0) (combineDat7_after_0 V c) t d
theorem combineDat7_before_1 (c : Dev nD) (t : Fin cfg7.N) (d) : (combineDat7 V c).before 1 t d = blk7 V c 1 t :=
  held7_1_of V (combineDat7 V c) (combineDat7_A V c 1) (combineDat7_after_1 V c) t d

/-- What the body is called with at point `t`, the windows one by one, -/
def combinePre7 (c : Dev nD) (t : Fin cfg7.N) : sProp 𝕄 :=
  iprop((combineDat7 V c).Φ t.castSucc ∗ (combineDat7 V c).owesAt () t.castSucc
    ∗ (∃ d, owns (c : Thread nD τ) (st7_0 t) fullShare ((combineDat7 V c).before 0 t d))
    ∗ (∃ d, owns (c : Thread nD τ) (st7_1 t) fullShare ((combineDat7 V c).before 1 t d))
    ∗ (∃ d, owns (c : Thread nD τ) (st7_2 t) fullShare ((combineDat7 V c).before 2 t d)))

/-- and what it returns. -/
def combinePost7 (c : Dev nD) (t : Fin cfg7.N) : sProp 𝕄 :=
  iprop((combineDat7 V c).Φ t.succ ∗ (combineDat7 V c).owesAt () t.succ
    ∗ owns (c : Thread nD τ) (st7_0 t) fullShare ((combineDat7 V c).after 0 t)
    ∗ owns (c : Thread nD τ) (st7_1 t) fullShare ((combineDat7 V c).after 1 t)
    ∗ owns (c : Thread nD τ) (st7_2 t) fullShare ((combineDat7 V c).after 2 t))

/-- The body at any point: the inputs' buffers hold their blocks, so `combine_body7` applies; the invariant and the
    core's dues pass through unread. -/
theorem combine_point7 (c : Dev nD) (t : Fin cfg7.N) :
    combinePre7 V c t ⊢ wp frame (wpE (defs₀ (F := F)) Variants.none c none) Set.univ (bodyAt7 t) (fun _ => combinePost7 V c t) := by
  unfold combinePre7 combinePost7 bodyAt7
  simp only [combineDat7_before_0, combineDat7_before_1]
  rw [show (combineDat7 V c).Φ t.succ = (combineDat7 V c).Φ t.castSucc from rfl,
    show (combineDat7 V c).owesAt () t.succ = (combineDat7 V c).owesAt () t.castSucc from rfl,
    combineDat7_after_0, combineDat7_after_1, combineDat7_after_2]
  iintro ⟨HΦ, Ho, ⟨%d0, H0⟩, ⟨%d1, H1⟩, ⟨%d2, H2⟩⟩
  iapply (combine_body7 c Set.univ _ _ _ _ _ _ _ (blk7 V c 0 t) (blk7 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body's obligation, at every point. -/
theorem combine_obligation7 (c : Dev nD) : BodyObligation (combineDat7 (F := F) V c) (defs₀ (F := F)) Variants.none () Set.univ := fun t => by
  rw [bigSep_W7, bigSep_W7]
  exact combine_point7 V c t

end Cert.KernelIdeal.Diffusion

end
-- ==== Proof.Ideal.Fold.lean ====
/-
  The contents of the core's unscoped buffers at every boundary of the program: at launch, after each stretch of host
  operations (a launch's entry), and after each of the eight launches (its arrays at what its write-backs leave, every
  other buffer as it was). For any float instance. With them: every launch's proof data at its entry contents, and what
  rides beside the buffers through the run (the generator register, and the core owing nothing).
-/
import proofs.«173453_j38800734552802_1_alg».proof.Proof.Ideal.Scale0
import proofs.«173453_j38800734552802_1_alg».proof.Proof.Ideal.Combine1
import proofs.«173453_j38800734552802_1_alg».proof.Proof.Ideal.Scale2
import proofs.«173453_j38800734552802_1_alg».proof.Proof.Ideal.Combine3
import proofs.«173453_j38800734552802_1_alg».proof.Proof.Ideal.Scale4
import proofs.«173453_j38800734552802_1_alg».proof.Proof.Ideal.Combine5
import proofs.«173453_j38800734552802_1_alg».proof.Proof.Ideal.Scale6
import proofs.«173453_j38800734552802_1_alg».proof.Proof.Ideal.Combine7
import proofs.«173453_j38800734552802_1_alg».proof.Proof.Gen.KernelIdeal.Regions

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers at launch. -/
abbrev start : Dev nD → Valuation τ sig (Elt F) := fun c b => (s₀ m ρ).mem ((c : Dev nD), b)

/-! ## Launch 0 -/

/-- Entered after the host operations `hostOps0`. -/
abbrev in0 : Dev nD → Valuation τ sig (Elt F) := fun c => StableHlo.after hostOps0 (start m ρ c)
/-- The same read at the TensorCore's references. -/
abbrev ent0 : (c : Dev nD) → (b : Ref sig .tc) → Buf (Elt F) ((c : Thread nD τ).loc b) := fun c b => in0 m ρ c b
/-- Left with its arrays at what the pipeline leaves, every other buffer as entered. -/
def out0 (c : Dev nD) : Valuation τ sig (Elt F) :=
  Pipeline.withArrays spec0 c (in0 m ρ c) fun w => (scaleDat0 (ent0 m ρ) c).arrAt w cfg0.N
theorem out0_arr (c : Dev nD) (w : Fin cfg0.W) :
    out0 m ρ c (Proc.devRef .tc (Pipeline.arrRef spec0 w)) = (scaleDat0 (ent0 m ρ) c).arrAt w cfg0.N := by
  unfold out0; exact Pipeline.withArrays_arr spec0 launch0.win.arr_inj c _ _ w
theorem out0_of_ne (c : Dev nD) (b : Ref sig .tc) (hb : ∀ w, Pipeline.arrRef spec0 w ≠ b) :
    out0 m ρ c (Proc.devRef .tc b) = in0 m ρ c (Proc.devRef .tc b) := by
  unfold out0; exact Pipeline.withArrays_of_ne spec0 c _ _ b hb
/-- An input window's array is left as entered. -/
theorem out0_in_0 (c : Dev nD) :
    out0 m ρ c (Proc.devRef .tc (Pipeline.arrRef spec0 0)) = in0 m ρ c (Proc.devRef .tc (Pipeline.arrRef spec0 0)) :=
  (out0_arr m ρ c 0).trans (((scaleDat0 (ent0 m ρ) c).arrAt_in 0 rfl _).trans (scaleDat0_A (ent0 m ρ) c 0))
theorem out0_in_1 (c : Dev nD) :
    out0 m ρ c (Proc.devRef .tc (Pipeline.arrRef spec0 1)) = in0 m ρ c (Proc.devRef .tc (Pipeline.arrRef spec0 1)) :=
  (out0_arr m ρ c 1).trans (((scaleDat0 (ent0 m ρ) c).arrAt_in 1 rfl _).trans (scaleDat0_A (ent0 m ρ) c 1))
abbrev ext0 : (c : Dev nD) → (b : Ref sig .tc) → Buf (Elt F) ((c : Thread nD τ).loc b) := fun c b => out0 m ρ c b
theorem left0 (c : Dev nD) (w : Fin cfg0.W) : (scaleDat0 (ent0 m ρ) c).arrAt w cfg0.N = ext0 m ρ c (Pipeline.arrRef spec0 w) :=
  (out0_arr m ρ c w).symm
theorem kept0 (c : Dev nD) : ∀ b, b ∉ Finset.univ.image (Pipeline.arrRef spec0) → ext0 m ρ c b = ent0 m ρ c b :=
  fun b hb => out0_of_ne m ρ c b fun w e => hb (Finset.mem_image.mpr ⟨w, Finset.mem_univ _, e⟩)

/-! ## Launch 1 -/

/-- Entered after the host operations `hostOps1`. -/
abbrev in1 : Dev nD → Valuation τ sig (Elt F) := fun c => StableHlo.after hostOps1 (out0 m ρ c)
/-- The same read at the TensorCore's references. -/
abbrev ent1 : (c : Dev nD) → (b : Ref sig .tc) → Buf (Elt F) ((c : Thread nD τ).loc b) := fun c b => in1 m ρ c b
/-- Left with its arrays at what the pipeline leaves, every other buffer as entered. -/
def out1 (c : Dev nD) : Valuation τ sig (Elt F) :=
  Pipeline.withArrays spec1 c (in1 m ρ c) fun w => (combineDat1 (ent1 m ρ) c).arrAt w cfg1.N
theorem out1_arr (c : Dev nD) (w : Fin cfg1.W) :
    out1 m ρ c (Proc.devRef .tc (Pipeline.arrRef spec1 w)) = (combineDat1 (ent1 m ρ) c).arrAt w cfg1.N := by
  unfold out1; exact Pipeline.withArrays_arr spec1 launch1.win.arr_inj c _ _ w
theorem out1_of_ne (c : Dev nD) (b : Ref sig .tc) (hb : ∀ w, Pipeline.arrRef spec1 w ≠ b) :
    out1 m ρ c (Proc.devRef .tc b) = in1 m ρ c (Proc.devRef .tc b) := by
  unfold out1; exact Pipeline.withArrays_of_ne spec1 c _ _ b hb
/-- An input window's array is left as entered. -/
theorem out1_in_0 (c : Dev nD) :
    out1 m ρ c (Proc.devRef .tc (Pipeline.arrRef spec1 0)) = in1 m ρ c (Proc.devRef .tc (Pipeline.arrRef spec1 0)) :=
  (out1_arr m ρ c 0).trans (((combineDat1 (ent1 m ρ) c).arrAt_in 0 rfl _).trans (combineDat1_A (ent1 m ρ) c 0))
theorem out1_in_1 (c : Dev nD) :
    out1 m ρ c (Proc.devRef .tc (Pipeline.arrRef spec1 1)) = in1 m ρ c (Proc.devRef .tc (Pipeline.arrRef spec1 1)) :=
  (out1_arr m ρ c 1).trans (((combineDat1 (ent1 m ρ) c).arrAt_in 1 rfl _).trans (combineDat1_A (ent1 m ρ) c 1))
abbrev ext1 : (c : Dev nD) → (b : Ref sig .tc) → Buf (Elt F) ((c : Thread nD τ).loc b) := fun c b => out1 m ρ c b
theorem left1 (c : Dev nD) (w : Fin cfg1.W) : (combineDat1 (ent1 m ρ) c).arrAt w cfg1.N = ext1 m ρ c (Pipeline.arrRef spec1 w) :=
  (out1_arr m ρ c w).symm
theorem kept1 (c : Dev nD) : ∀ b, b ∉ Finset.univ.image (Pipeline.arrRef spec1) → ext1 m ρ c b = ent1 m ρ c b :=
  fun b hb => out1_of_ne m ρ c b fun w e => hb (Finset.mem_image.mpr ⟨w, Finset.mem_univ _, e⟩)

/-! ## Launch 2 -/

/-- Entered after the host operations `hostOps2`. -/
abbrev in2 : Dev nD → Valuation τ sig (Elt F) := fun c => StableHlo.after hostOps2 (out1 m ρ c)
/-- The same read at the TensorCore's references. -/
abbrev ent2 : (c : Dev nD) → (b : Ref sig .tc) → Buf (Elt F) ((c : Thread nD τ).loc b) := fun c b => in2 m ρ c b
/-- Left with its arrays at what the pipeline leaves, every other buffer as entered. -/
def out2 (c : Dev nD) : Valuation τ sig (Elt F) :=
  Pipeline.withArrays spec2 c (in2 m ρ c) fun w => (scaleDat2 (ent2 m ρ) c).arrAt w cfg2.N
theorem out2_arr (c : Dev nD) (w : Fin cfg2.W) :
    out2 m ρ c (Proc.devRef .tc (Pipeline.arrRef spec2 w)) = (scaleDat2 (ent2 m ρ) c).arrAt w cfg2.N := by
  unfold out2; exact Pipeline.withArrays_arr spec2 launch2.win.arr_inj c _ _ w
theorem out2_of_ne (c : Dev nD) (b : Ref sig .tc) (hb : ∀ w, Pipeline.arrRef spec2 w ≠ b) :
    out2 m ρ c (Proc.devRef .tc b) = in2 m ρ c (Proc.devRef .tc b) := by
  unfold out2; exact Pipeline.withArrays_of_ne spec2 c _ _ b hb
/-- An input window's array is left as entered. -/
theorem out2_in_0 (c : Dev nD) :
    out2 m ρ c (Proc.devRef .tc (Pipeline.arrRef spec2 0)) = in2 m ρ c (Proc.devRef .tc (Pipeline.arrRef spec2 0)) :=
  (out2_arr m ρ c 0).trans (((scaleDat2 (ent2 m ρ) c).arrAt_in 0 rfl _).trans (scaleDat2_A (ent2 m ρ) c 0))
theorem out2_in_1 (c : Dev nD) :
    out2 m ρ c (Proc.devRef .tc (Pipeline.arrRef spec2 1)) = in2 m ρ c (Proc.devRef .tc (Pipeline.arrRef spec2 1)) :=
  (out2_arr m ρ c 1).trans (((scaleDat2 (ent2 m ρ) c).arrAt_in 1 rfl _).trans (scaleDat2_A (ent2 m ρ) c 1))
abbrev ext2 : (c : Dev nD) → (b : Ref sig .tc) → Buf (Elt F) ((c : Thread nD τ).loc b) := fun c b => out2 m ρ c b
theorem left2 (c : Dev nD) (w : Fin cfg2.W) : (scaleDat2 (ent2 m ρ) c).arrAt w cfg2.N = ext2 m ρ c (Pipeline.arrRef spec2 w) :=
  (out2_arr m ρ c w).symm
theorem kept2 (c : Dev nD) : ∀ b, b ∉ Finset.univ.image (Pipeline.arrRef spec2) → ext2 m ρ c b = ent2 m ρ c b :=
  fun b hb => out2_of_ne m ρ c b fun w e => hb (Finset.mem_image.mpr ⟨w, Finset.mem_univ _, e⟩)

/-! ## Launch 3 -/

/-- Entered after the host operations `hostOps3`. -/
abbrev in3 : Dev nD → Valuation τ sig (Elt F) := fun c => StableHlo.after hostOps3 (out2 m ρ c)
/-- The same read at the TensorCore's references. -/
abbrev ent3 : (c : Dev nD) → (b : Ref sig .tc) → Buf (Elt F) ((c : Thread nD τ).loc b) := fun c b => in3 m ρ c b
/-- Left with its arrays at what the pipeline leaves, every other buffer as entered. -/
def out3 (c : Dev nD) : Valuation τ sig (Elt F) :=
  Pipeline.withArrays spec3 c (in3 m ρ c) fun w => (combineDat3 (ent3 m ρ) c).arrAt w cfg3.N
theorem out3_arr (c : Dev nD) (w : Fin cfg3.W) :
    out3 m ρ c (Proc.devRef .tc (Pipeline.arrRef spec3 w)) = (combineDat3 (ent3 m ρ) c).arrAt w cfg3.N := by
  unfold out3; exact Pipeline.withArrays_arr spec3 launch3.win.arr_inj c _ _ w
theorem out3_of_ne (c : Dev nD) (b : Ref sig .tc) (hb : ∀ w, Pipeline.arrRef spec3 w ≠ b) :
    out3 m ρ c (Proc.devRef .tc b) = in3 m ρ c (Proc.devRef .tc b) := by
  unfold out3; exact Pipeline.withArrays_of_ne spec3 c _ _ b hb
/-- An input window's array is left as entered. -/
theorem out3_in_0 (c : Dev nD) :
    out3 m ρ c (Proc.devRef .tc (Pipeline.arrRef spec3 0)) = in3 m ρ c (Proc.devRef .tc (Pipeline.arrRef spec3 0)) :=
  (out3_arr m ρ c 0).trans (((combineDat3 (ent3 m ρ) c).arrAt_in 0 rfl _).trans (combineDat3_A (ent3 m ρ) c 0))
theorem out3_in_1 (c : Dev nD) :
    out3 m ρ c (Proc.devRef .tc (Pipeline.arrRef spec3 1)) = in3 m ρ c (Proc.devRef .tc (Pipeline.arrRef spec3 1)) :=
  (out3_arr m ρ c 1).trans (((combineDat3 (ent3 m ρ) c).arrAt_in 1 rfl _).trans (combineDat3_A (ent3 m ρ) c 1))
abbrev ext3 : (c : Dev nD) → (b : Ref sig .tc) → Buf (Elt F) ((c : Thread nD τ).loc b) := fun c b => out3 m ρ c b
theorem left3 (c : Dev nD) (w : Fin cfg3.W) : (combineDat3 (ent3 m ρ) c).arrAt w cfg3.N = ext3 m ρ c (Pipeline.arrRef spec3 w) :=
  (out3_arr m ρ c w).symm
theorem kept3 (c : Dev nD) : ∀ b, b ∉ Finset.univ.image (Pipeline.arrRef spec3) → ext3 m ρ c b = ent3 m ρ c b :=
  fun b hb => out3_of_ne m ρ c b fun w e => hb (Finset.mem_image.mpr ⟨w, Finset.mem_univ _, e⟩)

/-! ## Launch 4 -/

/-- Entered after the host operations `hostOps4`. -/
abbrev in4 : Dev nD → Valuation τ sig (Elt F) := fun c => StableHlo.after hostOps4 (out3 m ρ c)
/-- The same read at the TensorCore's references. -/
abbrev ent4 : (c : Dev nD) → (b : Ref sig .tc) → Buf (Elt F) ((c : Thread nD τ).loc b) := fun c b => in4 m ρ c b
/-- Left with its arrays at what the pipeline leaves, every other buffer as entered. -/
def out4 (c : Dev nD) : Valuation τ sig (Elt F) :=
  Pipeline.withArrays spec4 c (in4 m ρ c) fun w => (scaleDat4 (ent4 m ρ) c).arrAt w cfg4.N
theorem out4_arr (c : Dev nD) (w : Fin cfg4.W) :
    out4 m ρ c (Proc.devRef .tc (Pipeline.arrRef spec4 w)) = (scaleDat4 (ent4 m ρ) c).arrAt w cfg4.N := by
  unfold out4; exact Pipeline.withArrays_arr spec4 launch4.win.arr_inj c _ _ w
theorem out4_of_ne (c : Dev nD) (b : Ref sig .tc) (hb : ∀ w, Pipeline.arrRef spec4 w ≠ b) :
    out4 m ρ c (Proc.devRef .tc b) = in4 m ρ c (Proc.devRef .tc b) := by
  unfold out4; exact Pipeline.withArrays_of_ne spec4 c _ _ b hb
/-- An input window's array is left as entered. -/
theorem out4_in_0 (c : Dev nD) :
    out4 m ρ c (Proc.devRef .tc (Pipeline.arrRef spec4 0)) = in4 m ρ c (Proc.devRef .tc (Pipeline.arrRef spec4 0)) :=
  (out4_arr m ρ c 0).trans (((scaleDat4 (ent4 m ρ) c).arrAt_in 0 rfl _).trans (scaleDat4_A (ent4 m ρ) c 0))
theorem out4_in_1 (c : Dev nD) :
    out4 m ρ c (Proc.devRef .tc (Pipeline.arrRef spec4 1)) = in4 m ρ c (Proc.devRef .tc (Pipeline.arrRef spec4 1)) :=
  (out4_arr m ρ c 1).trans (((scaleDat4 (ent4 m ρ) c).arrAt_in 1 rfl _).trans (scaleDat4_A (ent4 m ρ) c 1))
abbrev ext4 : (c : Dev nD) → (b : Ref sig .tc) → Buf (Elt F) ((c : Thread nD τ).loc b) := fun c b => out4 m ρ c b
theorem left4 (c : Dev nD) (w : Fin cfg4.W) : (scaleDat4 (ent4 m ρ) c).arrAt w cfg4.N = ext4 m ρ c (Pipeline.arrRef spec4 w) :=
  (out4_arr m ρ c w).symm
theorem kept4 (c : Dev nD) : ∀ b, b ∉ Finset.univ.image (Pipeline.arrRef spec4) → ext4 m ρ c b = ent4 m ρ c b :=
  fun b hb => out4_of_ne m ρ c b fun w e => hb (Finset.mem_image.mpr ⟨w, Finset.mem_univ _, e⟩)

/-! ## Launch 5 -/

/-- Entered after the host operations `hostOps5`. -/
abbrev in5 : Dev nD → Valuation τ sig (Elt F) := fun c => StableHlo.after hostOps5 (out4 m ρ c)
/-- The same read at the TensorCore's references. -/
abbrev ent5 : (c : Dev nD) → (b : Ref sig .tc) → Buf (Elt F) ((c : Thread nD τ).loc b) := fun c b => in5 m ρ c b
/-- Left with its arrays at what the pipeline leaves, every other buffer as entered. -/
def out5 (c : Dev nD) : Valuation τ sig (Elt F) :=
  Pipeline.withArrays spec5 c (in5 m ρ c) fun w => (combineDat5 (ent5 m ρ) c).arrAt w cfg5.N
theorem out5_arr (c : Dev nD) (w : Fin cfg5.W) :
    out5 m ρ c (Proc.devRef .tc (Pipeline.arrRef spec5 w)) = (combineDat5 (ent5 m ρ) c).arrAt w cfg5.N := by
  unfold out5; exact Pipeline.withArrays_arr spec5 launch5.win.arr_inj c _ _ w
theorem out5_of_ne (c : Dev nD) (b : Ref sig .tc) (hb : ∀ w, Pipeline.arrRef spec5 w ≠ b) :
    out5 m ρ c (Proc.devRef .tc b) = in5 m ρ c (Proc.devRef .tc b) := by
  unfold out5; exact Pipeline.withArrays_of_ne spec5 c _ _ b hb
/-- An input window's array is left as entered. -/
theorem out5_in_0 (c : Dev nD) :
    out5 m ρ c (Proc.devRef .tc (Pipeline.arrRef spec5 0)) = in5 m ρ c (Proc.devRef .tc (Pipeline.arrRef spec5 0)) :=
  (out5_arr m ρ c 0).trans (((combineDat5 (ent5 m ρ) c).arrAt_in 0 rfl _).trans (combineDat5_A (ent5 m ρ) c 0))
theorem out5_in_1 (c : Dev nD) :
    out5 m ρ c (Proc.devRef .tc (Pipeline.arrRef spec5 1)) = in5 m ρ c (Proc.devRef .tc (Pipeline.arrRef spec5 1)) :=
  (out5_arr m ρ c 1).trans (((combineDat5 (ent5 m ρ) c).arrAt_in 1 rfl _).trans (combineDat5_A (ent5 m ρ) c 1))
abbrev ext5 : (c : Dev nD) → (b : Ref sig .tc) → Buf (Elt F) ((c : Thread nD τ).loc b) := fun c b => out5 m ρ c b
theorem left5 (c : Dev nD) (w : Fin cfg5.W) : (combineDat5 (ent5 m ρ) c).arrAt w cfg5.N = ext5 m ρ c (Pipeline.arrRef spec5 w) :=
  (out5_arr m ρ c w).symm
theorem kept5 (c : Dev nD) : ∀ b, b ∉ Finset.univ.image (Pipeline.arrRef spec5) → ext5 m ρ c b = ent5 m ρ c b :=
  fun b hb => out5_of_ne m ρ c b fun w e => hb (Finset.mem_image.mpr ⟨w, Finset.mem_univ _, e⟩)

/-! ## Launch 6 -/

/-- Entered after the host operations `hostOps6`. -/
abbrev in6 : Dev nD → Valuation τ sig (Elt F) := fun c => StableHlo.after hostOps6 (out5 m ρ c)
/-- The same read at the TensorCore's references. -/
abbrev ent6 : (c : Dev nD) → (b : Ref sig .tc) → Buf (Elt F) ((c : Thread nD τ).loc b) := fun c b => in6 m ρ c b
/-- Left with its arrays at what the pipeline leaves, every other buffer as entered. -/
def out6 (c : Dev nD) : Valuation τ sig (Elt F) :=
  Pipeline.withArrays spec6 c (in6 m ρ c) fun w => (scaleDat6 (ent6 m ρ) c).arrAt w cfg6.N
theorem out6_arr (c : Dev nD) (w : Fin cfg6.W) :
    out6 m ρ c (Proc.devRef .tc (Pipeline.arrRef spec6 w)) = (scaleDat6 (ent6 m ρ) c).arrAt w cfg6.N := by
  unfold out6; exact Pipeline.withArrays_arr spec6 launch6.win.arr_inj c _ _ w
theorem out6_of_ne (c : Dev nD) (b : Ref sig .tc) (hb : ∀ w, Pipeline.arrRef spec6 w ≠ b) :
    out6 m ρ c (Proc.devRef .tc b) = in6 m ρ c (Proc.devRef .tc b) := by
  unfold out6; exact Pipeline.withArrays_of_ne spec6 c _ _ b hb
/-- An input window's array is left as entered. -/
theorem out6_in_0 (c : Dev nD) :
    out6 m ρ c (Proc.devRef .tc (Pipeline.arrRef spec6 0)) = in6 m ρ c (Proc.devRef .tc (Pipeline.arrRef spec6 0)) :=
  (out6_arr m ρ c 0).trans (((scaleDat6 (ent6 m ρ) c).arrAt_in 0 rfl _).trans (scaleDat6_A (ent6 m ρ) c 0))
theorem out6_in_1 (c : Dev nD) :
    out6 m ρ c (Proc.devRef .tc (Pipeline.arrRef spec6 1)) = in6 m ρ c (Proc.devRef .tc (Pipeline.arrRef spec6 1)) :=
  (out6_arr m ρ c 1).trans (((scaleDat6 (ent6 m ρ) c).arrAt_in 1 rfl _).trans (scaleDat6_A (ent6 m ρ) c 1))
abbrev ext6 : (c : Dev nD) → (b : Ref sig .tc) → Buf (Elt F) ((c : Thread nD τ).loc b) := fun c b => out6 m ρ c b
theorem left6 (c : Dev nD) (w : Fin cfg6.W) : (scaleDat6 (ent6 m ρ) c).arrAt w cfg6.N = ext6 m ρ c (Pipeline.arrRef spec6 w) :=
  (out6_arr m ρ c w).symm
theorem kept6 (c : Dev nD) : ∀ b, b ∉ Finset.univ.image (Pipeline.arrRef spec6) → ext6 m ρ c b = ent6 m ρ c b :=
  fun b hb => out6_of_ne m ρ c b fun w e => hb (Finset.mem_image.mpr ⟨w, Finset.mem_univ _, e⟩)

/-! ## Launch 7 -/

/-- Entered after the host operations `hostOps7`. -/
abbrev in7 : Dev nD → Valuation τ sig (Elt F) := fun c => StableHlo.after hostOps7 (out6 m ρ c)
/-- The same read at the TensorCore's references. -/
abbrev ent7 : (c : Dev nD) → (b : Ref sig .tc) → Buf (Elt F) ((c : Thread nD τ).loc b) := fun c b => in7 m ρ c b
/-- Left with its arrays at what the pipeline leaves, every other buffer as entered. -/
def out7 (c : Dev nD) : Valuation τ sig (Elt F) :=
  Pipeline.withArrays spec7 c (in7 m ρ c) fun w => (combineDat7 (ent7 m ρ) c).arrAt w cfg7.N
theorem out7_arr (c : Dev nD) (w : Fin cfg7.W) :
    out7 m ρ c (Proc.devRef .tc (Pipeline.arrRef spec7 w)) = (combineDat7 (ent7 m ρ) c).arrAt w cfg7.N := by
  unfold out7; exact Pipeline.withArrays_arr spec7 launch7.win.arr_inj c _ _ w
theorem out7_of_ne (c : Dev nD) (b : Ref sig .tc) (hb : ∀ w, Pipeline.arrRef spec7 w ≠ b) :
    out7 m ρ c (Proc.devRef .tc b) = in7 m ρ c (Proc.devRef .tc b) := by
  unfold out7; exact Pipeline.withArrays_of_ne spec7 c _ _ b hb
/-- An input window's array is left as entered. -/
theorem out7_in_0 (c : Dev nD) :
    out7 m ρ c (Proc.devRef .tc (Pipeline.arrRef spec7 0)) = in7 m ρ c (Proc.devRef .tc (Pipeline.arrRef spec7 0)) :=
  (out7_arr m ρ c 0).trans (((combineDat7 (ent7 m ρ) c).arrAt_in 0 rfl _).trans (combineDat7_A (ent7 m ρ) c 0))
theorem out7_in_1 (c : Dev nD) :
    out7 m ρ c (Proc.devRef .tc (Pipeline.arrRef spec7 1)) = in7 m ρ c (Proc.devRef .tc (Pipeline.arrRef spec7 1)) :=
  (out7_arr m ρ c 1).trans (((combineDat7 (ent7 m ρ) c).arrAt_in 1 rfl _).trans (combineDat7_A (ent7 m ρ) c 1))
abbrev ext7 : (c : Dev nD) → (b : Ref sig .tc) → Buf (Elt F) ((c : Thread nD τ).loc b) := fun c b => out7 m ρ c b
theorem left7 (c : Dev nD) (w : Fin cfg7.W) : (combineDat7 (ent7 m ρ) c).arrAt w cfg7.N = ext7 m ρ c (Pipeline.arrRef spec7 w) :=
  (out7_arr m ρ c w).symm
theorem kept7 (c : Dev nD) : ∀ b, b ∉ Finset.univ.image (Pipeline.arrRef spec7) → ext7 m ρ c b = ent7 m ρ c b :=
  fun b hb => out7_of_ne m ρ c b fun w e => hb (Finset.mem_image.mpr ⟨w, Finset.mem_univ _, e⟩)

/-- After the last host operations: what the program returns from. -/
abbrev last : Dev nD → Valuation τ sig (Elt F) := fun c => StableHlo.after hostOps8 (out7 m ρ c)

/-! ## The proof data family and what rides along -/

/-- No launch has a prefetched table. -/
abbrev noTables : (p : Fin 8) → (pcfgs (F := F) p).Adm := fun p => (cfgs p).toPCfg_adm
/-- Every launch's proof data, each at its entry contents: a literal match on the launch. -/
def pdats : (p : Fin 8) → (c : Dev nD) → Dat τ (Elt F) Unit ℕ (UR sig nD τ) ℕ (Pipeline.pin (pcfgs (F := F)) noTables p) c
  | ⟨0, _⟩ => fun c => scaleDat0 (ent0 m ρ) c
  | ⟨1, _⟩ => fun c => combineDat1 (ent1 m ρ) c
  | ⟨2, _⟩ => fun c => scaleDat2 (ent2 m ρ) c
  | ⟨3, _⟩ => fun c => combineDat3 (ent3 m ρ) c
  | ⟨4, _⟩ => fun c => scaleDat4 (ent4 m ρ) c
  | ⟨5, _⟩ => fun c => combineDat5 (ent5 m ρ) c
  | ⟨6, _⟩ => fun c => scaleDat6 (ent6 m ρ) c
  | ⟨7, _⟩ => fun c => combineDat7 (ent7 m ρ) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every segment: the generator register at some state, and the core owing nothing. -/
abbrev R (c : Dev nD) : sProp 𝕄 := iprop((∃ r, prngReg c r) ∗ ∃ W, owes (c : Thread nD τ) (0 : CellTallies nD τ sig Unit) W)
/-- A stretch of host operations as a segment over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Diffusion

end
-- ==== Proof.Ideal.Seg0.lean ====
/-
  Edge scaling, diffusion step 1 (launch 0 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 0 over the thread state: entered from every unscoped buffer at `in0`, left at `out0`. Its arrays are
    split out of the unscoped buffers and put back at the exit contents; the generator register goes into the pipeline's
    invariant and comes out; nothing is owed; the kernel has no semaphore of its own. -/
def launchSeg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (scale_obligation0 (ent0 m ρ) c).loose
  hwaits := Pipeline.hwaits_of_owed_zero _ _ _ _ L lv 0 fun _ _ => rfl
  pre c := iprop(StableHlo.held (c : Thread nD τ) (Pipeline.ucRefs τ sig) (in0 m ρ c) ∗ R c)
  post c := iprop(StableHlo.held (c : Thread nD τ) (Pipeline.ucRefs τ sig) (out0 m ρ c) ∗ R c)
  X c := iprop(∃ r, prngReg c r)
  Y c := iprop(∃ r, prngReg c r)
  Z c := Pipeline.unscopedRest (Ix := Unit) (Name := ℕ) (U := UR sig nD τ) (Lvl := ℕ) spec0 c (ent0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (ent0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (ent0 m ρ c) (ext0 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg1.lean ====
/-
  The node update, diffusion step 1 (launch 1 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 1 over the thread state: entered from every unscoped buffer at `in1`, left at `out1`. Its arrays are
    split out of the unscoped buffers and put back at the exit contents; the generator register goes into the pipeline's
    invariant and comes out; nothing is owed; the kernel has no semaphore of its own. -/
def launchSeg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (combine_obligation1 (ent1 m ρ) c).loose
  hwaits := Pipeline.hwaits_of_owed_zero _ _ _ _ L lv 1 fun _ _ => rfl
  pre c := iprop(StableHlo.held (c : Thread nD τ) (Pipeline.ucRefs τ sig) (in1 m ρ c) ∗ R c)
  post c := iprop(StableHlo.held (c : Thread nD τ) (Pipeline.ucRefs τ sig) (out1 m ρ c) ∗ R c)
  X c := iprop(∃ r, prngReg c r)
  Y c := iprop(∃ r, prngReg c r)
  Z c := Pipeline.unscopedRest (Ix := Unit) (Name := ℕ) (U := UR sig nD τ) (Lvl := ℕ) spec1 c (ent1 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (ent1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (ent1 m ρ c) (ext1 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg2.lean ====
/-
  Edge scaling, diffusion step 2 (launch 2 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 2 over the thread state: entered from every unscoped buffer at `in2`, left at `out2`. Its arrays are
    split out of the unscoped buffers and put back at the exit contents; the generator register goes into the pipeline's
    invariant and comes out; nothing is owed; the kernel has no semaphore of its own. -/
def launchSeg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (scale_obligation2 (ent2 m ρ) c).loose
  hwaits := Pipeline.hwaits_of_owed_zero _ _ _ _ L lv 2 fun _ _ => rfl
  pre c := iprop(StableHlo.held (c : Thread nD τ) (Pipeline.ucRefs τ sig) (in2 m ρ c) ∗ R c)
  post c := iprop(StableHlo.held (c : Thread nD τ) (Pipeline.ucRefs τ sig) (out2 m ρ c) ∗ R c)
  X c := iprop(∃ r, prngReg c r)
  Y c := iprop(∃ r, prngReg c r)
  Z c := Pipeline.unscopedRest (Ix := Unit) (Name := ℕ) (U := UR sig nD τ) (Lvl := ℕ) spec2 c (ent2 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (ent2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (ent2 m ρ c) (ext2 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg3.lean ====
/-
  The node update, diffusion step 2 (launch 3 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 3 over the thread state: entered from every unscoped buffer at `in3`, left at `out3`. Its arrays are
    split out of the unscoped buffers and put back at the exit contents; the generator register goes into the pipeline's
    invariant and comes out; nothing is owed; the kernel has no semaphore of its own. -/
def launchSeg3 : Pipeline.RegionSeg (pcfgs (F := F)) noTables (pdats m ρ) () defs₀ 𝒱₀ L lv 3 where
  win := launch3.win.to₀
  block_pos := launch3.block_pos
  stage_whole := launch3.stage_whole
  K := PEmpty
  osem k := k.elim
  ho := Pipeline.OwnSemFacts.none _
  hbody c := (combine_obligation3 (ent3 m ρ) c).loose
  hwaits := Pipeline.hwaits_of_owed_zero _ _ _ _ L lv 3 fun _ _ => rfl
  pre c := iprop(StableHlo.held (c : Thread nD τ) (Pipeline.ucRefs τ sig) (in3 m ρ c) ∗ R c)
  post c := iprop(StableHlo.held (c : Thread nD τ) (Pipeline.ucRefs τ sig) (out3 m ρ c) ∗ R c)
  X c := iprop(∃ r, prngReg c r)
  Y c := iprop(∃ r, prngReg c r)
  Z c := Pipeline.unscopedRest (Ix := Unit) (Name := ℕ) (U := UR sig nD τ) (Lvl := ℕ) spec3 c (ent3 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (ent3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (ent3 m ρ c) (ext3 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg4.lean ====
/-
  Edge scaling, diffusion step 3 (launch 4 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 4 over the thread state: entered from every unscoped buffer at `in4`, left at `out4`. Its arrays are
    split out of the unscoped buffers and put back at the exit contents; the generator register goes into the pipeline's
    invariant and comes out; nothing is owed; the kernel has no semaphore of its own. -/
def launchSeg4 : Pipeline.RegionSeg (pcfgs (F := F)) noTables (pdats m ρ) () defs₀ 𝒱₀ L lv 4 where
  win := launch4.win.to₀
  block_pos := launch4.block_pos
  stage_whole := launch4.stage_whole
  K := PEmpty
  osem k := k.elim
  ho := Pipeline.OwnSemFacts.none _
  hbody c := (scale_obligation4 (ent4 m ρ) c).loose
  hwaits := Pipeline.hwaits_of_owed_zero _ _ _ _ L lv 4 fun _ _ => rfl
  pre c := iprop(StableHlo.held (c : Thread nD τ) (Pipeline.ucRefs τ sig) (in4 m ρ c) ∗ R c)
  post c := iprop(StableHlo.held (c : Thread nD τ) (Pipeline.ucRefs τ sig) (out4 m ρ c) ∗ R c)
  X c := iprop(∃ r, prngReg c r)
  Y c := iprop(∃ r, prngReg c r)
  Z c := Pipeline.unscopedRest (Ix := Unit) (Name := ℕ) (U := UR sig nD τ) (Lvl := ℕ) spec4 c (ent4 m ρ c)
  hentry c := by
    rw [Pipeline.ownSems0_none]
    have hsplit := Pipeline.arrays_of_unscopedBufs (p := 4) (pcfgs (F := F)) noTables (pdats m ρ) launch4.win launch4.arr_whole c
      ((pdats m ρ 4 c).share_full fun _ => rfl) (ent4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) noTables (Ix := Unit) (Name := ℕ) (U := UR sig nD τ) (Lvl := ℕ)
      launch4.win launch4.arr_whole c (pdats m ρ) ((pdats m ρ 4 c).share_full fun _ => rfl)
      (ent4 m ρ c) (ext4 m ρ c) ((pdats m ρ 4 c).arrAt · cfg4.N) (left4 m ρ c) (kept4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg5.lean ====
/-
  The node update, diffusion step 3 (launch 5 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 5 over the thread state: entered from every unscoped buffer at `in5`, left at `out5`. Its arrays are
    split out of the unscoped buffers and put back at the exit contents; the generator register goes into the pipeline's
    invariant and comes out; nothing is owed; the kernel has no semaphore of its own. -/
def launchSeg5 : Pipeline.RegionSeg (pcfgs (F := F)) noTables (pdats m ρ) () defs₀ 𝒱₀ L lv 5 where
  win := launch5.win.to₀
  block_pos := launch5.block_pos
  stage_whole := launch5.stage_whole
  K := PEmpty
  osem k := k.elim
  ho := Pipeline.OwnSemFacts.none _
  hbody c := (combine_obligation5 (ent5 m ρ) c).loose
  hwaits := Pipeline.hwaits_of_owed_zero _ _ _ _ L lv 5 fun _ _ => rfl
  pre c := iprop(StableHlo.held (c : Thread nD τ) (Pipeline.ucRefs τ sig) (in5 m ρ c) ∗ R c)
  post c := iprop(StableHlo.held (c : Thread nD τ) (Pipeline.ucRefs τ sig) (out5 m ρ c) ∗ R c)
  X c := iprop(∃ r, prngReg c r)
  Y c := iprop(∃ r, prngReg c r)
  Z c := Pipeline.unscopedRest (Ix := Unit) (Name := ℕ) (U := UR sig nD τ) (Lvl := ℕ) spec5 c (ent5 m ρ c)
  hentry c := by
    rw [Pipeline.ownSems0_none]
    have hsplit := Pipeline.arrays_of_unscopedBufs (p := 5) (pcfgs (F := F)) noTables (pdats m ρ) launch5.win launch5.arr_whole c
      ((pdats m ρ 5 c).share_full fun _ => rfl) (ent5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) noTables (Ix := Unit) (Name := ℕ) (U := UR sig nD τ) (Lvl := ℕ)
      launch5.win launch5.arr_whole c (pdats m ρ) ((pdats m ρ 5 c).share_full fun _ => rfl)
      (ent5 m ρ c) (ext5 m ρ c) ((pdats m ρ 5 c).arrAt · cfg5.N) (left5 m ρ c) (kept5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg6.lean ====
/-
  Edge scaling, diffusion step 4 (launch 6 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 6 over the thread state: entered from every unscoped buffer at `in6`, left at `out6`. Its arrays are
    split out of the unscoped buffers and put back at the exit contents; the generator register goes into the pipeline's
    invariant and comes out; nothing is owed; the kernel has no semaphore of its own. -/
def launchSeg6 : Pipeline.RegionSeg (pcfgs (F := F)) noTables (pdats m ρ) () defs₀ 𝒱₀ L lv 6 where
  win := launch6.win.to₀
  block_pos := launch6.block_pos
  stage_whole := launch6.stage_whole
  K := PEmpty
  osem k := k.elim
  ho := Pipeline.OwnSemFacts.none _
  hbody c := (scale_obligation6 (ent6 m ρ) c).loose
  hwaits := Pipeline.hwaits_of_owed_zero _ _ _ _ L lv 6 fun _ _ => rfl
  pre c := iprop(StableHlo.held (c : Thread nD τ) (Pipeline.ucRefs τ sig) (in6 m ρ c) ∗ R c)
  post c := iprop(StableHlo.held (c : Thread nD τ) (Pipeline.ucRefs τ sig) (out6 m ρ c) ∗ R c)
  X c := iprop(∃ r, prngReg c r)
  Y c := iprop(∃ r, prngReg c r)
  Z c := Pipeline.unscopedRest (Ix := Unit) (Name := ℕ) (U := UR sig nD τ) (Lvl := ℕ) spec6 c (ent6 m ρ c)
  hentry c := by
    rw [Pipeline.ownSems0_none]
    have hsplit := Pipeline.arrays_of_unscopedBufs (p := 6) (pcfgs (F := F)) noTables (pdats m ρ) launch6.win launch6.arr_whole c
      ((pdats m ρ 6 c).share_full fun _ => rfl) (ent6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) noTables (Ix := Unit) (Name := ℕ) (U := UR sig nD τ) (Lvl := ℕ)
      launch6.win launch6.arr_whole c (pdats m ρ) ((pdats m ρ 6 c).share_full fun _ => rfl)
      (ent6 m ρ c) (ext6 m ρ c) ((pdats m ρ 6 c).arrAt · cfg6.N) (left6 m ρ c) (kept6 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Seg7.lean ====
/-
  The node update, diffusion step 4 (launch 7 of the program), as one segment of the program's run: from the thread state
  "every unscoped buffer at the launch's entry contents, the generator register at some state, nothing owed" to the
  same at its exit contents, for any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- a library lemma stated over the pinned configuration unifies with the printed one only when unification may unfold
-- plain definitions in a metavariable's type
set_option backward.isDefEq.respectTransparency.types false in
/-- Launch 7 over the thread state: entered from every unscoped buffer at `in7`, left at `out7`. Its arrays are
    split out of the unscoped buffers and put back at the exit contents; the generator register goes into the pipeline's
    invariant and comes out; nothing is owed; the kernel has no semaphore of its own. -/
def launchSeg7 : Pipeline.RegionSeg (pcfgs (F := F)) noTables (pdats m ρ) () defs₀ 𝒱₀ L lv 7 where
  win := launch7.win.to₀
  block_pos := launch7.block_pos
  stage_whole := launch7.stage_whole
  K := PEmpty
  osem k := k.elim
  ho := Pipeline.OwnSemFacts.none _
  hbody c := (combine_obligation7 (ent7 m ρ) c).loose
  hwaits := Pipeline.hwaits_of_owed_zero _ _ _ _ L lv 7 fun _ _ => rfl
  pre c := iprop(StableHlo.held (c : Thread nD τ) (Pipeline.ucRefs τ sig) (in7 m ρ c) ∗ R c)
  post c := iprop(StableHlo.held (c : Thread nD τ) (Pipeline.ucRefs τ sig) (out7 m ρ c) ∗ R c)
  X c := iprop(∃ r, prngReg c r)
  Y c := iprop(∃ r, prngReg c r)
  Z c := Pipeline.unscopedRest (Ix := Unit) (Name := ℕ) (U := UR sig nD τ) (Lvl := ℕ) spec7 c (ent7 m ρ c)
  hentry c := by
    rw [Pipeline.ownSems0_none]
    have hsplit := Pipeline.arrays_of_unscopedBufs (p := 7) (pcfgs (F := F)) noTables (pdats m ρ) launch7.win launch7.arr_whole c
      ((pdats m ρ 7 c).share_full fun _ => rfl) (ent7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m ρ 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) noTables (Ix := Unit) (Name := ℕ) (U := UR sig nD τ) (Lvl := ℕ)
      launch7.win launch7.arr_whole c (pdats m ρ) ((pdats m ρ 7 c).share_full fun _ => rfl)
      (ent7 m ρ c) (ext7 m ρ c) ((pdats m ρ 7 c).arrAt · cfg7.N) (left7 m ρ c) (kept7 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Diffusion

end
-- ==== Proof.Ideal.Run.lean ====
/-
  The whole run, for any float instance: from any memory with zero counters, every weakly fair execution of the program
  on the TensorCore ends, nothing faulting, with every unscoped buffer at the contents the fold of the program gives it
  (`last`). The program is nine stretches of host operations with the eight launches between them; each stretch is a
  segment over the buffers' contents, each launch its segment, and the segments chain: what one leaves is what the next
  is entered from.
-/
import proofs.«173453_j38800734552802_1_alg».proof.Proof.Ideal.Seg0
import proofs.«173453_j38800734552802_1_alg».proof.Proof.Ideal.Seg1
import proofs.«173453_j38800734552802_1_alg».proof.Proof.Ideal.Seg2
import proofs.«173453_j38800734552802_1_alg».proof.Proof.Ideal.Seg3
import proofs.«173453_j38800734552802_1_alg».proof.Proof.Ideal.Seg4
import proofs.«173453_j38800734552802_1_alg».proof.Proof.Ideal.Seg5
import proofs.«173453_j38800734552802_1_alg».proof.Proof.Ideal.Seg6
import proofs.«173453_j38800734552802_1_alg».proof.Proof.Ideal.Seg7

set_option maxRecDepth 16384

noncomputable section

namespace Cert.KernelIdeal.Diffusion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's seventeen segments in order. -/
abbrev runSegs : List (Pipeline.Seg (pcfgs (F := F)) noTables (pdats m ρ) () defs₀ 𝒱₀ L lv) :=
  [ .host (hseg hostOps0 hostOps0_sub hostOps0_fresh (start m ρ)),
    .region (launchSeg0 m ρ),
    .host (hseg hostOps1 hostOps1_sub hostOps1_fresh (out0 m ρ)),
    .region (launchSeg1 m ρ),
    .host (hseg hostOps2 hostOps2_sub hostOps2_fresh (out1 m ρ)),
    .region (launchSeg2 m ρ),
    .host (hseg hostOps3 hostOps3_sub hostOps3_fresh (out2 m ρ)),
    .region (launchSeg3 m ρ),
    .host (hseg hostOps4 hostOps4_sub hostOps4_fresh (out3 m ρ)),
    .region (launchSeg4 m ρ),
    .host (hseg hostOps5 hostOps5_sub hostOps5_fresh (out4 m ρ)),
    .region (launchSeg5 m ρ),
    .host (hseg hostOps6 hostOps6_sub hostOps6_fresh (out5 m ρ)),
    .region (launchSeg6 m ρ),
    .host (hseg hostOps7 hostOps7_sub hostOps7_fresh (out6 m ρ)),
    .region (launchSeg7 m ρ),
    .host (hseg hostOps8 hostOps8_sub hostOps8_fresh (out7 m ρ)) ]

/-- The last thread state without the dues: every unscoped buffer at the last contents, the generator register at some state. -/
abbrev lastState (c : Dev nD) : sProp 𝕄 :=
  iprop(StableHlo.held (c : Thread nD τ) (Pipeline.ucRefs τ sig) (last m ρ c) ∗ ∃ r, prngReg c r)

-- the launch theorem's implicit arguments are found by unifying its conclusion with this one, which takes unfolding
-- plain definitions in a metavariable's type
set_option backward.isDefEq.respectTransparency.types false in
/-- Every weakly fair execution ends with every unscoped buffer at `last`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = last m ρ c b) :=
  Pipeline.θ_run_regions_kit (pcfgs (F := F)) noTables (pdats m ρ) () cellOf_inj emb₁ defs₀ 𝒱₀ L lv m ρ main (runSegs m ρ)
    (fun c Q => by
      rewrite [main_chain c, Pipeline.Seg.run_eq_chain,
        show (runSegs m ρ).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8 ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (start m ρ c) ∗ R c)) (Tₙ := lastState m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (last m ρ c) ∗ R c)
        ⊢ iprop(lastState m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (start m ρ c)
        from Pipeline.unscopedBufs_held c (start m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = last m ρ c b)
    (hfin := fun c s' => by
      iintro ⟨⟨Hh, -⟩, HSI⟩
      unfold StableHlo.held
      imodintro
      iapply (pointsTo_read_all (Pipeline.ucRefs τ sig) (fun b => (((c : Thread nD τ)).1, b)) (last m ρ c) s')
      isplitl [Hh] <;> iassumption)
    (hQ := fun s h => h)

end Cert.KernelIdeal.Diffusion

end
-- ==== Proof.Ideal.Carry.lean ====
/-
  Buffers that pass through the run unchanged: the three argument arrays (from the start to the end), and the padded
  source and target index arrays and the weight column (from the first launch's entry on). A launch changes only its
  output window's array; a stretch of host operations only the buffers of its own results. For any float instance.
-/
import proofs.«173453_j38800734552802_1_alg».proof.Proof.Ideal.Fold

set_option maxRecDepth 16384

noncomputable section

namespace Cert.KernelIdeal.Diffusion

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg)

/-! ## Through launch 0 -/
theorem pass0_main_arg0 (c : Dev nD) : out0 m ρ c (Proc.devRef .tc main_arg0) = start m ρ c (Proc.devRef .tc main_arg0) :=
  (out0_of_ne m ρ c main_arg0 (by decide)).trans (StableHlo.after_of_writes_sub hostOps0 _ hostOps0_writes (by decide))
theorem pass0_main_arg1 (c : Dev nD) : out0 m ρ c (Proc.devRef .tc main_arg1) = start m ρ c (Proc.devRef .tc main_arg1) :=
  (out0_of_ne m ρ c main_arg1 (by decide)).trans (StableHlo.after_of_writes_sub hostOps0 _ hostOps0_writes (by decide))
theorem pass0_main_arg2 (c : Dev nD) : out0 m ρ c (Proc.devRef .tc main_arg2) = start m ρ c (Proc.devRef .tc main_arg2) :=
  (out0_of_ne m ρ c main_arg2 (by decide)).trans (StableHlo.after_of_writes_sub hostOps0 _ hostOps0_writes (by decide))
theorem pass0_main_v28 (c : Dev nD) : out0 m ρ c (Proc.devRef .tc main_v28) = in0 m ρ c (Proc.devRef .tc main_v28) :=
  (out0_of_ne m ρ c main_v28 (by decide))
theorem pass0_main_v29 (c : Dev nD) : out0 m ρ c (Proc.devRef .tc main_v29) = in0 m ρ c (Proc.devRef .tc main_v29) :=
  (out0_of_ne m ρ c main_v29 (by decide))
theorem pass0_main_v31 (c : Dev nD) : out0 m ρ c (Proc.devRef .tc main_v31) = in0 m ρ c (Proc.devRef .tc main_v31) :=
  (show out0 m ρ c (Proc.devRef .tc (Pipeline.arrRef spec0 1)) = in0 m ρ c (Proc.devRef .tc (Pipeline.arrRef spec0 1)) from out0_in_1 m ρ c)

/-! ## Through launch 1 -/
theorem pass1_main_arg0 (c : Dev nD) : out1 m ρ c (Proc.devRef .tc main_arg0) = out0 m ρ c (Proc.devRef .tc main_arg0) :=
  (show out1 m ρ c (Proc.devRef .tc (Pipeline.arrRef spec1 1)) = in1 m ρ c (Proc.devRef .tc (Pipeline.arrRef spec1 1)) from out1_in_1 m ρ c).trans (StableHlo.after_of_writes_sub hostOps1 _ hostOps1_writes (by decide))
theorem pass1_main_arg1 (c : Dev nD) : out1 m ρ c (Proc.devRef .tc main_arg1) = out0 m ρ c (Proc.devRef .tc main_arg1) :=
  (out1_of_ne m ρ c main_arg1 (by decide)).trans (StableHlo.after_of_writes_sub hostOps1 _ hostOps1_writes (by decide))
theorem pass1_main_arg2 (c : Dev nD) : out1 m ρ c (Proc.devRef .tc main_arg2) = out0 m ρ c (Proc.devRef .tc main_arg2) :=
  (out1_of_ne m ρ c main_arg2 (by decide)).trans (StableHlo.after_of_writes_sub hostOps1 _ hostOps1_writes (by decide))
theorem pass1_main_v28 (c : Dev nD) : out1 m ρ c (Proc.devRef .tc main_v28) = out0 m ρ c (Proc.devRef .tc main_v28) :=
  (out1_of_ne m ρ c main_v28 (by decide)).trans (StableHlo.after_of_writes_sub hostOps1 _ hostOps1_writes (by decide))
theorem pass1_main_v29 (c : Dev nD) : out1 m ρ c (Proc.devRef .tc main_v29) = out0 m ρ c (Proc.devRef .tc main_v29) :=
  (out1_of_ne m ρ c main_v29 (by decide)).trans (StableHlo.after_of_writes_sub hostOps1 _ hostOps1_writes (by decide))
theorem pass1_main_v31 (c : Dev nD) : out1 m ρ c (Proc.devRef .tc main_v31) = out0 m ρ c (Proc.devRef .tc main_v31) :=
  (out1_of_ne m ρ c main_v31 (by decide)).trans (StableHlo.after_of_writes_sub hostOps1 _ hostOps1_writes (by decide))

/-! ## Through launch 2 -/
theorem pass2_main_arg0 (c : Dev nD) : out2 m ρ c (Proc.devRef .tc main_arg0) = out1 m ρ c (Proc.devRef .tc main_arg0) :=
  (out2_of_ne m ρ c main_arg0 (by decide)).trans (StableHlo.after_of_writes_sub hostOps2 _ hostOps2_writes (by decide))
theorem pass2_main_arg1 (c : Dev nD) : out2 m ρ c (Proc.devRef .tc main_arg1) = out1 m ρ c (Proc.devRef .tc main_arg1) :=
  (out2_of_ne m ρ c main_arg1 (by decide)).trans (StableHlo.after_of_writes_sub hostOps2 _ hostOps2_writes (by decide))
theorem pass2_main_arg2 (c : Dev nD) : out2 m ρ c (Proc.devRef .tc main_arg2) = out1 m ρ c (Proc.devRef .tc main_arg2) :=
  (out2_of_ne m ρ c main_arg2 (by decide)).trans (StableHlo.after_of_writes_sub hostOps2 _ hostOps2_writes (by decide))
theorem pass2_main_v28 (c : Dev nD) : out2 m ρ c (Proc.devRef .tc main_v28) = out1 m ρ c (Proc.devRef .tc main_v28) :=
  (out2_of_ne m ρ c main_v28 (by decide)).trans (StableHlo.after_of_writes_sub hostOps2 _ hostOps2_writes (by decide))
theorem pass2_main_v29 (c : Dev nD) : out2 m ρ c (Proc.devRef .tc main_v29) = out1 m ρ c (Proc.devRef .tc main_v29) :=
  (out2_of_ne m ρ c main_v29 (by decide)).trans (StableHlo.after_of_writes_sub hostOps2 _ hostOps2_writes (by decide))
theorem pass2_main_v31 (c : Dev nD) : out2 m ρ c (Proc.devRef .tc main_v31) = out1 m ρ c (Proc.devRef .tc main_v31) :=
  (show out2 m ρ c (Proc.devRef .tc (Pipeline.arrRef spec2 1)) = in2 m ρ c (Proc.devRef .tc (Pipeline.arrRef spec2 1)) from out2_in_1 m ρ c).trans (StableHlo.after_of_writes_sub hostOps2 _ hostOps2_writes (by decide))

/-! ## Through launch 3 -/
theorem pass3_main_arg0 (c : Dev nD) : out3 m ρ c (Proc.devRef .tc main_arg0) = out2 m ρ c (Proc.devRef .tc main_arg0) :=
  (show out3 m ρ c (Proc.devRef .tc (Pipeline.arrRef spec3 1)) = in3 m ρ c (Proc.devRef .tc (Pipeline.arrRef spec3 1)) from out3_in_1 m ρ c).trans (StableHlo.after_of_writes_sub hostOps3 _ hostOps3_writes (by decide))
theorem pass3_main_arg1 (c : Dev nD) : out3 m ρ c (Proc.devRef .tc main_arg1) = out2 m ρ c (Proc.devRef .tc main_arg1) :=
  (out3_of_ne m ρ c main_arg1 (by decide)).trans (StableHlo.after_of_writes_sub hostOps3 _ hostOps3_writes (by decide))
theorem pass3_main_arg2 (c : Dev nD) : out3 m ρ c (Proc.devRef .tc main_arg2) = out2 m ρ c (Proc.devRef .tc main_arg2) :=
  (out3_of_ne m ρ c main_arg2 (by decide)).trans (StableHlo.after_of_writes_sub hostOps3 _ hostOps3_writes (by decide))
theorem pass3_main_v28 (c : Dev nD) : out3 m ρ c (Proc.devRef .tc main_v28) = out2 m ρ c (Proc.devRef .tc main_v28) :=
  (out3_of_ne m ρ c main_v28 (by decide)).trans (StableHlo.after_of_writes_sub hostOps3 _ hostOps3_writes (by decide))
theorem pass3_main_v29 (c : Dev nD) : out3 m ρ c (Proc.devRef .tc main_v29) = out2 m ρ c (Proc.devRef .tc main_v29) :=
  (out3_of_ne m ρ c main_v29 (by decide)).trans (StableHlo.after_of_writes_sub hostOps3 _ hostOps3_writes (by decide))
theorem pass3_main_v31 (c : Dev nD) : out3 m ρ c (Proc.devRef .tc main_v31) = out2 m ρ c (Proc.devRef .tc main_v31) :=
  (out3_of_ne m ρ c main_v31 (by decide)).trans (StableHlo.after_of_writes_sub hostOps3 _ hostOps3_writes (by decide))

/-! ## Through launch 4 -/
theorem pass4_main_arg0 (c : Dev nD) : out4 m ρ c (Proc.devRef .tc main_arg0) = out3 m ρ c (Proc.devRef .tc main_arg0) :=
  (out4_of_ne m ρ c main_arg0 (by decide)).trans (StableHlo.after_of_writes_sub hostOps4 _ hostOps4_writes (by decide))
theorem pass4_main_arg1 (c : Dev nD) : out4 m ρ c (Proc.devRef .tc main_arg1) = out3 m ρ c (Proc.devRef .tc main_arg1) :=
  (out4_of_ne m ρ c main_arg1 (by decide)).trans (StableHlo.after_of_writes_sub hostOps4 _ hostOps4_writes (by decide))
theorem pass4_main_arg2 (c : Dev nD) : out4 m ρ c (Proc.devRef .tc main_arg2) = out3 m ρ c (Proc.devRef .tc main_arg2) :=
  (out4_of_ne m ρ c main_arg2 (by decide)).trans (StableHlo.after_of_writes_sub hostOps4 _ hostOps4_writes (by decide))
theorem pass4_main_v28 (c : Dev nD) : out4 m ρ c (Proc.devRef .tc main_v28) = out3 m ρ c (Proc.devRef .tc main_v28) :=
  (out4_of_ne m ρ c main_v28 (by decide)).trans (StableHlo.after_of_writes_sub hostOps4 _ hostOps4_writes (by decide))
theorem pass4_main_v29 (c : Dev nD) : out4 m ρ c (Proc.devRef .tc main_v29) = out3 m ρ c (Proc.devRef .tc main_v29) :=
  (out4_of_ne m ρ c main_v29 (by decide)).trans (StableHlo.after_of_writes_sub hostOps4 _ hostOps4_writes (by decide))
theorem pass4_main_v31 (c : Dev nD) : out4 m ρ c (Proc.devRef .tc main_v31) = out3 m ρ c (Proc.devRef .tc main_v31) :=
  (show out4 m ρ c (Proc.devRef .tc (Pipeline.arrRef spec4 1)) = in4 m ρ c (Proc.devRef .tc (Pipeline.arrRef spec4 1)) from out4_in_1 m ρ c).trans (StableHlo.after_of_writes_sub hostOps4 _ hostOps4_writes (by decide))

/-! ## Through launch 5 -/
theorem pass5_main_arg0 (c : Dev nD) : out5 m ρ c (Proc.devRef .tc main_arg0) = out4 m ρ c (Proc.devRef .tc main_arg0) :=
  (show out5 m ρ c (Proc.devRef .tc (Pipeline.arrRef spec5 1)) = in5 m ρ c (Proc.devRef .tc (Pipeline.arrRef spec5 1)) from out5_in_1 m ρ c).trans (StableHlo.after_of_writes_sub hostOps5 _ hostOps5_writes (by decide))
theorem pass5_main_arg1 (c : Dev nD) : out5 m ρ c (Proc.devRef .tc main_arg1) = out4 m ρ c (Proc.devRef .tc main_arg1) :=
  (out5_of_ne m ρ c main_arg1 (by decide)).trans (StableHlo.after_of_writes_sub hostOps5 _ hostOps5_writes (by decide))
theorem pass5_main_arg2 (c : Dev nD) : out5 m ρ c (Proc.devRef .tc main_arg2) = out4 m ρ c (Proc.devRef .tc main_arg2) :=
  (out5_of_ne m ρ c main_arg2 (by decide)).trans (StableHlo.after_of_writes_sub hostOps5 _ hostOps5_writes (by decide))
theorem pass5_main_v28 (c : Dev nD) : out5 m ρ c (Proc.devRef .tc main_v28) = out4 m ρ c (Proc.devRef .tc main_v28) :=
  (out5_of_ne m ρ c main_v28 (by decide)).trans (StableHlo.after_of_writes_sub hostOps5 _ hostOps5_writes (by decide))
theorem pass5_main_v29 (c : Dev nD) : out5 m ρ c (Proc.devRef .tc main_v29) = out4 m ρ c (Proc.devRef .tc main_v29) :=
  (out5_of_ne m ρ c main_v29 (by decide)).trans (StableHlo.after_of_writes_sub hostOps5 _ hostOps5_writes (by decide))
theorem pass5_main_v31 (c : Dev nD) : out5 m ρ c (Proc.devRef .tc main_v31) = out4 m ρ c (Proc.devRef .tc main_v31) :=
  (out5_of_ne m ρ c main_v31 (by decide)).trans (StableHlo.after_of_writes_sub hostOps5 _ hostOps5_writes (by decide))

/-! ## Through launch 6 -/
theorem pass6_main_arg0 (c : Dev nD) : out6 m ρ c (Proc.devRef .tc main_arg0) = out5 m ρ c (Proc.devRef .tc main_arg0) :=
  (out6_of_ne m ρ c main_arg0 (by decide)).trans (StableHlo.after_of_writes_sub hostOps6 _ hostOps6_writes (by decide))
theorem pass6_main_arg1 (c : Dev nD) : out6 m ρ c (Proc.devRef .tc main_arg1) = out5 m ρ c (Proc.devRef .tc main_arg1) :=
  (out6_of_ne m ρ c main_arg1 (by decide)).trans (StableHlo.after_of_writes_sub hostOps6 _ hostOps6_writes (by decide))
theorem pass6_main_arg2 (c : Dev nD) : out6 m ρ c (Proc.devRef .tc main_arg2) = out5 m ρ c (Proc.devRef .tc main_arg2) :=
  (out6_of_ne m ρ c main_arg2 (by decide)).trans (StableHlo.after_of_writes_sub hostOps6 _ hostOps6_writes (by decide))
theorem pass6_main_v28 (c : Dev nD) : out6 m ρ c (Proc.devRef .tc main_v28) = out5 m ρ c (Proc.devRef .tc main_v28) :=
  (out6_of_ne m ρ c main_v28 (by decide)).trans (StableHlo.after_of_writes_sub hostOps6 _ hostOps6_writes (by decide))
theorem pass6_main_v29 (c : Dev nD) : out6 m ρ c (Proc.devRef .tc main_v29) = out5 m ρ c (Proc.devRef .tc main_v29) :=
  (out6_of_ne m ρ c main_v29 (by decide)).trans (StableHlo.after_of_writes_sub hostOps6 _ hostOps6_writes (by decide))
theorem pass6_main_v31 (c : Dev nD) : out6 m ρ c (Proc.devRef .tc main_v31) = out5 m ρ c (Proc.devRef .tc main_v31) :=
  (show out6 m ρ c (Proc.devRef .tc (Pipeline.arrRef spec6 1)) = in6 m ρ c (Proc.devRef .tc (Pipeline.arrRef spec6 1)) from out6_in_1 m ρ c).trans (StableHlo.after_of_writes_sub hostOps6 _ hostOps6_writes (by decide))

/-! ## Through launch 7 -/
theorem pass7_main_arg0 (c : Dev nD) : out7 m ρ c (Proc.devRef .tc main_arg0) = out6 m ρ c (Proc.devRef .tc main_arg0) :=
  (show out7 m ρ c (Proc.devRef .tc (Pipeline.arrRef spec7 1)) = in7 m ρ c (Proc.devRef .tc (Pipeline.arrRef spec7 1)) from out7_in_1 m ρ c).trans (StableHlo.after_of_writes_sub hostOps7 _ hostOps7_writes (by decide))
theorem pass7_main_arg1 (c : Dev nD) : out7 m ρ c (Proc.devRef .tc main_arg1) = out6 m ρ c (Proc.devRef .tc main_arg1) :=
  (out7_of_ne m ρ c main_arg1 (by decide)).trans (StableHlo.after_of_writes_sub hostOps7 _ hostOps7_writes (by decide))
theorem pass7_main_arg2 (c : Dev nD) : out7 m ρ c (Proc.devRef .tc main_arg2) = out6 m ρ c (Proc.devRef .tc main_arg2) :=
  (out7_of_ne m ρ c main_arg2 (by decide)).trans (StableHlo.after_of_writes_sub hostOps7 _ hostOps7_writes (by decide))
theorem pass7_main_v28 (c : Dev nD) : out7 m ρ c (Proc.devRef .tc main_v28) = out6 m ρ c (Proc.devRef .tc main_v28) :=
  (out7_of_ne m ρ c main_v28 (by decide)).trans (StableHlo.after_of_writes_sub hostOps7 _ hostOps7_writes (by decide))
theorem pass7_main_v29 (c : Dev nD) : out7 m ρ c (Proc.devRef .tc main_v29) = out6 m ρ c (Proc.devRef .tc main_v29) :=
  (out7_of_ne m ρ c main_v29 (by decide)).trans (StableHlo.after_of_writes_sub hostOps7 _ hostOps7_writes (by decide))
theorem pass7_main_v31 (c : Dev nD) : out7 m ρ c (Proc.devRef .tc main_v31) = out6 m ρ c (Proc.devRef .tc main_v31) :=
  (out7_of_ne m ρ c main_v31 (by decide)).trans (StableHlo.after_of_writes_sub hostOps7 _ hostOps7_writes (by decide))

/-! ## From one end to the other -/
theorem from_start0_main_arg0 (c : Dev nD) : out0 m ρ c (Proc.devRef .tc main_arg0) = m ((c : Thread nD τ).loc main_arg0) :=
  (pass0_main_arg0 m ρ c)
theorem from_start1_main_arg0 (c : Dev nD) : out1 m ρ c (Proc.devRef .tc main_arg0) = m ((c : Thread nD τ).loc main_arg0) :=
  (pass1_main_arg0 m ρ c).trans <| (pass0_main_arg0 m ρ c)
theorem from_start2_main_arg0 (c : Dev nD) : out2 m ρ c (Proc.devRef .tc main_arg0) = m ((c : Thread nD τ).loc main_arg0) :=
  (pass2_main_arg0 m ρ c).trans <| (pass1_main_arg0 m ρ c).trans <| (pass0_main_arg0 m ρ c)
theorem from_start3_main_arg0 (c : Dev nD) : out3 m ρ c (Proc.devRef .tc main_arg0) = m ((c : Thread nD τ).loc main_arg0) :=
  (pass3_main_arg0 m ρ c).trans <| (pass2_main_arg0 m ρ c).trans <| (pass1_main_arg0 m ρ c).trans <| (pass0_main_arg0 m ρ c)
theorem from_start4_main_arg0 (c : Dev nD) : out4 m ρ c (Proc.devRef .tc main_arg0) = m ((c : Thread nD τ).loc main_arg0) :=
  (pass4_main_arg0 m ρ c).trans <| (pass3_main_arg0 m ρ c).trans <| (pass2_main_arg0 m ρ c).trans <| (pass1_main_arg0 m ρ c).trans <| (pass0_main_arg0 m ρ c)
theorem from_start5_main_arg0 (c : Dev nD) : out5 m ρ c (Proc.devRef .tc main_arg0) = m ((c : Thread nD τ).loc main_arg0) :=
  (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem from_start6_main_arg0 (c : Dev nD) : out6 m ρ c (Proc.devRef .tc main_arg0) = m ((c : Thread nD τ).loc main_arg0) :=
  (pass6_main_arg0 m ρ c).trans <| (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem from_start7_main_arg0 (c : Dev nD) : out7 m ρ c (Proc.devRef .tc main_arg0) = m ((c : Thread nD τ).loc main_arg0) :=
  (pass7_main_arg0 m ρ c).trans <| (pass6_main_arg0 m ρ c).trans <| (pass5_main_arg0 m ρ c).trans <| (pass4_main_arg0 m ρ c).trans <| (pass3_main_arg0 m ρ c).trans <| (pass2_main_arg0 m ρ c).trans <| (pass1_main_arg0 m ρ c).trans <| (pass0_main_arg0 m ρ c)
theorem last_main_arg0 (c : Dev nD) : last m ρ c (Proc.devRef .tc main_arg0) = m ((c : Thread nD τ).loc main_arg0) :=
  (StableHlo.after_of_writes_sub hostOps8 _ hostOps8_writes (by decide)).trans (from_start7_main_arg0 m ρ c)
theorem from_start0_main_arg1 (c : Dev nD) : out0 m ρ c (Proc.devRef .tc main_arg1) = m ((c : Thread nD τ).loc main_arg1) :=
  (pass0_main_arg1 m ρ c)
theorem from_start1_main_arg1 (c : Dev nD) : out1 m ρ c (Proc.devRef .tc main_arg1) = m ((c : Thread nD τ).loc main_arg1) :=
  (pass1_main_arg1 m ρ c).trans <| (pass0_main_arg1 m ρ c)
theorem from_start2_main_arg1 (c : Dev nD) : out2 m ρ c (Proc.devRef .tc main_arg1) = m ((c : Thread nD τ).loc main_arg1) :=
  (pass2_main_arg1 m ρ c).trans <| (pass1_main_arg1 m ρ c).trans <| (pass0_main_arg1 m ρ c)
theorem from_start3_main_arg1 (c : Dev nD) : out3 m ρ c (Proc.devRef .tc main_arg1) = m ((c : Thread nD τ).loc main_arg1) :=
  (pass3_main_arg1 m ρ c).trans <| (pass2_main_arg1 m ρ c).trans <| (pass1_main_arg1 m ρ c).trans <| (pass0_main_arg1 m ρ c)
theorem from_start4_main_arg1 (c : Dev nD) : out4 m ρ c (Proc.devRef .tc main_arg1) = m ((c : Thread nD τ).loc main_arg1) :=
  (pass4_main_arg1 m ρ c).trans <| (pass3_main_arg1 m ρ c).trans <| (pass2_main_arg1 m ρ c).trans <| (pass1_main_arg1 m ρ c).trans <| (pass0_main_arg1 m ρ c)
theorem from_start5_main_arg1 (c : Dev nD) : out5 m ρ c (Proc.devRef .tc main_arg1) = m ((c : Thread nD τ).loc main_arg1) :=
  (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem from_start6_main_arg1 (c : Dev nD) : out6 m ρ c (Proc.devRef .tc main_arg1) = m ((c : Thread nD τ).loc main_arg1) :=
  (pass6_main_arg1 m ρ c).trans <| (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem from_start7_main_arg1 (c : Dev nD) : out7 m ρ c (Proc.devRef .tc main_arg1) = m ((c : Thread nD τ).loc main_arg1) :=
  (pass7_main_arg1 m ρ c).trans <| (pass6_main_arg1 m ρ c).trans <| (pass5_main_arg1 m ρ c).trans <| (pass4_main_arg1 m ρ c).trans <| (pass3_main_arg1 m ρ c).trans <| (pass2_main_arg1 m ρ c).trans <| (pass1_main_arg1 m ρ c).trans <| (pass0_main_arg1 m ρ c)
theorem last_main_arg1 (c : Dev nD) : last m ρ c (Proc.devRef .tc main_arg1) = m ((c : Thread nD τ).loc main_arg1) :=
  (StableHlo.after_of_writes_sub hostOps8 _ hostOps8_writes (by decide)).trans (from_start7_main_arg1 m ρ c)
theorem from_start0_main_arg2 (c : Dev nD) : out0 m ρ c (Proc.devRef .tc main_arg2) = m ((c : Thread nD τ).loc main_arg2) :=
  (pass0_main_arg2 m ρ c)
theorem from_start1_main_arg2 (c : Dev nD) : out1 m ρ c (Proc.devRef .tc main_arg2) = m ((c : Thread nD τ).loc main_arg2) :=
  (pass1_main_arg2 m ρ c).trans <| (pass0_main_arg2 m ρ c)
theorem from_start2_main_arg2 (c : Dev nD) : out2 m ρ c (Proc.devRef .tc main_arg2) = m ((c : Thread nD τ).loc main_arg2) :=
  (pass2_main_arg2 m ρ c).trans <| (pass1_main_arg2 m ρ c).trans <| (pass0_main_arg2 m ρ c)
theorem from_start3_main_arg2 (c : Dev nD) : out3 m ρ c (Proc.devRef .tc main_arg2) = m ((c : Thread nD τ).loc main_arg2) :=
  (pass3_main_arg2 m ρ c).trans <| (pass2_main_arg2 m ρ c).trans <| (pass1_main_arg2 m ρ c).trans <| (pass0_main_arg2 m ρ c)
theorem from_start4_main_arg2 (c : Dev nD) : out4 m ρ c (Proc.devRef .tc main_arg2) = m ((c : Thread nD τ).loc main_arg2) :=
  (pass4_main_arg2 m ρ c).trans <| (pass3_main_arg2 m ρ c).trans <| (pass2_main_arg2 m ρ c).trans <| (pass1_main_arg2 m ρ c).trans <| (pass0_main_arg2 m ρ c)
theorem from_start5_main_arg2 (c : Dev nD) : out5 m ρ c (Proc.devRef .tc main_arg2) = m ((c : Thread nD τ).loc main_arg2) :=
  (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem from_start6_main_arg2 (c : Dev nD) : out6 m ρ c (Proc.devRef .tc main_arg2) = m ((c : Thread nD τ).loc main_arg2) :=
  (pass6_main_arg2 m ρ c).trans <| (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem from_start7_main_arg2 (c : Dev nD) : out7 m ρ c (Proc.devRef .tc main_arg2) = m ((c : Thread nD τ).loc main_arg2) :=
  (pass7_main_arg2 m ρ c).trans <| (pass6_main_arg2 m ρ c).trans <| (pass5_main_arg2 m ρ c).trans <| (pass4_main_arg2 m ρ c).trans <| (pass3_main_arg2 m ρ c).trans <| (pass2_main_arg2 m ρ c).trans <| (pass1_main_arg2 m ρ c).trans <| (pass0_main_arg2 m ρ c)
theorem last_main_arg2 (c : Dev nD) : last m ρ c (Proc.devRef .tc main_arg2) = m ((c : Thread nD τ).loc main_arg2) :=
  (StableHlo.after_of_writes_sub hostOps8 _ hostOps8_writes (by decide)).trans (from_start7_main_arg2 m ρ c)
theorem from_entry0_main_v28 (c : Dev nD) : out0 m ρ c (Proc.devRef .tc main_v28) = in0 m ρ c (Proc.devRef .tc main_v28) :=
  (pass0_main_v28 m ρ c)
theorem from_entry1_main_v28 (c : Dev nD) : out1 m ρ c (Proc.devRef .tc main_v28) = in0 m ρ c (Proc.devRef .tc main_v28) :=
  (pass1_main_v28 m ρ c).trans <| (pass0_main_v28 m ρ c)
theorem from_entry2_main_v28 (c : Dev nD) : out2 m ρ c (Proc.devRef .tc main_v28) = in0 m ρ c (Proc.devRef .tc main_v28) :=
  (pass2_main_v28 m ρ c).trans <| (pass1_main_v28 m ρ c).trans <| (pass0_main_v28 m ρ c)
theorem from_entry3_main_v28 (c : Dev nD) : out3 m ρ c (Proc.devRef .tc main_v28) = in0 m ρ c (Proc.devRef .tc main_v28) :=
  (pass3_main_v28 m ρ c).trans <| (pass2_main_v28 m ρ c).trans <| (pass1_main_v28 m ρ c).trans <| (pass0_main_v28 m ρ c)
theorem from_entry4_main_v28 (c : Dev nD) : out4 m ρ c (Proc.devRef .tc main_v28) = in0 m ρ c (Proc.devRef .tc main_v28) :=
  (pass4_main_v28 m ρ c).trans <| (pass3_main_v28 m ρ c).trans <| (pass2_main_v28 m ρ c).trans <| (pass1_main_v28 m ρ c).trans <| (pass0_main_v28 m ρ c)
theorem from_entry5_main_v28 (c : Dev nD) : out5 m ρ c (Proc.devRef .tc main_v28) = in0 m ρ c (Proc.devRef .tc main_v28) :=
  (pass5_main_v28 m ρ c).trans <| (pass4_main_v28 m ρ c).trans <| (pass3_main_v28 m ρ c).trans <| (pass2_main_v28 m ρ c).trans <| (pass1_main_v28 m ρ c).trans <| (pass0_main_v28 m ρ c)
theorem from_entry6_main_v28 (c : Dev nD) : out6 m ρ c (Proc.devRef .tc main_v28) = in0 m ρ c (Proc.devRef .tc main_v28) :=
  (pass6_main_v28 m ρ c).trans <| (pass5_main_v28 m ρ c).trans <| (pass4_main_v28 m ρ c).trans <| (pass3_main_v28 m ρ c).trans <| (pass2_main_v28 m ρ c).trans <| (pass1_main_v28 m ρ c).trans <| (pass0_main_v28 m ρ c)
theorem from_entry7_main_v28 (c : Dev nD) : out7 m ρ c (Proc.devRef .tc main_v28) = in0 m ρ c (Proc.devRef .tc main_v28) :=
  (pass7_main_v28 m ρ c).trans <| (pass6_main_v28 m ρ c).trans <| (pass5_main_v28 m ρ c).trans <| (pass4_main_v28 m ρ c).trans <| (pass3_main_v28 m ρ c).trans <| (pass2_main_v28 m ρ c).trans <| (pass1_main_v28 m ρ c).trans <| (pass0_main_v28 m ρ c)
theorem from_entry0_main_v29 (c : Dev nD) : out0 m ρ c (Proc.devRef .tc main_v29) = in0 m ρ c (Proc.devRef .tc main_v29) :=
  (pass0_main_v29 m ρ c)
theorem from_entry1_main_v29 (c : Dev nD) : out1 m ρ c (Proc.devRef .tc main_v29) = in0 m ρ c (Proc.devRef .tc main_v29) :=
  (pass1_main_v29 m ρ c).trans <| (pass0_main_v29 m ρ c)
theorem from_entry2_main_v29 (c : Dev nD) : out2 m ρ c (Proc.devRef .tc main_v29) = in0 m ρ c (Proc.devRef .tc main_v29) :=
  (pass2_main_v29 m ρ c).trans <| (pass1_main_v29 m ρ c).trans <| (pass0_main_v29 m ρ c)
theorem from_entry3_main_v29 (c : Dev nD) : out3 m ρ c (Proc.devRef .tc main_v29) = in0 m ρ c (Proc.devRef .tc main_v29) :=
  (pass3_main_v29 m ρ c).trans <| (pass2_main_v29 m ρ c).trans <| (pass1_main_v29 m ρ c).trans <| (pass0_main_v29 m ρ c)
theorem from_entry4_main_v29 (c : Dev nD) : out4 m ρ c (Proc.devRef .tc main_v29) = in0 m ρ c (Proc.devRef .tc main_v29) :=
  (pass4_main_v29 m ρ c).trans <| (pass3_main_v29 m ρ c).trans <| (pass2_main_v29 m ρ c).trans <| (pass1_main_v29 m ρ c).trans <| (pass0_main_v29 m ρ c)
theorem from_entry5_main_v29 (c : Dev nD) : out5 m ρ c (Proc.devRef .tc main_v29) = in0 m ρ c (Proc.devRef .tc main_v29) :=
  (pass5_main_v29 m ρ c).trans <| (pass4_main_v29 m ρ c).trans <| (pass3_main_v29 m ρ c).trans <| (pass2_main_v29 m ρ c).trans <| (pass1_main_v29 m ρ c).trans <| (pass0_main_v29 m ρ c)
theorem from_entry6_main_v29 (c : Dev nD) : out6 m ρ c (Proc.devRef .tc main_v29) = in0 m ρ c (Proc.devRef .tc main_v29) :=
  (pass6_main_v29 m ρ c).trans <| (pass5_main_v29 m ρ c).trans <| (pass4_main_v29 m ρ c).trans <| (pass3_main_v29 m ρ c).trans <| (pass2_main_v29 m ρ c).trans <| (pass1_main_v29 m ρ c).trans <| (pass0_main_v29 m ρ c)
theorem from_entry7_main_v29 (c : Dev nD) : out7 m ρ c (Proc.devRef .tc main_v29) = in0 m ρ c (Proc.devRef .tc main_v29) :=
  (pass7_main_v29 m ρ c).trans <| (pass6_main_v29 m ρ c).trans <| (pass5_main_v29 m ρ c).trans <| (pass4_main_v29 m ρ c).trans <| (pass3_main_v29 m ρ c).trans <| (pass2_main_v29 m ρ c).trans <| (pass1_main_v29 m ρ c).trans <| (pass0_main_v29 m ρ c)
theorem from_entry0_main_v31 (c : Dev nD) : out0 m ρ c (Proc.devRef .tc main_v31) = in0 m ρ c (Proc.devRef .tc main_v31) :=
  (pass0_main_v31 m ρ c)
theorem from_entry1_main_v31 (c : Dev nD) : out1 m ρ c (Proc.devRef .tc main_v31) = in0 m ρ c (Proc.devRef .tc main_v31) :=
  (pass1_main_v31 m ρ c).trans <| (pass0_main_v31 m ρ c)
theorem from_entry2_main_v31 (c : Dev nD) : out2 m ρ c (Proc.devRef .tc main_v31) = in0 m ρ c (Proc.devRef .tc main_v31) :=
  (pass2_main_v31 m ρ c).trans <| (pass1_main_v31 m ρ c).trans <| (pass0_main_v31 m ρ c)
theorem from_entry3_main_v31 (c : Dev nD) : out3 m ρ c (Proc.devRef .tc main_v31) = in0 m ρ c (Proc.devRef .tc main_v31) :=
  (pass3_main_v31 m ρ c).trans <| (pass2_main_v31 m ρ c).trans <| (pass1_main_v31 m ρ c).trans <| (pass0_main_v31 m ρ c)
theorem from_entry4_main_v31 (c : Dev nD) : out4 m ρ c (Proc.devRef .tc main_v31) = in0 m ρ c (Proc.devRef .tc main_v31) :=
  (pass4_main_v31 m ρ c).trans <| (pass3_main_v31 m ρ c).trans <| (pass2_main_v31 m ρ c).trans <| (pass1_main_v31 m ρ c).trans <| (pass0_main_v31 m ρ c)
theorem from_entry5_main_v31 (c : Dev nD) : out5 m ρ c (Proc.devRef .tc main_v31) = in0 m ρ c (Proc.devRef .tc main_v31) :=
  (pass5_main_v31 m ρ c).trans <| (pass4_main_v31 m ρ c).trans <| (pass3_main_v31 m ρ c).trans <| (pass2_main_v31 m ρ c).trans <| (pass1_main_v31 m ρ c).trans <| (pass0_main_v31 m ρ c)
theorem from_entry6_main_v31 (c : Dev nD) : out6 m ρ c (Proc.devRef .tc main_v31) = in0 m ρ c (Proc.devRef .tc main_v31) :=
  (pass6_main_v31 m ρ c).trans <| (pass5_main_v31 m ρ c).trans <| (pass4_main_v31 m ρ c).trans <| (pass3_main_v31 m ρ c).trans <| (pass2_main_v31 m ρ c).trans <| (pass1_main_v31 m ρ c).trans <| (pass0_main_v31 m ρ c)
theorem from_entry7_main_v31 (c : Dev nD) : out7 m ρ c (Proc.devRef .tc main_v31) = in0 m ρ c (Proc.devRef .tc main_v31) :=
  (pass7_main_v31 m ρ c).trans <| (pass6_main_v31 m ρ c).trans <| (pass5_main_v31 m ρ c).trans <| (pass4_main_v31 m ρ c).trans <| (pass3_main_v31 m ρ c).trans <| (pass2_main_v31 m ρ c).trans <| (pass1_main_v31 m ρ c).trans <| (pass0_main_v31 m ρ c)

end Cert.KernelIdeal.Diffusion

end
-- ==== Proof.Spec.lean ====
/-
  The diffusion both programs compute, as pure functions of the three argument arrays at the ideal instance (a float is
  an extended real, every operation the exact one).

  Nodes `0 … 299999` (users, then items shifted by 200000). Edges: user→item, item→user and one loop per node,
  `E = 2300000` in all, given by two index arrays `src`, `dst`. A node's degree counts the edges that land on it, an
  edge's weight is `deg(src)^(-1/2) · deg(dst)^(-1/2)`. One step sends `h` to
  `n ↦ (∑ over edges e landing on n of h[src e] · w e) · c₉ + x[n] · c₁`; the result is four steps from `x`, divided by `1`.

  The reference does exactly that over the `E` edges. The kernel appends `10144` edges from node `0` to node `0` of
  weight `0` (so that the edge count is a multiple of `16384`) and does the scaling and the node update tile by tile;
  `stepK` is its step over the `2310144` padded edges with the two tiled launches read as whole-array functions
  (`scaleArr`, `combineArr`). Out-of-range indices are treated by both the same way (the gather clamps, the
  accumulating scatter drops), since both apply the same operations to the same index arrays.
-/
import proofs.«173453_j38800734552802_1_alg».proof.Proof.Gen.KernelIdeal
import proofs.«173453_j38800734552802_1_alg».proof.Proof.Gen.ReferenceIdeal
import Idealize.ShloMosaic.PureOps.Ideal
import Idealize.ShloMosaic.Lib.ValueIdx

noncomputable section

namespace Cert.Diffusion

open Idealize.ShloMosaic Idealize.ShloMosaic.ValueIdx
open Cert.KernelIdeal Cert.KernelIdeal.Facts₀

/-- Node features, `[300000, 64]` extended reals. -/
abbrev Feat : Type := FVec Ideal S300000x64 .f32
/-- One endpoint per user–item interaction. -/
abbrev Ends : Type := IVec S1000000 32

/-! ## The graph: shared by both programs -/

/-- Item indices shifted past the users. -/
def items (a2 : Ends) : Ends := addi a2 (broadcastInDim S1000000 ![] bcast_S_S1000000 (constantI S_ 32 200000#32))
/-- Edge sources: users, items, then every node (the loops). -/
def src (a1 a2 : Ends) : IVec S2300000 32 :=
  concatenate S2300000 0 [⟨S1000000, a1⟩, ⟨S1000000, items a2⟩, ⟨S300000, iotaInDim S300000 32 0⟩] concatenates_S1000000_S1000000_S300000_S2300000_d0
/-- Edge targets: items, users, then every node. -/
def dst (a1 a2 : Ends) : IVec S2300000 32 :=
  concatenate S2300000 0 [⟨S1000000, items a2⟩, ⟨S1000000, a1⟩, ⟨S300000, iotaInDim S300000 32 0⟩] concatenates_S1000000_S1000000_S300000_S2300000_d0
/-- A node's degree: the number of edges landing on it (an accumulating scatter of ones). -/
def deg (a1 a2 : Ends) : FVec Ideal S300000 .f32 :=
  Host.scatterAdd scatter_S300000_S2300000x1_S2300000_n_0_0_1 (broadcastInDim S300000 ![] bcast_S_S300000 (constant S_ .f32 0x00000000#32))
    (broadcastInDim S2300000x1 ![0] bcast_S2300000_S2300000x1_0 (dst a1 a2)) (broadcastInDim S2300000 ![] bcast_S_S2300000 (constant S_ .f32 0x3F800000#32))
/-- `deg ^ (-1/2)`. -/
def norm (a1 a2 : Ends) : FVec Ideal S300000 .f32 :=
  Host.powf (deg a1 a2) (broadcastInDim S300000 ![] bcast_S_S300000 (constant S_ .f32 0xBF000000#32))
/-- A negative index counts from the end (`i + 300000`), over the `E` edges. -/
def wrapE (i : IVec S2300000 32) : IVec S2300000 32 :=
  select (cmpi .slt i (broadcastInDim S2300000 ![] bcast_S_S2300000 (constantI S_ 32 0#32)))
    (addi i (broadcastInDim S2300000 ![] bcast_S_S2300000 (constantI S_ 32 300000#32))) i
/-- An edge's weight. -/
def wgt (a1 a2 : Ends) : FVec Ideal S2300000 .f32 :=
  mulf (Host.gather gather_S300000_S2300000x1_S2300000_n_0_n_n_0_1_1 (norm a1 a2) (broadcastInDim S2300000x1 ![0] bcast_S2300000_S2300000x1_0 (wrapE (src a1 a2))))
    (Host.gather gather_S300000_S2300000x1_S2300000_n_0_n_n_0_1_1 (norm a1 a2) (broadcastInDim S2300000x1 ![0] bcast_S2300000_S2300000x1_0 (wrapE (dst a1 a2))))

/-- The two constants of the node update and the zero the aggregation starts from, as extended reals. -/
abbrev c9 : EReal := Ideal.ofBits .f32 0x3F666666#32
abbrev c1 : EReal := Ideal.ofBits .f32 0x3DCCCCCD#32

/-! ## The reference's step, over the `E` edges -/

/-- The messages: `h` at each edge's source. -/
def msgsR (h : Feat) (a1 a2 : Ends) : FVec Ideal Cert.ReferenceIdeal.S2300000x64 .f32 :=
  Host.gather Cert.ReferenceIdeal.gather_S300000x64_S2300000x1_S2300000x64_1_0_n_n_0_1_164 h
    (broadcastInDim S2300000x1 ![0] bcast_S2300000_S2300000x1_0 (wrapE (src a1 a2)))
/-- The weights spread along the 64 features. -/
def wmat (a1 a2 : Ends) : FVec Ideal Cert.ReferenceIdeal.S2300000x64 .f32 :=
  broadcastInDim Cert.ReferenceIdeal.S2300000x64 ![0, 1] Cert.ReferenceIdeal.Facts₀.bcast_S2300000x1_S2300000x64_0_1
    (broadcastInDim S2300000x1 ![0] bcast_S2300000_S2300000x1_0 (wgt a1 a2))
/-- One step of the reference. -/
def stepR (x : Feat) (a1 a2 : Ends) (h : Feat) : Feat :=
  addf (mulf (Host.scatterAdd Cert.ReferenceIdeal.scatter_S300000x64_S2300000x1_S2300000x64_1_0_0_1
        (broadcastInDim S300000x64 ![] bcast_S_S300000x64 (constant S_ .f32 0x00000000#32))
        (broadcastInDim S2300000x1 ![0] bcast_S2300000_S2300000x1_0 (dst a1 a2))
        (mulf (msgsR h a1 a2) (wmat a1 a2)))
      (broadcastInDim S300000x64 ![] bcast_S_S300000x64 (constant S_ .f32 0x3F666666#32)))
    (mulf x (broadcastInDim S300000x64 ![] bcast_S_S300000x64 (constant S_ .f32 0x3DCCCCCD#32)))
/-- The reference's result. -/
def resultR (x : Feat) (a1 a2 : Ends) : Feat :=
  Host.divf (stepR x a1 a2 (stepR x a1 a2 (stepR x a1 a2 (stepR x a1 a2 x))))
    (broadcastInDim S300000x64 ![] bcast_S_S300000x64 (constant S_ .f32 0x3F800000#32))

/-! ## The kernel's step, over the padded edges -/

/-- The padding: `10144` zero indices. -/
def padI : IVec S10144 32 := broadcastInDim S10144 ![] bcast_S_S10144 (constantI S_ 32 0#32)
def srcP (a1 a2 : Ends) : IVec S2310144 32 :=
  concatenate S2310144 0 [⟨S2300000, src a1 a2⟩, ⟨S10144, padI⟩] concatenates_S2300000_S10144_S2310144_d0
def dstP (a1 a2 : Ends) : IVec S2310144 32 :=
  concatenate S2310144 0 [⟨S2300000, dst a1 a2⟩, ⟨S10144, padI⟩] concatenates_S2300000_S10144_S2310144_d0
/-- The weights, padded with zeros, as a column. -/
def wcol (a1 a2 : Ends) : FVec Ideal S2310144x1 .f32 :=
  shapeCast S2310144x1 (concatenate S2310144 0 [⟨S2300000, wgt a1 a2⟩, ⟨S10144, broadcastInDim S10144 ![] bcast_S_S10144 (constant S_ .f32 0x00000000#32)⟩]
    concatenates_S2300000_S10144_S2310144_d0) shapeCasts_S2310144_S2310144x1
/-- A negative index counts from the end, over the padded edges. -/
def wrapP (i : IVec S2310144 32) : IVec S2310144 32 :=
  select (cmpi .slt i (broadcastInDim S2310144 ![] bcast_S_S2310144 (constantI S_ 32 0#32)))
    (addi i (broadcastInDim S2310144 ![] bcast_S_S2310144 (constantI S_ 32 300000#32))) i
/-- The messages over the padded edges. -/
def msgsK (h : Feat) (a1 a2 : Ends) : FVec Ideal S2310144x64 .f32 :=
  Host.gather gather_S300000x64_S2310144x1_S2310144x64_1_0_n_n_0_1_164 h
    (broadcastInDim S2310144x1 ![0] bcast_S2310144_S2310144x1_0 (wrapP (srcP a1 a2)))
/-- The scaling launch as ONE function of its two operand arrays: each message row times its edge's weight. -/
def scaleArr (msg : FVec Ideal S2310144x64 .f32) (w : FVec Ideal S2310144x1 .f32) : FVec Ideal S2310144x64 .f32 :=
  fun i => msg i * w (ix2 (⟨(i 0).val, idx2_lt0 i⟩ : Fin 2310144) (⟨0, Nat.one_pos⟩ : Fin 1))
/-- The node-update launch as ONE function of its two operand arrays. -/
def combineArr (agg x : Feat) : Feat := fun i => agg i * c9 + x i * c1
/-- The aggregation over the padded edges. -/
def aggK (u : FVec Ideal S2310144x64 .f32) (a1 a2 : Ends) : Feat :=
  Host.scatterAdd scatter_S300000x64_S2310144x1_S2310144x64_1_0_0_1
    (broadcastInDim S300000x64 ![] bcast_S_S300000x64 (constant S_ .f32 0x00000000#32))
    (broadcastInDim S2310144x1 ![0] bcast_S2310144_S2310144x1_0 (dstP a1 a2)) u
/-- One step of the kernel. -/
def stepK (x : Feat) (a1 a2 : Ends) (h : Feat) : Feat :=
  combineArr (aggK (scaleArr (msgsK h a1 a2) (wcol a1 a2)) a1 a2) x
/-- The kernel's result. -/
def resultK (x : Feat) (a1 a2 : Ends) : Feat :=
  Host.divf (stepK x a1 a2 (stepK x a1 a2 (stepK x a1 a2 (stepK x a1 a2 x))))
    (broadcastInDim S300000x64 ![] bcast_S_S300000x64 (constant S_ .f32 0x3F800000#32))

end Cert.Diffusion

end
-- ==== Proof.Ideal.ScaleValue0.lean ====
/-
  Edge scaling, diffusion step 1 (launch 0 of the program), as ONE function of its operand arrays at the ideal instance:
  after the launch the scaled-message array holds, at (edge `e`, feature `f`), the message times edge `e`'s weight.
  Point `t` writes rows `16384 t …` and the 141 points' row ranges tile the `2310144` rows.
-/
import proofs.«173453_j38800734552802_1_alg».proof.Proof.Ideal.Scale0
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem scale_zero0 : (![0, 0] : Fin 2 → Nat) = fun _ => 0 := funext fun a => by fin_cases a <;> rfl

/-- The weight column spread along the 64 features reads, at (row `p`, feature `q`), the column at row `p`. -/
theorem scale_spread0 {α : Type} (x : S16384x1.Idx → α) (j : S16384x64.Idx) :
    broadcastTo S16384x64 x broadcasts_S16384x1_S16384x64 j
      = x (ix2 (⟨(j 0).val, idx2_lt0 j⟩ : Fin 16384) (⟨0, Nat.one_pos⟩ : Fin 1)) := by
  refine broadcastTo_apply x _ j _ fun a => ?_
  match a with
  | ⟨0, _⟩ => rfl
  | ⟨1, _⟩ => rfl

/-- The body's payload at the ideal instance: each message row times its row's weight, index by index. -/
theorem scale_pay0 (x0 : Vec Ideal S16384x64 .f32) (x1 : Vec Ideal S16384x1 .f32) :
    k0_pay1 x0 x1 = fun j => x0 j * x1 (ix2 (⟨(j 0).val, idx2_lt0 j⟩ : Fin 16384) (⟨0, Nat.one_pos⟩ : Fin 1)) := by
  unfold k0_pay1
  simp only [shapeCast_self]
  funext j
  rw [mulf_apply, scale_spread0]

/-- The printed index maps, decided over the grid: at point `t` every window's block index is `(t, 0)`. -/
theorem scale_index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The scaling at one index, from the message there and the weight of its row. -/
theorem scale_at0 (A0 : FVec Ideal S2310144x64 .f32) (A1 : FVec Ideal S2310144x1 .f32) (b0 : Vec Ideal S16384x64 .f32)
    (b1 : Vec Ideal S16384x1 .f32) (j : S16384x64.Idx) (i : S2310144x64.Idx) (h0 : b0 j = A0 i)
    (h1 : b1 (ix2 (⟨(j 0).val, idx2_lt0 j⟩ : Fin 16384) (⟨0, Nat.one_pos⟩ : Fin 1))
      = A1 (ix2 (⟨(i 0).val, idx2_lt0 i⟩ : Fin 2310144) (⟨0, Nat.one_pos⟩ : Fin 1))) :
    b0 j * b1 (ix2 (⟨(j 0).val, idx2_lt0 j⟩ : Fin 16384) (⟨0, Nat.one_pos⟩ : Fin 1)) = Cert.Diffusion.scaleArr A0 A1 i := by
  rw [h0, h1]; rfl

/-- WHAT POINT `t` WRITES BACK is block `t` of the scaling of the two operand arrays as the launch finds them. -/
theorem scale_flushed0 (c : Dev nD) (t : Fin cfg0.N) :
    (scaleDat0 (F := Ideal) V c).flushed 2 t
      = ((cfg0.win 2).blk t).view.read (Elt Ideal)
          (Cert.Diffusion.scaleArr (V c (Pipeline.arrRef spec0 0)) (V c (Pipeline.arrRef spec0 1))) := by
  show (cfg0.win 2).cut (grid0.coords t) ((scaleDat0 V c).after 2 t) = _
  rw [scaleDat0_after_2]
  unfold scaled0
  rw [View.canon_unit_zero scale_zero0]
  simp only [View.ld_unit_zero (S := S16384x64) scale_zero0, View.ld_unit_zero (S := S16384x1) scale_zero0]
  rw [scale_pay0]
  obtain ⟨e0, e1, e2, e3, e4, e5⟩ := scale_index0 t
  funext j
  refine scale_at0 (V c (Pipeline.arrRef spec0 0)) (V c (Pipeline.arrRef spec0 1)) (blk0 V c 0 t) (blk0 V c 1 t) j
    (((cfg0.win 2).blk t).view.emb j) ?_ ?_
  · show V c (Pipeline.arrRef spec0 0) (((cfg0.win 0).blk t).view.emb j) = V c (Pipeline.arrRef spec0 0) (((cfg0.win 2).blk t).view.emb j)
    refine congrArg _ (funext fun a => Fin.ext ?_)
    match a with
    | ⟨0, _⟩ => show win0_0.index t (0 : Fin 2) * 16384 + 1 * (j 0).val = win0_2.index t (0 : Fin 2) * 16384 + 1 * (j 0).val; omega
    | ⟨1, _⟩ => show win0_0.index t (1 : Fin 2) * 64 + 1 * (j 1).val = win0_2.index t (1 : Fin 2) * 64 + 1 * (j 1).val; omega
  · show V c (Pipeline.arrRef spec0 1)
        (((cfg0.win 1).blk t).view.emb (ix2 (⟨(j 0).val, idx2_lt0 j⟩ : Fin 16384) (⟨0, Nat.one_pos⟩ : Fin 1)))
      = V c (Pipeline.arrRef spec0 1)
        (ix2 (⟨(((cfg0.win 2).blk t).view.emb j 0).val, idx2_lt0 _⟩ : Fin 2310144) (⟨0, Nat.one_pos⟩ : Fin 1))
    refine congrArg _ (funext fun a => Fin.ext ?_)
    match a with
    | ⟨0, _⟩ => show win0_1.index t (0 : Fin 2) * 16384 + 1 * (j 0).val = win0_2.index t (0 : Fin 2) * 16384 + 1 * (j 0).val; omega
    | ⟨1, _⟩ => show win0_1.index t (1 : Fin 2) * 1 + 1 * 0 = 0; omega

/-- An index of the array is in point `t`'s block iff each coordinate is in the block's range on its axis. -/
theorem scale_mem_blk0 (t : Fin cfg0.N) (i : S2310144x64.Idx) :
    i ∈ ((cfg0.win 2).blk t).view.set ↔ ∀ a : Fin 2, win0_2.index t a * S16384x64.size a ≤ (i a).val
      ∧ (i a).val < win0_2.index t a * S16384x64.size a + S16384x64.size a := by
  show i ∈ ((View.whole (Pipeline.arrRef spec0 2)).slice (win0_2.rect t)).set ↔ _
  rw [View.set_slice_whole, Rect.mem_set_unit]
  exact Iff.rfl

/-- The 141 points' blocks tile the array: row `r` lies in the block of point `r / 16384`. -/
theorem scale_cover0 (i : S2310144x64.Idx) :
    ∃ t : Fin cfg0.N, (cfg0.win 2).flush t = true ∧ i ∈ ((cfg0.win 2).blk t).view.set := by
  have hi0 : (i 0).val < 2310144 := (i 0).isLt
  have hi1 : (i 1).val < 64 := (i 1).isLt
  have hN : cfg0.N = 141 := N_0
  have ht : (i 0).val / 16384 < cfg0.N := by rw [hN]; omega
  obtain ⟨e0, e1, e2, e3, e4, e5⟩ := scale_index0 ⟨(i 0).val / 16384, ht⟩
  have e4' : win0_2.index ⟨(i 0).val / 16384, ht⟩ (0 : Fin 2) = (i 0).val / 16384 := e4
  refine ⟨⟨(i 0).val / 16384, ht⟩, flush0_2 _, ?_⟩
  rw [scale_mem_blk0]
  intro a
  match a with
  | ⟨0, _⟩ =>
    show win0_2.index ⟨(i 0).val / 16384, ht⟩ (0 : Fin 2) * 16384 ≤ (i 0).val
      ∧ (i 0).val < win0_2.index ⟨(i 0).val / 16384, ht⟩ (0 : Fin 2) * 16384 + 16384
    omega
  | ⟨1, _⟩ =>
    show win0_2.index ⟨(i 0).val / 16384, ht⟩ (1 : Fin 2) * 64 ≤ (i 1).val
      ∧ (i 1).val < win0_2.index ⟨(i 0).val / 16384, ht⟩ (1 : Fin 2) * 64 + 64
    omega

theorem scale_final0 (c : Dev nD) :
    (scaleDat0 (F := Ideal) V c).arrAt 2 cfg0.N
      = Cert.Diffusion.scaleArr (V c (Pipeline.arrRef spec0 0)) (V c (Pipeline.arrRef spec0 1)) := by
  exact (scaleDat0 (F := Ideal) V c).arrAt_eq_of_cover 2
    (Cert.Diffusion.scaleArr (V c (Pipeline.arrRef spec0 0)) (V c (Pipeline.arrRef spec0 1)))
    (fun t _ => scale_flushed0 V c t) scale_cover0

end Cert.KernelIdeal.Diffusion

end
-- ==== Proof.Ideal.ScaleValue2.lean ====
/-
  Edge scaling, diffusion step 2 (launch 2 of the program), as ONE function of its operand arrays at the ideal instance:
  after the launch the scaled-message array holds, at (edge `e`, feature `f`), the message times edge `e`'s weight.
  Point `t` writes rows `16384 t …` and the 141 points' row ranges tile the `2310144` rows.
-/
import proofs.«173453_j38800734552802_1_alg».proof.Proof.Ideal.Scale2
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem scale_zero2 : (![0, 0] : Fin 2 → Nat) = fun _ => 0 := funext fun a => by fin_cases a <;> rfl

/-- The weight column spread along the 64 features reads, at (row `p`, feature `q`), the column at row `p`. -/
theorem scale_spread2 {α : Type} (x : S16384x1.Idx → α) (j : S16384x64.Idx) :
    broadcastTo S16384x64 x broadcasts_S16384x1_S16384x64 j
      = x (ix2 (⟨(j 0).val, idx2_lt0 j⟩ : Fin 16384) (⟨0, Nat.one_pos⟩ : Fin 1)) := by
  refine broadcastTo_apply x _ j _ fun a => ?_
  match a with
  | ⟨0, _⟩ => rfl
  | ⟨1, _⟩ => rfl

/-- The body's payload at the ideal instance: each message row times its row's weight, index by index. -/
theorem scale_pay2 (x0 : Vec Ideal S16384x64 .f32) (x1 : Vec Ideal S16384x1 .f32) :
    k2_pay1 x0 x1 = fun j => x0 j * x1 (ix2 (⟨(j 0).val, idx2_lt0 j⟩ : Fin 16384) (⟨0, Nat.one_pos⟩ : Fin 1)) := by
  unfold k2_pay1
  simp only [shapeCast_self]
  funext j
  rw [mulf_apply, scale_spread2]

/-- The printed index maps, decided over the grid: at point `t` every window's block index is `(t, 0)`. -/
theorem scale_index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The scaling at one index, from the message there and the weight of its row. -/
theorem scale_at2 (A0 : FVec Ideal S2310144x64 .f32) (A1 : FVec Ideal S2310144x1 .f32) (b0 : Vec Ideal S16384x64 .f32)
    (b1 : Vec Ideal S16384x1 .f32) (j : S16384x64.Idx) (i : S2310144x64.Idx) (h0 : b0 j = A0 i)
    (h1 : b1 (ix2 (⟨(j 0).val, idx2_lt0 j⟩ : Fin 16384) (⟨0, Nat.one_pos⟩ : Fin 1))
      = A1 (ix2 (⟨(i 0).val, idx2_lt0 i⟩ : Fin 2310144) (⟨0, Nat.one_pos⟩ : Fin 1))) :
    b0 j * b1 (ix2 (⟨(j 0).val, idx2_lt0 j⟩ : Fin 16384) (⟨0, Nat.one_pos⟩ : Fin 1)) = Cert.Diffusion.scaleArr A0 A1 i := by
  rw [h0, h1]; rfl

/-- WHAT POINT `t` WRITES BACK is block `t` of the scaling of the two operand arrays as the launch finds them. -/
theorem scale_flushed2 (c : Dev nD) (t : Fin cfg2.N) :
    (scaleDat2 (F := Ideal) V c).flushed 2 t
      = ((cfg2.win 2).blk t).view.read (Elt Ideal)
          (Cert.Diffusion.scaleArr (V c (Pipeline.arrRef spec2 0)) (V c (Pipeline.arrRef spec2 1))) := by
  show (cfg2.win 2).cut (grid2.coords t) ((scaleDat2 V c).after 2 t) = _
  rw [scaleDat2_after_2]
  unfold scaled2
  rw [View.canon_unit_zero scale_zero2]
  simp only [View.ld_unit_zero (S := S16384x64) scale_zero2, View.ld_unit_zero (S := S16384x1) scale_zero2]
  rw [scale_pay2]
  obtain ⟨e0, e1, e2, e3, e4, e5⟩ := scale_index2 t
  funext j
  refine scale_at2 (V c (Pipeline.arrRef spec2 0)) (V c (Pipeline.arrRef spec2 1)) (blk2 V c 0 t) (blk2 V c 1 t) j
    (((cfg2.win 2).blk t).view.emb j) ?_ ?_
  · show V c (Pipeline.arrRef spec2 0) (((cfg2.win 0).blk t).view.emb j) = V c (Pipeline.arrRef spec2 0) (((cfg2.win 2).blk t).view.emb j)
    refine congrArg _ (funext fun a => Fin.ext ?_)
    match a with
    | ⟨0, _⟩ => show win2_0.index t (0 : Fin 2) * 16384 + 1 * (j 0).val = win2_2.index t (0 : Fin 2) * 16384 + 1 * (j 0).val; omega
    | ⟨1, _⟩ => show win2_0.index t (1 : Fin 2) * 64 + 1 * (j 1).val = win2_2.index t (1 : Fin 2) * 64 + 1 * (j 1).val; omega
  · show V c (Pipeline.arrRef spec2 1)
        (((cfg2.win 1).blk t).view.emb (ix2 (⟨(j 0).val, idx2_lt0 j⟩ : Fin 16384) (⟨0, Nat.one_pos⟩ : Fin 1)))
      = V c (Pipeline.arrRef spec2 1)
        (ix2 (⟨(((cfg2.win 2).blk t).view.emb j 0).val, idx2_lt0 _⟩ : Fin 2310144) (⟨0, Nat.one_pos⟩ : Fin 1))
    refine congrArg _ (funext fun a => Fin.ext ?_)
    match a with
    | ⟨0, _⟩ => show win2_1.index t (0 : Fin 2) * 16384 + 1 * (j 0).val = win2_2.index t (0 : Fin 2) * 16384 + 1 * (j 0).val; omega
    | ⟨1, _⟩ => show win2_1.index t (1 : Fin 2) * 1 + 1 * 0 = 0; omega

/-- An index of the array is in point `t`'s block iff each coordinate is in the block's range on its axis. -/
theorem scale_mem_blk2 (t : Fin cfg2.N) (i : S2310144x64.Idx) :
    i ∈ ((cfg2.win 2).blk t).view.set ↔ ∀ a : Fin 2, win2_2.index t a * S16384x64.size a ≤ (i a).val
      ∧ (i a).val < win2_2.index t a * S16384x64.size a + S16384x64.size a := by
  show i ∈ ((View.whole (Pipeline.arrRef spec2 2)).slice (win2_2.rect t)).set ↔ _
  rw [View.set_slice_whole, Rect.mem_set_unit]
  exact Iff.rfl

/-- The 141 points' blocks tile the array: row `r` lies in the block of point `r / 16384`. -/
theorem scale_cover2 (i : S2310144x64.Idx) :
    ∃ t : Fin cfg2.N, (cfg2.win 2).flush t = true ∧ i ∈ ((cfg2.win 2).blk t).view.set := by
  have hi0 : (i 0).val < 2310144 := (i 0).isLt
  have hi1 : (i 1).val < 64 := (i 1).isLt
  have hN : cfg2.N = 141 := N_2
  have ht : (i 0).val / 16384 < cfg2.N := by rw [hN]; omega
  obtain ⟨e0, e1, e2, e3, e4, e5⟩ := scale_index2 ⟨(i 0).val / 16384, ht⟩
  have e4' : win2_2.index ⟨(i 0).val / 16384, ht⟩ (0 : Fin 2) = (i 0).val / 16384 := e4
  refine ⟨⟨(i 0).val / 16384, ht⟩, flush2_2 _, ?_⟩
  rw [scale_mem_blk2]
  intro a
  match a with
  | ⟨0, _⟩ =>
    show win2_2.index ⟨(i 0).val / 16384, ht⟩ (0 : Fin 2) * 16384 ≤ (i 0).val
      ∧ (i 0).val < win2_2.index ⟨(i 0).val / 16384, ht⟩ (0 : Fin 2) * 16384 + 16384
    omega
  | ⟨1, _⟩ =>
    show win2_2.index ⟨(i 0).val / 16384, ht⟩ (1 : Fin 2) * 64 ≤ (i 1).val
      ∧ (i 1).val < win2_2.index ⟨(i 0).val / 16384, ht⟩ (1 : Fin 2) * 64 + 64
    omega

theorem scale_final2 (c : Dev nD) :
    (scaleDat2 (F := Ideal) V c).arrAt 2 cfg2.N
      = Cert.Diffusion.scaleArr (V c (Pipeline.arrRef spec2 0)) (V c (Pipeline.arrRef spec2 1)) := by
  exact (scaleDat2 (F := Ideal) V c).arrAt_eq_of_cover 2
    (Cert.Diffusion.scaleArr (V c (Pipeline.arrRef spec2 0)) (V c (Pipeline.arrRef spec2 1)))
    (fun t _ => scale_flushed2 V c t) scale_cover2

end Cert.KernelIdeal.Diffusion

end
-- ==== Proof.Ideal.ScaleValue4.lean ====
/-
  Edge scaling, diffusion step 3 (launch 4 of the program), as ONE function of its operand arrays at the ideal instance:
  after the launch the scaled-message array holds, at (edge `e`, feature `f`), the message times edge `e`'s weight.
  Point `t` writes rows `16384 t …` and the 141 points' row ranges tile the `2310144` rows.
-/
import proofs.«173453_j38800734552802_1_alg».proof.Proof.Ideal.Scale4
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem scale_zero4 : (![0, 0] : Fin 2 → Nat) = fun _ => 0 := funext fun a => by fin_cases a <;> rfl

/-- The weight column spread along the 64 features reads, at (row `p`, feature `q`), the column at row `p`. -/
theorem scale_spread4 {α : Type} (x : S16384x1.Idx → α) (j : S16384x64.Idx) :
    broadcastTo S16384x64 x broadcasts_S16384x1_S16384x64 j
      = x (ix2 (⟨(j 0).val, idx2_lt0 j⟩ : Fin 16384) (⟨0, Nat.one_pos⟩ : Fin 1)) := by
  refine broadcastTo_apply x _ j _ fun a => ?_
  match a with
  | ⟨0, _⟩ => rfl
  | ⟨1, _⟩ => rfl

/-- The body's payload at the ideal instance: each message row times its row's weight, index by index. -/
theorem scale_pay4 (x0 : Vec Ideal S16384x64 .f32) (x1 : Vec Ideal S16384x1 .f32) :
    k4_pay1 x0 x1 = fun j => x0 j * x1 (ix2 (⟨(j 0).val, idx2_lt0 j⟩ : Fin 16384) (⟨0, Nat.one_pos⟩ : Fin 1)) := by
  unfold k4_pay1
  simp only [shapeCast_self]
  funext j
  rw [mulf_apply, scale_spread4]

/-- The printed index maps, decided over the grid: at point `t` every window's block index is `(t, 0)`. -/
theorem scale_index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The scaling at one index, from the message there and the weight of its row. -/
theorem scale_at4 (A0 : FVec Ideal S2310144x64 .f32) (A1 : FVec Ideal S2310144x1 .f32) (b0 : Vec Ideal S16384x64 .f32)
    (b1 : Vec Ideal S16384x1 .f32) (j : S16384x64.Idx) (i : S2310144x64.Idx) (h0 : b0 j = A0 i)
    (h1 : b1 (ix2 (⟨(j 0).val, idx2_lt0 j⟩ : Fin 16384) (⟨0, Nat.one_pos⟩ : Fin 1))
      = A1 (ix2 (⟨(i 0).val, idx2_lt0 i⟩ : Fin 2310144) (⟨0, Nat.one_pos⟩ : Fin 1))) :
    b0 j * b1 (ix2 (⟨(j 0).val, idx2_lt0 j⟩ : Fin 16384) (⟨0, Nat.one_pos⟩ : Fin 1)) = Cert.Diffusion.scaleArr A0 A1 i := by
  rw [h0, h1]; rfl

/-- WHAT POINT `t` WRITES BACK is block `t` of the scaling of the two operand arrays as the launch finds them. -/
theorem scale_flushed4 (c : Dev nD) (t : Fin cfg4.N) :
    (scaleDat4 (F := Ideal) V c).flushed 2 t
      = ((cfg4.win 2).blk t).view.read (Elt Ideal)
          (Cert.Diffusion.scaleArr (V c (Pipeline.arrRef spec4 0)) (V c (Pipeline.arrRef spec4 1))) := by
  show (cfg4.win 2).cut (grid4.coords t) ((scaleDat4 V c).after 2 t) = _
  rw [scaleDat4_after_2]
  unfold scaled4
  rw [View.canon_unit_zero scale_zero4]
  simp only [View.ld_unit_zero (S := S16384x64) scale_zero4, View.ld_unit_zero (S := S16384x1) scale_zero4]
  rw [scale_pay4]
  obtain ⟨e0, e1, e2, e3, e4, e5⟩ := scale_index4 t
  funext j
  refine scale_at4 (V c (Pipeline.arrRef spec4 0)) (V c (Pipeline.arrRef spec4 1)) (blk4 V c 0 t) (blk4 V c 1 t) j
    (((cfg4.win 2).blk t).view.emb j) ?_ ?_
  · show V c (Pipeline.arrRef spec4 0) (((cfg4.win 0).blk t).view.emb j) = V c (Pipeline.arrRef spec4 0) (((cfg4.win 2).blk t).view.emb j)
    refine congrArg _ (funext fun a => Fin.ext ?_)
    match a with
    | ⟨0, _⟩ => show win4_0.index t (0 : Fin 2) * 16384 + 1 * (j 0).val = win4_2.index t (0 : Fin 2) * 16384 + 1 * (j 0).val; omega
    | ⟨1, _⟩ => show win4_0.index t (1 : Fin 2) * 64 + 1 * (j 1).val = win4_2.index t (1 : Fin 2) * 64 + 1 * (j 1).val; omega
  · show V c (Pipeline.arrRef spec4 1)
        (((cfg4.win 1).blk t).view.emb (ix2 (⟨(j 0).val, idx2_lt0 j⟩ : Fin 16384) (⟨0, Nat.one_pos⟩ : Fin 1)))
      = V c (Pipeline.arrRef spec4 1)
        (ix2 (⟨(((cfg4.win 2).blk t).view.emb j 0).val, idx2_lt0 _⟩ : Fin 2310144) (⟨0, Nat.one_pos⟩ : Fin 1))
    refine congrArg _ (funext fun a => Fin.ext ?_)
    match a with
    | ⟨0, _⟩ => show win4_1.index t (0 : Fin 2) * 16384 + 1 * (j 0).val = win4_2.index t (0 : Fin 2) * 16384 + 1 * (j 0).val; omega
    | ⟨1, _⟩ => show win4_1.index t (1 : Fin 2) * 1 + 1 * 0 = 0; omega

/-- An index of the array is in point `t`'s block iff each coordinate is in the block's range on its axis. -/
theorem scale_mem_blk4 (t : Fin cfg4.N) (i : S2310144x64.Idx) :
    i ∈ ((cfg4.win 2).blk t).view.set ↔ ∀ a : Fin 2, win4_2.index t a * S16384x64.size a ≤ (i a).val
      ∧ (i a).val < win4_2.index t a * S16384x64.size a + S16384x64.size a := by
  show i ∈ ((View.whole (Pipeline.arrRef spec4 2)).slice (win4_2.rect t)).set ↔ _
  rw [View.set_slice_whole, Rect.mem_set_unit]
  exact Iff.rfl

/-- The 141 points' blocks tile the array: row `r` lies in the block of point `r / 16384`. -/
theorem scale_cover4 (i : S2310144x64.Idx) :
    ∃ t : Fin cfg4.N, (cfg4.win 2).flush t = true ∧ i ∈ ((cfg4.win 2).blk t).view.set := by
  have hi0 : (i 0).val < 2310144 := (i 0).isLt
  have hi1 : (i 1).val < 64 := (i 1).isLt
  have hN : cfg4.N = 141 := N_4
  have ht : (i 0).val / 16384 < cfg4.N := by rw [hN]; omega
  obtain ⟨e0, e1, e2, e3, e4, e5⟩ := scale_index4 ⟨(i 0).val / 16384, ht⟩
  have e4' : win4_2.index ⟨(i 0).val / 16384, ht⟩ (0 : Fin 2) = (i 0).val / 16384 := e4
  refine ⟨⟨(i 0).val / 16384, ht⟩, flush4_2 _, ?_⟩
  rw [scale_mem_blk4]
  intro a
  match a with
  | ⟨0, _⟩ =>
    show win4_2.index ⟨(i 0).val / 16384, ht⟩ (0 : Fin 2) * 16384 ≤ (i 0).val
      ∧ (i 0).val < win4_2.index ⟨(i 0).val / 16384, ht⟩ (0 : Fin 2) * 16384 + 16384
    omega
  | ⟨1, _⟩ =>
    show win4_2.index ⟨(i 0).val / 16384, ht⟩ (1 : Fin 2) * 64 ≤ (i 1).val
      ∧ (i 1).val < win4_2.index ⟨(i 0).val / 16384, ht⟩ (1 : Fin 2) * 64 + 64
    omega

theorem scale_final4 (c : Dev nD) :
    (scaleDat4 (F := Ideal) V c).arrAt 2 cfg4.N
      = Cert.Diffusion.scaleArr (V c (Pipeline.arrRef spec4 0)) (V c (Pipeline.arrRef spec4 1)) := by
  exact (scaleDat4 (F := Ideal) V c).arrAt_eq_of_cover 2
    (Cert.Diffusion.scaleArr (V c (Pipeline.arrRef spec4 0)) (V c (Pipeline.arrRef spec4 1)))
    (fun t _ => scale_flushed4 V c t) scale_cover4

end Cert.KernelIdeal.Diffusion

end
-- ==== Proof.Ideal.ScaleValue6.lean ====
/-
  Edge scaling, diffusion step 4 (launch 6 of the program), as ONE function of its operand arrays at the ideal instance:
  after the launch the scaled-message array holds, at (edge `e`, feature `f`), the message times edge `e`'s weight.
  Point `t` writes rows `16384 t …` and the 141 points' row ranges tile the `2310144` rows.
-/
import proofs.«173453_j38800734552802_1_alg».proof.Proof.Ideal.Scale6
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem scale_zero6 : (![0, 0] : Fin 2 → Nat) = fun _ => 0 := funext fun a => by fin_cases a <;> rfl

/-- The weight column spread along the 64 features reads, at (row `p`, feature `q`), the column at row `p`. -/
theorem scale_spread6 {α : Type} (x : S16384x1.Idx → α) (j : S16384x64.Idx) :
    broadcastTo S16384x64 x broadcasts_S16384x1_S16384x64 j
      = x (ix2 (⟨(j 0).val, idx2_lt0 j⟩ : Fin 16384) (⟨0, Nat.one_pos⟩ : Fin 1)) := by
  refine broadcastTo_apply x _ j _ fun a => ?_
  match a with
  | ⟨0, _⟩ => rfl
  | ⟨1, _⟩ => rfl

/-- The body's payload at the ideal instance: each message row times its row's weight, index by index. -/
theorem scale_pay6 (x0 : Vec Ideal S16384x64 .f32) (x1 : Vec Ideal S16384x1 .f32) :
    k6_pay1 x0 x1 = fun j => x0 j * x1 (ix2 (⟨(j 0).val, idx2_lt0 j⟩ : Fin 16384) (⟨0, Nat.one_pos⟩ : Fin 1)) := by
  unfold k6_pay1
  simp only [shapeCast_self]
  funext j
  rw [mulf_apply, scale_spread6]

/-- The printed index maps, decided over the grid: at point `t` every window's block index is `(t, 0)`. -/
theorem scale_index6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0 :=
  (by decide +kernel : ∀ t : Fin grid6.N, _)

/-- The scaling at one index, from the message there and the weight of its row. -/
theorem scale_at6 (A0 : FVec Ideal S2310144x64 .f32) (A1 : FVec Ideal S2310144x1 .f32) (b0 : Vec Ideal S16384x64 .f32)
    (b1 : Vec Ideal S16384x1 .f32) (j : S16384x64.Idx) (i : S2310144x64.Idx) (h0 : b0 j = A0 i)
    (h1 : b1 (ix2 (⟨(j 0).val, idx2_lt0 j⟩ : Fin 16384) (⟨0, Nat.one_pos⟩ : Fin 1))
      = A1 (ix2 (⟨(i 0).val, idx2_lt0 i⟩ : Fin 2310144) (⟨0, Nat.one_pos⟩ : Fin 1))) :
    b0 j * b1 (ix2 (⟨(j 0).val, idx2_lt0 j⟩ : Fin 16384) (⟨0, Nat.one_pos⟩ : Fin 1)) = Cert.Diffusion.scaleArr A0 A1 i := by
  rw [h0, h1]; rfl

/-- WHAT POINT `t` WRITES BACK is block `t` of the scaling of the two operand arrays as the launch finds them. -/
theorem scale_flushed6 (c : Dev nD) (t : Fin cfg6.N) :
    (scaleDat6 (F := Ideal) V c).flushed 2 t
      = ((cfg6.win 2).blk t).view.read (Elt Ideal)
          (Cert.Diffusion.scaleArr (V c (Pipeline.arrRef spec6 0)) (V c (Pipeline.arrRef spec6 1))) := by
  show (cfg6.win 2).cut (grid6.coords t) ((scaleDat6 V c).after 2 t) = _
  rw [scaleDat6_after_2]
  unfold scaled6
  rw [View.canon_unit_zero scale_zero6]
  simp only [View.ld_unit_zero (S := S16384x64) scale_zero6, View.ld_unit_zero (S := S16384x1) scale_zero6]
  rw [scale_pay6]
  obtain ⟨e0, e1, e2, e3, e4, e5⟩ := scale_index6 t
  funext j
  refine scale_at6 (V c (Pipeline.arrRef spec6 0)) (V c (Pipeline.arrRef spec6 1)) (blk6 V c 0 t) (blk6 V c 1 t) j
    (((cfg6.win 2).blk t).view.emb j) ?_ ?_
  · show V c (Pipeline.arrRef spec6 0) (((cfg6.win 0).blk t).view.emb j) = V c (Pipeline.arrRef spec6 0) (((cfg6.win 2).blk t).view.emb j)
    refine congrArg _ (funext fun a => Fin.ext ?_)
    match a with
    | ⟨0, _⟩ => show win6_0.index t (0 : Fin 2) * 16384 + 1 * (j 0).val = win6_2.index t (0 : Fin 2) * 16384 + 1 * (j 0).val; omega
    | ⟨1, _⟩ => show win6_0.index t (1 : Fin 2) * 64 + 1 * (j 1).val = win6_2.index t (1 : Fin 2) * 64 + 1 * (j 1).val; omega
  · show V c (Pipeline.arrRef spec6 1)
        (((cfg6.win 1).blk t).view.emb (ix2 (⟨(j 0).val, idx2_lt0 j⟩ : Fin 16384) (⟨0, Nat.one_pos⟩ : Fin 1)))
      = V c (Pipeline.arrRef spec6 1)
        (ix2 (⟨(((cfg6.win 2).blk t).view.emb j 0).val, idx2_lt0 _⟩ : Fin 2310144) (⟨0, Nat.one_pos⟩ : Fin 1))
    refine congrArg _ (funext fun a => Fin.ext ?_)
    match a with
    | ⟨0, _⟩ => show win6_1.index t (0 : Fin 2) * 16384 + 1 * (j 0).val = win6_2.index t (0 : Fin 2) * 16384 + 1 * (j 0).val; omega
    | ⟨1, _⟩ => show win6_1.index t (1 : Fin 2) * 1 + 1 * 0 = 0; omega

/-- An index of the array is in point `t`'s block iff each coordinate is in the block's range on its axis. -/
theorem scale_mem_blk6 (t : Fin cfg6.N) (i : S2310144x64.Idx) :
    i ∈ ((cfg6.win 2).blk t).view.set ↔ ∀ a : Fin 2, win6_2.index t a * S16384x64.size a ≤ (i a).val
      ∧ (i a).val < win6_2.index t a * S16384x64.size a + S16384x64.size a := by
  show i ∈ ((View.whole (Pipeline.arrRef spec6 2)).slice (win6_2.rect t)).set ↔ _
  rw [View.set_slice_whole, Rect.mem_set_unit]
  exact Iff.rfl

/-- The 141 points' blocks tile the array: row `r` lies in the block of point `r / 16384`. -/
theorem scale_cover6 (i : S2310144x64.Idx) :
    ∃ t : Fin cfg6.N, (cfg6.win 2).flush t = true ∧ i ∈ ((cfg6.win 2).blk t).view.set := by
  have hi0 : (i 0).val < 2310144 := (i 0).isLt
  have hi1 : (i 1).val < 64 := (i 1).isLt
  have hN : cfg6.N = 141 := N_6
  have ht : (i 0).val / 16384 < cfg6.N := by rw [hN]; omega
  obtain ⟨e0, e1, e2, e3, e4, e5⟩ := scale_index6 ⟨(i 0).val / 16384, ht⟩
  have e4' : win6_2.index ⟨(i 0).val / 16384, ht⟩ (0 : Fin 2) = (i 0).val / 16384 := e4
  refine ⟨⟨(i 0).val / 16384, ht⟩, flush6_2 _, ?_⟩
  rw [scale_mem_blk6]
  intro a
  match a with
  | ⟨0, _⟩ =>
    show win6_2.index ⟨(i 0).val / 16384, ht⟩ (0 : Fin 2) * 16384 ≤ (i 0).val
      ∧ (i 0).val < win6_2.index ⟨(i 0).val / 16384, ht⟩ (0 : Fin 2) * 16384 + 16384
    omega
  | ⟨1, _⟩ =>
    show win6_2.index ⟨(i 0).val / 16384, ht⟩ (1 : Fin 2) * 64 ≤ (i 1).val
      ∧ (i 1).val < win6_2.index ⟨(i 0).val / 16384, ht⟩ (1 : Fin 2) * 64 + 64
    omega

theorem scale_final6 (c : Dev nD) :
    (scaleDat6 (F := Ideal) V c).arrAt 2 cfg6.N
      = Cert.Diffusion.scaleArr (V c (Pipeline.arrRef spec6 0)) (V c (Pipeline.arrRef spec6 1)) := by
  exact (scaleDat6 (F := Ideal) V c).arrAt_eq_of_cover 2
    (Cert.Diffusion.scaleArr (V c (Pipeline.arrRef spec6 0)) (V c (Pipeline.arrRef spec6 1)))
    (fun t _ => scale_flushed6 V c t) scale_cover6

end Cert.KernelIdeal.Diffusion

end
-- ==== Proof.Ideal.CombineValue1.lean ====
/-
  The node update, diffusion step 1 (launch 1 of the program), as ONE function of its operand arrays at the ideal instance:
  after the launch the new-features array holds, at (node `n`, feature `f`), the aggregate times `c₉` plus the input times `c₁`.
  Point `t` writes rows `2000 t …` and the 150 points' row ranges tile the `300000` rows.
-/
import proofs.«173453_j38800734552802_1_alg».proof.Proof.Ideal.Combine1
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem combine_zero1 : (![0, 0] : Fin 2 → Nat) = fun _ => 0 := funext fun a => by fin_cases a <;> rfl

/-- The body's payload at the ideal instance: the first block times `c₉` plus the second times `c₁`, index by index. -/
theorem combine_pay1 (x0 x1 : Vec Ideal S2000x64 .f32) :
    k1_pay1 x0 x1 = fun i => x0 i * Cert.Diffusion.c9 + x1 i * Cert.Diffusion.c1 := by
  unfold k1_pay1
  simp only [shapeCast_self]
  rfl

/-- The printed index maps, decided over the grid: at point `t` every window's block index is `(t, 0)`. -/
theorem combine_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The node update at one index, from the two operands there. -/
theorem combine_at1 (A0 A1 : Cert.Diffusion.Feat) (b0 b1 : Vec Ideal S2000x64 .f32) (j : S2000x64.Idx) (i : S300000x64.Idx)
    (h0 : b0 j = A0 i) (h1 : b1 j = A1 i) :
    b0 j * Cert.Diffusion.c9 + b1 j * Cert.Diffusion.c1 = Cert.Diffusion.combineArr A0 A1 i := by
  rw [h0, h1]; rfl

/-- WHAT POINT `t` WRITES BACK is block `t` of the node update of the two operand arrays as the launch finds them. -/
theorem combine_flushed1 (c : Dev nD) (t : Fin cfg1.N) :
    (combineDat1 (F := Ideal) V c).flushed 2 t
      = ((cfg1.win 2).blk t).view.read (Elt Ideal)
          (Cert.Diffusion.combineArr (V c (Pipeline.arrRef spec1 0)) (V c (Pipeline.arrRef spec1 1))) := by
  show (cfg1.win 2).cut (grid1.coords t) ((combineDat1 V c).after 2 t) = _
  rw [combineDat1_after_2]
  unfold combined1
  rw [View.canon_unit_zero combine_zero1]
  simp only [View.ld_unit_zero (S := S2000x64) combine_zero1]
  rw [combine_pay1]
  obtain ⟨e0, e1, e2, e3, e4, e5⟩ := combine_index1 t
  funext j
  refine combine_at1 (V c (Pipeline.arrRef spec1 0)) (V c (Pipeline.arrRef spec1 1)) (blk1 V c 0 t) (blk1 V c 1 t) j
    (((cfg1.win 2).blk t).view.emb j) ?_ ?_
  · show V c (Pipeline.arrRef spec1 0) (((cfg1.win 0).blk t).view.emb j) = V c (Pipeline.arrRef spec1 0) (((cfg1.win 2).blk t).view.emb j)
    refine congrArg _ (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 64 + 1 * (j 1).val = win1_2.index t (1 : Fin 2) * 64 + 1 * (j 1).val; omega
  · show V c (Pipeline.arrRef spec1 1) (((cfg1.win 1).blk t).view.emb j) = V c (Pipeline.arrRef spec1 1) (((cfg1.win 2).blk t).view.emb j)
    refine congrArg _ (funext fun a => Fin.ext ?_)
    match a with
    | ⟨0, _⟩ => show win1_1.index t (0 : Fin 2) * 2000 + 1 * (j 0).val = win1_2.index t (0 : Fin 2) * 2000 + 1 * (j 0).val; omega
    | ⟨1, _⟩ => show win1_1.index t (1 : Fin 2) * 64 + 1 * (j 1).val = win1_2.index t (1 : Fin 2) * 64 + 1 * (j 1).val; omega

/-- An index of the array is in point `t`'s block iff each coordinate is in the block's range on its axis. -/
theorem combine_mem_blk1 (t : Fin cfg1.N) (i : S300000x64.Idx) :
    i ∈ ((cfg1.win 2).blk t).view.set ↔ ∀ a : Fin 2, win1_2.index t a * S2000x64.size a ≤ (i a).val
      ∧ (i a).val < win1_2.index t a * S2000x64.size a + S2000x64.size a := by
  show i ∈ ((View.whole (Pipeline.arrRef spec1 2)).slice (win1_2.rect t)).set ↔ _
  rw [View.set_slice_whole, Rect.mem_set_unit]
  exact Iff.rfl

/-- The 150 points' blocks tile the array: row `r` lies in the block of point `r / 2000`. -/
theorem combine_cover1 (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  have hN : cfg1.N = 150 := N_1
  have ht : (i 0).val / 2000 < cfg1.N := by rw [hN]; omega
  obtain ⟨e0, e1, e2, e3, e4, e5⟩ := combine_index1 ⟨(i 0).val / 2000, ht⟩
  have e4' : win1_2.index ⟨(i 0).val / 2000, ht⟩ (0 : Fin 2) = (i 0).val / 2000 := e4
  refine ⟨⟨(i 0).val / 2000, ht⟩, flush1_2 _, ?_⟩
  rw [combine_mem_blk1]
  intro a
  match a with
  | ⟨0, _⟩ =>
    show win1_2.index ⟨(i 0).val / 2000, ht⟩ (0 : Fin 2) * 2000 ≤ (i 0).val
      ∧ (i 0).val < win1_2.index ⟨(i 0).val / 2000, ht⟩ (0 : Fin 2) * 2000 + 2000
    omega
  | ⟨1, _⟩ =>
    show win1_2.index ⟨(i 0).val / 2000, ht⟩ (1 : Fin 2) * 64 ≤ (i 1).val
      ∧ (i 1).val < win1_2.index ⟨(i 0).val / 2000, ht⟩ (1 : Fin 2) * 64 + 64
    omega

theorem combine_final1 (c : Dev nD) :
    (combineDat1 (F := Ideal) V c).arrAt 2 cfg1.N
      = Cert.Diffusion.combineArr (V c (Pipeline.arrRef spec1 0)) (V c (Pipeline.arrRef spec1 1)) := by
  exact (combineDat1 (F := Ideal) V c).arrAt_eq_of_cover 2
    (Cert.Diffusion.combineArr (V c (Pipeline.arrRef spec1 0)) (V c (Pipeline.arrRef spec1 1)))
    (fun t _ => combine_flushed1 V c t) combine_cover1

end Cert.KernelIdeal.Diffusion

end
-- ==== Proof.Ideal.CombineValue3.lean ====
/-
  The node update, diffusion step 2 (launch 3 of the program), as ONE function of its operand arrays at the ideal instance:
  after the launch the new-features array holds, at (node `n`, feature `f`), the aggregate times `c₉` plus the input times `c₁`.
  Point `t` writes rows `2000 t …` and the 150 points' row ranges tile the `300000` rows.
-/
import proofs.«173453_j38800734552802_1_alg».proof.Proof.Ideal.Combine3
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem combine_zero3 : (![0, 0] : Fin 2 → Nat) = fun _ => 0 := funext fun a => by fin_cases a <;> rfl

/-- The body's payload at the ideal instance: the first block times `c₉` plus the second times `c₁`, index by index. -/
theorem combine_pay3 (x0 x1 : Vec Ideal S2000x64 .f32) :
    k3_pay1 x0 x1 = fun i => x0 i * Cert.Diffusion.c9 + x1 i * Cert.Diffusion.c1 := by
  unfold k3_pay1
  simp only [shapeCast_self]
  rfl

/-- The printed index maps, decided over the grid: at point `t` every window's block index is `(t, 0)`. -/
theorem combine_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The node update at one index, from the two operands there. -/
theorem combine_at3 (A0 A1 : Cert.Diffusion.Feat) (b0 b1 : Vec Ideal S2000x64 .f32) (j : S2000x64.Idx) (i : S300000x64.Idx)
    (h0 : b0 j = A0 i) (h1 : b1 j = A1 i) :
    b0 j * Cert.Diffusion.c9 + b1 j * Cert.Diffusion.c1 = Cert.Diffusion.combineArr A0 A1 i := by
  rw [h0, h1]; rfl

/-- WHAT POINT `t` WRITES BACK is block `t` of the node update of the two operand arrays as the launch finds them. -/
theorem combine_flushed3 (c : Dev nD) (t : Fin cfg3.N) :
    (combineDat3 (F := Ideal) V c).flushed 2 t
      = ((cfg3.win 2).blk t).view.read (Elt Ideal)
          (Cert.Diffusion.combineArr (V c (Pipeline.arrRef spec3 0)) (V c (Pipeline.arrRef spec3 1))) := by
  show (cfg3.win 2).cut (grid3.coords t) ((combineDat3 V c).after 2 t) = _
  rw [combineDat3_after_2]
  unfold combined3
  rw [View.canon_unit_zero combine_zero3]
  simp only [View.ld_unit_zero (S := S2000x64) combine_zero3]
  rw [combine_pay3]
  obtain ⟨e0, e1, e2, e3, e4, e5⟩ := combine_index3 t
  funext j
  refine combine_at3 (V c (Pipeline.arrRef spec3 0)) (V c (Pipeline.arrRef spec3 1)) (blk3 V c 0 t) (blk3 V c 1 t) j
    (((cfg3.win 2).blk t).view.emb j) ?_ ?_
  · show V c (Pipeline.arrRef spec3 0) (((cfg3.win 0).blk t).view.emb j) = V c (Pipeline.arrRef spec3 0) (((cfg3.win 2).blk t).view.emb j)
    refine congrArg _ (funext fun a => Fin.ext ?_)
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  · show V c (Pipeline.arrRef spec3 1) (((cfg3.win 1).blk t).view.emb j) = V c (Pipeline.arrRef spec3 1) (((cfg3.win 2).blk t).view.emb j)
    refine congrArg _ (funext fun a => Fin.ext ?_)
    match a with
    | ⟨0, _⟩ => show win3_1.index t (0 : Fin 2) * 2000 + 1 * (j 0).val = win3_2.index t (0 : Fin 2) * 2000 + 1 * (j 0).val; omega
    | ⟨1, _⟩ => show win3_1.index t (1 : Fin 2) * 64 + 1 * (j 1).val = win3_2.index t (1 : Fin 2) * 64 + 1 * (j 1).val; omega

/-- An index of the array is in point `t`'s block iff each coordinate is in the block's range on its axis. -/
theorem combine_mem_blk3 (t : Fin cfg3.N) (i : S300000x64.Idx) :
    i ∈ ((cfg3.win 2).blk t).view.set ↔ ∀ a : Fin 2, win3_2.index t a * S2000x64.size a ≤ (i a).val
      ∧ (i a).val < win3_2.index t a * S2000x64.size a + S2000x64.size a := by
  show i ∈ ((View.whole (Pipeline.arrRef spec3 2)).slice (win3_2.rect t)).set ↔ _
  rw [View.set_slice_whole, Rect.mem_set_unit]
  exact Iff.rfl

/-- The 150 points' blocks tile the array: row `r` lies in the block of point `r / 2000`. -/
theorem combine_cover3 (i : S300000x64.Idx) :
    ∃ t : Fin cfg3.N, (cfg3.win 2).flush t = true ∧ i ∈ ((cfg3.win 2).blk t).view.set := by
  have hi0 : (i 0).val < 300000 := (i 0).isLt
  have hi1 : (i 1).val < 64 := (i 1).isLt
  have hN : cfg3.N = 150 := N_3
  have ht : (i 0).val / 2000 < cfg3.N := by rw [hN]; omega
  obtain ⟨e0, e1, e2, e3, e4, e5⟩ := combine_index3 ⟨(i 0).val / 2000, ht⟩
  have e4' : win3_2.index ⟨(i 0).val / 2000, ht⟩ (0 : Fin 2) = (i 0).val / 2000 := e4
  refine ⟨⟨(i 0).val / 2000, ht⟩, flush3_2 _, ?_⟩
  rw [combine_mem_blk3]
  intro a
  match a with
  | ⟨0, _⟩ =>
    show win3_2.index ⟨(i 0).val / 2000, ht⟩ (0 : Fin 2) * 2000 ≤ (i 0).val
      ∧ (i 0).val < win3_2.index ⟨(i 0).val / 2000, ht⟩ (0 : Fin 2) * 2000 + 2000
    omega
  | ⟨1, _⟩ =>
    show win3_2.index ⟨(i 0).val / 2000, ht⟩ (1 : Fin 2) * 64 ≤ (i 1).val
      ∧ (i 1).val < win3_2.index ⟨(i 0).val / 2000, ht⟩ (1 : Fin 2) * 64 + 64
    omega

theorem combine_final3 (c : Dev nD) :
    (combineDat3 (F := Ideal) V c).arrAt 2 cfg3.N
      = Cert.Diffusion.combineArr (V c (Pipeline.arrRef spec3 0)) (V c (Pipeline.arrRef spec3 1)) := by
  exact (combineDat3 (F := Ideal) V c).arrAt_eq_of_cover 2
    (Cert.Diffusion.combineArr (V c (Pipeline.arrRef spec3 0)) (V c (Pipeline.arrRef spec3 1)))
    (fun t _ => combine_flushed3 V c t) combine_cover3

end Cert.KernelIdeal.Diffusion

end
-- ==== Proof.Ideal.CombineValue5.lean ====
/-
  The node update, diffusion step 3 (launch 5 of the program), as ONE function of its operand arrays at the ideal instance:
  after the launch the new-features array holds, at (node `n`, feature `f`), the aggregate times `c₉` plus the input times `c₁`.
  Point `t` writes rows `2000 t …` and the 150 points' row ranges tile the `300000` rows.
-/
import proofs.«173453_j38800734552802_1_alg».proof.Proof.Ideal.Combine5
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem combine_zero5 : (![0, 0] : Fin 2 → Nat) = fun _ => 0 := funext fun a => by fin_cases a <;> rfl

/-- The body's payload at the ideal instance: the first block times `c₉` plus the second times `c₁`, index by index. -/
theorem combine_pay5 (x0 x1 : Vec Ideal S2000x64 .f32) :
    k5_pay1 x0 x1 = fun i => x0 i * Cert.Diffusion.c9 + x1 i * Cert.Diffusion.c1 := by
  unfold k5_pay1
  simp only [shapeCast_self]
  rfl

/-- The printed index maps, decided over the grid: at point `t` every window's block index is `(t, 0)`. -/
theorem combine_index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The node update at one index, from the two operands there. -/
theorem combine_at5 (A0 A1 : Cert.Diffusion.Feat) (b0 b1 : Vec Ideal S2000x64 .f32) (j : S2000x64.Idx) (i : S300000x64.Idx)
    (h0 : b0 j = A0 i) (h1 : b1 j = A1 i) :
    b0 j * Cert.Diffusion.c9 + b1 j * Cert.Diffusion.c1 = Cert.Diffusion.combineArr A0 A1 i := by
  rw [h0, h1]; rfl

/-- WHAT POINT `t` WRITES BACK is block `t` of the node update of the two operand arrays as the launch finds them. -/
theorem combine_flushed5 (c : Dev nD) (t : Fin cfg5.N) :
    (combineDat5 (F := Ideal) V c).flushed 2 t
      = ((cfg5.win 2).blk t).view.read (Elt Ideal)
          (Cert.Diffusion.combineArr (V c (Pipeline.arrRef spec5 0)) (V c (Pipeline.arrRef spec5 1))) := by
  show (cfg5.win 2).cut (grid5.coords t) ((combineDat5 V c).after 2 t) = _
  rw [combineDat5_after_2]
  unfold combined5
  rw [View.canon_unit_zero combine_zero5]
  simp only [View.ld_unit_zero (S := S2000x64) combine_zero5]
  rw [combine_pay5]
  obtain ⟨e0, e1, e2, e3, e4, e5⟩ := combine_index5 t
  funext j
  refine combine_at5 (V c (Pipeline.arrRef spec5 0)) (V c (Pipeline.arrRef spec5 1)) (blk5 V c 0 t) (blk5 V c 1 t) j
    (((cfg5.win 2).blk t).view.emb j) ?_ ?_
  · show V c (Pipeline.arrRef spec5 0) (((cfg5.win 0).blk t).view.emb j) = V c (Pipeline.arrRef spec5 0) (((cfg5.win 2).blk t).view.emb j)
    refine congrArg _ (funext fun a => Fin.ext ?_)
    match a with
    | ⟨0, _⟩ => show win5_0.index t (0 : Fin 2) * 2000 + 1 * (j 0).val = win5_2.index t (0 : Fin 2) * 2000 + 1 * (j 0).val; omega
    | ⟨1, _⟩ => show win5_0.index t (1 : Fin 2) * 64 + 1 * (j 1).val = win5_2.index t (1 : Fin 2) * 64 + 1 * (j 1).val; omega
  · show V c (Pipeline.arrRef spec5 1) (((cfg5.win 1).blk t).view.emb j) = V c (Pipeline.arrRef spec5 1) (((cfg5.win 2).blk t).view.emb j)
    refine congrArg _ (funext fun a => Fin.ext ?_)
    match a with
    | ⟨0, _⟩ => show win5_1.index t (0 : Fin 2) * 2000 + 1 * (j 0).val = win5_2.index t (0 : Fin 2) * 2000 + 1 * (j 0).val; omega
    | ⟨1, _⟩ => show win5_1.index t (1 : Fin 2) * 64 + 1 * (j 1).val = win5_2.index t (1 : Fin 2) * 64 + 1 * (j 1).val; omega

/-- An index of the array is in point `t`'s block iff each coordinate is in the block's range on its axis. -/
theorem combine_mem_blk5 (t : Fin cfg5.N) (i : S300000x64.Idx) :
    i ∈ ((cfg5.win 2).blk t).view.set ↔ ∀ a : Fin 2, win5_2.index t a * S2000x64.size a ≤ (i a).val
      ∧ (i a).val < win5_2.index t a * S2000x64.size a + S2000x64.size a := by
  show i ∈ ((View.whole (Pipeline.arrRef spec5 2)).slice (win5_2.rect t)).set ↔ _
  rw [View.set_slice_whole, Rect.mem_set_unit]
  exact Iff.rfl

/-- The 150 points' blocks tile the array: row `r` lies in the block of point `r / 2000`. -/
theorem combine_cover5 (i : S300000x64.Idx) :
    ∃ t : Fin cfg5.N, (cfg5.win 2).flush t = true ∧ i ∈ ((cfg5.win 2).blk t).view.set := by
  have hi0 : (i 0).val < 300000 := (i 0).isLt
  have hi1 : (i 1).val < 64 := (i 1).isLt
  have hN : cfg5.N = 150 := N_5
  have ht : (i 0).val / 2000 < cfg5.N := by rw [hN]; omega
  obtain ⟨e0, e1, e2, e3, e4, e5⟩ := combine_index5 ⟨(i 0).val / 2000, ht⟩
  have e4' : win5_2.index ⟨(i 0).val / 2000, ht⟩ (0 : Fin 2) = (i 0).val / 2000 := e4
  refine ⟨⟨(i 0).val / 2000, ht⟩, flush5_2 _, ?_⟩
  rw [combine_mem_blk5]
  intro a
  match a with
  | ⟨0, _⟩ =>
    show win5_2.index ⟨(i 0).val / 2000, ht⟩ (0 : Fin 2) * 2000 ≤ (i 0).val
      ∧ (i 0).val < win5_2.index ⟨(i 0).val / 2000, ht⟩ (0 : Fin 2) * 2000 + 2000
    omega
  | ⟨1, _⟩ =>
    show win5_2.index ⟨(i 0).val / 2000, ht⟩ (1 : Fin 2) * 64 ≤ (i 1).val
      ∧ (i 1).val < win5_2.index ⟨(i 0).val / 2000, ht⟩ (1 : Fin 2) * 64 + 64
    omega

theorem combine_final5 (c : Dev nD) :
    (combineDat5 (F := Ideal) V c).arrAt 2 cfg5.N
      = Cert.Diffusion.combineArr (V c (Pipeline.arrRef spec5 0)) (V c (Pipeline.arrRef spec5 1)) := by
  exact (combineDat5 (F := Ideal) V c).arrAt_eq_of_cover 2
    (Cert.Diffusion.combineArr (V c (Pipeline.arrRef spec5 0)) (V c (Pipeline.arrRef spec5 1)))
    (fun t _ => combine_flushed5 V c t) combine_cover5

end Cert.KernelIdeal.Diffusion

end
-- ==== Proof.Ideal.CombineValue7.lean ====
/-
  The node update, diffusion step 4 (launch 7 of the program), as ONE function of its operand arrays at the ideal instance:
  after the launch the new-features array holds, at (node `n`, feature `f`), the aggregate times `c₉` plus the input times `c₁`.
  Point `t` writes rows `2000 t …` and the 150 points' row ranges tile the `300000` rows.
-/
import proofs.«173453_j38800734552802_1_alg».proof.Proof.Ideal.Combine7
import proofs.«173453_j38800734552802_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Diffusion

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the buffers' contents when the launch is entered, at the ideal instance
variable (V : (c : Dev nD) → (b : Ref sig .tc) → Buf (Elt Ideal) ((c : Thread nD τ).loc b))

/-- A whole block's rectangle sits at zero offsets. -/
theorem combine_zero7 : (![0, 0] : Fin 2 → Nat) = fun _ => 0 := funext fun a => by fin_cases a <;> rfl

/-- The body's payload at the ideal instance: the first block times `c₉` plus the second times `c₁`, index by index. -/
theorem combine_pay7 (x0 x1 : Vec Ideal S2000x64 .f32) :
    k7_pay1 x0 x1 = fun i => x0 i * Cert.Diffusion.c9 + x1 i * Cert.Diffusion.c1 := by
  unfold k7_pay1
  simp only [shapeCast_self]
  rfl

/-- The printed index maps, decided over the grid: at point `t` every window's block index is `(t, 0)`. -/
theorem combine_index7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0 :=
  (by decide +kernel : ∀ t : Fin grid7.N, _)

/-- The node update at one index, from the two operands there. -/
theorem combine_at7 (A0 A1 : Cert.Diffusion.Feat) (b0 b1 : Vec Ideal S2000x64 .f32) (j : S2000x64.Idx) (i : S300000x64.Idx)
    (h0 : b0 j = A0 i) (h1 : b1 j = A1 i) :
    b0 j * Cert.Diffusion.c9 + b1 j * Cert.Diffusion.c1 = Cert.Diffusion.combineArr A0 A1 i := by
  rw [h0, h1]; rfl

/-- WHAT POINT `t` WRITES BACK is block `t` of the node update of the two operand arrays as the launch finds them. -/
theorem combine_flushed7 (c : Dev nD) (t : Fin cfg7.N) :
    (combineDat7 (F := Ideal) V c).flushed 2 t
      = ((cfg7.win 2).blk t).view.read (Elt Ideal)
          (Cert.Diffusion.combineArr (V c (Pipeline.arrRef spec7 0)) (V c (Pipeline.arrRef spec7 1))) := by
  show (cfg7.win 2).cut (grid7.coords t) ((combineDat7 V c).after 2 t) = _
  rw [combineDat7_after_2]
  unfold combined7
  rw [View.canon_unit_zero combine_zero7]
  simp only [View.ld_unit_zero (S := S2000x64) combine_zero7]
  rw [combine_pay7]
  obtain ⟨e0, e1, e2, e3, e4, e5⟩ := combine_index7 t
  funext j
  refine combine_at7 (V c (Pipeline.arrRef spec7 0)) (V c (Pipeline.arrRef spec7 1)) (blk7 V c 0 t) (blk7 V c 1 t) j
    (((cfg7.win 2).blk t).view.emb j) ?_ ?_
  · show V c (Pipeline.arrRef spec7 0) (((cfg7.win 0).blk t).view.emb j) = V c (Pipeline.arrRef spec7 0) (((cfg7.win 2).blk t).view.emb j)
    refine congrArg _ (funext fun a => Fin.ext ?_)
    match a with
    | ⟨0, _⟩ => show win7_0.index t (0 : Fin 2) * 2000 + 1 * (j 0).val = win7_2.index t (0 : Fin 2) * 2000 + 1 * (j 0).val; omega
    | ⟨1, _⟩ => show win7_0.index t (1 : Fin 2) * 64 + 1 * (j 1).val = win7_2.index t (1 : Fin 2) * 64 + 1 * (j 1).val; omega
  · show V c (Pipeline.arrRef spec7 1) (((cfg7.win 1).blk t).view.emb j) = V c (Pipeline.arrRef spec7 1) (((cfg7.win 2).blk t).view.emb j)
    refine congrArg _ (funext fun a => Fin.ext ?_)
    match a with
    | ⟨0, _⟩ => show win7_1.index t (0 : Fin 2) * 2000 + 1 * (j 0).val = win7_2.index t (0 : Fin 2) * 2000 + 1 * (j 0).val; omega
    | ⟨1, _⟩ => show win7_1.index t (1 : Fin 2) * 64 + 1 * (j 1).val = win7_2.index t (1 : Fin 2) * 64 + 1 * (j 1).val; omega

/-- An index of the array is in point `t`'s block iff each coordinate is in the block's range on its axis. -/
theorem combine_mem_blk7 (t : Fin cfg7.N) (i : S300000x64.Idx) :
    i ∈ ((cfg7.win 2).blk t).view.set ↔ ∀ a : Fin 2, win7_2.index t a * S2000x64.size a ≤ (i a).val
      ∧ (i a).val < win7_2.index t a * S2000x64.size a + S2000x64.size a := by
  show i ∈ ((View.whole (Pipeline.arrRef spec7 2)).slice (win7_2.rect t)).set ↔ _
  rw [View.set_slice_whole, Rect.mem_set_unit]
  exact Iff.rfl

/-- The 150 points' blocks tile the array: row `r` lies in the block of point `r / 2000`. -/
theorem combine_cover7 (i : S300000x64.Idx) :
    ∃ t : Fin cfg7.N, (cfg7.win 2).flush t = true ∧ i ∈ ((cfg7.win 2).blk t).view.set := by
  have hi0 : (i 0).val < 300000 := (i 0).isLt
  have hi1 : (i 1).val < 64 := (i 1).isLt
  have hN : cfg7.N = 150 := N_7
  have ht : (i 0).val / 2000 < cfg7.N := by rw [hN]; omega
  obtain ⟨e0, e1, e2, e3, e4, e5⟩ := combine_index7 ⟨(i 0).val / 2000, ht⟩
  have e4' : win7_2.index ⟨(i 0).val / 2000, ht⟩ (0 : Fin 2) = (i 0).val / 2000 := e4
  refine ⟨⟨(i 0).val / 2000, ht⟩, flush7_2 _, ?_⟩
  rw [combine_mem_blk7]
  intro a
  match a with
  | ⟨0, _⟩ =>
    show win7_2.index ⟨(i 0).val / 2000, ht⟩ (0 : Fin 2) * 2000 ≤ (i 0).val
      ∧ (i 0).val < win7_2.index ⟨(i 0).val / 2000, ht⟩ (0 : Fin 2) * 2000 + 2000
    omega
  | ⟨1, _⟩ =>
    show win7_2.index ⟨(i 0).val / 2000, ht⟩ (1 : Fin 2) * 64 ≤ (i 1).val
      ∧ (i 1).val < win7_2.index ⟨(i 0).val / 2000, ht⟩ (1 : Fin 2) * 64 + 64
    omega

theorem combine_final7 (c : Dev nD) :
    (combineDat7 (F := Ideal) V c).arrAt 2 cfg7.N
      = Cert.Diffusion.combineArr (V c (Pipeline.arrRef spec7 0)) (V c (Pipeline.arrRef spec7 1)) := by
  exact (combineDat7 (F := Ideal) V c).arrAt_eq_of_cover 2
    (Cert.Diffusion.combineArr (V c (Pipeline.arrRef spec7 0)) (V c (Pipeline.arrRef spec7 1)))
    (fun t _ => combine_flushed7 V c t) combine_cover7

end Cert.KernelIdeal.Diffusion

end
-- ==== Proof.Ideal.ReadsHost0.lean ====
/-
  What the first launch is entered with, at the ideal instance: after the program's first host operations the padded edge
  sources, the padded edge targets, the padded weight column and the first messages are the Spec's `srcP`, `dstP`, `wcol`
  and `msgsK` of the three argument arrays. The fifty-one operations are read in six consecutive stretches, each as a
  function of ANY contents it starts from (so that an array several later operations read, the sources, the targets, the
  normalisation, is named once and not recomputed per reader), and the stretches are then composed.
-/
import proofs.«173453_j38800734552802_1_alg».proof.Proof.Ideal.Carry
import proofs.«173453_j38800734552802_1_alg».proof.Proof.Spec
import Idealize.ShloMosaic.Lib.StableHlo.Run

set_option maxRecDepth 16384

noncomputable section

namespace Cert.KernelIdeal.Diffusion

open Cert.KernelIdeal Cert.KernelIdeal.Gen
open Idealize.ShloMosaic Idealize.ShloMosaic.TcCoe Idealize.ShloMosaic.StableHlo
open Idealize.SL Idealize.SL.Sem
open Cert.Diffusion (resultK stepK scaleArr combineArr msgsK aggK wcol srcP dstP wrapP)

variable (m : (ℓ : Loc nD τ sig) → Buf (Elt Ideal) ℓ) (ρ : Dev nD → PrngReg)

/-- A line of operations run from any cut: the rest run from what the first `j` leave. -/
theorem after_drop (ops : List (HloOp τ sig (Elt Ideal))) (V : Valuation τ sig (Elt Ideal)) (j : Nat) :
    StableHlo.after ops V = StableHlo.after (ops.drop j) (StableHlo.after (ops.take j) V) := by
  rw [← StableHlo.after_append, List.take_append_drop]

/-- The first `k` operations run from a cut `j ≤ k`. -/
theorem after_take_cut (ops : List (HloOp τ sig (Elt Ideal))) (V : Valuation τ sig (Elt Ideal)) {j k : Nat} (h : j ≤ k) :
    StableHlo.after (ops.take k) V = StableHlo.after ((ops.take k).drop j) (StableHlo.after (ops.take j) V) := by
  have e : ops.take j = (ops.take k).take j := by rw [List.take_take, Nat.min_eq_left h]
  rw [e, ← StableHlo.after_append, List.take_append_drop]

/-! ## The graph's functions, by the array they read (each Spec function is one of these at the Spec's own arrays) -/

/-- `deg ^ (-1/2)` from the edge targets `d`. -/
def normOf (d : IVec S2300000 32) : FVec Ideal S300000 .f32 :=
  Host.powf (Host.scatterAdd scatter_S300000_S2300000x1_S2300000_n_0_0_1 (broadcastInDim S300000 ![] bcast_S_S300000 (constant S_ .f32 0x00000000#32))
      (broadcastInDim S2300000x1 ![0] bcast_S2300000_S2300000x1_0 d) (broadcastInDim S2300000 ![] bcast_S_S2300000 (constant S_ .f32 0x3F800000#32)))
    (broadcastInDim S300000 ![] bcast_S_S300000 (constant S_ .f32 0xBF000000#32))
theorem norm_eq (a1 a2 : Cert.Diffusion.Ends) : Cert.Diffusion.norm a1 a2 = normOf (Cert.Diffusion.dst a1 a2) := rfl

/-- A per-node vector `n` read at the wrapped edge ends `s`. -/
def takeAt (n : FVec Ideal S300000 .f32) (s : IVec S2300000 32) : FVec Ideal S2300000 .f32 :=
  Host.gather gather_S300000_S2300000x1_S2300000_n_0_n_n_0_1_1 n (broadcastInDim S2300000x1 ![0] bcast_S2300000_S2300000x1_0 (Cert.Diffusion.wrapE s))
theorem wgt_eq (a1 a2 : Cert.Diffusion.Ends) : Cert.Diffusion.wgt a1 a2
    = mulf (takeAt (Cert.Diffusion.norm a1 a2) (Cert.Diffusion.src a1 a2)) (takeAt (Cert.Diffusion.norm a1 a2) (Cert.Diffusion.dst a1 a2)) := rfl

/-- An edge index array with the `10144` zero indices appended. -/
def padIdx (s : IVec S2300000 32) : IVec S2310144 32 :=
  concatenate S2310144 0 [⟨S2300000, s⟩, ⟨S10144, Cert.Diffusion.padI⟩] concatenates_S2300000_S10144_S2310144_d0
theorem srcP_eq (a1 a2 : Cert.Diffusion.Ends) : srcP a1 a2 = padIdx (Cert.Diffusion.src a1 a2) := rfl
theorem dstP_eq (a1 a2 : Cert.Diffusion.Ends) : dstP a1 a2 = padIdx (Cert.Diffusion.dst a1 a2) := rfl

/-- An edge weight array with `10144` zeros appended, as a column. -/
def padCol (w : FVec Ideal S2300000 .f32) : FVec Ideal S2310144x1 .f32 :=
  shapeCast S2310144x1 (concatenate S2310144 0 [⟨S2300000, w⟩, ⟨S10144, broadcastInDim S10144 ![] bcast_S_S10144 (constant S_ .f32 0x00000000#32)⟩]
    concatenates_S2300000_S10144_S2310144_d0) shapeCasts_S2310144_S2310144x1
theorem wcol_eq (a1 a2 : Cert.Diffusion.Ends) : wcol a1 a2 = padCol (Cert.Diffusion.wgt a1 a2) := rfl

/-- The features `h` read at the wrapped padded sources `s`, one row per padded edge. -/
def gatherAt (h : Cert.Diffusion.Feat) (s : IVec S2310144 32) : FVec Ideal S2310144x64 .f32 :=
  Host.gather gather_S300000x64_S2310144x1_S2310144x64_1_0_n_n_0_1_164 h
    (broadcastInDim S2310144x1 ![0] bcast_S2310144_S2310144x1_0 (wrapP s))
theorem msgsK_eq (h : Cert.Diffusion.Feat) (a1 a2 : Cert.Diffusion.Ends) : msgsK h a1 a2 = gatherAt h (srcP a1 a2) := rfl

/-! ## The first host operations, six stretches, each from any contents `W` -/

/-- Operations 1–6: the edge sources … -/
theorem segA_main_v3 (W : Valuation τ sig (Elt Ideal)) :
    StableHlo.after ((hostOps0 (F := Ideal)).take 6) W (Proc.devRef .tc main_v3) = Cert.Diffusion.src (W (Proc.devRef .tc main_arg1)) (W (Proc.devRef .tc main_arg2)) := by
  simp only [hostOps0, List.take_succ_cons, List.take_zero, List.drop_succ_cons, List.drop_zero]
  after_results
  rfl

/-- … and the edge targets. -/
theorem segA_main_v4 (W : Valuation τ sig (Elt Ideal)) :
    StableHlo.after ((hostOps0 (F := Ideal)).take 6) W (Proc.devRef .tc main_v4) = Cert.Diffusion.dst (W (Proc.devRef .tc main_arg1)) (W (Proc.devRef .tc main_arg2)) := by
  simp only [hostOps0, List.take_succ_cons, List.take_zero, List.drop_succ_cons, List.drop_zero]
  after_results
  rfl

theorem segA_main_arg0 (W : Valuation τ sig (Elt Ideal)) :
    StableHlo.after ((hostOps0 (F := Ideal)).take 6) W (Proc.devRef .tc main_arg0) = W (Proc.devRef .tc main_arg0) := by
  simp only [hostOps0, List.take_succ_cons, List.take_zero, List.drop_succ_cons, List.drop_zero]
  after_results

/-- Operations 7–15: the normalisation, from the targets. -/
theorem segB_main_v10 (W : Valuation τ sig (Elt Ideal)) :
    StableHlo.after (((hostOps0 (F := Ideal)).take 15).drop 6) W (Proc.devRef .tc main_v10) = normOf (W (Proc.devRef .tc main_v4)) := by
  simp only [hostOps0, List.take_succ_cons, List.take_zero, List.drop_succ_cons, List.drop_zero]
  after_results
  rfl

theorem segB_main_v3 (W : Valuation τ sig (Elt Ideal)) :
    StableHlo.after (((hostOps0 (F := Ideal)).take 15).drop 6) W (Proc.devRef .tc main_v3) = W (Proc.devRef .tc main_v3) := by
  simp only [hostOps0, List.take_succ_cons, List.take_zero, List.drop_succ_cons, List.drop_zero]
  after_results

theorem segB_main_v4 (W : Valuation τ sig (Elt Ideal)) :
    StableHlo.after (((hostOps0 (F := Ideal)).take 15).drop 6) W (Proc.devRef .tc main_v4) = W (Proc.devRef .tc main_v4) := by
  simp only [hostOps0, List.take_succ_cons, List.take_zero, List.drop_succ_cons, List.drop_zero]
  after_results

theorem segB_main_arg0 (W : Valuation τ sig (Elt Ideal)) :
    StableHlo.after (((hostOps0 (F := Ideal)).take 15).drop 6) W (Proc.devRef .tc main_arg0) = W (Proc.devRef .tc main_arg0) := by
  simp only [hostOps0, List.take_succ_cons, List.take_zero, List.drop_succ_cons, List.drop_zero]
  after_results

/-- Operations 16–24: the normalisation at the sources. -/
theorem segC_main_v17 (W : Valuation τ sig (Elt Ideal)) :
    StableHlo.after (((hostOps0 (F := Ideal)).take 24).drop 15) W (Proc.devRef .tc main_v17) = takeAt (W (Proc.devRef .tc main_v10)) (W (Proc.devRef .tc main_v3)) := by
  simp only [hostOps0, List.take_succ_cons, List.take_zero, List.drop_succ_cons, List.drop_zero]
  after_results
  rfl

theorem segC_main_v3 (W : Valuation τ sig (Elt Ideal)) :
    StableHlo.after (((hostOps0 (F := Ideal)).take 24).drop 15) W (Proc.devRef .tc main_v3) = W (Proc.devRef .tc main_v3) := by
  simp only [hostOps0, List.take_succ_cons, List.take_zero, List.drop_succ_cons, List.drop_zero]
  after_results

theorem segC_main_v4 (W : Valuation τ sig (Elt Ideal)) :
    StableHlo.after (((hostOps0 (F := Ideal)).take 24).drop 15) W (Proc.devRef .tc main_v4) = W (Proc.devRef .tc main_v4) := by
  simp only [hostOps0, List.take_succ_cons, List.take_zero, List.drop_succ_cons, List.drop_zero]
  after_results

theorem segC_main_v10 (W : Valuation τ sig (Elt Ideal)) :
    StableHlo.after (((hostOps0 (F := Ideal)).take 24).drop 15) W (Proc.devRef .tc main_v10) = W (Proc.devRef .tc main_v10) := by
  simp only [hostOps0, List.take_succ_cons, List.take_zero, List.drop_succ_cons, List.drop_zero]
  after_results

theorem segC_main_arg0 (W : Valuation τ sig (Elt Ideal)) :
    StableHlo.after (((hostOps0 (F := Ideal)).take 24).drop 15) W (Proc.devRef .tc main_arg0) = W (Proc.devRef .tc main_arg0) := by
  simp only [hostOps0, List.take_succ_cons, List.take_zero, List.drop_succ_cons, List.drop_zero]
  after_results

/-- Operations 25–34: the weights. -/
theorem segD_main_v25 (W : Valuation τ sig (Elt Ideal)) :
    StableHlo.after (((hostOps0 (F := Ideal)).take 34).drop 24) W (Proc.devRef .tc main_v25) = mulf (W (Proc.devRef .tc main_v17)) (takeAt (W (Proc.devRef .tc main_v10)) (W (Proc.devRef .tc main_v4))) := by
  simp only [hostOps0, List.take_succ_cons, List.take_zero, List.drop_succ_cons, List.drop_zero]
  after_results
  rfl

theorem segD_main_v3 (W : Valuation τ sig (Elt Ideal)) :
    StableHlo.after (((hostOps0 (F := Ideal)).take 34).drop 24) W (Proc.devRef .tc main_v3) = W (Proc.devRef .tc main_v3) := by
  simp only [hostOps0, List.take_succ_cons, List.take_zero, List.drop_succ_cons, List.drop_zero]
  after_results

theorem segD_main_v4 (W : Valuation τ sig (Elt Ideal)) :
    StableHlo.after (((hostOps0 (F := Ideal)).take 34).drop 24) W (Proc.devRef .tc main_v4) = W (Proc.devRef .tc main_v4) := by
  simp only [hostOps0, List.take_succ_cons, List.take_zero, List.drop_succ_cons, List.drop_zero]
  after_results

theorem segD_main_arg0 (W : Valuation τ sig (Elt Ideal)) :
    StableHlo.after (((hostOps0 (F := Ideal)).take 34).drop 24) W (Proc.devRef .tc main_arg0) = W (Proc.devRef .tc main_arg0) := by
  simp only [hostOps0, List.take_succ_cons, List.take_zero, List.drop_succ_cons, List.drop_zero]
  after_results

/-- Operations 35–42: the padded sources, targets and weight column. -/
theorem segE_main_v28 (W : Valuation τ sig (Elt Ideal)) :
    StableHlo.after (((hostOps0 (F := Ideal)).take 42).drop 34) W (Proc.devRef .tc main_v28) = padIdx (W (Proc.devRef .tc main_v3)) := by
  simp only [hostOps0, List.take_succ_cons, List.take_zero, List.drop_succ_cons, List.drop_zero]
  after_results
  rfl

theorem segE_main_v29 (W : Valuation τ sig (Elt Ideal)) :
    StableHlo.after (((hostOps0 (F := Ideal)).take 42).drop 34) W (Proc.devRef .tc main_v29) = padIdx (W (Proc.devRef .tc main_v4)) := by
  simp only [hostOps0, List.take_succ_cons, List.take_zero, List.drop_succ_cons, List.drop_zero]
  after_results
  rfl

theorem segE_main_v31 (W : Valuation τ sig (Elt Ideal)) :
    StableHlo.after (((hostOps0 (F := Ideal)).take 42).drop 34) W (Proc.devRef .tc main_v31) = padCol (W (Proc.devRef .tc main_v25)) := by
  simp only [hostOps0, List.take_succ_cons, List.take_zero, List.drop_succ_cons, List.drop_zero]
  after_results
  rfl

theorem segE_main_arg0 (W : Valuation τ sig (Elt Ideal)) :
    StableHlo.after (((hostOps0 (F := Ideal)).take 42).drop 34) W (Proc.devRef .tc main_arg0) = W (Proc.devRef .tc main_arg0) := by
  simp only [hostOps0, List.take_succ_cons, List.take_zero, List.drop_succ_cons, List.drop_zero]
  after_results

/-- Operations 43–51: the first messages. -/
theorem segF_main_v38 (W : Valuation τ sig (Elt Ideal)) :
    StableHlo.after ((hostOps0 (F := Ideal)).drop 42) W (Proc.devRef .tc main_v38) = gatherAt (W (Proc.devRef .tc main_arg0)) (W (Proc.devRef .tc main_v28)) := by
  simp only [hostOps0, List.take_succ_cons, List.take_zero, List.drop_succ_cons, List.drop_zero]
  after_results
  rfl

theorem segF_main_v28 (W : Valuation τ sig (Elt Ideal)) :
    StableHlo.after ((hostOps0 (F := Ideal)).drop 42) W (Proc.devRef .tc main_v28) = W (Proc.devRef .tc main_v28) := by
  simp only [hostOps0, List.take_succ_cons, List.take_zero, List.drop_succ_cons, List.drop_zero]
  after_results

theorem segF_main_v29 (W : Valuation τ sig (Elt Ideal)) :
    StableHlo.after ((hostOps0 (F := Ideal)).drop 42) W (Proc.devRef .tc main_v29) = W (Proc.devRef .tc main_v29) := by
  simp only [hostOps0, List.take_succ_cons, List.take_zero, List.drop_succ_cons, List.drop_zero]
  after_results

theorem segF_main_v31 (W : Valuation τ sig (Elt Ideal)) :
    StableHlo.after ((hostOps0 (F := Ideal)).drop 42) W (Proc.devRef .tc main_v31) = W (Proc.devRef .tc main_v31) := by
  simp only [hostOps0, List.take_succ_cons, List.take_zero, List.drop_succ_cons, List.drop_zero]
  after_results

/-! ## The first host operations composed: what each prefix leaves, at the three arguments -/

theorem pre6_main_v3 (c : Dev nD) :
    StableHlo.after ((hostOps0 (F := Ideal)).take 6) (start m ρ c) (Proc.devRef .tc main_v3) = Cert.Diffusion.src (m ((c : Thread nD τ).loc main_arg1)) (m ((c : Thread nD τ).loc main_arg2)) := segA_main_v3 (start m ρ c)

theorem pre6_main_v4 (c : Dev nD) :
    StableHlo.after ((hostOps0 (F := Ideal)).take 6) (start m ρ c) (Proc.devRef .tc main_v4) = Cert.Diffusion.dst (m ((c : Thread nD τ).loc main_arg1)) (m ((c : Thread nD τ).loc main_arg2)) := segA_main_v4 (start m ρ c)

theorem pre6_main_arg0 (c : Dev nD) :
    StableHlo.after ((hostOps0 (F := Ideal)).take 6) (start m ρ c) (Proc.devRef .tc main_arg0) = (m ((c : Thread nD τ).loc main_arg0)) := segA_main_arg0 (start m ρ c)

theorem pre15_main_v10 (c : Dev nD) :
    StableHlo.after ((hostOps0 (F := Ideal)).take 15) (start m ρ c) (Proc.devRef .tc main_v10) = Cert.Diffusion.norm (m ((c : Thread nD τ).loc main_arg1)) (m ((c : Thread nD τ).loc main_arg2)) := by
  rw [after_take_cut (hostOps0 (F := Ideal)) (start m ρ c) (show 6 ≤ 15 by decide), segB_main_v10, pre6_main_v4, norm_eq]

theorem pre15_main_v3 (c : Dev nD) :
    StableHlo.after ((hostOps0 (F := Ideal)).take 15) (start m ρ c) (Proc.devRef .tc main_v3) = Cert.Diffusion.src (m ((c : Thread nD τ).loc main_arg1)) (m ((c : Thread nD τ).loc main_arg2)) := by
  rw [after_take_cut (hostOps0 (F := Ideal)) (start m ρ c) (show 6 ≤ 15 by decide), segB_main_v3, pre6_main_v3]

theorem pre15_main_v4 (c : Dev nD) :
    StableHlo.after ((hostOps0 (F := Ideal)).take 15) (start m ρ c) (Proc.devRef .tc main_v4) = Cert.Diffusion.dst (m ((c : Thread nD τ).loc main_arg1)) (m ((c : Thread nD τ).loc main_arg2)) := by
  rw [after_take_cut (hostOps0 (F := Ideal)) (start m ρ c) (show 6 ≤ 15 by decide), segB_main_v4, pre6_main_v4]

theorem pre15_main_arg0 (c : Dev nD) :
    StableHlo.after ((hostOps0 (F := Ideal)).take 15) (start m ρ c) (Proc.devRef .tc main_arg0) = (m ((c : Thread nD τ).loc main_arg0)) := by
  rw [after_take_cut (hostOps0 (F := Ideal)) (start m ρ c) (show 6 ≤ 15 by decide), segB_main_arg0, pre6_main_arg0]

theorem pre24_main_v17 (c : Dev nD) :
    StableHlo.after ((hostOps0 (F := Ideal)).take 24) (start m ρ c) (Proc.devRef .tc main_v17) = takeAt (Cert.Diffusion.norm (m ((c : Thread nD τ).loc main_arg1)) (m ((c : Thread nD τ).loc main_arg2))) (Cert.Diffusion.src (m ((c : Thread nD τ).loc main_arg1)) (m ((c : Thread nD τ).loc main_arg2))) := by
  rw [after_take_cut (hostOps0 (F := Ideal)) (start m ρ c) (show 15 ≤ 24 by decide), segC_main_v17, pre15_main_v10, pre15_main_v3]

theorem pre24_main_v3 (c : Dev nD) :
    StableHlo.after ((hostOps0 (F := Ideal)).take 24) (start m ρ c) (Proc.devRef .tc main_v3) = Cert.Diffusion.src (m ((c : Thread nD τ).loc main_arg1)) (m ((c : Thread nD τ).loc main_arg2)) := by
  rw [after_take_cut (hostOps0 (F := Ideal)) (start m ρ c) (show 15 ≤ 24 by decide), segC_main_v3, pre15_main_v3]

theorem pre24_main_v4 (c : Dev nD) :
    StableHlo.after ((hostOps0 (F := Ideal)).take 24) (start m ρ c) (Proc.devRef .tc main_v4) = Cert.Diffusion.dst (m ((c : Thread nD τ).loc main_arg1)) (m ((c : Thread nD τ).loc main_arg2)) := by
  rw [after_take_cut (hostOps0 (F := Ideal)) (start m ρ c) (show 15 ≤ 24 by decide), segC_main_v4, pre15_main_v4]

theorem pre24_main_v10 (c : Dev nD) :
    StableHlo.after ((hostOps0 (F := Ideal)).take 24) (start m ρ c) (Proc.devRef .tc main_v10) = Cert.Diffusion.norm (m ((c : Thread nD τ).loc main_arg1)) (m ((c : Thread nD τ).loc main_arg2)) := by
  rw [after_take_cut (hostOps0 (F := Ideal)) (start m ρ c) (show 15 ≤ 24 by decide), segC_main_v10, pre15_main_v10]

theorem pre24_main_arg0 (c : Dev nD) :
    StableHlo.after ((hostOps0 (F := Ideal)).take 24) (start m ρ c) (Proc.devRef .tc main_arg0) = (m ((c : Thread nD τ).loc main_arg0)) := by
  rw [after_take_cut (hostOps0 (F := Ideal)) (start m ρ c) (show 15 ≤ 24 by decide), segC_main_arg0, pre15_main_arg0]

theorem pre34_main_v25 (c : Dev nD) :
    StableHlo.after ((hostOps0 (F := Ideal)).take 34) (start m ρ c) (Proc.devRef .tc main_v25) = Cert.Diffusion.wgt (m ((c : Thread nD τ).loc main_arg1)) (m ((c : Thread nD τ).loc main_arg2)) := by
  rw [after_take_cut (hostOps0 (F := Ideal)) (start m ρ c) (show 24 ≤ 34 by decide), segD_main_v25, pre24_main_v17, pre24_main_v10, pre24_main_v4, wgt_eq]

theorem pre34_main_v3 (c : Dev nD) :
    StableHlo.after ((hostOps0 (F := Ideal)).take 34) (start m ρ c) (Proc.devRef .tc main_v3) = Cert.Diffusion.src (m ((c : Thread nD τ).loc main_arg1)) (m ((c : Thread nD τ).loc main_arg2)) := by
  rw [after_take_cut (hostOps0 (F := Ideal)) (start m ρ c) (show 24 ≤ 34 by decide), segD_main_v3, pre24_main_v3]

theorem pre34_main_v4 (c : Dev nD) :
    StableHlo.after ((hostOps0 (F := Ideal)).take 34) (start m ρ c) (Proc.devRef .tc main_v4) = Cert.Diffusion.dst (m ((c : Thread nD τ).loc main_arg1)) (m ((c : Thread nD τ).loc main_arg2)) := by
  rw [after_take_cut (hostOps0 (F := Ideal)) (start m ρ c) (show 24 ≤ 34 by decide), segD_main_v4, pre24_main_v4]

theorem pre34_main_arg0 (c : Dev nD) :
    StableHlo.after ((hostOps0 (F := Ideal)).take 34) (start m ρ c) (Proc.devRef .tc main_arg0) = (m ((c : Thread nD τ).loc main_arg0)) := by
  rw [after_take_cut (hostOps0 (F := Ideal)) (start m ρ c) (show 24 ≤ 34 by decide), segD_main_arg0, pre24_main_arg0]

theorem pre42_main_v28 (c : Dev nD) :
    StableHlo.after ((hostOps0 (F := Ideal)).take 42) (start m ρ c) (Proc.devRef .tc main_v28) = srcP (m ((c : Thread nD τ).loc main_arg1)) (m ((c : Thread nD τ).loc main_arg2)) := by
  rw [after_take_cut (hostOps0 (F := Ideal)) (start m ρ c) (show 34 ≤ 42 by decide), segE_main_v28, pre34_main_v3, srcP_eq]

theorem pre42_main_v29 (c : Dev nD) :
    StableHlo.after ((hostOps0 (F := Ideal)).take 42) (start m ρ c) (Proc.devRef .tc main_v29) = dstP (m ((c : Thread nD τ).loc main_arg1)) (m ((c : Thread nD τ).loc main_arg2)) := by
  rw [after_take_cut (hostOps0 (F := Ideal)) (start m ρ c) (show 34 ≤ 42 by decide), segE_main_v29, pre34_main_v4, dstP_eq]

theorem pre42_main_v31 (c : Dev nD) :
    StableHlo.after ((hostOps0 (F := Ideal)).take 42) (start m ρ c) (Proc.devRef .tc main_v31) = wcol (m ((c : Thread nD τ).loc main_arg1)) (m ((c : Thread nD τ).loc main_arg2)) := by
  rw [after_take_cut (hostOps0 (F := Ideal)) (start m ρ c) (show 34 ≤ 42 by decide), segE_main_v31, pre34_main_v25, wcol_eq]

theorem pre42_main_arg0 (c : Dev nD) :
    StableHlo.after ((hostOps0 (F := Ideal)).take 42) (start m ρ c) (Proc.devRef .tc main_arg0) = (m ((c : Thread nD τ).loc main_arg0)) := by
  rw [after_take_cut (hostOps0 (F := Ideal)) (start m ρ c) (show 34 ≤ 42 by decide), segE_main_arg0, pre34_main_arg0]

/-! ## What the first launch is entered with -/

/-- The padded edge sources. -/
theorem in0_main_v28 (c : Dev nD) : in0 m ρ c (Proc.devRef .tc main_v28) = srcP (m ((c : Thread nD τ).loc main_arg1)) (m ((c : Thread nD τ).loc main_arg2)) := by
  show StableHlo.after (hostOps0 (F := Ideal)) (start m ρ c) (Proc.devRef .tc main_v28) = _
  rw [after_drop (hostOps0 (F := Ideal)) (start m ρ c) 42, segF_main_v28, pre42_main_v28]

/-- The padded edge targets. -/
theorem in0_main_v29 (c : Dev nD) : in0 m ρ c (Proc.devRef .tc main_v29) = dstP (m ((c : Thread nD τ).loc main_arg1)) (m ((c : Thread nD τ).loc main_arg2)) := by
  show StableHlo.after (hostOps0 (F := Ideal)) (start m ρ c) (Proc.devRef .tc main_v29) = _
  rw [after_drop (hostOps0 (F := Ideal)) (start m ρ c) 42, segF_main_v29, pre42_main_v29]

/-- The padded weight column. -/
theorem in0_main_v31 (c : Dev nD) : in0 m ρ c (Proc.devRef .tc main_v31) = wcol (m ((c : Thread nD τ).loc main_arg1)) (m ((c : Thread nD τ).loc main_arg2)) := by
  show StableHlo.after (hostOps0 (F := Ideal)) (start m ρ c) (Proc.devRef .tc main_v31) = _
  rw [after_drop (hostOps0 (F := Ideal)) (start m ρ c) 42, segF_main_v31, pre42_main_v31]

/-- The first messages: the input features at the padded sources. -/
theorem in0_main_v38 (c : Dev nD) : in0 m ρ c (Proc.devRef .tc main_v38) = msgsK (m ((c : Thread nD τ).loc main_arg0)) (m ((c : Thread nD τ).loc main_arg1)) (m ((c : Thread nD τ).loc main_arg2)) := by
  show StableHlo.after (hostOps0 (F := Ideal)) (start m ρ c) (Proc.devRef .tc main_v38) = _
  rw [after_drop (hostOps0 (F := Ideal)) (start m ρ c) 42, segF_main_v38, pre42_main_arg0, pre42_main_v28, msgsK_eq]

end Cert.KernelIdeal.Diffusion

end
-- ==== Proof.Ideal.Reads.lean ====
/-
  What the kernel's program returns, at the ideal instance: its result buffer after the run is the diffusion
  `resultK` of the three argument arrays. The fold of the program's buffers is read stretch by stretch: the first host
  operations build the padded edge arrays, the weight column and the first messages; each scaling launch leaves its
  output array at `scaleArr` of its operands, each aggregation is the host's accumulating scatter over the padded
  targets, each node-update launch leaves `combineArr` of the aggregate and the input features, each later gather reads
  the new features at the padded sources; the last host operations divide by the constant one.
-/
import proofs.«173453_j38800734552802_1_alg».proof.Proof.Ideal.Carry
import proofs.«173453_j38800734552802_1_alg».proof.Proof.Ideal.ScaleValue0
import proofs.«173453_j38800734552802_1_alg».proof.Proof.Ideal.ScaleValue2
import proofs.«173453_j38800734552802_1_alg».proof.Proof.Ideal.ScaleValue4
import proofs.«173453_j38800734552802_1_alg».proof.Proof.Ideal.ScaleValue6
import proofs.«173453_j38800734552802_1_alg».proof.Proof.Ideal.CombineValue1
import proofs.«173453_j38800734552802_1_alg».proof.Proof.Ideal.CombineValue3
import proofs.«173453_j38800734552802_1_alg».proof.Proof.Ideal.CombineValue5
import proofs.«173453_j38800734552802_1_alg».proof.Proof.Ideal.CombineValue7
import proofs.«173453_j38800734552802_1_alg».proof.Proof.Ideal.ReadsHost0
import Idealize.ShloMosaic.Lib.StableHlo.Run

set_option maxRecDepth 16384

noncomputable section

namespace Cert.KernelIdeal.Diffusion

open Cert.KernelIdeal Cert.KernelIdeal.Gen
open Idealize.ShloMosaic Idealize.ShloMosaic.TcCoe Idealize.ShloMosaic.StableHlo
open Idealize.SL Idealize.SL.Sem
open Cert.Diffusion (resultK stepK scaleArr combineArr msgsK aggK wcol srcP dstP wrapP)

variable (m : (ℓ : Loc nD τ sig) → Buf (Elt Ideal) ℓ) (ρ : Dev nD → PrngReg)

/-! ## Diffusion step 1: launches 0 and 1 -/

/-- The scaling launch leaves each message row times its edge's weight. -/
theorem out0_main_v39 (c : Dev nD) : out0 m ρ c (Proc.devRef .tc main_v39) = scaleArr (msgsK (m ((c : Thread nD τ).loc main_arg0)) (m ((c : Thread nD τ).loc main_arg1)) (m ((c : Thread nD τ).loc main_arg2))) (wcol (m ((c : Thread nD τ).loc main_arg1)) (m ((c : Thread nD τ).loc main_arg2))) := by
  refine ((out0_arr m ρ c 2).trans (scale_final0 (ent0 m ρ) c)).trans ?_
  show scaleArr (in0 m ρ c (Proc.devRef .tc main_v38)) (in0 m ρ c (Proc.devRef .tc main_v31)) = _
  rw [in0_main_v38, in0_main_v31]

/-- The aggregation: the accumulating scatter of the scaled messages over the padded targets. -/
theorem in1_main_v42 (c : Dev nD) : in1 m ρ c (Proc.devRef .tc main_v42) = aggK (scaleArr (msgsK (m ((c : Thread nD τ).loc main_arg0)) (m ((c : Thread nD τ).loc main_arg1)) (m ((c : Thread nD τ).loc main_arg2))) (wcol (m ((c : Thread nD τ).loc main_arg1)) (m ((c : Thread nD τ).loc main_arg2)))) (m ((c : Thread nD τ).loc main_arg1)) (m ((c : Thread nD τ).loc main_arg2)) := by
  show StableHlo.after hostOps1 (out0 m ρ c) (Proc.devRef .tc main_v42) = _
  after_results
  rw [from_entry0_main_v29, in0_main_v29, out0_main_v39]
  rfl

/-- The input features are still the argument. -/
theorem in1_main_arg0 (c : Dev nD) : in1 m ρ c (Proc.devRef .tc main_arg0) = (m ((c : Thread nD τ).loc main_arg0)) :=
  (StableHlo.after_of_writes_sub hostOps1 _ hostOps1_writes (by decide)).trans (from_start0_main_arg0 m ρ c)

/-- The node-update launch leaves the step of the previous features. -/
theorem out1_main_v43 (c : Dev nD) : out1 m ρ c (Proc.devRef .tc main_v43) = stepK (m ((c : Thread nD τ).loc main_arg0)) (m ((c : Thread nD τ).loc main_arg1)) (m ((c : Thread nD τ).loc main_arg2)) (m ((c : Thread nD τ).loc main_arg0)) := by
  refine ((out1_arr m ρ c 2).trans (combine_final1 (ent1 m ρ) c)).trans ?_
  show combineArr (in1 m ρ c (Proc.devRef .tc main_v42)) (in1 m ρ c (Proc.devRef .tc main_arg0)) = _
  rw [in1_main_v42, in1_main_arg0]
  rfl

/-! ## Diffusion step 2: launches 2 and 3 -/

/-- The messages: the previous features at the padded sources (the wrap is recomputed from the same padded sources). -/
theorem in2_main_v50 (c : Dev nD) (h : Cert.Diffusion.Feat) (hp : out1 m ρ c (Proc.devRef .tc main_v43) = h) : in2 m ρ c (Proc.devRef .tc main_v50) = msgsK h (m ((c : Thread nD τ).loc main_arg1)) (m ((c : Thread nD τ).loc main_arg2)) := by
  show StableHlo.after hostOps2 (out1 m ρ c) (Proc.devRef .tc main_v50) = _
  after_results
  rw [from_entry1_main_v28, in0_main_v28, hp, msgsK_eq]
  rfl

/-- The weight column is still the first one. -/
theorem in2_main_v31 (c : Dev nD) : in2 m ρ c (Proc.devRef .tc main_v31) = wcol (m ((c : Thread nD τ).loc main_arg1)) (m ((c : Thread nD τ).loc main_arg2)) :=
  (StableHlo.after_of_writes_sub hostOps2 _ hostOps2_writes (by decide)).trans ((from_entry1_main_v31 m ρ c).trans (in0_main_v31 m ρ c))

/-- The scaling launch leaves each message row times its edge's weight. -/
theorem out2_main_v51 (c : Dev nD) (h : Cert.Diffusion.Feat) (hp : out1 m ρ c (Proc.devRef .tc main_v43) = h) : out2 m ρ c (Proc.devRef .tc main_v51) = scaleArr (msgsK h (m ((c : Thread nD τ).loc main_arg1)) (m ((c : Thread nD τ).loc main_arg2))) (wcol (m ((c : Thread nD τ).loc main_arg1)) (m ((c : Thread nD τ).loc main_arg2))) := by
  refine ((out2_arr m ρ c 2).trans (scale_final2 (ent2 m ρ) c)).trans ?_
  show scaleArr (in2 m ρ c (Proc.devRef .tc main_v50)) (in2 m ρ c (Proc.devRef .tc main_v31)) = _
  rw [in2_main_v50 m ρ c h hp, in2_main_v31]

/-- The aggregation: the accumulating scatter of the scaled messages over the padded targets. -/
theorem in3_main_v54 (c : Dev nD) (h : Cert.Diffusion.Feat) (hp : out1 m ρ c (Proc.devRef .tc main_v43) = h) : in3 m ρ c (Proc.devRef .tc main_v54) = aggK (scaleArr (msgsK h (m ((c : Thread nD τ).loc main_arg1)) (m ((c : Thread nD τ).loc main_arg2))) (wcol (m ((c : Thread nD τ).loc main_arg1)) (m ((c : Thread nD τ).loc main_arg2)))) (m ((c : Thread nD τ).loc main_arg1)) (m ((c : Thread nD τ).loc main_arg2)) := by
  show StableHlo.after hostOps3 (out2 m ρ c) (Proc.devRef .tc main_v54) = _
  after_results
  rw [from_entry2_main_v29, in0_main_v29, out2_main_v51 m ρ c h hp]
  rfl

/-- The input features are still the argument. -/
theorem in3_main_arg0 (c : Dev nD) : in3 m ρ c (Proc.devRef .tc main_arg0) = (m ((c : Thread nD τ).loc main_arg0)) :=
  (StableHlo.after_of_writes_sub hostOps3 _ hostOps3_writes (by decide)).trans (from_start2_main_arg0 m ρ c)

/-- The node-update launch leaves the step of the previous features. -/
theorem out3_main_v55 (c : Dev nD) (h : Cert.Diffusion.Feat) (hp : out1 m ρ c (Proc.devRef .tc main_v43) = h) : out3 m ρ c (Proc.devRef .tc main_v55) = stepK (m ((c : Thread nD τ).loc main_arg0)) (m ((c : Thread nD τ).loc main_arg1)) (m ((c : Thread nD τ).loc main_arg2)) h := by
  refine ((out3_arr m ρ c 2).trans (combine_final3 (ent3 m ρ) c)).trans ?_
  show combineArr (in3 m ρ c (Proc.devRef .tc main_v54)) (in3 m ρ c (Proc.devRef .tc main_arg0)) = _
  rw [in3_main_v54 m ρ c h hp, in3_main_arg0]
  rfl

/-! ## Diffusion step 3: launches 4 and 5 -/

/-- The messages: the previous features at the padded sources (the wrap is recomputed from the same padded sources). -/
theorem in4_main_v62 (c : Dev nD) (h : Cert.Diffusion.Feat) (hp : out3 m ρ c (Proc.devRef .tc main_v55) = h) : in4 m ρ c (Proc.devRef .tc main_v62) = msgsK h (m ((c : Thread nD τ).loc main_arg1)) (m ((c : Thread nD τ).loc main_arg2)) := by
  show StableHlo.after hostOps4 (out3 m ρ c) (Proc.devRef .tc main_v62) = _
  after_results
  rw [from_entry3_main_v28, in0_main_v28, hp, msgsK_eq]
  rfl

/-- The weight column is still the first one. -/
theorem in4_main_v31 (c : Dev nD) : in4 m ρ c (Proc.devRef .tc main_v31) = wcol (m ((c : Thread nD τ).loc main_arg1)) (m ((c : Thread nD τ).loc main_arg2)) :=
  (StableHlo.after_of_writes_sub hostOps4 _ hostOps4_writes (by decide)).trans ((from_entry3_main_v31 m ρ c).trans (in0_main_v31 m ρ c))

/-- The scaling launch leaves each message row times its edge's weight. -/
theorem out4_main_v63 (c : Dev nD) (h : Cert.Diffusion.Feat) (hp : out3 m ρ c (Proc.devRef .tc main_v55) = h) : out4 m ρ c (Proc.devRef .tc main_v63) = scaleArr (msgsK h (m ((c : Thread nD τ).loc main_arg1)) (m ((c : Thread nD τ).loc main_arg2))) (wcol (m ((c : Thread nD τ).loc main_arg1)) (m ((c : Thread nD τ).loc main_arg2))) := by
  refine ((out4_arr m ρ c 2).trans (scale_final4 (ent4 m ρ) c)).trans ?_
  show scaleArr (in4 m ρ c (Proc.devRef .tc main_v62)) (in4 m ρ c (Proc.devRef .tc main_v31)) = _
  rw [in4_main_v62 m ρ c h hp, in4_main_v31]

/-- The aggregation: the accumulating scatter of the scaled messages over the padded targets. -/
theorem in5_main_v66 (c : Dev nD) (h : Cert.Diffusion.Feat) (hp : out3 m ρ c (Proc.devRef .tc main_v55) = h) : in5 m ρ c (Proc.devRef .tc main_v66) = aggK (scaleArr (msgsK h (m ((c : Thread nD τ).loc main_arg1)) (m ((c : Thread nD τ).loc main_arg2))) (wcol (m ((c : Thread nD τ).loc main_arg1)) (m ((c : Thread nD τ).loc main_arg2)))) (m ((c : Thread nD τ).loc main_arg1)) (m ((c : Thread nD τ).loc main_arg2)) := by
  show StableHlo.after hostOps5 (out4 m ρ c) (Proc.devRef .tc main_v66) = _
  after_results
  rw [from_entry4_main_v29, in0_main_v29, out4_main_v63 m ρ c h hp]
  rfl

/-- The input features are still the argument. -/
theorem in5_main_arg0 (c : Dev nD) : in5 m ρ c (Proc.devRef .tc main_arg0) = (m ((c : Thread nD τ).loc main_arg0)) :=
  (StableHlo.after_of_writes_sub hostOps5 _ hostOps5_writes (by decide)).trans (from_start4_main_arg0 m ρ c)

/-- The node-update launch leaves the step of the previous features. -/
theorem out5_main_v67 (c : Dev nD) (h : Cert.Diffusion.Feat) (hp : out3 m ρ c (Proc.devRef .tc main_v55) = h) : out5 m ρ c (Proc.devRef .tc main_v67) = stepK (m ((c : Thread nD τ).loc main_arg0)) (m ((c : Thread nD τ).loc main_arg1)) (m ((c : Thread nD τ).loc main_arg2)) h := by
  refine ((out5_arr m ρ c 2).trans (combine_final5 (ent5 m ρ) c)).trans ?_
  show combineArr (in5 m ρ c (Proc.devRef .tc main_v66)) (in5 m ρ c (Proc.devRef .tc main_arg0)) = _
  rw [in5_main_v66 m ρ c h hp, in5_main_arg0]
  rfl

/-! ## Diffusion step 4: launches 6 and 7 -/

/-- The messages: the previous features at the padded sources (the wrap is recomputed from the same padded sources). -/
theorem in6_main_v74 (c : Dev nD) (h : Cert.Diffusion.Feat) (hp : out5 m ρ c (Proc.devRef .tc main_v67) = h) : in6 m ρ c (Proc.devRef .tc main_v74) = msgsK h (m ((c : Thread nD τ).loc main_arg1)) (m ((c : Thread nD τ).loc main_arg2)) := by
  show StableHlo.after hostOps6 (out5 m ρ c) (Proc.devRef .tc main_v74) = _
  after_results
  rw [from_entry5_main_v28, in0_main_v28, hp, msgsK_eq]
  rfl

/-- The weight column is still the first one. -/
theorem in6_main_v31 (c : Dev nD) : in6 m ρ c (Proc.devRef .tc main_v31) = wcol (m ((c : Thread nD τ).loc main_arg1)) (m ((c : Thread nD τ).loc main_arg2)) :=
  (StableHlo.after_of_writes_sub hostOps6 _ hostOps6_writes (by decide)).trans ((from_entry5_main_v31 m ρ c).trans (in0_main_v31 m ρ c))

/-- The scaling launch leaves each message row times its edge's weight. -/
theorem out6_main_v75 (c : Dev nD) (h : Cert.Diffusion.Feat) (hp : out5 m ρ c (Proc.devRef .tc main_v67) = h) : out6 m ρ c (Proc.devRef .tc main_v75) = scaleArr (msgsK h (m ((c : Thread nD τ).loc main_arg1)) (m ((c : Thread nD τ).loc main_arg2))) (wcol (m ((c : Thread nD τ).loc main_arg1)) (m ((c : Thread nD τ).loc main_arg2))) := by
  refine ((out6_arr m ρ c 2).trans (scale_final6 (ent6 m ρ) c)).trans ?_
  show scaleArr (in6 m ρ c (Proc.devRef .tc main_v74)) (in6 m ρ c (Proc.devRef .tc main_v31)) = _
  rw [in6_main_v74 m ρ c h hp, in6_main_v31]

/-- The aggregation: the accumulating scatter of the scaled messages over the padded targets. -/
theorem in7_main_v78 (c : Dev nD) (h : Cert.Diffusion.Feat) (hp : out5 m ρ c (Proc.devRef .tc main_v67) = h) : in7 m ρ c (Proc.devRef .tc main_v78) = aggK (scaleArr (msgsK h (m ((c : Thread nD τ).loc main_arg1)) (m ((c : Thread nD τ).loc main_arg2))) (wcol (m ((c : Thread nD τ).loc main_arg1)) (m ((c : Thread nD τ).loc main_arg2)))) (m ((c : Thread nD τ).loc main_arg1)) (m ((c : Thread nD τ).loc main_arg2)) := by
  show StableHlo.after hostOps7 (out6 m ρ c) (Proc.devRef .tc main_v78) = _
  after_results
  rw [from_entry6_main_v29, in0_main_v29, out6_main_v75 m ρ c h hp]
  rfl

/-- The input features are still the argument. -/
theorem in7_main_arg0 (c : Dev nD) : in7 m ρ c (Proc.devRef .tc main_arg0) = (m ((c : Thread nD τ).loc main_arg0)) :=
  (StableHlo.after_of_writes_sub hostOps7 _ hostOps7_writes (by decide)).trans (from_start6_main_arg0 m ρ c)

/-- The node-update launch leaves the step of the previous features. -/
theorem out7_main_v79 (c : Dev nD) (h : Cert.Diffusion.Feat) (hp : out5 m ρ c (Proc.devRef .tc main_v67) = h) : out7 m ρ c (Proc.devRef .tc main_v79) = stepK (m ((c : Thread nD τ).loc main_arg0)) (m ((c : Thread nD τ).loc main_arg1)) (m ((c : Thread nD τ).loc main_arg2)) h := by
  refine ((out7_arr m ρ c 2).trans (combine_final7 (ent7 m ρ) c)).trans ?_
  show combineArr (in7 m ρ c (Proc.devRef .tc main_v78)) (in7 m ρ c (Proc.devRef .tc main_arg0)) = _
  rw [in7_main_v78 m ρ c h hp, in7_main_arg0]
  rfl

/-! ## The last host operations and the result -/

/-- The result buffer: the last features divided by the constant one. -/
theorem last_main_v81 (c : Dev nD) :
    last (F := Ideal) m ρ c (Proc.devRef .tc main_v81)
      = Host.divf (out7 m ρ c (Proc.devRef .tc main_v79))
          (broadcastInDim S300000x64 ![] bcast_S_S300000x64 (constant (F := Ideal) S_ .f32 0x3F800000#32)) := by
  show StableHlo.after hostOps8 (out7 m ρ c) (Proc.devRef .tc main_v81) = _
  after_results

/-- The result buffer at the end of the fold is the kernel's diffusion of the arguments. -/
theorem last_result (c : Dev nD) :
    last (F := Ideal) m ρ c (Proc.devRef .tc main_v81)
      = resultK (m ((c : Thread nD τ).loc main_arg0)) (m ((c : Thread nD τ).loc main_arg1)) (m ((c : Thread nD τ).loc main_arg2)) := by
  rw [last_main_v81,
    out7_main_v79 m ρ c _ (out5_main_v67 m ρ c _ (out3_main_v55 m ρ c _ (out1_main_v43 m ρ c)))]
  rfl

end Cert.KernelIdeal.Diffusion

end
-- ==== Proof.RefRun.lean ====
/-
  What the reference's program returns, at the ideal instance: the composed term of its run is the diffusion `resultR`
  of the three argument arrays: the same operations in the same order, the graph's arrays (sources, targets, degrees,
  weights) named once.
-/
import proofs.«173453_j38800734552802_1_alg».proof.Proof.Gen.ReferenceIdeal.Run
import proofs.«173453_j38800734552802_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

/-- The reference run's result term is the reference's diffusion of the arguments. -/
theorem res_eq (m : (ℓ : Loc nD τ sig) → Buf (Elt Ideal) ℓ) (c : Dev nD) :
    res_main_v99 (F := Ideal) m c
      = Cert.Diffusion.resultR (m ((c.tc : Thread nD τ).loc main_arg0)) (m ((c.tc : Thread nD τ).loc main_arg1)) (m ((c.tc : Thread nD τ).loc main_arg2)) := by
  unfold res_main_v99 Cert.Diffusion.resultR Cert.Diffusion.stepR Cert.Diffusion.msgsR Cert.Diffusion.wmat Cert.Diffusion.wgt Cert.Diffusion.norm Cert.Diffusion.deg Cert.Diffusion.wrapE Cert.Diffusion.src Cert.Diffusion.dst Cert.Diffusion.items
  rfl

end Cert.ReferenceIdeal.RefValue

end
-- ==== Proof.Pad.Embed.lean ====
/-
  The `E = 2300000` true edges among the `2310144` padded ones: an (edge, feature) index of the reference's message array
  is the same pair among the kernel's; the pairs not reached are those of the `10144` appended edges.
-/
import proofs.«173453_j38800734552802_1_alg».proof.Proof.Spec

noncomputable section

namespace Cert.Diffusion

open Idealize.ShloMosaic Idealize.ShloMosaic.ValueIdx
open Cert.KernelIdeal Cert.KernelIdeal.Facts₀

/-- The same (edge, feature) pair, among the padded edges. -/
def emb (j : Cert.ReferenceIdeal.S2300000x64.Idx) : S2310144x64.Idx :=
  ix2 (⟨(j 0).val, by have := idx2_lt0 j; omega⟩ : Fin 2310144) (⟨(j 1).val, idx2_lt1 j⟩ : Fin 64)

theorem emb_row (j : Cert.ReferenceIdeal.S2300000x64.Idx) : ((emb j) 0).val = (j 0).val := rfl
theorem emb_col (j : Cert.ReferenceIdeal.S2300000x64.Idx) : ((emb j) 1).val = (j 1).val := rfl
/-- Two pairs with the same image have the same two coordinates. -/
theorem emb_injective : Function.Injective emb := by
  intro j j' hjj
  have h0 : (j 0).val = (j' 0).val := by
    have := congrArg (fun t : S2310144x64.Idx => (t 0).val) hjj
    simpa only [emb_row] using this
  have h1 : (j 1).val = (j' 1).val := by
    have := congrArg (fun t : S2310144x64.Idx => (t 1).val) hjj
    simpa only [emb_col] using this
  rw [eq_ix2 j, eq_ix2 j']
  congr 1
  · exact Fin.ext h0
  · exact Fin.ext h1
/-- An index whose edge is a true edge is reached. -/
theorem exists_emb_of_lt (i : S2310144x64.Idx) (hi : (i 0).val < 2300000) : ∃ j, emb j = i := by
  refine ⟨ix2 (⟨(i 0).val, hi⟩ : Fin 2300000) (⟨(i 1).val, idx2_lt1 i⟩ : Fin 64), ?_⟩
  funext a
  match a with
  | ⟨0, _⟩ => exact Fin.ext rfl
  | ⟨1, _⟩ => exact Fin.ext rfl

end Cert.Diffusion

end
-- ==== Proof.Pad.Landing.lean ====
/-
  Where an update lands. The accumulating scatter sends update `(e, f)` to operand element `(dst e, f)` when `dst e`,
  read signed, is a node index, and drops it otherwise; a true edge's target is the same in the padded index array
  (the padding is appended behind it), so the kernel's scatter and the reference's agree on where `(e, f)` lands.
-/
import proofs.«173453_j38800734552802_1_alg».proof.Proof.Spec
import proofs.«173453_j38800734552802_1_alg».proof.Proof.Pad.Embed
import Idealize.ShloMosaic.Lib.Pipeline.Value

noncomputable section

namespace Cert.Diffusion

open Idealize.ShloMosaic Idealize.ShloMosaic.ValueIdx
open Cert.KernelIdeal Cert.KernelIdeal.Facts₀

/-! ## A row scatter: operand `[N, C]`, one scatter index per update row, updates `[E, C]` -/

section Row
variable {N E C : Nat}

/-- The dimension numbers of `x.at[idx].add(u)` for an operand `[N, C]`, scatter indices `[E, 1]` and updates `[E, C]`:
    update row `e` is added to operand row `idx[e, 0]`. -/
abbrev rowDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The scatter-indices index `[e, 0]` of update index `(e, f)`. -/
abbrev rowIdx (j : (⟨2, ![E, C]⟩ : Shape).Idx) : (⟨2, ![E, 1]⟩ : Shape).Idx :=
  ix2 (⟨(j 0).val, idx2_lt0 j⟩ : Fin E) (⟨0, Nat.one_pos⟩ : Fin 1)

variable (wf : ScatterDims.WF ⟨2, ![N, C]⟩ ⟨2, ![E, 1]⟩ ⟨2, ![E, C]⟩ [1] [0] [0] 1) {w : Nat}
  (j : (⟨2, ![E, C]⟩ : Shape).Idx) (idx : IVec ⟨2, ![E, 1]⟩ w)

/-- On the row axis the window starts at the scatter index `idx[e, 0]`, read signed. -/
theorem rowDims_start0 : (rowDims N E C wf).start j idx 0 = (idx (rowIdx j)).toInt := by
  unfold ScatterDims.start
  rw [dif_pos (show (0 : Fin 2) ∈ (rowDims N E C wf).scatterDimsToOperandDims from List.mem_singleton.mpr rfl)]
  have hsi : (rowDims N E C wf).siIdx j ⟨List.idxOf (0 : Fin 2) (rowDims N E C wf).scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

/-- On the feature axis it starts at `0`. -/
theorem rowDims_start1 : (rowDims N E C wf).start j idx 1 = 0 := by
  unfold ScatterDims.start
  rw [dif_neg (show (1 : Fin 2) ∉ ([0] : List (Fin 2)) by decide)]

/-- The row axis is inserted: no window coordinate. -/
theorem rowDims_window0 : (rowDims N E C wf).window j 0 = 0 := by
  unfold ScatterDims.window
  have hk : (rowDims N E C wf).sKept = ([1] : List (Fin 2)) := rfl
  have h0 : (0 : Fin 2) ∉ ([1] : List (Fin 2)) := by decide
  rw [dif_neg (hk ▸ h0)]

/-- The feature axis carries the update's feature coordinate. -/
theorem rowDims_window1 : (rowDims N E C wf).window j 1 = (j 1).val := by
  unfold ScatterDims.window
  have hk : (rowDims N E C wf).sKept = ([1] : List (Fin 2)) := rfl
  have h1 : (1 : Fin 2) ∈ ([1] : List (Fin 2)) := by decide
  rw [dif_pos (hk ▸ h1)]
  rfl

/-- Where update `(e, f)` lands when its row's scatter index reads `t`: at `(t, f)` when `t` is a row of the operand,
    nowhere otherwise. -/
def land (N C : Nat) (t : Int) (f : Fin C) : Option (⟨2, ![N, C]⟩ : Shape).Idx :=
  if h : 0 ≤ t ∧ t < N then some (ix2 (⟨t.toNat, by omega⟩ : Fin N) f) else none

/-- THE ROW SCATTER'S LANDING: update `(e, f)` lands at `(idx[e, 0], f)`. -/
theorem rowDims_resultIdx? : (rowDims N E C wf).resultIdx? j idx
    = land N C (idx (rowIdx j)).toInt (⟨(j 1).val, idx2_lt1 j⟩ : Fin C) := by
  have hs0 := rowDims_start0 wf j idx
  have hs1 := rowDims_start1 wf j idx
  have hw0 := rowDims_window0 (N := N) wf j
  have hw1 := rowDims_window1 (N := N) wf j
  have hj1 := idx2_lt1 j
  unfold ScatterDims.resultIdx? land
  by_cases h : 0 ≤ (idx (rowIdx j)).toInt ∧ (idx (rowIdx j)).toInt < N
  · have hall : ∀ a, 0 ≤ (rowDims N E C wf).start j idx a + (rowDims N E C wf).window j a
        ∧ (rowDims N E C wf).start j idx a + (rowDims N E C wf).window j a < (⟨2, ![N, C]⟩ : Shape).size a := by
      intro a
      match a with
      | ⟨0, _⟩ =>
        show 0 ≤ (rowDims N E C wf).start j idx 0 + (rowDims N E C wf).window j 0
          ∧ (rowDims N E C wf).start j idx 0 + (rowDims N E C wf).window j 0 < (N : Int)
        rw [hs0, hw0]; omega
      | ⟨1, _⟩ =>
        show 0 ≤ (rowDims N E C wf).start j idx 1 + (rowDims N E C wf).window j 1
          ∧ (rowDims N E C wf).start j idx 1 + (rowDims N E C wf).window j 1 < (C : Int)
        rw [hs1, hw1]; omega
    rw [dif_pos hall, dif_pos h]
    congr 1
    funext a
    refine Fin.ext ?_
    match a with
    | ⟨0, _⟩ =>
      show ((rowDims N E C wf).start j idx 0 + (rowDims N E C wf).window j 0).toNat = (idx (rowIdx j)).toInt.toNat
      rw [hs0, hw0]; simp
    | ⟨1, _⟩ =>
      show ((rowDims N E C wf).start j idx 1 + (rowDims N E C wf).window j 1).toNat = (j 1).val
      rw [hs1, hw1]; simp
  · rw [dif_neg h, dif_neg]
    intro hall
    apply h
    have := hall 0
    rw [hs0, hw0] at this
    change _ ∧ _ < (N : Int) at this
    omega

end Row

/-! ## The two scatters of the diffusion -/

/-- The padded target array at a true edge is the target array there (the padding is appended behind it). -/
theorem dstP_true (a1 a2 : Ends) (e : Nat) (he : e < 2300000) :
    dstP a1 a2 (ix1 (⟨e, by omega⟩ : Fin 2310144)) = dst a1 a2 (ix1 (⟨e, he⟩ : Fin 2300000)) := by
  unfold dstP
  refine concatenate_pair_apply_left (t := S2310144) (s₁ := S2300000) (s₂ := S10144) 0 (dst a1 a2) padI
    concatenates_S2300000_S10144_S2310144_d0 _ rfl _ ?_
  intro b
  obtain rfl : b = 0 := Subsingleton.elim _ _
  rfl

/-- The scatter-index column read at `[e, 0]` is the vector at `e`. -/
theorem col_read {n w : Nat} (h : (⟨1, ![n]⟩ : Shape).BroadcastsInDim ⟨2, ![n, 1]⟩ ![0]) (v : IVec ⟨1, ![n]⟩ w)
    (e : Fin n) (z : Fin 1) : broadcastInDim ⟨2, ![n, 1]⟩ ![0] h v (ix2 e z) = v (ix1 e) := by
  refine broadcastInDim_apply _ h v _ _ ?_
  intro a
  obtain rfl : a = 0 := Subsingleton.elim _ _
  show e.val = if n = 1 then 0 else e.val
  split
  · next h1 => have := e.isLt; omega
  · rfl

theorem landing_emb (a1 a2 : Ends) (j : Cert.ReferenceIdeal.S2300000x64.Idx) :
    scatter_S300000x64_S2310144x1_S2310144x64_1_0_0_1.resultIdx? (emb j)
        (broadcastInDim S2310144x1 ![0] bcast_S2310144_S2310144x1_0 (dstP a1 a2))
      = Cert.ReferenceIdeal.scatter_S300000x64_S2300000x1_S2300000x64_1_0_0_1.resultIdx? j
        (broadcastInDim S2300000x1 ![0] bcast_S2300000_S2300000x1_0 (dst a1 a2)) := by
  have hK := rowDims_resultIdx? (N := 300000) (E := 2310144) (C := 64)
    scatter_S300000x64_S2310144x1_S2310144x64_1_0_0_1_wf (emb j)
    (broadcastInDim S2310144x1 ![0] bcast_S2310144_S2310144x1_0 (dstP a1 a2))
  have hR := rowDims_resultIdx? (N := 300000) (E := 2300000) (C := 64)
    Cert.ReferenceIdeal.Facts₀.scatter_S300000x64_S2300000x1_S2300000x64_1_0_0_1_wf j
    (broadcastInDim S2300000x1 ![0] bcast_S2300000_S2300000x1_0 (dst a1 a2))
  refine hK.trans (Eq.trans ?_ hR.symm)
  have hlt := idx2_lt0 j
  have hcol : (⟨((emb j) 1).val, idx2_lt1 (emb j)⟩ : Fin 64) = ⟨(j 1).val, idx2_lt1 j⟩ := Fin.ext (emb_col j)
  have hrow : (⟨((emb j) 0).val, idx2_lt0 (emb j)⟩ : Fin 2310144) = ⟨(j 0).val, by omega⟩ := Fin.ext (emb_row j)
  rw [hcol]
  show land 300000 64 (broadcastInDim S2310144x1 ![0] bcast_S2310144_S2310144x1_0 (dstP a1 a2)
      (ix2 (⟨((emb j) 0).val, idx2_lt0 (emb j)⟩ : Fin 2310144) (⟨0, Nat.one_pos⟩ : Fin 1))).toInt _
    = land 300000 64 (broadcastInDim S2300000x1 ![0] bcast_S2300000_S2300000x1_0 (dst a1 a2)
      (ix2 (⟨(j 0).val, hlt⟩ : Fin 2300000) (⟨0, Nat.one_pos⟩ : Fin 1))).toInt _
  rw [hrow, col_read, col_read, dstP_true a1 a2 (j 0).val hlt]

end Cert.Diffusion

end
-- ==== Proof.Pad.Updates.lean ====
/-
  What an edge contributes. At a true edge the kernel's scaled message (the gathered row of `h` times the padded weight
  column) is the reference's (the gathered row times the weight spread along the features): the padded source array and
  the padded weights read, in front of the padding, what the unpadded ones hold. At an appended edge the weight is the
  zero the padding holds, and a product with `0` is `0` on the extended reals whatever the other factor.
-/
import proofs.«173453_j38800734552802_1_alg».proof.Proof.Spec
import proofs.«173453_j38800734552802_1_alg».proof.Proof.Pad.Embed
import Idealize.ShloMosaic.PureOps.Ideal.Laws
import Idealize.ShloMosaic.Lib.Pipeline.Value

noncomputable section

namespace Cert.Diffusion

open Idealize.ShloMosaic Idealize.ShloMosaic.ValueIdx
open Cert.KernelIdeal Cert.KernelIdeal.Facts₀

/-! The reads below are this file's own vocabulary, kept in their own namespace. -/
namespace Updates

/-! ## A row gather read at an index

The operand is a table of 300000 rows of 64 entries, the start indices one column of `n` words; result element
`(e, f)` is the table at row `idx[e, 0]`, read as a signed integer and clamped into `[0, 299999]`, and column `f`. -/

section RowGather
variable {α : Type}

/-- The dimension numbers of a row gather: offset axis `1`, collapsed axis `0`, start index map `[0]`, index vector
    axis `1`, slices `1 × 64`. -/
abbrev rowDims (n : Nat)
    (wf : GatherDims.WF ⟨2, ![300000, 64]⟩ ⟨2, ![n, 1]⟩ ⟨2, ![n, 64]⟩ [1] [0] [] [0] [] 1 ![1, 64]) :
    GatherDims ⟨2, ![300000, 64]⟩ ⟨2, ![n, 1]⟩ ⟨2, ![n, 64]⟩ where
  offsetDims := [1]
  collapsedSliceDims := [0]
  operandBatchingDims := []
  startIndicesBatchingDims := []
  startIndexMap := [0]
  indexVectorDim := 1
  sliceSizes := ![1, 64]
  wf := wf

/-- The start-indices index `[e, 0]` of result index `(e, f)`. -/
abbrev rowIdx {n : Nat} (y : (⟨2, ![n, 64]⟩ : Shape).Idx) : (⟨2, ![n, 1]⟩ : Shape).Idx :=
  ix2 (⟨(y 0).val, idx2_lt0 y⟩ : Fin n) (⟨0, Nat.one_pos⟩ : Fin 1)

/-- A start index read as a signed integer and clamped into the table's rows `[0, 299999]`. -/
def clampRow {w : Nat} (b : BitVec w) : Fin 300000 := ⟨min b.toInt.toNat 299999, by omega⟩

/-- The row gather at `(e, f)`: the table at the clamped start index `idx[e, 0]` and column `f`. -/
theorem gather_rows_apply {n w : Nat}
    (wf : GatherDims.WF ⟨2, ![300000, 64]⟩ ⟨2, ![n, 1]⟩ ⟨2, ![n, 64]⟩ [1] [0] [] [0] [] 1 ![1, 64])
    (x : (⟨2, ![300000, 64]⟩ : Shape).Idx → α) (idx : IVec ⟨2, ![n, 1]⟩ w) (y : (⟨2, ![n, 64]⟩ : Shape).Idx) :
    Host.gather (rowDims n wf) x idx y
      = x (ix2 (clampRow (idx (rowIdx y))) (⟨(y 1).val, idx2_lt1 y⟩ : Fin 64)) := by
  unfold Host.gather
  congr 1
  funext a
  refine Fin.ext ?_
  match a with
  | ⟨0, _⟩ =>
    show (rowDims n wf).start y idx 0 + (rowDims n wf).batchCoord y 0 + (rowDims n wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims n wf).startIndexMap from List.mem_singleton.mpr rfl)]
    have hsi : (rowDims n wf).siIdx y ⟨List.idxOf (0 : Fin 2) (rowDims n wf).startIndexMap,
        List.idxOf_lt_length_iff.2 (List.mem_singleton.mpr rfl)⟩ = rowIdx y := by
      funext b; refine Fin.ext ?_
      match b with
      | ⟨0, _⟩ => rfl
      | ⟨1, _⟩ => rfl
    rw [hsi]
    rfl
  | ⟨1, _⟩ =>
    show (rowDims n wf).start y idx 1 + (rowDims n wf).batchCoord y 1 + (rowDims n wf).offCoord y 1 = _
    rw [GatherDims.batchCoord_eq_zero _ _ _ List.not_mem_nil]
    have hs : (rowDims n wf).start y idx 1 = 0 := by
      unfold GatherDims.start
      rw [dif_neg (show (1 : Fin 2) ∉ [(0 : Fin 2)] by decide)]
    rw [hs]
    unfold GatherDims.offCoord
    rw [dif_pos ((GatherDims.mem_sKept _ _).mpr ⟨show (1 : Fin 2) ∉ [(0 : Fin 2)] by decide, List.not_mem_nil⟩)]
    have key : ∀ (k : Nat) (hk : k < [(1 : Fin 2)].length), ([(1 : Fin 2)][k]'hk) = 1 := by
      intro k hk
      have : k = 0 := by simpa using hk
      subst this; rfl
    show 0 + 0 + (y ([(1 : Fin 2)][List.idxOf (1 : Fin 2) (rowDims n wf).sKept]'_)).val = (y 1).val
    rw [key]
    simp

end RowGather

/-! ## Broadcasts read at an index -/

section Bcast
variable {α : Type}

/-- A vector as an `[n, 1]` column reads, at `(e, 0)`, the vector at `e`. -/
theorem bcast_col_apply {n : Nat} (h : (⟨1, ![n]⟩ : Shape).BroadcastsInDim ⟨2, ![n, 1]⟩ ![0])
    (v : (⟨1, ![n]⟩ : Shape).Idx → α) (e : Fin n) (z : Fin 1) :
    broadcastInDim ⟨2, ![n, 1]⟩ ![0] h v (ix2 e z) = v (ix1 e) := by
  refine broadcastInDim_apply _ _ _ _ _ (fun a => ?_)
  match a with
  | ⟨0, _⟩ =>
    show e.val = if n = 1 then 0 else e.val
    have := e.isLt
    split <;> omega

/-- An `[n, 1]` column spread along `m` features reads, at `j`, the column at `(j 0, 0)`. -/
theorem bcast_feat_apply {n m : Nat} (h : (⟨2, ![n, 1]⟩ : Shape).BroadcastsInDim ⟨2, ![n, m]⟩ ![0, 1])
    (v : (⟨2, ![n, 1]⟩ : Shape).Idx → α) (j : (⟨2, ![n, m]⟩ : Shape).Idx) :
    broadcastInDim ⟨2, ![n, m]⟩ ![0, 1] h v j = v (ix2 (⟨(j 0).val, idx2_lt0 j⟩ : Fin n) (⟨0, Nat.one_pos⟩ : Fin 1)) := by
  refine broadcastInDim_apply _ _ _ _ _ (fun a => ?_)
  match a with
  | ⟨0, _⟩ =>
    show (j 0).val = if n = 1 then 0 else (j 0).val
    have := idx2_lt0 j
    split <;> omega
  | ⟨1, _⟩ => rfl

/-- A scalar broadcast to any shape reads the scalar. -/
theorem bcast_scalar_apply {t : Shape} (h : (⟨0, ![]⟩ : Shape).BroadcastsInDim t ![]) (v : (⟨0, ![]⟩ : Shape).Idx → α)
    (j : t.Idx) : broadcastInDim t ![] h v j = v ix0 :=
  broadcastInDim_apply _ _ _ _ _ (fun a => a.elim0)

end Bcast

/-! ## The index arrays in front of the padding -/

/-- A negative word counts from the end: the wrap both programs apply to every source index. -/
def wrap1 (b : BitVec 32) : BitVec 32 := Scalar.select (IntOp.cmpi .slt b 0#32) (IntOp.addi b 300000#32) b

/-- The wrap over the edges is the word's wrap at each edge … -/
theorem wrapE_apply (v : IVec S2300000 32) (i : S2300000.Idx) : wrapE v i = wrap1 (v i) := rfl
/-- … and so is the wrap over the padded edges. -/
theorem wrapP_apply (v : IVec S2310144 32) (i : S2310144.Idx) : wrapP v i = wrap1 (v i) := rfl

/-- In front of the padding the padded sources are the sources. -/
theorem srcP_apply_lt (a1 a2 : Ends) (e : Nat) (he : e < 2300000) :
    srcP a1 a2 (ix1 (⟨e, by omega⟩ : Fin 2310144)) = src a1 a2 (ix1 (⟨e, he⟩ : Fin 2300000)) := by
  unfold srcP
  refine concatenate_pair_apply_left (t := S2310144) (s₁ := S2300000) (s₂ := S10144) (0 : Fin 1) _ _ _ _ rfl _ (fun b => ?_)
  match b with
  | ⟨0, _⟩ => rfl

/-! ## The padded weight column -/

/-- The padded weights as a column read, at `(e, 0)`, the padded weight vector at `e`. -/
theorem wcol_apply (a1 a2 : Ends) (e : Nat) (he : e < 2310144) :
    wcol a1 a2 (ix2 (⟨e, he⟩ : Fin 2310144) (⟨0, Nat.one_pos⟩ : Fin 1))
      = concatenate S2310144 0 [⟨S2300000, wgt a1 a2⟩, ⟨S10144, broadcastInDim S10144 ![] bcast_S_S10144 (constant S_ .f32 0x00000000#32)⟩]
          concatenates_S2300000_S10144_S2310144_d0 (ix1 (⟨e, he⟩ : Fin 2310144)) := by
  unfold wcol
  refine shapeCast_apply _ _ _ _ ?_
  rw [Shape.rowMajor_val_one, Shape.rowMajor_val_two]
  show e = e * 1 + 0
  omega

/-- In front of the padding the column holds the weights … -/
theorem wcol_apply_lt (a1 a2 : Ends) (e : Nat) (he : e < 2300000) :
    wcol a1 a2 (ix2 (⟨e, by omega⟩ : Fin 2310144) (⟨0, Nat.one_pos⟩ : Fin 1)) = wgt a1 a2 (ix1 (⟨e, he⟩ : Fin 2300000)) := by
  rw [wcol_apply]
  refine concatenate_pair_apply_left (t := S2310144) (s₁ := S2300000) (s₂ := S10144) (0 : Fin 1) _ _ _ _ rfl _ (fun b => ?_)
  match b with
  | ⟨0, _⟩ => rfl

/-- … and in the padding, zero. -/
theorem wcol_apply_ge (a1 a2 : Ends) (e : Nat) (he : e < 2310144) (hge : 2300000 ≤ e) :
    wcol a1 a2 (ix2 (⟨e, he⟩ : Fin 2310144) (⟨0, Nat.one_pos⟩ : Fin 1)) = 0 := by
  rw [wcol_apply]
  rw [concatenate_pair_apply_right (t := S2310144) (s₁ := S2300000) (s₂ := S10144) (0 : Fin 1) _ _ _ _ rfl rfl (ix1 (⟨e - 2300000, by omega⟩ : Fin 10144))
    (fun b hb => absurd (Subsingleton.elim _ _) hb) (by show e - 2300000 + 2300000 = e; omega)]
  rw [bcast_scalar_apply, constant_apply, Ideal.ofBits_zero_f32]

/-! ## The messages and the spread weights at an index -/

/-- The kernel's messages at `i`: `h` at the wrapped and clamped source of edge `i 0`, feature `i 1`. -/
theorem msgsK_apply (h : Feat) (a1 a2 : Ends) (i : S2310144x64.Idx) :
    msgsK h a1 a2 i
      = h (ix2 (clampRow (wrap1 (srcP a1 a2 (ix1 (⟨(i 0).val, idx2_lt0 i⟩ : Fin 2310144))))) (⟨(i 1).val, idx2_lt1 i⟩ : Fin 64)) := by
  unfold msgsK
  show Host.gather (rowDims 2310144 gather_S300000x64_S2310144x1_S2310144x64_1_0_n_n_0_1_164_wf) h _ i = _
  rw [gather_rows_apply, bcast_col_apply, wrapP_apply]

/-- The reference's messages at `j`: `h` at the wrapped and clamped source of edge `j 0`, feature `j 1`. -/
theorem msgsR_apply (h : Feat) (a1 a2 : Ends) (j : Cert.ReferenceIdeal.S2300000x64.Idx) :
    msgsR h a1 a2 j
      = h (ix2 (clampRow (wrap1 (src a1 a2 (ix1 (⟨(j 0).val, idx2_lt0 j⟩ : Fin 2300000))))) (⟨(j 1).val, idx2_lt1 j⟩ : Fin 64)) := by
  unfold msgsR
  show Host.gather (rowDims 2300000 Cert.ReferenceIdeal.Facts₀.gather_S300000x64_S2300000x1_S2300000x64_1_0_n_n_0_1_164_wf) h _ j = _
  rw [gather_rows_apply, bcast_col_apply, wrapE_apply]

/-- The spread weights at `j`: the weight of edge `j 0`. -/
theorem wmat_apply (a1 a2 : Ends) (j : Cert.ReferenceIdeal.S2300000x64.Idx) :
    wmat a1 a2 j = wgt a1 a2 (ix1 (⟨(j 0).val, idx2_lt0 j⟩ : Fin 2300000)) := by
  unfold wmat
  rw [bcast_feat_apply, bcast_col_apply]

end Updates

open Updates

/-! ## The two statements -/

theorem update_emb (h : Feat) (a1 a2 : Ends) (j : Cert.ReferenceIdeal.S2300000x64.Idx) :
    scaleArr (msgsK h a1 a2) (wcol a1 a2) (emb j) = (mulf (msgsR h a1 a2) (wmat a1 a2)) j := by
  have hj : (j 0).val < 2300000 := idx2_lt0 j
  have e0 : ((emb j) 0).val = (j 0).val := emb_row j
  have e1 : ((emb j) 1).val = (j 1).val := emb_col j
  unfold scaleArr
  rw [mulf_apply, msgsK_apply, msgsR_apply, wmat_apply]
  simp only [e0, e1]
  rw [srcP_apply_lt a1 a2 _ hj, wcol_apply_lt a1 a2 _ hj]

theorem update_pad (h : Feat) (a1 a2 : Ends) (i : S2310144x64.Idx) (hi : 2300000 ≤ (i 0).val) :
    scaleArr (msgsK h a1 a2) (wcol a1 a2) i = 0 := by
  unfold scaleArr
  rw [wcol_apply_ge a1 a2 _ _ hi, mul_zero]

end Cert.Diffusion

end
-- ==== Proof.StepEq.lean ====
/-
  The kernel's step is the reference's. At a node `n` and a feature `f` both are
  `(0 + ∑ of the updates landing on (n, f)) · c₉ + x (n, f) · c₁`; the kernel's sum runs over the padded edges, of which
  the appended ones contribute `0` and the true ones land where, and contribute what, the reference's do.
-/
import proofs.«173453_j38800734552802_1_alg».proof.Proof.Spec
import proofs.«173453_j38800734552802_1_alg».proof.Proof.Pad.Embed
import proofs.«173453_j38800734552802_1_alg».proof.Proof.Pad.Landing
import proofs.«173453_j38800734552802_1_alg».proof.Proof.Pad.Updates

noncomputable section

namespace Cert.Diffusion

open Idealize.ShloMosaic Idealize.ShloMosaic.ValueIdx
open Cert.KernelIdeal Cert.KernelIdeal.Facts₀

/-- An accumulating scatter read at an index: the operand there plus the updates landing there. -/
theorem scatterAdd_apply {s si u : Shape} {w : Nat} (d : ScatterDims s si u) (z : FVec Ideal s .f32) (idx : IVec si w)
    (upd : FVec Ideal u .f32) (i : s.Idx) :
    Host.scatterAdd d z idx upd i = z i + ∑ j ∈ Finset.univ.filter (fun j => d.resultIdx? j idx = some i), upd j := rfl

/-- A constant spread over the node features reads that constant everywhere. -/
theorem bcast_const_apply (w : BitVec 32) (i : S300000x64.Idx) :
    broadcastInDim S300000x64 ![] bcast_S_S300000x64 (constant (F := Ideal) S_ .f32 w) i = Ideal.ofBits .f32 w := rfl

/-- The updates landing on `i`: over the padded edges and over the true edges the sums are equal. The appended edges
    contribute `0`; a true edge's pair is the image under `emb` of exactly one pair of the reference, lands where that
    one lands and contributes what that one contributes. -/
theorem sum_landing_eq (h : Feat) (a1 a2 : Ends) (i : S300000x64.Idx) :
    ∑ j ∈ Finset.univ.filter (fun j => scatter_S300000x64_S2310144x1_S2310144x64_1_0_0_1.resultIdx? j
          (broadcastInDim S2310144x1 ![0] bcast_S2310144_S2310144x1_0 (dstP a1 a2)) = some i),
        scaleArr (msgsK h a1 a2) (wcol a1 a2) j
      = ∑ j ∈ Finset.univ.filter (fun j => Cert.ReferenceIdeal.scatter_S300000x64_S2300000x1_S2300000x64_1_0_0_1.resultIdx? j
          (broadcastInDim S2300000x1 ![0] bcast_S2300000_S2300000x1_0 (dst a1 a2)) = some i),
        (mulf (msgsR h a1 a2) (wmat a1 a2)) j := by
  symm
  refine Finset.sum_bij_ne_zero (fun j _ _ => emb j) ?_ ?_ ?_ ?_
  · intro j hj _
    rw [Finset.mem_filter] at hj ⊢
    exact ⟨Finset.mem_univ _, (landing_emb a1 a2 j).trans hj.2⟩
  · intro j _ _ j' _ _ hjj
    exact emb_injective hjj
  · intro b hb hne
    rw [Finset.mem_filter] at hb
    have hlt : (b 0).val < 2300000 := by
      by_contra hge
      exact hne (update_pad h a1 a2 b (Nat.le_of_not_lt hge))
    obtain ⟨j, rfl⟩ := exists_emb_of_lt b hlt
    refine ⟨j, ?_, ?_, rfl⟩
    · rw [Finset.mem_filter]
      exact ⟨Finset.mem_univ _, (landing_emb a1 a2 j).symm.trans hb.2⟩
    · rw [← update_emb]
      exact hne
  · intro j _ _
    exact (update_emb h a1 a2 j).symm

theorem stepK_eq_stepR (x : Feat) (a1 a2 : Ends) (h : Feat) : stepK x a1 a2 h = stepR x a1 a2 h := by
  funext i
  unfold stepK stepR combineArr aggK
  rw [addf_apply, mulf_apply, mulf_apply, scatterAdd_apply, scatterAdd_apply, sum_landing_eq h a1 a2 i,
    bcast_const_apply, bcast_const_apply, bcast_const_apply]

/-- Four equal steps from the same start, divided by the same constant. -/
theorem resultK_eq_resultR (x : Feat) (a1 a2 : Ends) : resultK x a1 a2 = resultR x a1 a2 := by
  unfold resultK resultR
  simp only [stepK_eq_stepR]

end Cert.Diffusion

end
-- ==== Proof.lean ====
/-
  The certificate: a four-step normalized graph diffusion computed by a Pallas kernel program equals its jnp reference over
  the extended reals.

  Both programs build the same bidirected user–item graph with one loop per node, the same symmetric edge weights
  `deg(src)^(-1/2) · deg(dst)^(-1/2)`, and iterate `h ↦ (A h) · c₉ + x · c₁` four times from `h = x`, where
  `(A h)[n] = ∑ over edges e landing on n of h[src e] · w e` is a gather, a scaling and an accumulating scatter; the
  result is divided by the constant one. The reference does this over the `2300000` edges with host operations. The
  kernel appends `10144` edges of weight `0` from node `0` to node `0`, so that the edge count is a multiple of its
  row tile, does the scaling in one tiled launch (each message row times its weight) and the node update in another
  (aggregate times `c₉` plus input times `c₁`), eight launches in all, with the gathers and the scatters on the host.

  The frames: every launch loads whole blocks and stores one whole block; the program's run is the chain of its nine
  stretches of host operations and its eight launches over the buffers' contents (`run_all`, for any float instance),
  and no stretch or launch changes an argument array. The reference's frame is its generated run.
  The value: at the ideal instance each launch's output array is one function of its operand arrays, the host stretches
  are read as their pure operations, and the kernel's result buffer is `resultK` of the arguments (`last_result`); the
  reference's is `resultR` (`res_eq`); and `resultK = resultR`: an appended edge contributes a product with the
  weight `0`, which is `0` for every extended real, and a true edge lands where, and contributes what, the
  reference's does (`stepK_eq_stepR`). No finiteness is used; the idealization rewrote nothing (`preserves` is `True`).
-/
import proofs.«173453_j38800734552802_1_alg».proof.Defs
import proofs.«173453_j38800734552802_1_alg».proof.Proof.Gen.Kernel
import proofs.«173453_j38800734552802_1_alg».proof.Proof.Gen.KernelIdeal
import proofs.«173453_j38800734552802_1_alg».proof.Proof.Gen.ReferenceIdeal
import proofs.«173453_j38800734552802_1_alg».proof.Proof.Gen.Pre_finite_inputs
import proofs.«173453_j38800734552802_1_alg».proof.Proof.Gen.ReferenceIdeal.Run
import proofs.«173453_j38800734552802_1_alg».proof.Proof.Bits.Run
import proofs.«173453_j38800734552802_1_alg».proof.Proof.Bits.Carry
import proofs.«173453_j38800734552802_1_alg».proof.Proof.Ideal.Run
import proofs.«173453_j38800734552802_1_alg».proof.Proof.Ideal.Carry
import proofs.«173453_j38800734552802_1_alg».proof.Proof.Ideal.Reads
import proofs.«173453_j38800734552802_1_alg».proof.Proof.RefRun
import proofs.«173453_j38800734552802_1_alg».proof.Proof.StepEq
import Idealize.ShloMosaic.Adequacy
import Idealize.ShloMosaic.Init

noncomputable section

namespace Cert.Proof

open Idealize.ShloMosaic Idealize.SL.Sem

/-- The word-level program runs and leaves its arguments: its run to the fold's last contents, read at the arguments. -/
theorem frame_kernel : Cert.frame_Kernel := fun m ρ _ =>
  (θ_run Cert.Kernel.defs _ _).mono (fun r h c =>
    ⟨(h c _ (Cert.Kernel.Diffusion.mem_uc Cert.Kernel.main_arg0 (by decide))).trans (Cert.Kernel.Diffusion.last_main_arg0 m ρ c),
     (h c _ (Cert.Kernel.Diffusion.mem_uc Cert.Kernel.main_arg1 (by decide))).trans (Cert.Kernel.Diffusion.last_main_arg1 m ρ c),
     (h c _ (Cert.Kernel.Diffusion.mem_uc Cert.Kernel.main_arg2 (by decide))).trans (Cert.Kernel.Diffusion.last_main_arg2 m ρ c)⟩)
    (Cert.Kernel.Diffusion.run_all (F := Bits) m ρ)

/-- The same for the idealized program. -/
theorem frame_kernelIdeal : Cert.frame_KernelIdeal := fun m ρ _ =>
  (θ_run Cert.KernelIdeal.defs _ _).mono (fun r h c =>
    ⟨(h c _ (Cert.KernelIdeal.Diffusion.mem_uc Cert.KernelIdeal.main_arg0 (by decide))).trans (Cert.KernelIdeal.Diffusion.last_main_arg0 m ρ c),
     (h c _ (Cert.KernelIdeal.Diffusion.mem_uc Cert.KernelIdeal.main_arg1 (by decide))).trans (Cert.KernelIdeal.Diffusion.last_main_arg1 m ρ c),
     (h c _ (Cert.KernelIdeal.Diffusion.mem_uc Cert.KernelIdeal.main_arg2 (by decide))).trans (Cert.KernelIdeal.Diffusion.last_main_arg2 m ρ c)⟩)
    (Cert.KernelIdeal.Diffusion.run_all (F := Ideal) m ρ)

/-- The reference has no launch: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From agreeing arguments both programs end, with the kernel's result buffer at `resultK` of the arguments and the
    reference's at `resultR` of them: one function. -/
theorem algebraic : Cert.algebraic_KernelIdeal_ReferenceIdeal := by
  intro m ρ m' ρ' _ hagree
  refine ⟨fun c => Cert.Diffusion.resultK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun r h c =>
      ⟨(h c _ (Cert.KernelIdeal.Diffusion.mem_uc Cert.KernelIdeal.main_v81 (by decide))).trans (Cert.KernelIdeal.Diffusion.last_result m ρ c),
       (h c _ (Cert.KernelIdeal.Diffusion.mem_uc Cert.KernelIdeal.main_arg0 (by decide))).trans (Cert.KernelIdeal.Diffusion.last_main_arg0 m ρ c),
       (h c _ (Cert.KernelIdeal.Diffusion.mem_uc Cert.KernelIdeal.main_arg1 (by decide))).trans (Cert.KernelIdeal.Diffusion.last_main_arg1 m ρ c),
       (h c _ (Cert.KernelIdeal.Diffusion.mem_uc Cert.KernelIdeal.main_arg2 (by decide))).trans (Cert.KernelIdeal.Diffusion.last_main_arg2 m ρ c)⟩)
      (Cert.KernelIdeal.Diffusion.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.RefValue.res_eq, (hagree c).1, (hagree c).2.1, (hagree c).2.2]
    exact (Cert.Diffusion.resultK_eq_resultR _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
